-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v13_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S50x1024 : Shape := ⟨2, ![50, 1024]⟩
abbrev S36x2048 : Shape := ⟨2, ![36, 2048]⟩
abbrev S50257x1024 : Shape := ⟨2, ![50257, 1024]⟩
abbrev S50x3072 : Shape := ⟨2, ![50, 3072]⟩
abbrev S50 : Shape := ⟨1, ![50]⟩
abbrev S36x75776 : Shape := ⟨2, ![36, 75776]⟩
abbrev S36 : Shape := ⟨1, ![36]⟩
abbrev S2048x3072 : Shape := ⟨2, ![2048, 3072]⟩
abbrev S2048 : Shape := ⟨1, ![2048]⟩
abbrev S1024x2048 : Shape := ⟨2, ![1024, 2048]⟩
abbrev S1024 : Shape := ⟨1, ![1024]⟩
abbrev S6144x1024 : Shape := ⟨2, ![6144, 1024]⟩
abbrev S6144x2048 : Shape := ⟨2, ![6144, 2048]⟩
abbrev S6144 : Shape := ⟨1, ![6144]⟩
abbrev S50257x2048 : Shape := ⟨2, ![50257, 2048]⟩
abbrev S50257 : Shape := ⟨1, ![50257]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S50x1024 : S_.BroadcastsInDim S50x1024 (![] : Fin 0 → Fin S50x1024.rank)
  reducesTo_S50x1024_S_d0_1 : S50x1024.ReducesTo [0, 1] S_
  bcast_S_S36x2048 : S_.BroadcastsInDim S36x2048 (![] : Fin 0 → Fin S36x2048.rank)
  reducesTo_S36x2048_S_d0_1 : S36x2048.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S50x3072 : S_.BroadcastsInDim S50x3072 (![] : Fin 0 → Fin S50x3072.rank)
  reducesTo_S50x3072_S_d0_1 : S50x3072.ReducesTo [0, 1] S_
  bcast_S_S50 : S_.BroadcastsInDim S50 (![] : Fin 0 → Fin S50.rank)
  reducesTo_S50_S_d0 : S50.ReducesTo [0] S_
  bcast_S_S36x75776 : S_.BroadcastsInDim S36x75776 (![] : Fin 0 → Fin S36x75776.rank)
  reducesTo_S36x75776_S_d0_1 : S36x75776.ReducesTo [0, 1] S_
  bcast_S_S36 : S_.BroadcastsInDim S36 (![] : Fin 0 → Fin S36.rank)
  reducesTo_S36_S_d0 : S36.ReducesTo [0] S_
  bcast_S_S2048x3072 : S_.BroadcastsInDim S2048x3072 (![] : Fin 0 → Fin S2048x3072.rank)
  reducesTo_S2048x3072_S_d0_1 : S2048x3072.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S6144x1024 : S_.BroadcastsInDim S6144x1024 (![] : Fin 0 → Fin S6144x1024.rank)
  reducesTo_S6144x1024_S_d0_1 : S6144x1024.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S50257x2048 : S_.BroadcastsInDim S50257x2048 (![] : Fin 0 → Fin S50257x2048.rank)
  reducesTo_S50257x2048_S_d0_1 : S50257x2048.ReducesTo [0, 1] S_
  bcast_S_S50257 : S_.BroadcastsInDim S50257 (![] : Fin 0 → Fin S50257.rank)
  reducesTo_S50257_S_d0 : S50257.ReducesTo [0] S_

variable [Facts]

def fn_part5 {F : FTy → Type} [FloatOps F] (main_v83 : IVec S_ 1) (main_v84 : FVec F S50257 .f32) (main_cst_32 : FVec F S_ .f32) : IVec S_ 1 :=
  let main_v85 : FVec F S50257 .f32 := broadcastInDim S50257 ![] bcast_S_S50257 main_cst_32
  let main_v86 : IVec S50257 1 := cmpf .olt main_v84 main_v85
  let main_c_33 : IVec S_ 1 := constantI S_ 1 1#1
  let main_v87 : IVec S_ 1 := (fun x v => Host.reduce IntOp.andi x v reducesTo_S50257_S_d0 h_S_) main_v86 main_c_33
  let main_v88 : IVec S_ 1 := andi main_v83 main_v87
  main_v88

def fn_part4 {F : FTy → Type} [FloatOps F] (main_arg15 : FVec F S6144 .f32) (main_arg16 : FVec F S6144 .f32) (main_arg17 : FVec F S50257x2048 .f32) (main_arg18 : FVec F S50257 .f32) (main_v63 : IVec S_ 1) (main_v67 : IVec S_ 1) : IVec S_ 1 :=
  let main_v68 : IVec S_ 1 := andi main_v63 main_v67
  let main_v69 : FVec F S6144 .f32 := Host.absf main_arg15
  let main_cst_26 : FVec F S_ .f32 := constant S_ .f32 0x7F800000#32
  let main_v70 : FVec F S6144 .f32 := broadcastInDim S6144 ![] bcast_S_S6144 main_cst_26
  let main_v71 : IVec S6144 1 := cmpf .olt main_v69 main_v70
  let main_c_27 : IVec S_ 1 := constantI S_ 1 1#1
  let main_v72 : IVec S_ 1 := (fun x v => Host.reduce IntOp.andi x v reducesTo_S6144_S_d0 h_S_) main_v71 main_c_27
  let main_v73 : IVec S_ 1 := andi main_v68 main_v72
  let main_v74 : FVec F S6144 .f32 := Host.absf main_arg16
  let main_cst_28 : FVec F S_ .f32 := constant S_ .f32 0x7F800000#32
  let main_v75 : FVec F S6144 .f32 := broadcastInDim S6144 ![] bcast_S_S6144 main_cst_28
  let main_v76 : IVec S6144 1 := cmpf .olt main_v74 main_v75
  let main_c_29 : IVec S_ 1 := constantI S_ 1 1#1
  let main_v77 : IVec S_ 1 := (fun x v => Host.reduce IntOp.andi x v reducesTo_S6144_S_d0 h_S_) main_v76 main_c_29
  let main_v78 : IVec S_ 1 := andi main_v73 main_v77
  let main_v79 : FVec F S50257x2048 .f32 := Host.absf main_arg17
  let main_cst_30 : FVec F S_ .f32 := constant S_ .f32 0x7F800000#32
  let main_v80 : FVec F S50257x2048 .f32 := broadcastInDim S50257x2048 ![] bcast_S_S50257x2048 main_cst_30
  let main_v81 : IVec S50257x2048 1 := cmpf .olt main_v79 main_v80
  let main_c_31 : IVec S_ 1 := constantI S_ 1 1#1
  let main_v82 : IVec S_ 1 := (fun x v => Host.reduce IntOp.andi x v reducesTo_S50257x2048_S_d0_1 h_S_) main_v81 main_c_31
  let main_v83 : IVec S_ 1 := andi main_v78 main_v82
  let main_v84 : FVec F S50257 .f32 := Host.absf main_arg18
  let main_cst_32 : FVec F S_ .f32 := constant S_ .f32 0x7F800000#32
  fn_part5 (F := F) main_v83 main_v84 main_cst_32

def fn_part3 {F : FTy → Type} [FloatOps F] (main_arg12 : FVec F S1024 .f32) (main_arg13 : FVec F S6144x1024 .f32) (main_arg14 : FVec F S6144x2048 .f32) (main_arg15 : FVec F S6144 .f32) (main_arg16 : FVec F S6144 .f32) (main_arg17 : FVec F S50257x2048 .f32) (main_arg18 : FVec F S50257 .f32) (main_v48 : IVec S_ 1) (main_v49 : FVec F S1024x2048 .f32) (main_v50 : FVec F S1024x2048 .f32) : IVec S_ 1 :=
  let main_v51 : IVec S1024x2048 1 := cmpf .olt main_v49 main_v50
  let main_c_19 : IVec S_ 1 := constantI S_ 1 1#1
  let main_v52 : IVec S_ 1 := (fun x v => Host.reduce IntOp.andi x v reducesTo_S1024x2048_S_d0_1 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S6144x1024 .f32 := Host.absf main_arg13
  let main_cst_22 : FVec F S_ .f32 := constant S_ .f32 0x7F800000#32
  let main_v60 : FVec F S6144x1024 .f32 := broadcastInDim S6144x1024 ![] bcast_S_S6144x1024 main_cst_22
  let main_v61 : IVec S6144x1024 1 := cmpf .olt main_v59 main_v60
  let main_c_23 : IVec S_ 1 := constantI S_ 1 1#1
  let main_v62 : IVec S_ 1 := (fun x v => Host.reduce IntOp.andi x v reducesTo_S6144x1024_S_d0_1 h_S_) main_v61 main_c_23
  let main_v63 : IVec S_ 1 := andi main_v58 main_v62
  let main_v64 : FVec F S6144x2048 .f32 := Host.absf main_arg14
  let main_cst_24 : FVec F S_ .f32 := constant S_ .f32 0x7F800000#32
  let main_v65 : FVec F S6144x2048 .f32 := broadcastInDim S6144x2048 ![] bcast_S_S6144x2048 main_cst_24
  let main_v66 : IVec S6144x2048 1 := cmpf .olt main_v64 main_v65
  let main_c_25 : IVec S_ 1 := constantI S_ 1 1#1
  let main_v67 : IVec S_ 1 := (fun x v => Host.reduce IntOp.andi x v reducesTo_S6144x2048_S_d0_1 h_S_) main_v66 main_c_25
  fn_part4 (F := F) main_arg15 main_arg16 main_arg17 main_arg18 main_v63 main_v67

def fn_part2 {F : FTy → Type} [FloatOps F] (main_arg8 : FVec F S36 .f32) (main_arg9 : FVec F S2048x3072 .f32) (main_arg10 : FVec F S2048 .f32) (main_arg11 : FVec F S1024x2048 .f32) (main_arg12 : FVec F S1024 .f32) (main_arg13 : FVec F S6144x1024 .f32) (main_arg14 : FVec F S6144x2048 .f32) (main_arg15 : FVec F S6144 .f32) (main_arg16 : FVec F S6144 .f32) (main_arg17 : FVec F S50257x2048 .f32) (main_arg18 : FVec F S50257 .f32) (main_v33 : IVec S_ 1) : IVec S_ 1 :=
  let main_v34 : FVec F S36 .f32 := Host.absf main_arg8
  let main_cst_12 : FVec F S_ .f32 := constant S_ .f32 0x7F800000#32
  let main_v35 : FVec F S36 .f32 := broadcastInDim S36 ![] bcast_S_S36 main_cst_12
  let main_v36 : IVec S36 1 := cmpf .olt main_v34 main_v35
  let main_c_13 : IVec S_ 1 := constantI S_ 1 1#1
  let main_v37 : IVec S_ 1 := (fun x v => Host.reduce IntOp.andi x v reducesTo_S36_S_d0 h_S_) main_v36 main_c_13
  let main_v38 : IVec S_ 1 := andi main_v33 main_v37
  let main_v39 : FVec F S2048x3072 .f32 := Host.absf main_arg9
  let main_cst_14 : FVec F S_ .f32 := constant S_ .f32 0x7F800000#32
  let main_v40 : FVec F S2048x3072 .f32 := broadcastInDim S2048x3072 ![] bcast_S_S2048x3072 main_cst_14
  let main_v41 : IVec S2048x3072 1 := cmpf .olt main_v39 main_v40
  let main_c_15 : IVec S_ 1 := constantI S_ 1 1#1
  let main_v42 : IVec S_ 1 := (fun x v => Host.reduce IntOp.andi x v reducesTo_S2048x3072_S_d0_1 h_S_) main_v41 main_c_15
  let main_v43 : IVec S_ 1 := andi main_v38 main_v42
  let main_v44 : FVec F S2048 .f32 := Host.absf main_arg10
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S1024x2048 .f32 := Host.absf main_arg11
  let main_cst_18 : FVec F S_ .f32 := constant S_ .f32 0x7F800000#32
  let main_v50 : FVec F S1024x2048 .f32 := broadcastInDim S1024x2048 ![] bcast_S_S1024x2048 main_cst_18
  fn_part3 (F := F) main_arg12 main_arg13 main_arg14 main_arg15 main_arg16 main_arg17 main_arg18 main_v48 main_v49 main_v50

def fn_part1 {F : FTy → Type} [FloatOps F] (main_arg5 : FVec F S50x3072 .f32) (main_arg6 : FVec F S50 .f32) (main_arg7 : FVec F S36x75776 .f32) (main_arg8 : FVec F S36 .f32) (main_arg9 : FVec F S2048x3072 .f32) (main_arg10 : FVec F S2048 .f32) (main_arg11 : FVec F S1024x2048 .f32) (main_arg12 : FVec F S1024 .f32) (main_arg13 : FVec F S6144x1024 .f32) (main_arg14 : FVec F S6144x2048 .f32) (main_arg15 : FVec F S6144 .f32) (main_arg16 : FVec F S6144 .f32) (main_arg17 : FVec F S50257x2048 .f32) (main_arg18 : FVec F S50257 .f32) (main_v13 : IVec S_ 1) (main_v16 : IVec S50257x1024 1) : IVec S_ 1 :=
  let main_c_5 : IVec S_ 1 := constantI S_ 1 1#1
  let main_v17 : IVec S_ 1 := (fun x v => Host.reduce IntOp.andi x v reducesTo_S50257x1024_S_d0_1 h_S_) main_v16 main_c_5
  let main_v18 : IVec S_ 1 := andi main_v13 main_v17
  let main_v19 : FVec F S50x3072 .f32 := Host.absf main_arg5
  let main_cst_6 : FVec F S_ .f32 := constant S_ .f32 0x7F800000#32
  let main_v20 : FVec F S50x3072 .f32 := broadcastInDim S50x3072 ![] bcast_S_S50x3072 main_cst_6
  let main_v21 : IVec S50x3072 1 := cmpf .olt main_v19 main_v20
  let main_c_7 : IVec S_ 1 := constantI S_ 1 1#1
  let main_v22 : IVec S_ 1 := (fun x v => Host.reduce IntOp.andi x v reducesTo_S50x3072_S_d0_1 h_S_) main_v21 main_c_7
  let main_v23 : IVec S_ 1 := andi main_v18 main_v22
  let main_v24 : FVec F S50 .f32 := Host.absf main_arg6
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S36x75776 .f32 := Host.absf main_arg7
  let main_cst_10 : FVec F S_ .f32 := constant S_ .f32 0x7F800000#32
  let main_v30 : FVec F S36x75776 .f32 := broadcastInDim S36x75776 ![] bcast_S_S36x75776 main_cst_10
  let main_v31 : IVec S36x75776 1 := cmpf .olt main_v29 main_v30
  let main_c_11 : IVec S_ 1 := constantI S_ 1 1#1
  let main_v32 : IVec S_ 1 := (fun x v => Host.reduce IntOp.andi x v reducesTo_S36x75776_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : IVec S1 32) (main_arg1 : FVec F S1x1x2048 .f32) (main_arg2 : FVec F S50x1024 .f32) (main_arg3 : FVec F S36x2048 .f32) (main_arg4 : FVec F S50257x1024 .f32) (main_arg5 : FVec F S50x3072 .f32) (main_arg6 : FVec F S50 .f32) (main_arg7 : FVec F S36x75776 .f32) (main_arg8 : FVec F S36 .f32) (main_arg9 : FVec F S2048x3072 .f32) (main_arg10 : FVec F S2048 .f32) (main_arg11 : FVec F S1024x2048 .f32) (main_arg12 : FVec F S1024 .f32) (main_arg13 : FVec F S6144x1024 .f32) (main_arg14 : FVec F S6144x2048 .f32) (main_arg15 : FVec F S6144 .f32) (main_arg16 : FVec F S6144 .f32) (main_arg17 : FVec F S50257x2048 .f32) (main_arg18 : FVec F S50257 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S50x1024 .f32 := Host.absf main_arg2
  let main_cst_0 : FVec F S_ .f32 := constant S_ .f32 0x7F800000#32
  let main_v5 : FVec F S50x1024 .f32 := broadcastInDim S50x1024 ![] bcast_S_S50x1024 main_cst_0
  let main_v6 : IVec S50x1024 1 := cmpf .olt main_v4 main_v5
  let main_c_1 : IVec S_ 1 := constantI S_ 1 1#1
  let main_v7 : IVec S_ 1 := (fun x v => Host.reduce IntOp.andi x v reducesTo_S50x1024_S_d0_1 h_S_) main_v6 main_c_1
  let main_v8 : IVec S_ 1 := andi main_v3 main_v7
  let main_v9 : FVec F S36x2048 .f32 := Host.absf main_arg3
  let main_cst_2 : FVec F S_ .f32 := constant S_ .f32 0x7F800000#32
  let main_v10 : FVec F S36x2048 .f32 := broadcastInDim S36x2048 ![] bcast_S_S36x2048 main_cst_2
  let main_v11 : IVec S36x2048 1 := cmpf .olt main_v9 main_v10
  let main_c_3 : IVec S_ 1 := constantI S_ 1 1#1
  let main_v12 : IVec S_ 1 := (fun x v => Host.reduce IntOp.andi x v reducesTo_S36x2048_S_d0_1 h_S_) main_v11 main_c_3
  let main_v13 : IVec S_ 1 := andi main_v8 main_v12
  let main_v14 : FVec F S50257x1024 .f32 := Host.absf main_arg4
  let main_cst_4 : FVec F S_ .f32 := constant S_ .f32 0x7F800000#32
  let main_v15 : FVec F S50257x1024 .f32 := broadcastInDim S50257x1024 ![] bcast_S_S50257x1024 main_cst_4
  let main_v16 : IVec S50257x1024 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S1 : Shape := ⟨1, ![1]⟩
abbrev S1x1x2048 : Shape := ⟨3, ![1, 1, 2048]⟩
abbrev S50x1024 : Shape := ⟨2, ![50, 1024]⟩
abbrev S36x2048 : Shape := ⟨2, ![36, 2048]⟩
abbrev S50257x1024 : Shape := ⟨2, ![50257, 1024]⟩
abbrev S50x3072 : Shape := ⟨2, ![50, 3072]⟩
abbrev S50 : Shape := ⟨1, ![50]⟩
abbrev S36x75776 : Shape := ⟨2, ![36, 75776]⟩
abbrev S36 : Shape := ⟨1, ![36]⟩
abbrev S2048x3072 : Shape := ⟨2, ![2048, 3072]⟩
abbrev S2048 : Shape := ⟨1, ![2048]⟩
abbrev S1024x2048 : Shape := ⟨2, ![1024, 2048]⟩
abbrev S1024 : Shape := ⟨1, ![1024]⟩
abbrev S6144x1024 : Shape := ⟨2, ![6144, 1024]⟩
abbrev S6144x2048 : Shape := ⟨2, ![6144, 2048]⟩
abbrev S6144 : Shape := ⟨1, ![6144]⟩
abbrev S50257x2048 : Shape := ⟨2, ![50257, 2048]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S1x3072 : Shape := ⟨2, ![1, 3072]⟩
abbrev S1x73728 : Shape := ⟨2, ![1, 73728]⟩
abbrev S1x75776 : Shape := ⟨2, ![1, 75776]⟩
abbrev S1x50 : Shape := ⟨2, ![1, 50]⟩
abbrev S1x36 : Shape := ⟨2, ![1, 36]⟩
abbrev S1x1024x2 : Shape := ⟨3, ![1, 1024, 2]⟩
abbrev S256x3072 : Shape := ⟨2, ![256, 3072]⟩
abbrev S1x256 : Shape := ⟨2, ![1, 256]⟩
abbrev S128x2048 : Shape := ⟨2, ![128, 2048]⟩
abbrev S1x128 : Shape := ⟨2, ![1, 128]⟩
abbrev S1x6144 : Shape := ⟨2, ![1, 6144]⟩
abbrev S768x1024 : Shape := ⟨2, ![768, 1024]⟩
abbrev S1x768 : Shape := ⟨2, ![1, 768]⟩
abbrev S768x2048 : Shape := ⟨2, ![768, 2048]⟩
abbrev S1x50257 : Shape := ⟨2, ![1, 50257]⟩
abbrev S2048x2048 : Shape := ⟨2, ![2048, 2048]⟩

abbrev nBuf : Space → Nat
  | .hbm => 105
  | .vmem => 47
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S50x1024, .f32⟩
  | .hbm, ⟨3, _⟩ => ⟨S36x2048, .f32⟩
  | .hbm, ⟨4, _⟩ => ⟨S50257x1024, .f32⟩
  | .hbm, ⟨5, _⟩ => ⟨S50x3072, .f32⟩
  | .hbm, ⟨6, _⟩ => ⟨S50, .f32⟩
  | .hbm, ⟨7, _⟩ => ⟨S36x75776, .f32⟩
  | .hbm, ⟨8, _⟩ => ⟨S36, .f32⟩
  | .hbm, ⟨9, _⟩ => ⟨S2048x3072, .f32⟩
  | .hbm, ⟨10, _⟩ => ⟨S2048, .f32⟩
  | .hbm, ⟨11, _⟩ => ⟨S1024x2048, .f32⟩
  | .hbm, ⟨12, _⟩ => ⟨S1024, .f32⟩
  | .hbm, ⟨13, _⟩ => ⟨S6144x1024, .f32⟩
  | .hbm, ⟨14, _⟩ => ⟨S6144x2048, .f32⟩
  | .hbm, ⟨15, _⟩ => ⟨S6144, .f32⟩
  | .hbm, ⟨16, _⟩ => ⟨S6144, .f32⟩
  | .hbm, ⟨17, _⟩ => ⟨S50257x2048, .f32⟩
  | .hbm, ⟨18, _⟩ => ⟨S50257, .f32⟩
  | .hbm, ⟨19, _⟩ => ⟨S_, .i32⟩
  | .hbm, ⟨20, _⟩ => ⟨S1, .i32⟩
  | .hbm, ⟨21, _⟩ => ⟨S1, .i1⟩
  | .hbm, ⟨22, _⟩ => ⟨S_, .i32⟩
  | .hbm, ⟨23, _⟩ => ⟨S1, .i32⟩
  | .hbm, ⟨24, _⟩ => ⟨S1, .i32⟩
  | .hbm, ⟨25, _⟩ => ⟨S1, .i32⟩
  | .hbm, ⟨26, _⟩ => ⟨S1x1, .i32⟩
  | .hbm, ⟨27, _⟩ => ⟨S1x1024, .f32⟩
  | .hbm, ⟨28, _⟩ => ⟨S1x2048, .f32⟩
  | .hbm, ⟨29, _⟩ => ⟨S1x3072, .f32⟩
  | .hbm, ⟨30, _⟩ => ⟨S1x73728, .f32⟩
  | .hbm, ⟨31, _⟩ => ⟨S1x75776, .f32⟩
  | .hbm, ⟨32, _⟩ => ⟨S1x50, .f32⟩
  | .hbm, ⟨33, _⟩ => ⟨S1x36, .f32⟩
  | .hbm, ⟨34, _⟩ => ⟨S1x50, .f32⟩
  | .hbm, ⟨35, _⟩ => ⟨S1x1024, .f32⟩
  | .hbm, ⟨36, _⟩ => ⟨S1x36, .f32⟩
  | .hbm, ⟨37, _⟩ => ⟨S1x2048, .f32⟩
  | .hbm, ⟨38, _⟩ => ⟨S1x1024x2, .f32⟩
  | .hbm, ⟨39, _⟩ => ⟨S_, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S1x3072, .f32⟩
  | .hbm, ⟨45, _⟩ => ⟨S1x2048, .f32⟩
  | .hbm, ⟨46, _⟩ => ⟨S1x2048, .f32⟩
  | .hbm, ⟨47, _⟩ => ⟨S1x1024, .f32⟩
  | .hbm, ⟨48, _⟩ => ⟨S1x2048, .f32⟩
  | .hbm, ⟨49, _⟩ => ⟨S1x1024, .f32⟩
  | .hbm, ⟨50, _⟩ => ⟨S1x6144, .f32⟩
  | .hbm, ⟨51, _⟩ => ⟨S1x6144, .f32⟩
  | .hbm, ⟨52, _⟩ => ⟨S1x6144, .f32⟩
  | .hbm, ⟨53, _⟩ => ⟨S1x6144, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S_, .f32⟩
  | .hbm, ⟨60, _⟩ => ⟨S1x2048, .f32⟩
  | .hbm, ⟨61, _⟩ => ⟨S1x2048, .f32⟩
  | .hbm, ⟨62, _⟩ => ⟨S_, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S_, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S1x50257, .f32⟩
  | .hbm, ⟨88, _⟩ => ⟨S1x50257, .f32⟩
  | .hbm, ⟨89, _⟩ => ⟨S_, .f32⟩
  | .hbm, ⟨90, _⟩ => ⟨S1, .f32⟩
  | .hbm, ⟨91, _⟩ => ⟨S_, .f32⟩
  | .hbm, ⟨92, _⟩ => ⟨S1, .f32⟩
  | .hbm, ⟨93, _⟩ => ⟨S1, .f32⟩
  | .hbm, ⟨94, _⟩ => ⟨S1x1, .f32⟩
  | .hbm, ⟨95, _⟩ => ⟨S1x50257, .f32⟩
  | .hbm, ⟨96, _⟩ => ⟨S1x50257, .f32⟩
  | .hbm, ⟨97, _⟩ => ⟨S1x50257, .f32⟩
  | .hbm, ⟨98, _⟩ => ⟨S_, .f32⟩
  | .hbm, ⟨99, _⟩ => ⟨S1, .f32⟩
  | .hbm, ⟨100, _⟩ => ⟨S1x1, .f32⟩
  | .hbm, ⟨101, _⟩ => ⟨S1x1, .f32⟩
  | .hbm, ⟨102, _⟩ => ⟨S1x50257, .f32⟩
  | .hbm, ⟨103, _⟩ => ⟨S1x50257, .f32⟩
  | .hbm, ⟨104, _⟩ => ⟨S1x1x2048, .f32⟩
  | .local _ .vmem, ⟨0, _⟩ => ⟨S1x3072, .f32⟩
  | .local _ .vmem, ⟨1, _⟩ => ⟨S50x3072, .f32⟩
  | .local _ .vmem, ⟨2, _⟩ => ⟨S1x50, .f32⟩
  | .local _ .vmem, ⟨3, _⟩ => ⟨S50x1024, .f32⟩
  | .local _ .vmem, ⟨4, _⟩ => ⟨S1x75776, .f32⟩
  | .local _ .vmem, ⟨5, _⟩ => ⟨S36x75776, .f32⟩
  | .local _ .vmem, ⟨6, _⟩ => ⟨S1x36, .f32⟩
  | .local _ .vmem, ⟨7, _⟩ => ⟨S36x2048, .f32⟩
  | .local _ .vmem, ⟨8, _⟩ => ⟨S1x50, .f32⟩
  | .local _ .vmem, ⟨9, _⟩ => ⟨S1x1024, .f32⟩
  | .local _ .vmem, ⟨10, _⟩ => ⟨S1x36, .f32⟩
  | .local _ .vmem, ⟨11, _⟩ => ⟨S1x2048, .f32⟩
  | .local _ .vmem, ⟨12, _⟩ => ⟨S1x3072, .f32⟩
  | .local _ .vmem, ⟨13, _⟩ => ⟨S256x3072, .f32⟩
  | .local _ .vmem, ⟨14, _⟩ => ⟨S256x3072, .f32⟩
  | .local _ .vmem, ⟨15, _⟩ => ⟨S1x256, .f32⟩
  | .local _ .vmem, ⟨16, _⟩ => ⟨S1x256, .f32⟩
  | .local _ .vmem, ⟨17, _⟩ => ⟨S1x2048, .f32⟩
  | .local _ .vmem, ⟨18, _⟩ => ⟨S128x2048, .f32⟩
  | .local _ .vmem, ⟨19, _⟩ => ⟨S128x2048, .f32⟩
  | .local _ .vmem, ⟨20, _⟩ => ⟨S1x128, .f32⟩
  | .local _ .vmem, ⟨21, _⟩ => ⟨S1x128, .f32⟩
  | .local _ .vmem, ⟨22, _⟩ => ⟨S1x256, .f32⟩
  | .local _ .vmem, ⟨23, _⟩ => ⟨S1x256, .f32⟩
  | .local _ .vmem, ⟨24, _⟩ => ⟨S1x128, .f32⟩
  | .local _ .vmem, ⟨25, _⟩ => ⟨S1x128, .f32⟩
  | .local _ .vmem, ⟨26, _⟩ => ⟨S1x1024, .f32⟩
  | .local _ .vmem, ⟨27, _⟩ => ⟨S768x1024, .f32⟩
  | .local _ .vmem, ⟨28, _⟩ => ⟨S768x1024, .f32⟩
  | .local _ .vmem, ⟨29, _⟩ => ⟨S1x768, .f32⟩
  | .local _ .vmem, ⟨30, _⟩ => ⟨S1x768, .f32⟩
  | .local _ .vmem, ⟨31, _⟩ => ⟨S1x2048, .f32⟩
  | .local _ .vmem, ⟨32, _⟩ => ⟨S768x2048, .f32⟩
  | .local _ .vmem, ⟨33, _⟩ => ⟨S768x2048, .f32⟩
  | .local _ .vmem, ⟨34, _⟩ => ⟨S1x768, .f32⟩
  | .local _ .vmem, ⟨35, _⟩ => ⟨S1x768, .f32⟩
  | .local _ .vmem, ⟨36, _⟩ => ⟨S1x768, .f32⟩
  | .local _ .vmem, ⟨37, _⟩ => ⟨S1x768, .f32⟩
  | .local _ .vmem, ⟨38, _⟩ => ⟨S1x768, .f32⟩
  | .local _ .vmem, ⟨39, _⟩ => ⟨S1x768, .f32⟩
  | .local _ .vmem, ⟨40, _⟩ => ⟨S1x2048, .f32⟩
  | .local _ .vmem, ⟨41, _⟩ => ⟨S2048x2048, .f32⟩
  | .local _ .vmem, ⟨42, _⟩ => ⟨S2048x2048, .f32⟩
  | .local _ .vmem, ⟨43, _⟩ => ⟨S1x2048, .f32⟩
  | .local _ .vmem, ⟨44, _⟩ => ⟨S1x2048, .f32⟩
  | .local _ .vmem, ⟨45, _⟩ => ⟨S1x2048, .f32⟩
  | .local _ .vmem, ⟨46, _⟩ => ⟨S1x2048, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_v13_2 : Ref sig .tc := ⟨.hbm, 36, rfl⟩
abbrev main_v13_3 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22_0 : Ref sig .tc := ⟨.hbm, 48, rfl⟩
abbrev main_v22_1 : Ref sig .tc := ⟨.hbm, 49, rfl⟩
abbrev main_v23 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_2 : Ref sig .tc := ⟨.hbm, 59, rfl⟩
abbrev main_v31 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_4 : Ref sig .tc := ⟨.hbm, 70, rfl⟩
abbrev main_v40 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_6 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call0_cst : Ref sig .tc := ⟨.hbm, 89, rfl⟩
abbrev main_call0_v0 : Ref sig .tc := ⟨.hbm, 90, rfl⟩
abbrev main_call0_cst_0 : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_cst_1 : Ref sig .tc := ⟨.hbm, 98, rfl⟩
abbrev main_call0_v7 : Ref sig .tc := ⟨.hbm, 99, rfl⟩
abbrev main_call0_v8 : Ref sig .tc := ⟨.hbm, 100, rfl⟩
abbrev main_call0_v9 : Ref sig .tc := ⟨.hbm, 101, rfl⟩
abbrev main_call0_v10 : Ref sig .tc := ⟨.hbm, 102, rfl⟩
abbrev main_v56 : Ref sig .tc := ⟨.hbm, 103, rfl⟩
abbrev main_v57 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S50x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x75776 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S36x75776 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S36x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x36 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x3072 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S768x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S768x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  concatenates_S1x1024_S1x2048_S1x3072_d1 : Shape.Concatenates [S1x1024, S1x2048] S1x3072 1
  shapeCasts_S36x2048_S1x73728 : S36x2048.ShapeCasts S1x73728
  concatenates_S1x2048_S1x73728_S1x75776_d1 : Shape.Concatenates [S1x2048, S1x73728] S1x75776 1
  shapeCasts_S50_S1x50 : S50.ShapeCasts S1x50
  shapeCasts_S36_S1x36 : S36.ShapeCasts S1x36
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S50x3072_S50x3072_0_0 : ∀ a, (![0, 0] : Fin 2 → Nat) a + S50x3072.size a ≤ S50x3072.size a
  h_S50x3072 : 0 < S50x3072.numel
  bitsLt_bf16_f32 : FTy.bits .bf16 < FTy.bits .f32
  inb_S1x50_S1x50_0_0 : ∀ a, (![0, 0] : Fin 2 → Nat) a + S1x50.size a ≤ S1x50.size a
  h_S1x50 : 0 < S1x50.numel
  shapeCasts_S1x50_S1x50 : S1x50.ShapeCasts S1x50
  reduces_S1x50_S1 : S1x50.Reduces [1] S1
  shapeCasts_S1_S1x1 : S1.ShapeCasts S1x1
  broadcasts_S1x1_S1x50 : S1x1.Broadcasts S1x50
  inb_S50x1024_S50x1024_0_0 : ∀ a, (![0, 0] : Fin 2 → Nat) a + S50x1024.size a ≤ S50x1024.size a
  h_S50x1024 : 0 < S50x1024.numel
  inb_S1x1024_S1x1024_0_0 : ∀ a, (![0, 0] : Fin 2 → Nat) a + S1x1024.size a ≤ S1x1024.size a
  h_S1x1024 : 0 < S1x1024.numel
  inb_S1x75776_S1x75776_0_0 : ∀ a, (![0, 0] : Fin 2 → Nat) a + S1x75776.size a ≤ S1x75776.size a
  h_S1x75776 : 0 < S1x75776.numel
  shapeCasts_S1x75776_S1x75776 : S1x75776.ShapeCasts S1x75776
  inb_S36x75776_S36x75776_0_0 : ∀ a, (![0, 0] : Fin 2 → Nat) a + S36x75776.size a ≤ S36x75776.size a
  h_S36x75776 : 0 < S36x75776.numel
  inb_S1x36_S1x36_0_0 : ∀ a, (![0, 0] : Fin 2 → Nat) a + S1x36.size a ≤ S1x36.size a
  h_S1x36 : 0 < S1x36.numel
  shapeCasts_S1x36_S1x36 : S1x36.ShapeCasts S1x36
  reduces_S1x36_S1 : S1x36.Reduces [1] S1
  broadcasts_S1x1_S1x36 : S1x1.Broadcasts S1x36
  inb_S36x2048_S36x2048_0_0 : ∀ a, (![0, 0] : Fin 2 → Nat) a + S36x2048.size a ≤ S36x2048.size a
  h_S36x2048 : 0 < S36x2048.numel
  inb_S1x2048_S1x2048_0_0 : ∀ a, (![0, 0] : Fin 2 → Nat) a + S1x2048.size a ≤ S1x2048.size a
  h_S1x2048 : 0 < S1x2048.numel
  shapeCasts_S1x2048_S1x1024x2 : S1x2048.ShapeCasts S1x1024x2
  reducesTo_S1x1024x2_S1x1024_d2 : S1x1024x2.ReducesTo [2] S1x1024
  h_S_ : 0 < S_.numel
  bcast_S_S1x1024 : S_.BroadcastsInDim S1x1024 (![] : Fin 0 → Fin S1x1024.rank)
  concatenates_S1x2048_S1x1024_S1x3072_d1 : Shape.Concatenates [S1x2048, S1x1024] S1x3072 1
  concatenates_S1x1024_S1x1024_S1x2048_d1 : Shape.Concatenates [S1x1024, S1x1024] S1x2048 1
  shapeCasts_S2048_S1x2048 : S2048.ShapeCasts S1x2048
  shapeCasts_S1024_S1x1024 : S1024.ShapeCasts S1x1024
  inb_S256x3072_S256x3072_0_0 : ∀ a, (![0, 0] : Fin 2 → Nat) a + S256x3072.size a ≤ S256x3072.size a
  h_S256x3072 : 0 < S256x3072.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x2048_S1x2048 : S1x2048.ShapeCasts S1x2048
  inb_S128x2048_S128x2048_0_0 : ∀ a, (![0, 0] : Fin 2 → Nat) a + S128x2048.size a ≤ S128x2048.size a
  h_S128x2048 : 0 < S128x2048.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S6144_S1x6144 : S6144.ShapeCasts S1x6144
  shapeCasts_S1x1024_S1x1024 : S1x1024.ShapeCasts S1x1024
  inb_S768x1024_S768x1024_0_0 : ∀ a, (![0, 0] : Fin 2 → Nat) a + S768x1024.size a ≤ S768x1024.size a
  h_S768x1024 : 0 < S768x1024.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x2048_S768x2048_0_0 : ∀ a, (![0, 0] : Fin 2 → Nat) a + S768x2048.size a ≤ S768x2048.size a
  h_S768x2048 : 0 < S768x2048.numel
  slices_S1x6144_S1x2048_0_0 : S1x6144.Slices ![0, 0] S1x2048
  bcast_S_S1x2048 : S_.BroadcastsInDim S1x2048 (![] : Fin 0 → Fin S1x2048.rank)
  slices_S1x6144_S1x2048_0_2048 : S1x6144.Slices ![0, 2048] S1x2048
  slices_S1x6144_S1x2048_0_4096 : S1x6144.Slices ![0, 4096] S1x2048
  shapeCasts_S50257_S1x50257 : S50257.ShapeCasts S1x50257
  inb_S2048x2048_S2048x2048_0_0 : ∀ a, (![0, 0] : Fin 2 → Nat) a + S2048x2048.size a ≤ S2048x2048.size a
  h_S2048x2048 : 0 < S2048x2048.numel
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x1024_S1x1_S1x1024_1_0_n_n_0_1_11024_wf : GatherDims.WF S50257x1024 S1x1 S1x1024 [1] [0] [] [0] [] 1 ![1, 1024]
  dot_S1x3072_S50x3072_S1x50_1_1_0_0_n_n_wf : DotDims.WF S1x3072 S50x3072 S1x50 [1] [1] [0] [0] [] []
  dot_S1x50_S50x1024_S1x1024_1_0_0_1_n_n_wf : DotDims.WF S1x50 S50x1024 S1x1024 [1] [0] [0] [1] [] []
  dot_S1x75776_S36x75776_S1x36_1_1_0_0_n_n_wf : DotDims.WF S1x75776 S36x75776 S1x36 [1] [1] [0] [0] [] []
  dot_S1x36_S36x2048_S1x2048_1_0_0_1_n_n_wf : DotDims.WF S1x36 S36x2048 S1x2048 [1] [0] [0] [1] [] []
  dot_S1x3072_S256x3072_S1x256_1_1_0_0_n_n_wf : DotDims.WF S1x3072 S256x3072 S1x256 [1] [1] [0] [0] [] []
  dot_S1x2048_S128x2048_S1x128_1_1_0_0_n_n_wf : DotDims.WF S1x2048 S128x2048 S1x128 [1] [1] [0] [0] [] []
  dot_S1x1024_S768x1024_S1x768_1_1_0_0_n_n_wf : DotDims.WF S1x1024 S768x1024 S1x768 [1] [1] [0] [0] [] []
  dot_S1x2048_S768x2048_S1x768_1_1_0_0_n_n_wf : DotDims.WF S1x2048 S768x2048 S1x768 [1] [1] [0] [0] [] []
  dot_S1x2048_S2048x2048_S1x2048_1_1_0_0_n_n_wf : DotDims.WF S1x2048 S2048x2048 S1x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x3072.size a ≤ S1x3072.size a
  hwx0_0 : ∀ i : grid0.Coords, EltTy.bits .f32 = 32 ∨ (Rect.block (s := S1x3072) S1x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x3072.size a ≤ S50x3072.size a
  hwx0_1 : ∀ i : grid0.Coords, EltTy.bits .f32 = 32 ∨ (Rect.block (s := S50x3072) S50x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x1024.size a ≤ S50x1024.size a
  hwx0_3 : ∀ i : grid0.Coords, EltTy.bits .f32 = 32 ∨ (Rect.block (s := S50x1024) S50x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x75776.size a ≤ S1x75776.size a
  hwx0_4 : ∀ i : grid0.Coords, EltTy.bits .f32 = 32 ∨ (Rect.block (s := S1x75776) S1x75776.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S36x75776.size a ≤ S36x75776.size a
  hwx0_5 : ∀ i : grid0.Coords, EltTy.bits .f32 = 32 ∨ (Rect.block (s := S36x75776) S36x75776.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x36.size a ≤ S1x36.size a
  hwx0_6 : ∀ i : grid0.Coords, EltTy.bits .f32 = 32 ∨ (Rect.block (s := S1x36) S1x36.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S36x2048.size a ≤ S36x2048.size a
  hwx0_7 : ∀ i : grid0.Coords, EltTy.bits .f32 = 32 ∨ (Rect.block (s := S36x2048) S36x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x36.size a ≤ S1x36.size a
  hwx0_10 : ∀ i : grid0.Coords, EltTy.bits .f32 = 32 ∨ (Rect.block (s := S1x36) S1x36.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x3072.size a ≤ S1x3072.size a
  hwx1_0 : ∀ i : grid1.Coords, EltTy.bits .f32 = 32 ∨ (Rect.block (s := S1x3072) S1x3072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x3072.size a ≤ S2048x3072.size a
  hwx1_1 : ∀ i : grid1.Coords, EltTy.bits .f32 = 32 ∨ (Rect.block (s := S2048x3072) S256x3072.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x2048.size a
  hwx1_2 : ∀ i : grid1.Coords, EltTy.bits .f32 = 32 ∨ (Rect.block (s := S1x2048) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x2048.size a ≤ S1024x2048.size a
  hwx1_4 : ∀ i : grid1.Coords, EltTy.bits .f32 = 32 ∨ (Rect.block (s := S1024x2048) S128x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x1024.size a
  hwx1_5 : ∀ i : grid1.Coords, EltTy.bits .f32 = 32 ∨ (Rect.block (s := S1x1024) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x2048.size a
  hwx1_6 : ∀ i : grid1.Coords, EltTy.bits .f32 = 32 ∨ (Rect.block (s := S1x2048) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x1024.size a
  hwx1_7 : ∀ i : grid1.Coords, EltTy.bits .f32 = 32 ∨ (Rect.block (s := S1x1024) S1x128.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S768x1024.size a ≤ S6144x1024.size a
  hwx2_1 : ∀ i : grid2.Coords, EltTy.bits .f32 = 32 ∨ (Rect.block (s := S6144x1024) S768x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x6144.size a
  hwx2_2 : ∀ i : grid2.Coords, EltTy.bits .f32 = 32 ∨ (Rect.block (s := S1x6144) S1x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S768x2048.size a ≤ S6144x2048.size a
  hwx2_4 : ∀ i : grid2.Coords, EltTy.bits .f32 = 32 ∨ (Rect.block (s := S6144x2048) S768x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x6144.size a
  hwx2_5 : ∀ i : grid2.Coords, EltTy.bits .f32 = 32 ∨ (Rect.block (s := S1x6144) S1x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x768.size a ≤ S1x6144.size a
  hwx2_6 : ∀ i : grid2.Coords, EltTy.bits .f32 = 32 ∨ (Rect.block (s := S1x6144) S1x768.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x768.size a ≤ S1x6144.size a
  hwx2_7 : ∀ i : grid2.Coords, EltTy.bits .f32 = 32 ∨ (Rect.block (s := S1x6144) S1x768.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x2048.size a
  hwx3_0 : ∀ i : grid3.Coords, EltTy.bits .f32 = 32 ∨ (Rect.block (s := S1x2048) S1x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S2048x2048.size a < S50257x2048.size a
  hwx3_1 : ∀ i : grid3.Coords, EltTy.bits .f32 = 32 ∨ (Rect.unit (s := S50257x2048) (fun a => cc3_transform_1 i a * S2048x2048.size a) (fun a => (Pipeline.Clip.of (cc3_transform_1 i a) (S2048x2048.size a) (S50257x2048.size a)).extent (S2048x2048.size a)) fun a => Pipeline.Clip.inb (Pipeline.Clip.ok_of (hstart3_1 i a))).WholeWords (EltTy.packing .f32)
  hwxs3_1 : ∀ i : grid3.Coords, EltTy.bits .f32 = 32 ∨ (Rect.unit (s := S2048x2048) (fun _ => 0) (fun a => (Pipeline.Clip.of (cc3_transform_1 i a) (S2048x2048.size a) (S50257x2048.size a)).extent (S2048x2048.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1x2048.size a < S1x50257.size a
  hwx3_2 : ∀ i : grid3.Coords, EltTy.bits .f32 = 32 ∨ (Rect.unit (s := S1x50257) (fun a => cc3_transform_2 i a * S1x2048.size a) (fun a => (Pipeline.Clip.of (cc3_transform_2 i a) (S1x2048.size a) (S1x50257.size a)).extent (S1x2048.size a)) fun a => Pipeline.Clip.inb (Pipeline.Clip.ok_of (hstart3_2 i a))).WholeWords (EltTy.packing .f32)
  hwxs3_2 : ∀ i : grid3.Coords, EltTy.bits .f32 = 32 ∨ (Rect.unit (s := S1x2048) (fun _ => 0) (fun a => (Pipeline.Clip.of (cc3_transform_2 i a) (S1x2048.size a) (S1x50257.size a)).extent (S1x2048.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1x2048.size a < S1x50257.size a
  hwx3_3 : ∀ i : grid3.Coords, EltTy.bits .f32 = 32 ∨ (Rect.unit (s := S1x50257) (fun a => cc3_transform_3 i a * S1x2048.size a) (fun a => (Pipeline.Clip.of (cc3_transform_3 i a) (S1x2048.size a) (S1x50257.size a)).extent (S1x2048.size a)) fun a => Pipeline.Clip.inb (Pipeline.Clip.ok_of (hstart3_3 i a))).WholeWords (EltTy.packing .f32)
  hwxs3_3 : ∀ i : grid3.Coords, EltTy.bits .f32 = 32 ∨ (Rect.unit (s := S1x2048) (fun _ => 0) (fun a => (Pipeline.Clip.of (cc3_transform_3 i a) (S1x2048.size a) (S1x50257.size a)).extent (S1x2048.size a)) fun a => (Nat.zero_add _).trans_le (Pipeline.Clip.extent_le (Pipeline.Clip.ok_of (hstart3_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x3072_S50x3072_S1x50_1_1_0_0_n_n : DotDims S1x3072 S50x3072 S1x50 where
  lhsContracting := [1]
  rhsContracting := [1]
  lhsNonContracting := [0]
  rhsNonContracting := [0]
  lhsBatch := []
  rhsBatch := []
  wf := dot_S1x3072_S50x3072_S1x50_1_1_0_0_n_n_wf
def dot_S1x50_S50x1024_S1x1024_1_0_0_1_n_n : DotDims S1x50 S50x1024 S1x1024 where
  lhsContracting := [1]
  rhsContracting := [0]
  lhsNonContracting := [0]
  rhsNonContracting := [1]
  lhsBatch := []
  rhsBatch := []
  wf := dot_S1x50_S50x1024_S1x1024_1_0_0_1_n_n_wf
def dot_S1x75776_S36x75776_S1x36_1_1_0_0_n_n : DotDims S1x75776 S36x75776 S1x36 where
  lhsContracting := [1]
  rhsContracting := [1]
  lhsNonContracting := [0]
  rhsNonContracting := [0]
  lhsBatch := []
  rhsBatch := []
  wf := dot_S1x75776_S36x75776_S1x36_1_1_0_0_n_n_wf
def dot_S1x36_S36x2048_S1x2048_1_0_0_1_n_n : DotDims S1x36 S36x2048 S1x2048 where
  lhsContracting := [1]
  rhsContracting := [0]
  lhsNonContracting := [0]
  rhsNonContracting := [1]
  lhsBatch := []
  rhsBatch := []
  wf := dot_S1x36_S36x2048_S1x2048_1_0_0_1_n_n_wf
def dot_S1x3072_S256x3072_S1x256_1_1_0_0_n_n : DotDims S1x3072 S256x3072 S1x256 where
  lhsContracting := [1]
  rhsContracting := [1]
  lhsNonContracting := [0]
  rhsNonContracting := [0]
  lhsBatch := []
  rhsBatch := []
  wf := dot_S1x3072_S256x3072_S1x256_1_1_0_0_n_n_wf
def dot_S1x2048_S128x2048_S1x128_1_1_0_0_n_n : DotDims S1x2048 S128x2048 S1x128 where
  lhsContracting := [1]
  rhsContracting := [1]
  lhsNonContracting := [0]
  rhsNonContracting := [0]
  lhsBatch := []
  rhsBatch := []
  wf := dot_S1x2048_S128x2048_S1x128_1_1_0_0_n_n_wf
def dot_S1x1024_S768x1024_S1x768_1_1_0_0_n_n : DotDims S1x1024 S768x1024 S1x768 where
  lhsContracting := [1]
  rhsContracting := [1]
  lhsNonContracting := [0]
  rhsNonContracting := [0]
  lhsBatch := []
  rhsBatch := []
  wf := dot_S1x1024_S768x1024_S1x768_1_1_0_0_n_n_wf
def dot_S1x2048_S768x2048_S1x768_1_1_0_0_n_n : DotDims S1x2048 S768x2048 S1x768 where
  lhsContracting := [1]
  rhsContracting := [1]
  lhsNonContracting := [0]
  rhsNonContracting := [0]
  lhsBatch := []
  rhsBatch := []
  wf := dot_S1x2048_S768x2048_S1x768_1_1_0_0_n_n_wf
def dot_S1x2048_S2048x2048_S1x2048_1_1_0_0_n_n : DotDims S1x2048 S2048x2048 S1x2048 where
  lhsContracting := [1]
  rhsContracting := [1]
  lhsNonContracting := [0]
  rhsNonContracting := [0]
  lhsBatch := []
  rhsBatch := []
  wf := dot_S1x2048_S2048x2048_S1x2048_1_1_0_0_n_n_wf

abbrev win0_0 : Pipeline.Window sig grid0 :=
  Pipeline.Window.ofSpec (Memref.whole main_v8) S1x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S50x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S50x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x75776.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S36x75776.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x36.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S36x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_0) S1x50.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13_1) S1x1024.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13_2) S1x36.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13_3) S1x2048.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v18) S1x3072.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22_0) S1x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v22_1) S1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v22_1) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S768x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x768.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22_0) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S768x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v24) S1x768.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v25_0) S1x768.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v25_1) S1x768.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v53) S1x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpecClip (Memref.whole main_arg17) S2048x2048.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v54) S1x2048.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v55) S1x2048.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1 : Shape := ⟨1, ![1]⟩
abbrev S1x1x2048 : Shape := ⟨3, ![1, 1, 2048]⟩
abbrev S50x1024 : Shape := ⟨2, ![50, 1024]⟩
abbrev S36x2048 : Shape := ⟨2, ![36, 2048]⟩
abbrev S50257x1024 : Shape := ⟨2, ![50257, 1024]⟩
abbrev S50x3072 : Shape := ⟨2, ![50, 3072]⟩
abbrev S50 : Shape := ⟨1, ![50]⟩
abbrev S36x75776 : Shape := ⟨2, ![36, 75776]⟩
abbrev S36 : Shape := ⟨1, ![36]⟩
abbrev S2048x3072 : Shape := ⟨2, ![2048, 3072]⟩
abbrev S2048 : Shape := ⟨1, ![2048]⟩
abbrev S1024x2048 : Shape := ⟨2, ![1024, 2048]⟩
abbrev S1024 : Shape := ⟨1, ![1024]⟩
abbrev S6144x1024 : Shape := ⟨2, ![6144, 1024]⟩
abbrev S6144x2048 : Shape := ⟨2, ![6144, 2048]⟩
abbrev S6144 : Shape := ⟨1, ![6144]⟩
abbrev S50257x2048 : Shape := ⟨2, ![50257, 2048]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S1x3072 : Shape := ⟨2, ![1, 3072]⟩
abbrev S3072x50 : Shape := ⟨2, ![3072, 50]⟩
abbrev S1x50 : Shape := ⟨2, ![1, 50]⟩
abbrev S1x73728 : Shape := ⟨2, ![1, 73728]⟩
abbrev S1x75776 : Shape := ⟨2, ![1, 75776]⟩
abbrev S75776x36 : Shape := ⟨2, ![75776, 36]⟩
abbrev S1x36 : Shape := ⟨2, ![1, 36]⟩
abbrev S1x1024x2 : Shape := ⟨3, ![1, 1024, 2]⟩
abbrev S3072x2048 : Shape := ⟨2, ![3072, 2048]⟩
abbrev S2048x1024 : Shape := ⟨2, ![2048, 1024]⟩
abbrev S1024x6144 : Shape := ⟨2, ![1024, 6144]⟩
abbrev S1x6144 : Shape := ⟨2, ![1, 6144]⟩
abbrev S2048x6144 : Shape := ⟨2, ![2048, 6144]⟩
abbrev S2048x50257 : Shape := ⟨2, ![2048, 50257]⟩
abbrev S1x50257 : Shape := ⟨2, ![1, 50257]⟩

abbrev nBuf : Space → Nat
  | .hbm => 153
  | .vmem => 0
  | .smem => 0
  | _ => 0

abbrev hbmTy0_0 (i : Nat) : BufTy := match i % 128 with
  | 0 => ⟨S1, .i32⟩
  | 1 => ⟨S1x1x2048, .f32⟩
  | 2 => ⟨S50x1024, .f32⟩
  | 3 => ⟨S36x2048, .f32⟩
  | 4 => ⟨S50257x1024, .f32⟩
  | 5 => ⟨S50x3072, .f32⟩
  | 6 => ⟨S50, .f32⟩
  | 7 => ⟨S36x75776, .f32⟩
  | 8 => ⟨S36, .f32⟩
  | 9 => ⟨S2048x3072, .f32⟩
  | 10 => ⟨S2048, .f32⟩
  | 11 => ⟨S1024x2048, .f32⟩
  | 12 => ⟨S1024, .f32⟩
  | 13 => ⟨S6144x1024, .f32⟩
  | 14 => ⟨S6144x2048, .f32⟩
  | 15 => ⟨S6144, .f32⟩
  | 16 => ⟨S6144, .f32⟩
  | 17 => ⟨S50257x2048, .f32⟩
  | 18 => ⟨S50257, .f32⟩
  | 19 => ⟨S_, .i32⟩
  | 20 => ⟨S1, .i32⟩
  | 21 => ⟨S1, .i1⟩
  | 22 => ⟨S_, .i32⟩
  | 23 => ⟨S1, .i32⟩
  | 24 => ⟨S1, .i32⟩
  | 25 => ⟨S1, .i32⟩
  | 26 => ⟨S1x1, .i32⟩
  | 27 => ⟨S1x1024, .f32⟩
  | 28 => ⟨S1x2048, .f32⟩
  | 29 => ⟨S1x3072, .f32⟩
  | 30 => ⟨S3072x50, .f32⟩
  | 31 => ⟨S1x50, .f32⟩
  | 32 => ⟨S1x50, .f32⟩
  | 33 => ⟨S1x50, .f32⟩
  | 34 => ⟨S_, .f32⟩
  | 35 => ⟨S1, .f32⟩
  | 36 => ⟨S_, .f32⟩
  | 37 => ⟨S1, .f32⟩
  | 38 => ⟨S1, .f32⟩
  | 39 => ⟨S1x1, .f32⟩
  | 40 => ⟨S1x50, .f32⟩
  | 41 => ⟨S1x50, .f32⟩
  | 42 => ⟨S1x50, .f32⟩
  | 43 => ⟨S_, .f32⟩
  | 44 => ⟨S1, .f32⟩
  | 45 => ⟨S1x1, .f32⟩
  | 46 => ⟨S1x50, .f32⟩
  | 47 => ⟨S1x50, .f32⟩
  | 48 => ⟨S1x1024, .f32⟩
  | 49 => ⟨S1x73728, .f32⟩
  | 50 => ⟨S1x75776, .f32⟩
  | 51 => ⟨S75776x36, .f32⟩
  | 52 => ⟨S1x36, .f32⟩
  | 53 => ⟨S1x36, .f32⟩
  | 54 => ⟨S1x36, .f32⟩
  | 55 => ⟨S_, .f32⟩
  | 56 => ⟨S1, .f32⟩
  | 57 => ⟨S_, .f32⟩
  | 58 => ⟨S1, .f32⟩
  | 59 => ⟨S1, .f32⟩
  | 60 => ⟨S1x1, .f32⟩
  | 61 => ⟨S1x36, .f32⟩
  | 62 => ⟨S1x36, .f32⟩
  | 63 => ⟨S1x36, .f32⟩
  | 64 => ⟨S_, .f32⟩
  | 65 => ⟨S1, .f32⟩
  | 66 => ⟨S1x1, .f32⟩
  | 67 => ⟨S1x36, .f32⟩
  | 68 => ⟨S1x36, .f32⟩
  | 69 => ⟨S1x2048, .f32⟩
  | 70 => ⟨S1x1024x2, .f32⟩
  | 71 => ⟨S_, .f32⟩
  | 72 => ⟨S1x1024, .f32⟩
  | 73 => ⟨S_, .f32⟩
  | 74 => ⟨S1x1024, .f32⟩
  | 75 => ⟨S1x1024, .f32⟩
  | 76 => ⟨S1x3072, .f32⟩
  | 77 => ⟨S3072x2048, .f32⟩
  | 78 => ⟨S1x2048, .f32⟩
  | 79 => ⟨S1x2048, .f32⟩
  | 80 => ⟨S1x2048, .f32⟩
  | 81 => ⟨S_, .f32⟩
  | 82 => ⟨S1x2048, .f32⟩
  | 83 => ⟨S1x2048, .f32⟩
  | 84 => ⟨S1x2048, .f32⟩
  | 85 => ⟨S2048x1024, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1024x6144, .f32⟩
  | 93 => ⟨S1x6144, .f32⟩
  | 94 => ⟨S1x6144, .f32⟩
  | 95 => ⟨S1x6144, .f32⟩
  | 96 => ⟨S2048x6144, .f32⟩
  | 97 => ⟨S1x6144, .f32⟩
  | 98 => ⟨S1x6144, .f32⟩
  | 99 => ⟨S1x6144, .f32⟩
  | 100 => ⟨S1x2048, .f32⟩
  | 101 => ⟨S1x2048, .f32⟩
  | 102 => ⟨S1x2048, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S_, .f32⟩
  | 109 => ⟨S1x2048, .f32⟩
  | 110 => ⟨S1x2048, .f32⟩
  | 111 => ⟨S1x2048, .f32⟩
  | 112 => ⟨S1x2048, .f32⟩
  | 113 => ⟨S1x2048, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S_, .f32⟩
  | 120 => ⟨S1x2048, .f32⟩
  | 121 => ⟨S1x2048, .f32⟩
  | 122 => ⟨S1x2048, .f32⟩
  | 123 => ⟨S1x2048, .f32⟩
  | 124 => ⟨S1x2048, .f32⟩
  | 125 => ⟨S1x2048, .f32⟩
  | 126 => ⟨S1x2048, .f32⟩
  | 127 => ⟨S_, .f32⟩
  | _ => ⟨S1, .i32⟩

abbrev hbmTy0_1 (i : Nat) : BufTy := match i % 128 with
  | 0 => ⟨S1x2048, .f32⟩
  | 1 => ⟨S1x2048, .f32⟩
  | 2 => ⟨S1x2048, .f32⟩
  | 3 => ⟨S1x2048, .f32⟩
  | 4 => ⟨S1x2048, .f32⟩
  | 5 => ⟨S2048x50257, .f32⟩
  | 6 => ⟨S1x50257, .f32⟩
  | 7 => ⟨S1x50257, .f32⟩
  | 8 => ⟨S1x50257, .f32⟩
  | 9 => ⟨S_, .f32⟩
  | 10 => ⟨S1, .f32⟩
  | 11 => ⟨S_, .f32⟩
  | 12 => ⟨S1, .f32⟩
  | 13 => ⟨S1, .f32⟩
  | 14 => ⟨S1x1, .f32⟩
  | 15 => ⟨S1x50257, .f32⟩
  | 16 => ⟨S1x50257, .f32⟩
  | 17 => ⟨S1x50257, .f32⟩
  | 18 => ⟨S_, .f32⟩
  | 19 => ⟨S1, .f32⟩
  | 20 => ⟨S1x1, .f32⟩
  | 21 => ⟨S1x1, .f32⟩
  | 22 => ⟨S1x50257, .f32⟩
  | 23 => ⟨S1x50257, .f32⟩
  | 24 => ⟨S1x1x2048, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call0_cst : Ref sig .tc := ⟨.hbm, 81, rfl⟩
abbrev main_call0_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_cst : Ref sig .tc := ⟨.hbm, 89, rfl⟩
abbrev main_call1_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_8 : Ref sig .tc := ⟨.hbm, 105, rfl⟩
abbrev main_v72 : Ref sig .tc := ⟨.hbm, 106, rfl⟩
abbrev main_v73 : Ref sig .tc := ⟨.hbm, 107, rfl⟩
abbrev main_cst_9 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_10 : Ref sig .tc := ⟨.hbm, 116, rfl⟩
abbrev main_v81 : Ref sig .tc := ⟨.hbm, 117, rfl⟩
abbrev main_v82 : Ref sig .tc := ⟨.hbm, 118, rfl⟩
abbrev main_cst_11 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_12 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call2_cst : Ref sig .tc := ⟨.hbm, 137, rfl⟩
abbrev main_call2_v0 : Ref sig .tc := ⟨.hbm, 138, rfl⟩
abbrev main_call2_cst_0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_v6 : Ref sig .tc := ⟨.hbm, 145, rfl⟩
abbrev main_call2_cst_1 : Ref sig .tc := ⟨.hbm, 146, rfl⟩
abbrev main_call2_v7 : Ref sig .tc := ⟨.hbm, 147, rfl⟩
abbrev main_call2_v8 : Ref sig .tc := ⟨.hbm, 148, rfl⟩
abbrev main_call2_v9 : Ref sig .tc := ⟨.hbm, 149, rfl⟩
abbrev main_call2_v10 : Ref sig .tc := ⟨.hbm, 150, rfl⟩
abbrev main_v99 : Ref sig .tc := ⟨.hbm, 151, rfl⟩
abbrev main_v100 : Ref sig .tc := ⟨.hbm, 152, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  concatenates_S1x1024_S1x2048_S1x3072_d1 : Shape.Concatenates [S1x1024, S1x2048] S1x3072 1
  transposes_S50x3072_S3072x50_1_0 : S50x3072.Transposes [1, 0] S3072x50
  bcast_S50_S1x50_1 : S50.BroadcastsInDim S1x50 (![1] : Fin 1 → Fin S1x50.rank)
  reducesTo_S1x50_S1_d1 : S1x50.ReducesTo [1] S1
  h_S_ : 0 < S_.numel
  bcast_S1x1_S1x50_0_1 : S1x1.BroadcastsInDim S1x50 (![0, 1] : Fin 2 → Fin S1x50.rank)
  shapeCasts_S36x2048_S1x73728 : S36x2048.ShapeCasts S1x73728
  concatenates_S1x2048_S1x73728_S1x75776_d1 : Shape.Concatenates [S1x2048, S1x73728] S1x75776 1
  transposes_S36x75776_S75776x36_1_0 : S36x75776.Transposes [1, 0] S75776x36
  bcast_S36_S1x36_1 : S36.BroadcastsInDim S1x36 (![1] : Fin 1 → Fin S1x36.rank)
  reducesTo_S1x36_S1_d1 : S1x36.ReducesTo [1] S1
  bcast_S1x1_S1x36_0_1 : S1x1.BroadcastsInDim S1x36 (![0, 1] : Fin 2 → Fin S1x36.rank)
  shapeCasts_S1x2048_S1x1024x2 : S1x2048.ShapeCasts S1x1024x2
  reducesTo_S1x1024x2_S1x1024_d2 : S1x1024x2.ReducesTo [2] S1x1024
  bcast_S_S1x1024 : S_.BroadcastsInDim S1x1024 (![] : Fin 0 → Fin S1x1024.rank)
  concatenates_S1x2048_S1x1024_S1x3072_d1 : Shape.Concatenates [S1x2048, S1x1024] S1x3072 1
  transposes_S2048x3072_S3072x2048_1_0 : S2048x3072.Transposes [1, 0] S3072x2048
  bcast_S2048_S1x2048_1 : S2048.BroadcastsInDim S1x2048 (![1] : Fin 1 → Fin S1x2048.rank)
  bcast_S_S1x2048 : S_.BroadcastsInDim S1x2048 (![] : Fin 0 → Fin S1x2048.rank)
  concatenates_S1x1024_S1x1024_S1x2048_d1 : Shape.Concatenates [S1x1024, S1x1024] S1x2048 1
  transposes_S1024x2048_S2048x1024_1_0 : S1024x2048.Transposes [1, 0] S2048x1024
  bcast_S1024_S1x1024_1 : S1024.BroadcastsInDim S1x1024 (![1] : Fin 1 → Fin S1x1024.rank)
  transposes_S6144x1024_S1024x6144_1_0 : S6144x1024.Transposes [1, 0] S1024x6144
  bcast_S6144_S1x6144_1 : S6144.BroadcastsInDim S1x6144 (![1] : Fin 1 → Fin S1x6144.rank)
  transposes_S6144x2048_S2048x6144_1_0 : S6144x2048.Transposes [1, 0] S2048x6144
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  transposes_S50257x2048_S2048x50257_1_0 : S50257x2048.Transposes [1, 0] S2048x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x1024_S1x1_S1x1024_1_0_n_n_0_1_11024_wf : GatherDims.WF S50257x1024 S1x1 S1x1024 [1] [0] [] [0] [] 1 ![1, 1024]
  dot_S1x3072_S3072x50_S1x50_1_0_0_1_n_n_wf : DotDims.WF S1x3072 S3072x50 S1x50 [1] [0] [0] [1] [] []
  dot_S1x50_S50x1024_S1x1024_1_0_0_1_n_n_wf : DotDims.WF S1x50 S50x1024 S1x1024 [1] [0] [0] [1] [] []
  dot_S1x75776_S75776x36_S1x36_1_0_0_1_n_n_wf : DotDims.WF S1x75776 S75776x36 S1x36 [1] [0] [0] [1] [] []
  dot_S1x36_S36x2048_S1x2048_1_0_0_1_n_n_wf : DotDims.WF S1x36 S36x2048 S1x2048 [1] [0] [0] [1] [] []
  dot_S1x3072_S3072x2048_S1x2048_1_0_0_1_n_n_wf : DotDims.WF S1x3072 S3072x2048 S1x2048 [1] [0] [0] [1] [] []
  dot_S1x2048_S2048x1024_S1x1024_1_0_0_1_n_n_wf : DotDims.WF S1x2048 S2048x1024 S1x1024 [1] [0] [0] [1] [] []
  dot_S1x1024_S1024x6144_S1x6144_1_0_0_1_n_n_wf : DotDims.WF S1x1024 S1024x6144 S1x6144 [1] [0] [0] [1] [] []
  dot_S1x2048_S2048x6144_S1x6144_1_0_0_1_n_n_wf : DotDims.WF S1x2048 S2048x6144 S1x6144 [1] [0] [0] [1] [] []
  dot_S1x2048_S2048x50257_S1x50257_1_0_0_1_n_n_wf : DotDims.WF S1x2048 S2048x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x3072_S3072x50_S1x50_1_0_0_1_n_n : DotDims S1x3072 S3072x50 S1x50 where
  lhsContracting := [1]
  rhsContracting := [0]
  lhsNonContracting := [0]
  rhsNonContracting := [1]
  lhsBatch := []
  rhsBatch := []
  wf := dot_S1x3072_S3072x50_S1x50_1_0_0_1_n_n_wf
def dot_S1x50_S50x1024_S1x1024_1_0_0_1_n_n : DotDims S1x50 S50x1024 S1x1024 where
  lhsContracting := [1]
  rhsContracting := [0]
  lhsNonContracting := [0]
  rhsNonContracting := [1]
  lhsBatch := []
  rhsBatch := []
  wf := dot_S1x50_S50x1024_S1x1024_1_0_0_1_n_n_wf
def dot_S1x75776_S75776x36_S1x36_1_0_0_1_n_n : DotDims S1x75776 S75776x36 S1x36 where
  lhsContracting := [1]
  rhsContracting := [0]
  lhsNonContracting := [0]
  rhsNonContracting := [1]
  lhsBatch := []
  rhsBatch := []
  wf := dot_S1x75776_S75776x36_S1x36_1_0_0_1_n_n_wf
def dot_S1x36_S36x2048_S1x2048_1_0_0_1_n_n : DotDims S1x36 S36x2048 S1x2048 where
  lhsContracting := [1]
  rhsContracting := [0]
  lhsNonContracting := [0]
  rhsNonContracting := [1]
  lhsBatch := []
  rhsBatch := []
  wf := dot_S1x36_S36x2048_S1x2048_1_0_0_1_n_n_wf
def dot_S1x3072_S3072x2048_S1x2048_1_0_0_1_n_n : DotDims S1x3072 S3072x2048 S1x2048 where
  lhsContracting := [1]
  rhsContracting := [0]
  lhsNonContracting := [0]
  rhsNonContracting := [1]
  lhsBatch := []
  rhsBatch := []
  wf := dot_S1x3072_S3072x2048_S1x2048_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x6144_S1x6144_1_0_0_1_n_n : DotDims S1x1024 S1024x6144 S1x6144 where
  lhsContracting := [1]
  rhsContracting := [0]
  lhsNonContracting := [0]
  rhsNonContracting := [1]
  lhsBatch := []
  rhsBatch := []
  wf := dot_S1x1024_S1024x6144_S1x6144_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.K.Reg0.lean ====
/- REGION 0 of the decoder step, at the buffer contents V found when the region is entered.

   The region is one pipelined call on a grid of a single point with twelve windows, each the whole of its
   array and each with one staging buffer: windows 0-7 are inputs, windows 8-11 outputs.  The body reads every
   input buffer whole and stores every output buffer whole, once:
     window 8  <- the softmax of the text scores, from inputs 0, 1, 2;
     window 9  <- that softmax times the text values, from inputs 0, 1, 2, 3;
     window 10 <- the softmax of the image scores, from inputs 4, 5, 6;
     window 11 <- that softmax times the image values, from inputs 4, 5, 6, 7.
   (It also reads each output buffer once before storing it; nothing depends on what is read.)

   Stated here: each window's block at the point as read off V; what the body leaves in each output buffer, as
   the overlay of its one whole-buffer store over the loads through the whole-buffer rectangle, and the same
   as the payload applied directly (a whole-buffer load reads the contents, one whole-buffer store leaves its
   payload); the body's triple; the pipeline's proof data; and the body obligation at the one point. -/
import proofs.«418679_j86887188398769_3_alg».proof.Proof.Gen.Kernel.Launch
import proofs.«418679_j86887188398769_3_alg».proof.Proof.Gen.Kernel.Skeleton
import proofs.«418679_j86887188398769_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at the point, whatever was there before the fetch: for any
    proof data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: per buffer shape, the whole-buffer rectangle (offsets zero, the buffer's own sizes) -/

/-- The two zero offsets, as the constant function. -/
theorem r0_zeros : (![0, 0] : Fin 2 → Nat) = fun _ => 0 := funext fun a => by fin_cases a <;> rfl
abbrev r0_S1x3072 : Rect S1x3072 := Rect.unit (s := S1x3072) ![0, 0] S1x3072.size inb_S1x3072_S1x3072_0_0
abbrev r0_S50x3072 : Rect S50x3072 := Rect.unit (s := S50x3072) ![0, 0] S50x3072.size inb_S50x3072_S50x3072_0_0
abbrev r0_S1x50 : Rect S1x50 := Rect.unit (s := S1x50) ![0, 0] S1x50.size inb_S1x50_S1x50_0_0
abbrev r0_S50x1024 : Rect S50x1024 := Rect.unit (s := S50x1024) ![0, 0] S50x1024.size inb_S50x1024_S50x1024_0_0
abbrev r0_S1x75776 : Rect S1x75776 := Rect.unit (s := S1x75776) ![0, 0] S1x75776.size inb_S1x75776_S1x75776_0_0
abbrev r0_S36x75776 : Rect S36x75776 := Rect.unit (s := S36x75776) ![0, 0] S36x75776.size inb_S36x75776_S36x75776_0_0
abbrev r0_S1x36 : Rect S1x36 := Rect.unit (s := S1x36) ![0, 0] S1x36.size inb_S1x36_S1x36_0_0
abbrev r0_S36x2048 : Rect S36x2048 := Rect.unit (s := S36x2048) ![0, 0] S36x2048.size inb_S36x2048_S36x2048_0_0
abbrev r0_S1x1024 : Rect S1x1024 := Rect.unit (s := S1x1024) ![0, 0] S1x1024.size inb_S1x1024_S1x1024_0_0
abbrev r0_S1x2048 : Rect S1x2048 := Rect.unit (s := S1x2048) ![0, 0] S1x2048.size inb_S1x2048_S1x2048_0_0

/-! ## What the body leaves in each output window's buffer -/

/-- Window 8's staging buffer after the body: its one store, of the softmax of the text scores. -/
def out0_8 (x0 : Vec F S1x3072 .f32) (x1 : Vec F S50x3072 .f32) (x2 : Vec F S1x50 .f32) : Vec F S1x50 .f32 :=
  View.canon [⟨r0_S1x50, k0_pay3 (View.ld x0 r0_S1x3072) (View.ld x1 r0_S50x3072) (View.ld x2 r0_S1x50)⟩]

/-- Window 9's: the text context row. -/
def out0_9 (x0 : Vec F S1x3072 .f32) (x1 : Vec F S50x3072 .f32) (x2 : Vec F S1x50 .f32) (x3 : Vec F S50x1024 .f32) : Vec F S1x1024 .f32 :=
  View.canon [⟨r0_S1x1024, k0_pay4 (View.ld x0 r0_S1x3072) (View.ld x1 r0_S50x3072) (View.ld x2 r0_S1x50) (View.ld x3 r0_S50x1024)⟩]

/-- Window 10's: the softmax of the image scores. -/
def out0_10 (x4 : Vec F S1x75776 .f32) (x5 : Vec F S36x75776 .f32) (x6 : Vec F S1x36 .f32) : Vec F S1x36 .f32 :=
  View.canon [⟨r0_S1x36, k0_pay1 (k0_pay5 (View.ld x4 r0_S1x75776) (View.ld x5 r0_S36x75776)) (View.ld x6 r0_S1x36)⟩]

/-- Window 11's: the image context row. -/
def out0_11 (x4 : Vec F S1x75776 .f32) (x5 : Vec F S36x75776 .f32) (x6 : Vec F S1x36 .f32) (x7 : Vec F S36x2048 .f32) : Vec F S1x2048 .f32 :=
  View.canon [⟨r0_S1x2048, k0_pay2 (k0_pay5 (View.ld x4 r0_S1x75776) (View.ld x5 r0_S36x75776)) (View.ld x6 r0_S1x36) (View.ld x7 r0_S36x2048)⟩]

/-! The same through the whole buffers: a load through the whole-buffer rectangle reads the contents, and one store
    through it leaves its payload. -/

theorem out0_8_eq (x0 : Vec F S1x3072 .f32) (x1 : Vec F S50x3072 .f32) (x2 : Vec F S1x50 .f32) :
    out0_8 x0 x1 x2 = k0_pay3 x0 x1 x2 := by
  unfold out0_8
  rw [View.canon_unit_zero r0_zeros]
  simp only [View.ld_unit_zero (S := S1x3072) r0_zeros, View.ld_unit_zero (S := S50x3072) r0_zeros, View.ld_unit_zero (S := S1x50) r0_zeros]

theorem out0_9_eq (x0 : Vec F S1x3072 .f32) (x1 : Vec F S50x3072 .f32) (x2 : Vec F S1x50 .f32) (x3 : Vec F S50x1024 .f32) :
    out0_9 x0 x1 x2 x3 = k0_pay4 x0 x1 x2 x3 := by
  unfold out0_9
  rw [View.canon_unit_zero r0_zeros]
  simp only [View.ld_unit_zero (S := S1x3072) r0_zeros, View.ld_unit_zero (S := S50x3072) r0_zeros, View.ld_unit_zero (S := S1x50) r0_zeros, View.ld_unit_zero (S := S50x1024) r0_zeros]

theorem out0_10_eq (x4 : Vec F S1x75776 .f32) (x5 : Vec F S36x75776 .f32) (x6 : Vec F S1x36 .f32) :
    out0_10 x4 x5 x6 = k0_pay1 (k0_pay5 x4 x5) x6 := by
  unfold out0_10
  rw [View.canon_unit_zero r0_zeros]
  simp only [View.ld_unit_zero (S := S1x75776) r0_zeros, View.ld_unit_zero (S := S36x75776) r0_zeros, View.ld_unit_zero (S := S1x36) r0_zeros]

theorem out0_11_eq (x4 : Vec F S1x75776 .f32) (x5 : Vec F S36x75776 .f32) (x6 : Vec F S1x36 .f32) (x7 : Vec F S36x2048 .f32) :
    out0_11 x4 x5 x6 x7 = k0_pay2 (k0_pay5 x4 x5) x6 x7 := by
  unfold out0_11
  rw [View.canon_unit_zero r0_zeros]
  simp only [View.ld_unit_zero (S := S1x75776) r0_zeros, View.ld_unit_zero (S := S36x75776) r0_zeros, View.ld_unit_zero (S := S1x36) r0_zeros, View.ld_unit_zero (S := S36x2048) r0_zeros]

/-! Each output's one store covers its buffer: every index lies in the whole-buffer rectangle. -/

theorem cover0_8 (p0 : Vec F S1x50 .f32) (y : S1x50.Idx) :
    ∃ pc ∈ ([⟨r0_S1x50, p0⟩] : List (View.Piece (Elt F) S1x50 .f32)), y ∈ pc.1.set :=
  ⟨_, List.mem_singleton_self _, View.mem_set_unit_zero r0_zeros inb_S1x50_S1x50_0_0 y⟩

theorem cover0_9 (p0 : Vec F S1x1024 .f32) (y : S1x1024.Idx) :
    ∃ pc ∈ ([⟨r0_S1x1024, p0⟩] : List (View.Piece (Elt F) S1x1024 .f32)), y ∈ pc.1.set :=
  ⟨_, List.mem_singleton_self _, View.mem_set_unit_zero r0_zeros inb_S1x1024_S1x1024_0_0 y⟩

theorem cover0_10 (p0 : Vec F S1x36 .f32) (y : S1x36.Idx) :
    ∃ pc ∈ ([⟨r0_S1x36, p0⟩] : List (View.Piece (Elt F) S1x36 .f32)), y ∈ pc.1.set :=
  ⟨_, List.mem_singleton_self _, View.mem_set_unit_zero r0_zeros inb_S1x36_S1x36_0_0 y⟩

theorem cover0_11 (p0 : Vec F S1x2048 .f32) (y : S1x2048.Idx) :
    ∃ pc ∈ ([⟨r0_S1x2048, p0⟩] : List (View.Piece (Elt F) S1x2048 .f32)), y ∈ pc.1.set :=
  ⟨_, List.mem_singleton_self _, View.mem_set_unit_zero r0_zeros inb_S1x2048_S1x2048_0_0 y⟩

/-! ## The body's triple -/

set_option maxHeartbeats 1000000 in
/-- The body on whole staging memrefs, the inputs' at read contents `x0 … x7` and the outputs' at anything, runs to the
    continuation holding the inputs' as they were and each output's at `out0_W` of the inputs'. -/
theorem sound_kernel0 (c : Dev nD) (E : Set ℕ) (i : grid0.Coords) (arg1 : Memref sig .tc .vmem S1x3072 .f32) (harg1 : arg1.IsWhole) (arg2 : Memref sig .tc .vmem S50x3072 .f32) (harg2 : arg2.IsWhole) (arg3 : Memref sig .tc .vmem S1x50 .f32) (harg3 : arg3.IsWhole) (arg4 : Memref sig .tc .vmem S50x1024 .f32) (harg4 : arg4.IsWhole) (arg5 : Memref sig .tc .vmem S1x75776 .f32) (harg5 : arg5.IsWhole) (arg6 : Memref sig .tc .vmem S36x75776 .f32) (harg6 : arg6.IsWhole) (arg7 : Memref sig .tc .vmem S1x36 .f32) (harg7 : arg7.IsWhole) (arg8 : Memref sig .tc .vmem S36x2048 .f32) (harg8 : arg8.IsWhole) (arg9 : Memref sig .tc .vmem S1x50 .f32) (harg9 : arg9.IsWhole) (arg10 : Memref sig .tc .vmem S1x1024 .f32) (harg10 : arg10.IsWhole) (arg11 : Memref sig .tc .vmem S1x36 .f32) (harg11 : arg11.IsWhole) (arg12 : Memref sig .tc .vmem S1x2048 .f32) (harg12 : arg12.IsWhole)
    (x0 : Vec F S1x3072 .f32) (x1 : Vec F S50x3072 .f32) (x2 : Vec F S1x50 .f32) (x3 : Vec F S50x1024 .f32) (x4 : Vec F S1x75776 .f32) (x5 : Vec F S36x75776 .f32) (x6 : Vec F S1x36 .f32) (x7 : Vec F S36x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2) ∗ owns (c : Thread nD τ) arg10 fullShare (out0_9 x0 x1 x2 x3) ∗ owns (c : Thread nD τ) arg11 fullShare (out0_10 x4 x5 x6) ∗ owns (c : Thread nD τ) arg12 fullShare (out0_11 x4 x5 x6 x7)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of the region's pipeline on core `c`: the arrays as the region finds them (`V`); after the body at
    the point each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t)
    | ⟨9, _⟩ => out0_9 (iblk0 V c 0 t) (iblk0 V c 1 t) (iblk0 V c 2 t) (iblk0 V c 3 t)
    | ⟨10, _⟩ => out0_10 (iblk0 V c 4 t) (iblk0 V c 5 t) (iblk0 V c 6 t)
    | ⟨11, _⟩ => out0_11 (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) := by dsimp only [dat0]
theorem after0_9 (c : Dev nD) (t : Fin cfg0.N) : (dat0 V c).after 9 t = out0_9 (iblk0 V c 0 t) (iblk0 V c 1 t) (iblk0 V c 2 t) (iblk0 V c 3 t) := by dsimp only [dat0]
theorem after0_10 (c : Dev nD) (t : Fin cfg0.N) : (dat0 V c).after 10 t = out0_10 (iblk0 V c 4 t) (iblk0 V c 5 t) (iblk0 V c 6 t) := by dsimp only [dat0]
theorem after0_11 (c : Dev nD) (t : Fin cfg0.N) : (dat0 V c).after 11 t = out0_11 (iblk0 V c 4 t) (iblk0 V c 5 t) (iblk0 V c 6 t) (iblk0 V c 7 t) := by dsimp only [dat0]

/-! Each input's staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at the point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/- REGION 1 of @main, the second TensorCore call (the "combine" step of the decoder), at the contents `V` the
   TensorCore's buffers hold when the region is entered. Its grid has 8 points; at point `i` the body reads
   the whole concatenated row `cat1` (1x3072), the `i`-th 256-row block of the first weight matrix and the `i`-th
   256-column block of the first bias, and leaves in the `i`-th 256-column block of the first result
   `max (cat1 · W1ᵢᵀ + b1ᵢ) 0` (operands rounded to bf16, accumulated in f32); likewise, from `cat2` (1x2048), the
   `i`-th 128-row block of the second weight matrix and of the second bias, the `i`-th 128-column block of the second
   result. Every block tiles its array.

   Stated here, at any `V`: each window's block at a point (`iblk1`); what the body leaves in each output buffer as a
   closed function of the input blocks (`out1_6`, `out1_7`: one whole-buffer store each, so the payload itself,
   `out1_6_eq`, `out1_7_eq`); the body's triple (`sound_kernel1`); the proof data of the pipeline (`dat1`), that every
   input buffer holds its block at every point whether or not it was fetched there (`before1_W`: the two constant-index
   rows are fetched at the first point only and never move), and the body obligation (`body_obligation1`). -/
import proofs.«418679_j86887188398769_3_alg».proof.Proof.Gen.Kernel.Launch
import proofs.«418679_j86887188398769_3_alg».proof.Proof.Gen.Kernel.Skeleton
import proofs.«418679_j86887188398769_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for ANY proof data whose
    array is `V`'s (`hA`) and whose body leaves the block in place (`hafter`): where the window is not fetched its
    block index has not moved, so the block of the point before is the block of this point. Every window here is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each one the whole of its buffer -/

abbrev r1_0 : Rect S1x3072 := Rect.unit (s := S1x3072) ![0, 0] S1x3072.size inb_S1x3072_S1x3072_0_0
abbrev r1_1 : Rect S256x3072 := Rect.unit (s := S256x3072) ![0, 0] S256x3072.size inb_S256x3072_S256x3072_0_0
abbrev r1_2 : Rect S1x256 := Rect.unit (s := S1x256) ![0, 0] S1x256.size inb_S1x256_S1x256_0_0
abbrev r1_3 : Rect S1x2048 := Rect.unit (s := S1x2048) ![0, 0] S1x2048.size inb_S1x2048_S1x2048_0_0
abbrev r1_4 : Rect S128x2048 := Rect.unit (s := S128x2048) ![0, 0] S128x2048.size inb_S128x2048_S128x2048_0_0
abbrev r1_5 : Rect S1x128 := Rect.unit (s := S1x128) ![0, 0] S1x128.size inb_S1x128_S1x128_0_0

/-! ## What the body leaves in each output window's buffer -/

/-- Window 6's buffer after the body, from the input windows' blocks: its one store, of the first payload over the
    whole loads of windows 0, 1, 2. -/
def out1_6 (x0 : Vec F S1x3072 .f32) (x1 : Vec F S256x3072 .f32) (x2 : Vec F S1x256 .f32) : Vec F S1x256 .f32 :=
  View.canon [⟨r1_2, k1_pay1 (View.ld x0 r1_0) (View.ld x1 r1_1) (View.ld x2 r1_2)⟩]

/-- Window 7's buffer after the body: its one store, of the second payload over the whole loads of windows 3, 4, 5. -/
def out1_7 (x3 : Vec F S1x2048 .f32) (x4 : Vec F S128x2048 .f32) (x5 : Vec F S1x128 .f32) : Vec F S1x128 .f32 :=
  View.canon [⟨r1_5, k1_pay2 (View.ld x3 r1_3) (View.ld x4 r1_4) (View.ld x5 r1_5)⟩]

/-- The one store of window 6 is the whole buffer, so it covers it. -/
theorem cover1_6 (p0 : Vec F S1x256 .f32) (y : S1x256.Idx) :
    ∃ pc ∈ ([⟨r1_2, p0⟩] : List (View.Piece (Elt F) S1x256 .f32)), y ∈ pc.1.set :=
  View.cover_of_tiled [⟨r1_2, p0⟩] S1x256.size (by rfl) y

/-- The one store of window 7 is the whole buffer, so it covers it. -/
theorem cover1_7 (p0 : Vec F S1x128 .f32) (y : S1x128.Idx) :
    ∃ pc ∈ ([⟨r1_5, p0⟩] : List (View.Piece (Elt F) S1x128 .f32)), y ∈ pc.1.set :=
  View.cover_of_tiled [⟨r1_5, p0⟩] S1x128.size (by rfl) y

/-- The whole-buffer rectangle reads and writes in place: what window 6 is left at IS the first payload of the blocks. -/
theorem out1_6_eq (x0 : Vec F S1x3072 .f32) (x1 : Vec F S256x3072 .f32) (x2 : Vec F S1x256 .f32) :
    out1_6 x0 x1 x2 = k1_pay1 x0 x1 x2 := by
  have hz : (![0, 0] : Fin 2 → Nat) = fun _ => 0 := funext fun a => by fin_cases a <;> rfl
  unfold out1_6
  rw [View.canon_unit_zero hz]
  simp only [View.ld_unit_zero (S := S1x3072) hz, View.ld_unit_zero (S := S256x3072) hz, View.ld_unit_zero (S := S1x256) hz]

/-- and what window 7 is left at IS the second payload of the blocks. -/
theorem out1_7_eq (x3 : Vec F S1x2048 .f32) (x4 : Vec F S128x2048 .f32) (x5 : Vec F S1x128 .f32) :
    out1_7 x3 x4 x5 = k1_pay2 x3 x4 x5 := by
  have hz : (![0, 0] : Fin 2 → Nat) = fun _ => 0 := funext fun a => by fin_cases a <;> rfl
  unfold out1_7
  rw [View.canon_unit_zero hz]
  simp only [View.ld_unit_zero (S := S1x2048) hz, View.ld_unit_zero (S := S128x2048) hz, View.ld_unit_zero (S := S1x128) hz]

/-! ## The body's triple -/

set_option maxHeartbeats 1000000 in
/-- The body on whole buffers, the six inputs' at read contents `x0..x5` and the two outputs' at anything, runs to the
    continuation holding the inputs' as they were and the outputs' at `out1_6` and `out1_7` of the inputs': it loads the
    six inputs whole, reads each output once without using what it read, and stores each payload over the whole of its
    output. -/
theorem sound_kernel1 (c : Dev nD) (E : Set ℕ) (i : grid1.Coords) (arg1 : Memref sig .tc .vmem S1x3072 .f32) (harg1 : arg1.IsWhole) (arg2 : Memref sig .tc .vmem S256x3072 .f32) (harg2 : arg2.IsWhole) (arg3 : Memref sig .tc .vmem S1x256 .f32) (harg3 : arg3.IsWhole) (arg4 : Memref sig .tc .vmem S1x2048 .f32) (harg4 : arg4.IsWhole) (arg5 : Memref sig .tc .vmem S128x2048 .f32) (harg5 : arg5.IsWhole) (arg6 : Memref sig .tc .vmem S1x128 .f32) (harg6 : arg6.IsWhole) (arg7 : Memref sig .tc .vmem S1x256 .f32) (harg7 : arg7.IsWhole) (arg8 : Memref sig .tc .vmem S1x128 .f32) (harg8 : arg8.IsWhole)
    (x0 : Vec F S1x3072 .f32) (x1 : Vec F S256x3072 .f32) (x2 : Vec F S1x256 .f32) (x3 : Vec F S1x2048 .f32) (x4 : Vec F S128x2048 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2) ∗ owns (c : Thread nD τ) arg8 fullShare (out1_7 x3 x4 x5)) -∗ K ⟨⟩))
      ⊢ wp frame (wpE (defs₀ (F := F)) Variants.none c none) E (cc1__comb_kernel i arg1 harg1 arg2 harg2 arg3 harg3 arg4 harg4 arg5 harg5 arg6 harg6 arg7 harg7 arg8 harg8) K := by
  simp only [cc1__comb_kernel_eq_skeleton]; unfold cc1__comb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and each output's at `out1_W` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t)
    | ⟨7, _⟩ => out1_7 (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) := by dsimp only [dat1]
theorem after1_7 (c : Dev nD) (t : Fin cfg1.N) : (dat1 V c).after 7 t = out1_7 (iblk1 V c 3 t) (iblk1 V c 4 t) (iblk1 V c 5 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/- REGION 2 of @main, at the TensorCore's buffer contents `V` when the region is entered: the two gate
   pre-activations of the GRU cell, block by block over a grid of 8 points.

   At point `k` the body reads the whole embedded-and-attended input row `x` (1x1024) and the whole hidden row
   `h` (1x2048), block `k` (768 rows) of the input-to-hidden and hidden-to-hidden weight matrices and block `k`
   (768 lanes) of the two bias rows, and writes block `k` of
     gi = bf16(x) · bf16(W_ih[k])ᵀ + b_ih[k]      and      gh = bf16(h) · bf16(W_hh[k])ᵀ + b_hh[k]
   (contraction over the long axis, f32 accumulation from zero). Every block tiles its array; the two rows `x`
   and `h` have a constant block index, so they are staged once and found in place at the later points.

   Stated here: each window's block at a point read off `V`; what the body leaves in the two output buffers as a
   function of the six input blocks (one whole-buffer store each, so the payload itself); the body's triple; the
   proof data of the pipeline and its body obligation at every point. -/
import proofs.«418679_j86887188398769_3_alg».proof.Proof.Gen.Kernel.Launch
import proofs.«418679_j86887188398769_3_alg».proof.Proof.Gen.Kernel.Skeleton
import proofs.«418679_j86887188398769_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block
    index has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_x : Rect S1x1024 := Rect.unit (s := S1x1024) ![0, 0] S1x1024.size inb_S1x1024_S1x1024_0_0
abbrev r2_wi : Rect S768x1024 := Rect.unit (s := S768x1024) ![0, 0] S768x1024.size inb_S768x1024_S768x1024_0_0
abbrev r2_b : Rect S1x768 := Rect.unit (s := S1x768) ![0, 0] S1x768.size inb_S1x768_S1x768_0_0
abbrev r2_h : Rect S1x2048 := Rect.unit (s := S1x2048) ![0, 0] S1x2048.size inb_S1x2048_S1x2048_0_0
abbrev r2_wh : Rect S768x2048 := Rect.unit (s := S768x2048) ![0, 0] S768x2048.size inb_S768x2048_S768x2048_0_0

/-- The zero offsets, however spelt. -/
theorem zero2 : (![0, 0] : Fin 2 → Nat) = fun _ => 0 := funext fun a => by fin_cases a <;> rfl

/-! ## What the body leaves in each output window's buffer -/

/-- Window 6's staging buffer after the body, from the input windows' blocks: its one store, of the whole buffer. -/
def out2_6 (x0 : Vec F S1x1024 .f32) (x1 : Vec F S768x1024 .f32) (x2 : Vec F S1x768 .f32) : Vec F S1x768 .f32 :=
  View.canon [⟨r2_b, k2_pay1 (View.ld x0 r2_x) (View.ld x1 r2_wi) (View.ld x2 r2_b)⟩]

/-- Its store covers the buffer. -/
theorem cover2_6 (p0 : Vec F S1x768 .f32) (y : S1x768.Idx) :
    ∃ pc ∈ ([⟨r2_b, p0⟩] : List (View.Piece (Elt F) S1x768 .f32)), y ∈ pc.1.set :=
  ⟨_, List.mem_singleton_self _, View.mem_set_unit_zero (S := S1x768) zero2 inb_S1x768_S1x768_0_0 y⟩

/-- Window 7's staging buffer after the body, from the input windows' blocks: its one store, of the whole buffer. -/
def out2_7 (x3 : Vec F S1x2048 .f32) (x4 : Vec F S768x2048 .f32) (x5 : Vec F S1x768 .f32) : Vec F S1x768 .f32 :=
  View.canon [⟨r2_b, k2_pay2 (View.ld x3 r2_h) (View.ld x4 r2_wh) (View.ld x5 r2_b)⟩]

/-- The one store is of the whole buffer and the loads are of whole buffers: the buffer is left at the payload of the
    blocks themselves. -/
theorem out2_6_eq (x0 : Vec F S1x1024 .f32) (x1 : Vec F S768x1024 .f32) (x2 : Vec F S1x768 .f32) :
    out2_6 x0 x1 x2 = k2_pay1 x0 x1 x2 := by
  unfold out2_6
  rw [View.canon_unit_zero (S := S1x768) zero2]
  simp only [View.ld_unit_zero (S := S1x1024) zero2, View.ld_unit_zero (S := S768x1024) zero2, View.ld_unit_zero (S := S1x768) zero2]

theorem out2_7_eq (x3 : Vec F S1x2048 .f32) (x4 : Vec F S768x2048 .f32) (x5 : Vec F S1x768 .f32) :
    out2_7 x3 x4 x5 = k2_pay2 x3 x4 x5 := by
  unfold out2_7
  rw [View.canon_unit_zero (S := S1x768) zero2]
  simp only [View.ld_unit_zero (S := S1x2048) zero2, View.ld_unit_zero (S := S768x2048) zero2, View.ld_unit_zero (S := S1x768) zero2]

/-! ## The body's triple -/

set_option maxHeartbeats 1000000 in
/-- The kernel body on whole staging memrefs, the inputs' at read contents `xW` and the outputs' at anything, runs to
    the continuation holding the inputs' as they were and each output's at `out2_W` of the inputs'. -/
theorem sound_kernel2 (c : Dev nD) (E : Set ℕ) (i : grid2.Coords) (arg0 : Memref sig .tc .vmem S1x1024 .f32) (harg0 : arg0.IsWhole) (arg1 : Memref sig .tc .vmem S768x1024 .f32) (harg1 : arg1.IsWhole) (arg2 : Memref sig .tc .vmem S1x768 .f32) (harg2 : arg2.IsWhole) (arg3 : Memref sig .tc .vmem S1x2048 .f32) (harg3 : arg3.IsWhole) (arg4 : Memref sig .tc .vmem S768x2048 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole)
    (x0 : Vec F S1x1024 .f32) (x1 : Vec F S768x1024 .f32) (x2 : Vec F S1x768 .f32) (x3 : Vec F S1x2048 .f32) (x4 : Vec F S768x2048 .f32) (x5 : Vec F S1x768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2) ∗ owns (c : Thread nD τ) arg7 fullShare (out2_7 x3 x4 x5)) -∗ K ⟨⟩))
      ⊢ wp frame (wpE (defs₀ (F := F)) Variants.none c none) E (cc2__gru_parts_kernel i arg0 harg0 arg1 harg1 arg2 harg2 arg3 harg3 arg4 harg4 arg5 harg5 arg6 harg6 arg7 harg7) K := by
  simp only [cc2__gru_parts_kernel_eq_skeleton]; unfold cc2__gru_parts_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_6 _)

/-! ## The pipeline's proof data -/

/-- The proof data of pipeline 2 on core `c`: the arrays as the region finds them (`V`); after the body at
    point `t` each input's buffer at its block and each output's at `out2_W` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t)
    | ⟨7, _⟩ => out2_7 (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) := by dsimp only [dat2]
theorem after2_7 (c : Dev nD) (t : Fin cfg2.N) : (dat2 V c).after 7 t = out2_7 (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3.lean ====
/-
  REGION 3 of @main, the output projection, at the contents V the region is entered with.

  The call is a pipeline over a grid of 25 points and four windows: window 0 is the row vector x (1 x 2048, one
  block, the whole array, brought in once and kept); window 1 is the matrix W (50257 x 2048) in blocks of 2048
  rows; window 2 is the bias b (1 x 50257) in blocks of 2048 lanes; window 3 is the result (1 x 50257) in
  blocks of 2048 lanes. At each point the body reads the three input blocks whole and stores
  x * (block of W)^T + (block of b) into the result's block.

  50257 = 24 * 2048 + 1105, so the last block of windows 1, 2 and 3 overhangs its array: the transfers are cut
  to the part inside the array, and the rows of W's staging block and the lanes of b's past the array's end hold
  words nothing names. The body computes from those words too. What it leaves in the result's block is
  therefore stated twice:

  * with the result's window FORGOTTEN (its buffer taken and handed back at any contents), for every float
    type;
  * EXACTLY on the lanes inside the array, as the payload of the blocks filled out with the zero word, under
    the hypothesis that the payload's lanes inside the array depend only on the rows of W and the lanes of b
    inside the array (RowLocal3).

  Both come from one triple for the body (sound_body3), which is closed at the two posts.
-/
import proofs.«418679_j86887188398769_3_alg».proof.Proof.Gen.Kernel.Launch
import proofs.«418679_j86887188398769_3_alg».proof.Proof.Gen.Kernel.Skeleton
import proofs.«418679_j86887188398769_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window w's block at point t, its part inside the array, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of W at point t filled out, past the array's end, with the zero word. -/
def zfill3_1 (c : Dev nD) (t : Fin cfg3.N) : Vec F S2048x2048 .f32 :=
  win3_1.fill (grid3.coords t) (fun _ => Scalar.ofBits .f32 0#32) (iblk3 V c 1 t)

/-- The block of b at point t filled out, past the array's end, with the zero word. -/
def zfill3_2 (c : Dev nD) (t : Fin cfg3.N) : Vec F S1x2048 .f32 :=
  win3_2.fill (grid3.coords t) (fun _ => Scalar.ofBits .f32 0#32) (iblk3 V c 2 t)

/-- x's window is never cut and its block index never moves: its staging buffer holds the whole of x at every
    point, fetched there or not, for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x2048 := Rect.unit (s := S1x2048) ![0, 0] S1x2048.size inb_S1x2048_S1x2048_0_0
abbrev r3_1 : Rect S2048x2048 := Rect.unit (s := S2048x2048) ![0, 0] S2048x2048.size inb_S2048x2048_S2048x2048_0_0

/-- The whole-buffer rectangles sit at offset zero. -/
theorem off3 : (![0, 0] : Fin 2 → ℕ) = fun _ => 0 := funext fun a => by fin_cases a <;> rfl

/-! ## What the body leaves in the result's buffer -/

/-- The result's staging buffer after the body, from what the three input buffers hold: its one store, through the
    whole buffer, of the payload of the three whole loads. -/
def out3_3 (x0 : Vec F S1x2048 .f32) (x1 : Vec F S2048x2048 .f32) (x2 : Vec F S1x2048 .f32) : Vec F S1x2048 .f32 :=
  View.canon [⟨r3_0, k3_pay1 (View.ld x0 r3_0) (View.ld x1 r3_1) (View.ld x2 r3_0)⟩]

/-- One store through the whole buffer leaves its payload, and a load through the whole buffer reads the
    contents: the buffer ends at x * W^T + b of what the input buffers hold. -/
theorem out3_3_eq (x0 : Vec F S1x2048 .f32) (x1 : Vec F S2048x2048 .f32) (x2 : Vec F S1x2048 .f32) :
    out3_3 x0 x1 x2 = k3_pay1 x0 x1 x2 := by
  unfold out3_3
  rw [View.canon_unit_zero off3, View.ld_unit_zero off3, View.ld_unit_zero off3, View.ld_unit_zero off3]

/-- The one store covers the buffer. -/
theorem cover3_3 (p0 : Vec F S1x2048 .f32) (y : S1x2048.Idx) :
    ∃ pc ∈ ([⟨r3_0, p0⟩] : List (View.Piece (Elt F) S1x2048 .f32)), y ∈ pc.1.set :=
  ⟨_, List.mem_singleton_self _, View.mem_set_unit_zero off3 inb_S1x2048_S1x2048_0_0 y⟩

/-! ## The body's triple -/

set_option maxHeartbeats 1000000 in
/-- The body on whole staging memrefs, the three inputs' at read contents x0, x1, x2 and the result's at anything, runs
    to the continuation holding the inputs' as they were and the result's at out3_3 of them: three whole loads, a load
    of the result's buffer nothing uses, one whole store. -/
theorem sound_kernel3 (c : Dev nD) (E : Set ℕ) (i : grid3.Coords)
    (arg1 : Memref sig .tc .vmem S1x2048 .f32) (harg1 : arg1.IsWhole) (arg2 : Memref sig .tc .vmem S2048x2048 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out3_3 x0 x1 x2)) -∗ K ⟨⟩))
      ⊢ wp frame (wpE (defs₀ (F := F)) Variants.none c none) E (cc3__out_proj_kernel i arg1 harg1 arg2 harg2 arg3 harg3 arg4 harg4) K := by
  simp only [cc3__out_proj_kernel_eq_skeleton]; unfold cc3__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the pipeline on core c: the arrays as the region finds them; after the body at point t, x's
    buffer at x, W's and b's at their blocks filled out with the zero word, the result's at the payload of those; the
    invariant of a body that keeps nothing from point to point; nothing owed; full shares. Only the rows and lanes
    inside the arrays of the three cut windows' entries are ever asked for. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => zfill3_1 V c t
    | ⟨2, _⟩ => zfill3_2 V c t
    | ⟨3, _⟩ => out3_3 (iblk3 V c 0 t) (zfill3_1 V c t) (zfill3_2 V c t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = zfill3_1 V c t := by dsimp only [dat3]
theorem after3_2 (c : Dev nD) (t : Fin cfg3.N) : (dat3 V c).after 2 t = zfill3_2 V c t := by dsimp only [dat3]
theorem after3_3 (c : Dev nD) (t : Fin cfg3.N) :
    (dat3 V c).after 3 t = out3_3 (iblk3 V c 0 t) (zfill3_1 V c t) (zfill3_2 V c t) := by dsimp only [dat3]

/-- x's staging buffer holds x at every point. -/
theorem before3_0 (c : Dev nD) (t : Fin cfg3.N) (d) : (dat3 V c).before 0 t d = iblk3 V c 0 t :=
  before3_0_of V (dat3 V c) (A_eq3 V c 0) (after3_0 V c) t d

/-- W's and b's are fetched at every point: each buffer holds its block on the part inside the array and, past the
    array's end, whatever d the cut transfer left there. -/
theorem before3_1 (c : Dev nD) (t : Fin cfg3.N) (d) :
    (dat3 V c).before 1 t d = win3_1.fill (grid3.coords t) d (iblk3 V c 1 t) := by
  unfold Dat.before; rw [if_pos (fetch3_1 t)]; rfl
theorem before3_2 (c : Dev nD) (t : Fin cfg3.N) (d) :
    (dat3 V c).before 2 t d = win3_2.fill (grid3.coords t) d (iblk3 V c 2 t) := by
  unfold Dat.before; rw [if_pos (fetch3_2 t)]; rfl

/-- The zero-filled blocks, cut back to the array, are the blocks. -/
theorem cut_zfill3_1 (c : Dev nD) (t : Fin cfg3.N) : win3_1.cut (grid3.coords t) (zfill3_1 V c t) = iblk3 V c 1 t :=
  win3_1.cut_fill _ _ _
theorem cut_zfill3_2 (c : Dev nD) (t : Fin cfg3.N) : win3_2.cut (grid3.coords t) (zfill3_2 V c t) = iblk3 V c 2 t :=
  win3_2.cut_fill _ _ _

/-! ## The body at a generic point -/

/-- What the body stores in the result's buffer at point t when the cut fetches left d1 and d2 past the arrays' ends: the
    payload of x, of W's block filled out with d1 and of b's filled out with d2. -/
def stored3 (c : Dev nD) (t : Fin cfg3.N) (d1 : Vec F S2048x2048 .f32) (d2 : Vec F S1x2048 .f32) : Vec F S1x2048 .f32 :=
  out3_3 (iblk3 V c 0 t) (win3_1.fill (grid3.coords t) d1 (iblk3 V c 1 t)) (win3_2.fill (grid3.coords t) d2 (iblk3 V c 2 t))

set_option maxHeartbeats 1000000 in
/-- The body at any point, on the point's staging buffers: the inputs' arrive holding x and the two blocks filled out
    with d1, d2; they leave as they came, which on the rows and lanes inside the arrays is what the proof data name,
    and the result's buffer, taken at anything, leaves holding stored3. -/
theorem sound_body3 (c : Dev nD) (t : Fin cfg3.N) (d0 : Vec F S1x2048 .f32) (d1 : Vec F S2048x2048 .f32) (d2 : Vec F S1x2048 .f32)
    (K : PUnit → sProp 𝕄) :
    iprop(owns (c : Thread nD τ) (st3_0 t) fullShare ((dat3 V c).before 0 t d0)
        ∗ owns (c : Thread nD τ) (st3_1 t) fullShare ((dat3 V c).before 1 t d1)
        ∗ owns (c : Thread nD τ) (st3_2 t) fullShare ((dat3 V c).before 2 t d2)
        ∗ (∃ X, owns (c : Thread nD τ) (st3_3 t) fullShare X)
        ∗ (iprop(owns (c : Thread nD τ) (st3_0 t) fullShare ((dat3 V c).after 0 t)
              ∗ owns (c : Thread nD τ) (st3_1 t) fullShare (win3_1.fill (grid3.coords t) d1 (win3_1.cut (grid3.coords t) ((dat3 V c).after 1 t)))
              ∗ owns (c : Thread nD τ) (st3_2 t) fullShare (win3_2.fill (grid3.coords t) d2 (win3_2.cut (grid3.coords t) ((dat3 V c).after 2 t)))
              ∗ owns (c : Thread nD τ) (st3_3 t) fullShare (stored3 V c t d1 d2)) -∗ K ⟨⟩))
      ⊢ wp frame (wpE (defs₀ (F := F)) Variants.none c none) Set.univ (bodyAt3 t) K := by
  rw [before3_0, before3_1, before3_2, after3_0, after3_1, after3_2, cut_zfill3_1, cut_zfill3_2]
  unfold stored3 bodyAt3
  iintro ⟨H0, H1, H2, H3, Hk⟩
  iapply (sound_kernel3 c Set.univ _ _ _ _ _ _ _ _ _ (iblk3 V c 0 t) (win3_1.fill (grid3.coords t) d1 (iblk3 V c 1 t))
    (win3_2.fill (grid3.coords t) d2 (iblk3 V c 2 t)) _)
  isplitl [H0]; · iexact H0
  isplitl [H1]; · iexact H1
  isplitl [H2]; · iexact H2
  isplitl [H3]; · iexact H3
  iexact Hk

/-! ## The body obligation, the result's window forgotten -/

/-- The windows the first form forgets: the result's. -/
abbrev fgtOut3 : Fin cfg3.W → Bool := fun w => match w with | ⟨3, _⟩ => true | _ => false

theorem fgtOut3_0 : fgtOut3 0 = false := rfl
theorem fgtOut3_1 : fgtOut3 1 = false := rfl
theorem fgtOut3_2 : fgtOut3 2 = false := rfl
theorem fgtOut3_3 : fgtOut3 3 = true := rfl

set_option maxHeartbeats 1000000 in
/-- At every point and for every float type: the result's buffer is taken at any contents and handed back at any. -/
theorem body_obligation3_forget (c : Dev nD) :
    BodyObligationLoose (dat3 (F := F) V c) (defs₀ (F := F)) Variants.none () Set.univ fgtOut3 := fun t => by
  rw [bigSep_W3, bigSep_W3]
  simp only [fgtOut3_0, fgtOut3_1, fgtOut3_2, fgtOut3_3]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, H3⟩
  iapply (sound_body3 V c t d0 d1 d2 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

/-! ## The body obligation, exact on the lanes inside the array -/

/-- The lanes of the payload inside the array depend only on the rows of W and the lanes of b inside the array. -/
def RowLocal3 (F : FTy → Type) [FloatOps F] : Prop :=
  ∀ (t : Fin cfg3.N) (x0 : Vec F S1x2048 .f32) (W W' : Vec F S2048x2048 .f32) (b b' : Vec F S1x2048 .f32),
    win3_1.cut (grid3.coords t) W = win3_1.cut (grid3.coords t) W' →
    win3_2.cut (grid3.coords t) b = win3_2.cut (grid3.coords t) b' →
    win3_3.cut (grid3.coords t) (k3_pay1 x0 W b) = win3_3.cut (grid3.coords t) (k3_pay1 x0 W' b')

/-- Under that hypothesis what the body stored agrees, on the lanes inside the array, with the payload of the
    zero-filled blocks: filling the stored block with those lanes changes nothing. -/
theorem fill_stored3 (hloc : RowLocal3 F) (c : Dev nD) (t : Fin cfg3.N) (d1 : Vec F S2048x2048 .f32) (d2 : Vec F S1x2048 .f32) :
    win3_3.fill (grid3.coords t) (stored3 V c t d1 d2) (win3_3.cut (grid3.coords t) ((dat3 V c).after 3 t))
      = stored3 V c t d1 d2 := by
  rw [after3_3]
  apply win3_3.fill_congr_cut
  unfold stored3
  rw [out3_3_eq, out3_3_eq]
  exact hloc t _ _ _ _ _ ((win3_1.cut_fill _ _ _).trans (cut_zfill3_1 V c t).symm)
    ((win3_2.cut_fill _ _ _).trans (cut_zfill3_2 V c t).symm)

set_option maxHeartbeats 1000000 in
/-- At every point, nothing forgotten: the result's buffer is handed back holding, on the lanes inside the array, the
    payload of x and the zero-filled blocks of W and b, and past the array's end what the body stored there. -/
theorem body_obligation3_exact (hloc : RowLocal3 F) (c : Dev nD) :
    BodyObligationLoose (dat3 (F := F) V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  iapply (sound_body3 V c t d0 d1 d2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (stored3 V c t d1 d2)
  change _ ⊢ owns (c : Thread nD τ) (st3_3 t) fullShare
    (win3_3.fill (grid3.coords t) (stored3 V c t d1 d2) (win3_3.cut (grid3.coords t) ((dat3 V c).after 3 t)))
  rw [fill_stored3 V hloc c t d1 d2]; try iexact H3

end Cert.Kernel.Fr
end
-- ==== Proof.K.RunA.lean ====
/-
  The run of the four-region program as ONE statement, at any float instance: every weakly fair execution of @main
  terminates without a fault, and every final memory holds each unscoped buffer at the contents obtained by folding
  @main's items over the launch memory — a host stretch applies its operations (`StableHlo.after`), a region
  replaces its windows' arrays by what its write-backs leave. The last region's blocks overhang their arrays, and
  the lanes of its result that lie inside the array may or may not be determined by the rows inside the array
  (they are when the contraction is row-local; nothing says so for a matrix unit whose term is a function of the
  whole right operand). So the result array of that region is carried as an UNKNOWN `x` constrained by the relation
  the proof data allows (`ArrAt`): with the output window forgotten the relation says nothing and the statement is
  the frame's; with nothing forgotten it pins `x` to the exact fold of the write-backs.
-/
import proofs.«418679_j86887188398769_3_alg».proof.Proof.K.Reg0
import proofs.«418679_j86887188398769_3_alg».proof.Proof.K.Reg1
import proofs.«418679_j86887188398769_3_alg».proof.Proof.K.Reg2
import proofs.«418679_j86887188398769_3_alg».proof.Proof.K.Reg3
import proofs.«418679_j86887188398769_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- The type of the last region's result array on core `c`. -/
abbrev Res3 (c : Dev nD) : Type := Buf (Elt F) ((cfg3.win 3).arr.view.loc (c : Thread nD τ))

/-- The last region's arrays at its exit: the three inputs as entered, the result at `x`. -/
def arrs3 (c : Dev nD) (x : Res3 (F := F) c) : (w : Fin cfg3.W) → Buf (Elt F) ((cfg3.win w).arr.view.loc (c : Thread nD τ))
  | ⟨0, _⟩ => (dat3 (V7 m) c).A 0
  | ⟨1, _⟩ => (dat3 (V7 m) c).A 1
  | ⟨2, _⟩ => (dat3 (V7 m) c).A 2
  | ⟨3, _⟩ => x
/-- At region 3's exit, its result array at `x`. -/
def W8 (c : Dev nD) (x : Res3 (F := F) c) : Valuation τ sig (Elt F) :=
  Pipeline.withArrays spec3 c (W7 m c) (arrs3 m c x)
abbrev V8 (c : Dev nD) (x : Res3 (F := F) c) : (b : Ref sig .tc) → Buf (Elt F) ((c : Thread nD τ).loc b) := fun b => W8 m c x b
abbrev W9 (c : Dev nD) (x : Res3 (F := F) c) : Valuation τ sig (Elt F) := StableHlo.after hostOps4 (W8 m c x)
abbrev W10 (c : Dev nD) (x : Res3 (F := F) c) : Valuation τ sig (Elt F) := StableHlo.after hostOps4_1 (W9 m c x)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

theorem W8_arr (c : Dev nD) (x : Res3 (F := F) c) (w : Fin cfg3.W) :
    W8 m c x (Proc.devRef .tc (Pipeline.arrRef spec3 w)) = arrs3 m c x w := by
  unfold W8; exact Pipeline.withArrays_arr spec3 launch3.win.arr_inj c _ _ w
theorem W8_of_ne (c : Dev nD) (x : Res3 (F := F) c) (b : Ref sig .tc) (hb : ∀ w, Pipeline.arrRef spec3 w ≠ b) :
    W8 m c x (Proc.devRef .tc b) = W7 m c (Proc.devRef .tc b) := by
  unfold W8; exact Pipeline.withArrays_of_ne spec3 c _ _ b hb
theorem hF3 (c : Dev nD) (x : Res3 (F := F) c) (w : Fin cfg3.W) : arrs3 m c x w = V8 m c x (Pipeline.arrRef spec3 w) :=
  (W8_arr m c x w).symm
theorem hrest3 (c : Dev nD) (x : Res3 (F := F) c) : ∀ b, b ∉ Finset.univ.image (Pipeline.arrRef spec3) → V8 m c x b = V7 m c b :=
  fun b hb => W8_of_ne m c x b fun w e => hb (Finset.mem_image.mpr ⟨w, Finset.mem_univ _, e⟩)

/-! ## A buffer no item writes keeps its launch contents -/

/-- A region leaves a buffer that is none of its OUTPUT windows' arrays as it found it: an input window's array is
    only read (`Dat.arrAt_in`), any other buffer bypasses the region. -/
theorem W2_keep (c : Dev nD) (b : Ref sig .tc) (hb : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (V1 m) c).arrAt_in w (hb w rfl) _).trans (A_eq0 (V1 m) c w))
  · exact W2_of_ne m c b fun w e => h ⟨w, e⟩
theorem W4_keep (c : Dev nD) (b : Ref sig .tc) (hb : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((dat1 (V3 m) c).arrAt_in w (hb w rfl) _).trans (A_eq1 (V3 m) c w))
  · exact W4_of_ne m c b fun w e => h ⟨w, e⟩
theorem W6_keep (c : Dev nD) (b : Ref sig .tc) (hb : ∀ w, Pipeline.arrRef spec2 w = b → (cfg2.win w).isOut = false) :
    W6 m c (Proc.devRef .tc b) = W5 m c (Proc.devRef .tc b) := by
  by_cases h : ∃ w, Pipeline.arrRef spec2 w = b
  · obtain ⟨w, rfl⟩ := h
    exact (W6_arr m c w).trans (((dat2 (V5 m) c).arrAt_in w (hb w rfl) _).trans (A_eq2 (V5 m) c w))
  · exact W6_of_ne m c b fun w e => h ⟨w, e⟩
theorem W8_keep (c : Dev nD) (x : Res3 (F := F) c) (b : Ref sig .tc) (hb : ∀ w, Pipeline.arrRef spec3 w = b → w ≠ 3) :
    W8 m c x (Proc.devRef .tc b) = W7 m c (Proc.devRef .tc b) := by
  by_cases h : ∃ w, Pipeline.arrRef spec3 w = b
  · obtain ⟨w, rfl⟩ := h
    refine (W8_arr m c x w).trans ?_
    have hw := hb w rfl
    match w, hw with
    | ⟨0, _⟩, _ => exact A_eq3 (V7 m) c 0
    | ⟨1, _⟩, _ => exact A_eq3 (V7 m) c 1
    | ⟨2, _⟩, _ => exact A_eq3 (V7 m) c 2
    | ⟨3, _⟩, hw => exact absurd rfl hw
  · exact W8_of_ne m c x b fun w e => h ⟨w, e⟩

/-- A buffer that no host stretch writes and that is no region's output array ends as launched. -/
theorem W10_keep (c : Dev nD) (x : Res3 (F := F) c) (b : Ref sig .tc)
    (h0 : b ∉ hostOps0_W) (h1 : b ∉ hostOps1_W) (h2 : b ∉ hostOps2_W) (h3 : b ∉ hostOps3_W) (h4 : b ∉ hostOps4_W) (h5 : b ∉ hostOps4_1_W)
    (k0 : ∀ w, Pipeline.arrRef spec0 w = b → (cfg0.win w).isOut = false) (k1 : ∀ w, Pipeline.arrRef spec1 w = b → (cfg1.win w).isOut = false)
    (k2 : ∀ w, Pipeline.arrRef spec2 w = b → (cfg2.win w).isOut = false) (k3 : ∀ w, Pipeline.arrRef spec3 w = b → w ≠ 3) :
    W10 m c x (Proc.devRef .tc b) = m ((c : Thread nD τ).loc b) :=
  calc W10 m c x (Proc.devRef .tc b)
    _ = W9 m c x (Proc.devRef .tc b) := StableHlo.after_of_writes_sub hostOps4_1 _ hostOps4_1_writes h5
    _ = W8 m c x (Proc.devRef .tc b) := StableHlo.after_of_writes_sub hostOps4 _ hostOps4_writes h4
    _ = W7 m c (Proc.devRef .tc b) := W8_keep m c x b k3
    _ = W6 m c (Proc.devRef .tc b) := StableHlo.after_of_writes_sub hostOps3 _ hostOps3_writes h3
    _ = W5 m c (Proc.devRef .tc b) := W6_keep m c b k2
    _ = W4 m c (Proc.devRef .tc b) := StableHlo.after_of_writes_sub hostOps2 _ hostOps2_writes h2
    _ = W3 m c (Proc.devRef .tc b) := W4_keep m c b k1
    _ = W2 m c (Proc.devRef .tc b) := StableHlo.after_of_writes_sub hostOps1 _ hostOps1_writes h1
    _ = W1 m c (Proc.devRef .tc b) := W2_keep m c b k0
    _ = W0 m c (Proc.devRef .tc b) := StableHlo.after_of_writes_sub hostOps0 _ hostOps0_writes h0
    _ = m ((c : Thread nD τ).loc b) := rfl

end Cert.Kernel.Fr

end
-- ==== Proof.K.RunB.lean ====
/-
  The four regions as segments of @main and the launch: the proof data family (exact data, the last region's read as
  relational data with a mask of forgotten windows), each region entered from "every unscoped buffer at the boundary's
  contents, the generator register at some state, nothing owed" and left at the next boundary's; after the last region
  the result array is an unknown `x` the thread state quantifies, beside the relation the data allows of it.
-/
import proofs.«418679_j86887188398769_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

abbrev adm : (p : Fin 4) → (pcfgs (F := F) p).Adm := fun p => (cfgs p).toPCfg_adm

/-- Every pipeline's exact proof data, each at its region's entry contents (a literal match). -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c

variable (fgt3 : Fin cfg3.W → Bool)

/-- The same read as relational data; the last region's with the windows `fgt3` marks forgotten. -/
def rdats : (p : Fin 4) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toR
  | ⟨3, _⟩ => fun c => (dat3 (V7 m) c).toRForget fgt3

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- What is known of the last region's result array `x` on core `c`. -/
abbrev Known (c : Dev nD) (x : Res3 (F := F) c) : Prop := ((dat3 (V7 m) c).toRForget fgt3).ArrAt 3 cfg3.N x

/-- A host stretch after the last region: the same line of operations from the buffers at `W x`, for the unknown `x`. -/
def hsegX (ops : List (HloOp τ sig (Elt F))) (hsub : ops.Forall fun op => op.bufs ⊆ StableHlo.tcRefs τ sig)
    (hfresh : ops.Forall fun op => op.fresh = ∅) (W : (c : Dev nD) → Res3 (F := F) c → Valuation τ sig (Elt F)) :
    Pipeline.HostSeg (Name := ℕ) (U := UR sig nD τ) (pcfgs (F := F)) defs₀ 𝒱₀ L lv where
  prog := StableHlo.seq ops
  pre c := iprop(∃ x, ⌜Known m fgt3 c x⌝ ∗ StableHlo.held (c : Thread nD τ) (Pipeline.ucRefs τ sig) (W c x) ∗ R c)
  post c := iprop(∃ x, ⌜Known m fgt3 c x⌝ ∗ StableHlo.held (c : Thread nD τ) (Pipeline.ucRefs τ sig) (StableHlo.after ops (W c x)) ∗ R c)
  run c {β} k K := by
    iintro ⟨Hk, Hbd, ⟨%x, %hx, Hh, HR⟩, Hl⟩
    have hrun := (hseg ops hsub hfresh (fun _ => W c x)).run c k K
    dsimp only [hseg, Pipeline.HostSeg.ofOps] at hrun
    iapply hrun
    isplitl [Hk]
    · iintro ⟨Hbd, Hh, HR⟩
      iapply Hk
      isplitl [Hbd]; · iexact Hbd
      iexists x
      isplitr; · ipureintro; exact hx
      isplitl [Hh]; · iexact Hh
      iexact HR
    isplitl [Hbd]; · iexact Hbd
    isplitl [Hh HR]
    · isplitl [Hh]; · iexact Hh
      iexact HR
    iexact Hl

/-- An array of the last region held at contents `G`. -/
abbrev pt3 {c : Dev nD} (dat : Dat τ (Elt F) Unit ℕ (UR sig nD τ) ℕ cfg3 c) (w : Fin cfg3.W)
    (G : Buf (Elt F) ((cfg3.win w).arr.view.loc (c : Thread nD τ))) : sProp 𝕄 :=
  (cfg3.win w).arr.view.loc (c : Thread nD τ) ↦[(cfg3.win w).arr.view.set]{dat.share w} G

/-- The last region's arrays after every write-back, opened: the three inputs are as entered (an input array is only read),
    the result is SOME contents the relation allows. For any exact data of that pipeline read with a mask that forgets no input. -/
theorem arraysAt3_open {c : Dev nD} (dat : Dat τ (Elt F) Unit ℕ (UR sig nD τ) ℕ cfg3 c) (fgt : Fin cfg3.W → Bool)
    (hf : fgt 0 = false ∧ fgt 1 = false ∧ fgt 2 = false) (n : Nat) :
    ((dat.toRForget fgt).arraysAt n : sProp 𝕄)
      ⊢ iprop(∃ x, ⌜(dat.toRForget fgt).ArrAt 3 n x⌝ ∗ pt3 dat 0 (dat.A 0) ∗ pt3 dat 1 (dat.A 1) ∗ pt3 dat 2 (dat.A 2) ∗ pt3 dat 3 x) := by
  unfold Pipeline.RDat.arraysAt
  rw [bigSep_W3]
  iintro ⟨⟨%F0, %h0, H0⟩, ⟨%F1, %h1, H1⟩, ⟨%F2, %h2, H2⟩, ⟨%x, %hx, H3⟩⟩
  have e0 : F0 = dat.A 0 := ((dat.toRForget_arrAt_iff hf.1 _ _).mp h0).trans (dat.arrAt_in 0 rfl _)
  have e1 : F1 = dat.A 1 := ((dat.toRForget_arrAt_iff hf.2.1 _ _).mp h1).trans (dat.arrAt_in 1 rfl _)
  have e2 : F2 = dat.A 2 := ((dat.toRForget_arrAt_iff hf.2.2 _ _).mp h2).trans (dat.arrAt_in 2 rfl _)
  subst e0 e1 e2
  iexists x
  isplitr; · ipureintro; exact hx
  isplitl [H0]; · iexact H0
  isplitl [H1]; · iexact H1
  isplitl [H2]; · iexact H2
  iexact H3

/-- Four arrays held at the values a family `G` takes are the arrays at `G`. -/
theorem arrays3_close {c : Dev nD} (dat : Dat τ (Elt F) Unit ℕ (UR sig nD τ) ℕ cfg3 c)
    (G : (w : Fin cfg3.W) → Buf (Elt F) ((cfg3.win w).arr.view.loc (c : Thread nD τ)))
    (a0 : Buf (Elt F) ((cfg3.win 0).arr.view.loc (c : Thread nD τ))) (a1 : Buf (Elt F) ((cfg3.win 1).arr.view.loc (c : Thread nD τ)))
    (a2 : Buf (Elt F) ((cfg3.win 2).arr.view.loc (c : Thread nD τ))) (a3 : Buf (Elt F) ((cfg3.win 3).arr.view.loc (c : Thread nD τ)))
    (h0 : G 0 = a0) (h1 : G 1 = a1) (h2 : G 2 = a2) (h3 : G 3 = a3) :
    iprop(pt3 dat 0 a0 ∗ pt3 dat 1 a1 ∗ pt3 dat 2 a2 ∗ pt3 dat 3 a3) ⊢ (dat.arrays G : sProp 𝕄) := by
  subst h0 h1 h2 h3
  unfold Pipeline.Dat.arrays
  rw [bigSep_W3]

/-- At the last region's exit the inputs' arrays read back as entered and the result's as `x`. -/
theorem V8_in0 (c : Dev nD) (x : Res3 (F := F) c) : V8 m c x (Pipeline.arrRef spec3 0) = (dat3 (V7 m) c).A 0 := W8_arr m c x 0
theorem V8_in1 (c : Dev nD) (x : Res3 (F := F) c) : V8 m c x (Pipeline.arrRef spec3 1) = (dat3 (V7 m) c).A 1 := W8_arr m c x 1
theorem V8_in2 (c : Dev nD) (x : Res3 (F := F) c) : V8 m c x (Pipeline.arrRef spec3 2) = (dat3 (V7 m) c).A 2 := W8_arr m c x 2
theorem V8_out (c : Dev nD) (x : Res3 (F := F) c) : V8 m c x (Pipeline.arrRef spec3 3) = x := W8_arr m c x 3

/-! ## The regions as segments -/

set_option backward.isDefEq.respectTransparency.types false in
/-- Region 0 over the thread state: entered from every unscoped buffer at the contents before it, left at the contents
    after it. Its arrays split out of the unscoped buffers and put back at what the write-backs leave; the generator
    register into the region's invariant and out; nothing owed; no semaphore of the kernel's own. -/
def reg0 : Pipeline.RDat.RegionSeg (pcfgs (F := F)) adm (rdats m fgt3) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (V1 m) c).loose).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m fgt3) launch0.win launch0.arr_whole c
      ((rdats m fgt3 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    refine (sep_mono (Entails.of_eq ((dat0 (V1 m) c).toR_arraysAt_eq cfg0.N)) .rfl).trans ?_
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

set_option backward.isDefEq.respectTransparency.types false in
/-- Region 1 over the thread state: entered from every unscoped buffer at the contents before it, left at the contents
    after it. Its arrays split out of the unscoped buffers and put back at what the write-backs leave; the generator
    register into the region's invariant and out; nothing owed; no semaphore of the kernel's own. -/
def reg1 : Pipeline.RDat.RegionSeg (pcfgs (F := F)) adm (rdats m fgt3) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (V3 m) c).loose).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m fgt3) launch1.win launch1.arr_whole c
      ((rdats m fgt3 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    refine (sep_mono (Entails.of_eq ((dat1 (V3 m) c).toR_arraysAt_eq cfg1.N)) .rfl).trans ?_
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

set_option backward.isDefEq.respectTransparency.types false in
/-- Region 2 over the thread state: entered from every unscoped buffer at the contents before it, left at the contents
    after it. Its arrays split out of the unscoped buffers and put back at what the write-backs leave; the generator
    register into the region's invariant and out; nothing owed; no semaphore of the kernel's own. -/
def reg2 : Pipeline.RDat.RegionSeg (pcfgs (F := F)) adm (rdats m fgt3) () defs₀ 𝒱₀ L lv 2 where
  win := launch2.win.to₀
  block_pos := launch2.block_pos
  stage_whole := launch2.stage_whole
  K := PEmpty
  osem k := k.elim
  ho := Pipeline.OwnSemFacts.none _
  hbody c := ((body_obligation2 (V5 m) c).loose).toR
  hwaits := Pipeline.RDat.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m fgt3) launch2.win launch2.arr_whole c
      ((rdats m fgt3 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m fgt3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    refine (sep_mono (Entails.of_eq ((dat2 (V5 m) c).toR_arraysAt_eq cfg2.N)) .rfl).trans ?_
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

variable (hf3 : fgt3 0 = false ∧ fgt3 1 = false ∧ fgt3 2 = false)
variable (hbody3 : ∀ c, BodyObligationLoose (dat3 (F := F) (V7 m) c) (defs₀ (F := F)) Variants.none () Set.univ fgt3)

set_option maxHeartbeats 8000000 in
set_option backward.isDefEq.respectTransparency.types false in
/-- The last region: entered from every unscoped buffer at the contents before it; left with its result array at SOME
    contents `x` the relational data allows (`Known`), every other buffer as entered. -/
def reg3 : Pipeline.RDat.RegionSeg (pcfgs (F := F)) adm (rdats m fgt3) () defs₀ 𝒱₀ L lv 3 where
  win := launch3.win.to₀
  block_pos := launch3.block_pos
  stage_whole := launch3.stage_whole
  K := PEmpty
  osem k := k.elim
  ho := Pipeline.OwnSemFacts.none _
  hbody c := (hbody3 c).toRForget
  hwaits := Pipeline.RDat.hwaits_of_owed_zero _ _ _ _ L lv 3 fun _ _ => rfl
  pre c := iprop(StableHlo.held (c : Thread nD τ) (Pipeline.ucRefs τ sig) (W7 m c) ∗ R c)
  post c := iprop(∃ x, ⌜Known m fgt3 c x⌝ ∗ StableHlo.held (c : Thread nD τ) (Pipeline.ucRefs τ sig) (W8 m c x) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.RDat.arrays_of_unscopedBufs (p := 3) (pcfgs (F := F)) adm (rdats m fgt3) launch3.win launch3.arr_whole c
      ((rdats m fgt3 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m fgt3 3 c).Φ (Fin.last _) = Pipeline.ΦA spec3 c from rfl]; unfold Pipeline.ΦA
    iintro ⟨Hr, Hp⟩
    isplitl [Hp]; · iexact Hp
    isplitr; · iempintro
    iexact Hr
  hexit c := by
    refine (sep_mono (arraysAt3_open (dat3 (V7 m) c) fgt3 hf3 cfg3.N) .rfl).trans ?_
    iintro ⟨⟨%x, %hx, Hpts⟩, HO, HY, Hrest⟩
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c x) (fun w => V8 m c x (Pipeline.arrRef _ w)) (fun _ => rfl) (hrest3 m c x)
    rw [Pipeline.unscopedBufs_held] at hjoin
    have hclose := arrays3_close (dat3 (V7 m) c) (fun w => V8 m c x (Pipeline.arrRef spec3 w)) _ _ _ _
      (V8_in0 m c x) (V8_in1 m c x) (V8_in2 m c x) (V8_out m c x)
    imodintro
    iexists x
    isplitr; · ipureintro; exact hx
    isplitl [Hpts Hrest]
    · iapply hjoin
      isplitl [Hpts]
      · iapply hclose; iexact Hpts
      iexact Hrest
    isplitl [HY]; · iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m fgt3) () defs₀ 𝒱₀ L lv) :=
  [ .host (hseg hostOps0 hostOps0_sub hostOps0_fresh (W0 m)),
    .region (reg0 m fgt3),
    .host (hseg hostOps1 hostOps1_sub hostOps1_fresh (W2 m)),
    .region (reg1 m fgt3),
    .host (hseg hostOps2 hostOps2_sub hostOps2_fresh (W4 m)),
    .region (reg2 m fgt3),
    .host (hseg hostOps3 hostOps3_sub hostOps3_fresh (W6 m)),
    .region (reg3 m fgt3 hf3 hbody3),
    .host (hsegX m fgt3 hostOps4 hostOps4_sub hostOps4_fresh (W8 m)),
    .host (hsegX m fgt3 hostOps4_1 hostOps4_1_sub hostOps4_1_fresh (W9 m)) ]

/-- The last thread state without the `owes`. -/
abbrev Tₙ (c : Dev nD) : sProp 𝕄 :=
  iprop(∃ x, ⌜Known m fgt3 c x⌝ ∗ StableHlo.held (c : Thread nD τ) (Pipeline.ucRefs τ sig) (W10 m c x) ∗ ∃ r, prngReg c r)

include hf3 hbody3 in
set_option maxHeartbeats 8000000 in
set_option backward.isDefEq.respectTransparency.types false in
/-- THE RUN. From any memory with zero counters every weakly fair execution of @main terminates, nothing faulting, and
    on every core there is a result array `x` of the last region that the proof data allows, with every unscoped
    buffer of the final memory at the fold `W10 … x`. -/
theorem run_all : θ_run defs (onTc (τ := τ) (main (F := F))) ⟨m, fun _ => 0, ρ⟩ (fun r => ∀ c : Dev nD,
      ∃ x : Res3 (F := F) c, Known m fgt3 c x ∧ ∀ b ∈ Pipeline.ucRefs τ sig, r.2.mem (((c : Thread nD τ)).1, b) = W10 m c x b) :=
  Pipeline.RDat.θ_run_regions_kit (pcfgs (F := F)) adm (rdats m fgt3) () cellOf_inj emb₁ defs₀ 𝒱₀ L lv m ρ main (segs m fgt3 hf3 hbody3)
    (fun c Q => by
      rewrite [main_chain c, Pipeline.RDat.Seg.run_eq_chain,
        show (segs m fgt3 hf3 hbody3).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m fgt3)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(∃ x, ⌜Known m fgt3 c x⌝ ∗ StableHlo.held (c : Thread nD τ) (Pipeline.ucRefs τ sig) (W10 m c x) ∗ R c)
          ⊢ iprop(Tₙ m fgt3 c ∗ ∃ W, owes (c : Thread nD τ) (0 : CellTallies nD τ sig Unit) W)
        iintro ⟨%x, %hx, Hh, ⟨Hp, HO⟩⟩
        isplitr [HO]
        · iexists x
          isplitr; · ipureintro; exact hx
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ x : Res3 (F := F) c, Known m fgt3 c x ∧ ∀ b ∈ Pipeline.ucRefs τ sig, s.mem (((c : Thread nD τ)).1, b) = W10 m c x b)
    (hfin := fun c s' => by
      iintro ⟨⟨%x, %hx, Hh, -⟩, HSI⟩
      unfold StableHlo.held
      ihave Hr := (pointsTo_read_all (Pipeline.ucRefs τ sig) (fun b => (((c : Thread nD τ)).1, b)) (W10 m c x) s') $$ [Hh HSI]
      · isplitl [Hh] <;> iassumption
      icases Hr with ⟨%h, HSI⟩
      imodintro
      isplitr
      · ipureintro; exact ⟨x, hx, h⟩
      iexact HSI)
    (hQ := fun s h c => h c)

end Cert.Kernel.Fr

end
-- ==== Proof.K.RunC.lean ====
/-
  The frame of the program from its run: every argument array is a buffer that no host stretch writes and that is no
  region's output, so the fold of @main's items leaves it at its launch contents, whatever the last region's result is.
-/
import proofs.«418679_j86887188398769_3_alg».proof.Proof.K.RunB

set_option maxRecDepth 16384

noncomputable section

namespace Cert.Kernel.Fr

open Cert.Kernel Cert.Kernel.Gen
open Idealize.ShloMosaic Idealize.ShloMosaic.TcCoe
open Idealize.SL Idealize.SL.Sem
open Idealize.ShloMosaic.Pipeline (Dat RDat BodyObligationLoose)

variable {F : FTy → Type} [FloatOps F]
variable (m : (ℓ : Loc nD τ sig) → Buf (Elt F) ℓ) (ρ : Dev nD → PrngReg)

/-- An unscoped TensorCore reference is among those the final thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer of the final memory that no item writes holds its launch contents. -/
theorem arg_kept (c : Dev nD) (x : Res3 (F := F) c) (s : MemSt nD τ sig (Elt F))
    (hx : ∀ b ∈ Pipeline.ucRefs τ sig, s.mem (((c : Thread nD τ)).1, b) = W10 m c x b) (b : Ref sig .tc)
    (hu : ¬ (Proc.devRef .tc b : DevRef τ sig).isScoped)
    (h0 : b ∉ hostOps0_W) (h1 : b ∉ hostOps1_W) (h2 : b ∉ hostOps2_W) (h3 : b ∉ hostOps3_W) (h4 : b ∉ hostOps4_W) (h5 : b ∉ hostOps4_1_W)
    (k0 : ∀ w, Pipeline.arrRef spec0 w = b → (cfg0.win w).isOut = false) (k1 : ∀ w, Pipeline.arrRef spec1 w = b → (cfg1.win w).isOut = false)
    (k2 : ∀ w, Pipeline.arrRef spec2 w = b → (cfg2.win w).isOut = false) (k3 : ∀ w, Pipeline.arrRef spec3 w = b → w ≠ 3) :
    s.mem ((c.tc : Thread nD τ).loc b) = m ((c.tc : Thread nD τ).loc b) :=
  (hx (Proc.devRef .tc b) (mem_uc b hu)).trans (W10_keep m c x b h0 h1 h2 h3 h4 h5 k0 k1 k2 k3)

variable (fgt3 : Fin cfg3.W → Bool) (hf3 : fgt3 0 = false ∧ fgt3 1 = false ∧ fgt3 2 = false)
variable (hbody3 : ∀ c, BodyObligationLoose (dat3 (F := F) (V7 m) c) (defs₀ (F := F)) Variants.none () Set.univ fgt3)

include fgt3 hf3 hbody3 in
/-- THE FRAME, at any float instance: every weakly fair execution of @main terminates, nothing faulting, and every
    argument array ends as launched. -/
theorem frame_of_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    obtain ⟨x, -, hx⟩ := h c
    exact ⟨(arg_kept m c x r.2 hx main_arg0 (by decide) (by decide) (by decide) (by decide) (by decide) (by decide) (by decide) (by decide) (by decide) (by decide) (by decide)),
      (arg_kept m c x r.2 hx main_arg1 (by decide) (by decide) (by decide) (by decide) (by decide) (by decide) (by decide) (by decide) (by decide) (by decide) (by decide)),
      (arg_kept m c x r.2 hx main_arg2 (by decide) (by decide) (by decide) (by decide) (by decide) (by decide) (by decide) (by decide) (by decide) (by decide) (by decide)),
      (arg_kept m c x r.2 hx main_arg3 (by decide) (by decide) (by decide) (by decide) (by decide) (by decide) (by decide) (by decide) (by decide) (by decide) (by decide)),
      (arg_kept m c x r.2 hx main_arg4 (by decide) (by decide) (by decide) (by decide) (by decide) (by decide) (by decide) (by decide) (by decide) (by decide) (by decide)),
      (arg_kept m c x r.2 hx main_arg5 (by decide) (by decide) (by decide) (by decide) (by decide) (by decide) (by decide) (by decide) (by decide) (by decide) (by decide)),
      (arg_kept m c x r.2 hx main_arg6 (by decide) (by decide) (by decide) (by decide) (by decide) (by decide) (by decide) (by decide) (by decide) (by decide) (by decide)),
      (arg_kept m c x r.2 hx main_arg7 (by decide) (by decide) (by decide) (by decide) (by decide) (by decide) (by decide) (by decide) (by decide) (by decide) (by decide)),
      (arg_kept m c x r.2 hx main_arg8 (by decide) (by decide) (by decide) (by decide) (by decide) (by decide) (by decide) (by decide) (by decide) (by decide) (by decide)),
      (arg_kept m c x r.2 hx main_arg9 (by decide) (by decide) (by decide) (by decide) (by decide) (by decide) (by decide) (by decide) (by decide) (by decide) (by decide)),
      (arg_kept m c x r.2 hx main_arg10 (by decide) (by decide) (by decide) (by decide) (by decide) (by decide) (by decide) (by decide) (by decide) (by decide) (by decide)),
      (arg_kept m c x r.2 hx main_arg11 (by decide) (by decide) (by decide) (by decide) (by decide) (by decide) (by decide) (by decide) (by decide) (by decide) (by decide)),
      (arg_kept m c x r.2 hx main_arg12 (by decide) (by decide) (by decide) (by decide) (by decide) (by decide) (by decide) (by decide) (by decide) (by decide) (by decide)),
      (arg_kept m c x r.2 hx main_arg13 (by decide) (by decide) (by decide) (by decide) (by decide) (by decide) (by decide) (by decide) (by decide) (by decide) (by decide)),
      (arg_kept m c x r.2 hx main_arg14 (by decide) (by decide) (by decide) (by decide) (by decide) (by decide) (by decide) (by decide) (by decide) (by decide) (by decide)),
      (arg_kept m c x r.2 hx main_arg15 (by decide) (by decide) (by decide) (by decide) (by decide) (by decide) (by decide) (by decide) (by decide) (by decide) (by decide)),
      (arg_kept m c x r.2 hx main_arg16 (by decide) (by decide) (by decide) (by decide) (by decide) (by decide) (by decide) (by decide) (by decide) (by decide) (by decide)),
      (arg_kept m c x r.2 hx main_arg17 (by decide) (by decide) (by decide) (by decide) (by decide) (by decide) (by decide) (by decide) (by decide) (by decide) (by decide)),
      (arg_kept m c x r.2 hx main_arg18 (by decide) (by decide) (by decide) (by decide) (by decide) (by decide) (by decide) (by decide) (by decide) (by decide) (by decide))⟩)
    (run_all m ρ fgt3 hf3 hbody3)

end Cert.Kernel.Fr

end
-- ==== Proof.KI.Reg0.lean ====
/- REGION 0 of the decoder step, at the buffer contents V found when the region is entered.

   The region is one pipelined call on a grid of a single point with twelve windows, each the whole of its
   array and each with one staging buffer: windows 0-7 are inputs, windows 8-11 outputs.  The body reads every
   input buffer whole and stores every output buffer whole, once:
     window 8  <- the softmax of the text scores, from inputs 0, 1, 2;
     window 9  <- that softmax times the text values, from inputs 0, 1, 2, 3;
     window 10 <- the softmax of the image scores, from inputs 4, 5, 6;
     window 11 <- that softmax times the image values, from inputs 4, 5, 6, 7.
   (It also reads each output buffer once before storing it; nothing depends on what is read.)

   Stated here: each window's block at the point as read off V; what the body leaves in each output buffer, as
   the overlay of its one whole-buffer store over the loads through the whole-buffer rectangle, and the same
   as the payload applied directly (a whole-buffer load reads the contents, one whole-buffer store leaves its
   payload); the body's triple; the pipeline's proof data; and the body obligation at the one point. -/
import proofs.«418679_j86887188398769_3_alg».proof.Proof.Gen.KernelIdeal.Launch
import proofs.«418679_j86887188398769_3_alg».proof.Proof.Gen.KernelIdeal.Skeleton
import proofs.«418679_j86887188398769_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at the point, whatever was there before the fetch: for any
    proof data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: per buffer shape, the whole-buffer rectangle (offsets zero, the buffer's own sizes) -/

/-- The two zero offsets, as the constant function. -/
theorem r0_zeros : (![0, 0] : Fin 2 → Nat) = fun _ => 0 := funext fun a => by fin_cases a <;> rfl
abbrev r0_S1x3072 : Rect S1x3072 := Rect.unit (s := S1x3072) ![0, 0] S1x3072.size inb_S1x3072_S1x3072_0_0
abbrev r0_S50x3072 : Rect S50x3072 := Rect.unit (s := S50x3072) ![0, 0] S50x3072.size inb_S50x3072_S50x3072_0_0
abbrev r0_S1x50 : Rect S1x50 := Rect.unit (s := S1x50) ![0, 0] S1x50.size inb_S1x50_S1x50_0_0
abbrev r0_S50x1024 : Rect S50x1024 := Rect.unit (s := S50x1024) ![0, 0] S50x1024.size inb_S50x1024_S50x1024_0_0
abbrev r0_S1x75776 : Rect S1x75776 := Rect.unit (s := S1x75776) ![0, 0] S1x75776.size inb_S1x75776_S1x75776_0_0
abbrev r0_S36x75776 : Rect S36x75776 := Rect.unit (s := S36x75776) ![0, 0] S36x75776.size inb_S36x75776_S36x75776_0_0
abbrev r0_S1x36 : Rect S1x36 := Rect.unit (s := S1x36) ![0, 0] S1x36.size inb_S1x36_S1x36_0_0
abbrev r0_S36x2048 : Rect S36x2048 := Rect.unit (s := S36x2048) ![0, 0] S36x2048.size inb_S36x2048_S36x2048_0_0
abbrev r0_S1x1024 : Rect S1x1024 := Rect.unit (s := S1x1024) ![0, 0] S1x1024.size inb_S1x1024_S1x1024_0_0
abbrev r0_S1x2048 : Rect S1x2048 := Rect.unit (s := S1x2048) ![0, 0] S1x2048.size inb_S1x2048_S1x2048_0_0

/-! ## What the body leaves in each output window's buffer -/

/-- Window 8's staging buffer after the body: its one store, of the softmax of the text scores. -/
def out0_8 (x0 : Vec F S1x3072 .f32) (x1 : Vec F S50x3072 .f32) (x2 : Vec F S1x50 .f32) : Vec F S1x50 .f32 :=
  View.canon [⟨r0_S1x50, k0_pay3 (View.ld x0 r0_S1x3072) (View.ld x1 r0_S50x3072) (View.ld x2 r0_S1x50)⟩]

/-- Window 9's: the text context row. -/
def out0_9 (x0 : Vec F S1x3072 .f32) (x1 : Vec F S50x3072 .f32) (x2 : Vec F S1x50 .f32) (x3 : Vec F S50x1024 .f32) : Vec F S1x1024 .f32 :=
  View.canon [⟨r0_S1x1024, k0_pay4 (View.ld x0 r0_S1x3072) (View.ld x1 r0_S50x3072) (View.ld x2 r0_S1x50) (View.ld x3 r0_S50x1024)⟩]

/-- Window 10's: the softmax of the image scores. -/
def out0_10 (x4 : Vec F S1x75776 .f32) (x5 : Vec F S36x75776 .f32) (x6 : Vec F S1x36 .f32) : Vec F S1x36 .f32 :=
  View.canon [⟨r0_S1x36, k0_pay1 (k0_pay5 (View.ld x4 r0_S1x75776) (View.ld x5 r0_S36x75776)) (View.ld x6 r0_S1x36)⟩]

/-- Window 11's: the image context row. -/
def out0_11 (x4 : Vec F S1x75776 .f32) (x5 : Vec F S36x75776 .f32) (x6 : Vec F S1x36 .f32) (x7 : Vec F S36x2048 .f32) : Vec F S1x2048 .f32 :=
  View.canon [⟨r0_S1x2048, k0_pay2 (k0_pay5 (View.ld x4 r0_S1x75776) (View.ld x5 r0_S36x75776)) (View.ld x6 r0_S1x36) (View.ld x7 r0_S36x2048)⟩]

/-! The same through the whole buffers: a load through the whole-buffer rectangle reads the contents, and one store
    through it leaves its payload. -/

theorem out0_8_eq (x0 : Vec F S1x3072 .f32) (x1 : Vec F S50x3072 .f32) (x2 : Vec F S1x50 .f32) :
    out0_8 x0 x1 x2 = k0_pay3 x0 x1 x2 := by
  unfold out0_8
  rw [View.canon_unit_zero r0_zeros]
  simp only [View.ld_unit_zero (S := S1x3072) r0_zeros, View.ld_unit_zero (S := S50x3072) r0_zeros, View.ld_unit_zero (S := S1x50) r0_zeros]

theorem out0_9_eq (x0 : Vec F S1x3072 .f32) (x1 : Vec F S50x3072 .f32) (x2 : Vec F S1x50 .f32) (x3 : Vec F S50x1024 .f32) :
    out0_9 x0 x1 x2 x3 = k0_pay4 x0 x1 x2 x3 := by
  unfold out0_9
  rw [View.canon_unit_zero r0_zeros]
  simp only [View.ld_unit_zero (S := S1x3072) r0_zeros, View.ld_unit_zero (S := S50x3072) r0_zeros, View.ld_unit_zero (S := S1x50) r0_zeros, View.ld_unit_zero (S := S50x1024) r0_zeros]

theorem out0_10_eq (x4 : Vec F S1x75776 .f32) (x5 : Vec F S36x75776 .f32) (x6 : Vec F S1x36 .f32) :
    out0_10 x4 x5 x6 = k0_pay1 (k0_pay5 x4 x5) x6 := by
  unfold out0_10
  rw [View.canon_unit_zero r0_zeros]
  simp only [View.ld_unit_zero (S := S1x75776) r0_zeros, View.ld_unit_zero (S := S36x75776) r0_zeros, View.ld_unit_zero (S := S1x36) r0_zeros]

theorem out0_11_eq (x4 : Vec F S1x75776 .f32) (x5 : Vec F S36x75776 .f32) (x6 : Vec F S1x36 .f32) (x7 : Vec F S36x2048 .f32) :
    out0_11 x4 x5 x6 x7 = k0_pay2 (k0_pay5 x4 x5) x6 x7 := by
  unfold out0_11
  rw [View.canon_unit_zero r0_zeros]
  simp only [View.ld_unit_zero (S := S1x75776) r0_zeros, View.ld_unit_zero (S := S36x75776) r0_zeros, View.ld_unit_zero (S := S1x36) r0_zeros, View.ld_unit_zero (S := S36x2048) r0_zeros]

/-! Each output's one store covers its buffer: every index lies in the whole-buffer rectangle. -/

theorem cover0_8 (p0 : Vec F S1x50 .f32) (y : S1x50.Idx) :
    ∃ pc ∈ ([⟨r0_S1x50, p0⟩] : List (View.Piece (Elt F) S1x50 .f32)), y ∈ pc.1.set :=
  ⟨_, List.mem_singleton_self _, View.mem_set_unit_zero r0_zeros inb_S1x50_S1x50_0_0 y⟩

theorem cover0_9 (p0 : Vec F S1x1024 .f32) (y : S1x1024.Idx) :
    ∃ pc ∈ ([⟨r0_S1x1024, p0⟩] : List (View.Piece (Elt F) S1x1024 .f32)), y ∈ pc.1.set :=
  ⟨_, List.mem_singleton_self _, View.mem_set_unit_zero r0_zeros inb_S1x1024_S1x1024_0_0 y⟩

theorem cover0_10 (p0 : Vec F S1x36 .f32) (y : S1x36.Idx) :
    ∃ pc ∈ ([⟨r0_S1x36, p0⟩] : List (View.Piece (Elt F) S1x36 .f32)), y ∈ pc.1.set :=
  ⟨_, List.mem_singleton_self _, View.mem_set_unit_zero r0_zeros inb_S1x36_S1x36_0_0 y⟩

theorem cover0_11 (p0 : Vec F S1x2048 .f32) (y : S1x2048.Idx) :
    ∃ pc ∈ ([⟨r0_S1x2048, p0⟩] : List (View.Piece (Elt F) S1x2048 .f32)), y ∈ pc.1.set :=
  ⟨_, List.mem_singleton_self _, View.mem_set_unit_zero r0_zeros inb_S1x2048_S1x2048_0_0 y⟩

/-! ## The body's triple -/

set_option maxHeartbeats 1000000 in
/-- The body on whole staging memrefs, the inputs' at read contents `x0 … x7` and the outputs' at anything, runs to the
    continuation holding the inputs' as they were and each output's at `out0_W` of the inputs'. -/
theorem sound_kernel0 (c : Dev nD) (E : Set ℕ) (i : grid0.Coords) (arg1 : Memref sig .tc .vmem S1x3072 .f32) (harg1 : arg1.IsWhole) (arg2 : Memref sig .tc .vmem S50x3072 .f32) (harg2 : arg2.IsWhole) (arg3 : Memref sig .tc .vmem S1x50 .f32) (harg3 : arg3.IsWhole) (arg4 : Memref sig .tc .vmem S50x1024 .f32) (harg4 : arg4.IsWhole) (arg5 : Memref sig .tc .vmem S1x75776 .f32) (harg5 : arg5.IsWhole) (arg6 : Memref sig .tc .vmem S36x75776 .f32) (harg6 : arg6.IsWhole) (arg7 : Memref sig .tc .vmem S1x36 .f32) (harg7 : arg7.IsWhole) (arg8 : Memref sig .tc .vmem S36x2048 .f32) (harg8 : arg8.IsWhole) (arg9 : Memref sig .tc .vmem S1x50 .f32) (harg9 : arg9.IsWhole) (arg10 : Memref sig .tc .vmem S1x1024 .f32) (harg10 : arg10.IsWhole) (arg11 : Memref sig .tc .vmem S1x36 .f32) (harg11 : arg11.IsWhole) (arg12 : Memref sig .tc .vmem S1x2048 .f32) (harg12 : arg12.IsWhole)
    (x0 : Vec F S1x3072 .f32) (x1 : Vec F S50x3072 .f32) (x2 : Vec F S1x50 .f32) (x3 : Vec F S50x1024 .f32) (x4 : Vec F S1x75776 .f32) (x5 : Vec F S36x75776 .f32) (x6 : Vec F S1x36 .f32) (x7 : Vec F S36x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2) ∗ owns (c : Thread nD τ) arg10 fullShare (out0_9 x0 x1 x2 x3) ∗ owns (c : Thread nD τ) arg11 fullShare (out0_10 x4 x5 x6) ∗ owns (c : Thread nD τ) arg12 fullShare (out0_11 x4 x5 x6 x7)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of the region's pipeline on core `c`: the arrays as the region finds them (`V`); after the body at
    the point each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t)
    | ⟨9, _⟩ => out0_9 (iblk0 V c 0 t) (iblk0 V c 1 t) (iblk0 V c 2 t) (iblk0 V c 3 t)
    | ⟨10, _⟩ => out0_10 (iblk0 V c 4 t) (iblk0 V c 5 t) (iblk0 V c 6 t)
    | ⟨11, _⟩ => out0_11 (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) := by dsimp only [dat0]
theorem after0_9 (c : Dev nD) (t : Fin cfg0.N) : (dat0 V c).after 9 t = out0_9 (iblk0 V c 0 t) (iblk0 V c 1 t) (iblk0 V c 2 t) (iblk0 V c 3 t) := by dsimp only [dat0]
theorem after0_10 (c : Dev nD) (t : Fin cfg0.N) : (dat0 V c).after 10 t = out0_10 (iblk0 V c 4 t) (iblk0 V c 5 t) (iblk0 V c 6 t) := by dsimp only [dat0]
theorem after0_11 (c : Dev nD) (t : Fin cfg0.N) : (dat0 V c).after 11 t = out0_11 (iblk0 V c 4 t) (iblk0 V c 5 t) (iblk0 V c 6 t) (iblk0 V c 7 t) := by dsimp only [dat0]

/-! Each input's staging buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at the point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/- REGION 1 of @main, the second TensorCore call (the "combine" step of the decoder), at the contents `V` the
   TensorCore's buffers hold when the region is entered. Its grid has 8 points; at point `i` the body reads
   the whole concatenated row `cat1` (1x3072), the `i`-th 256-row block of the first weight matrix and the `i`-th
   256-column block of the first bias, and leaves in the `i`-th 256-column block of the first result
   `max (cat1 · W1ᵢᵀ + b1ᵢ) 0` (operands rounded to bf16, accumulated in f32); likewise, from `cat2` (1x2048), the
   `i`-th 128-row block of the second weight matrix and of the second bias, the `i`-th 128-column block of the second
   result. Every block tiles its array.

   Stated here, at any `V`: each window's block at a point (`iblk1`); what the body leaves in each output buffer as a
   closed function of the input blocks (`out1_6`, `out1_7`: one whole-buffer store each, so the payload itself,
   `out1_6_eq`, `out1_7_eq`); the body's triple (`sound_kernel1`); the proof data of the pipeline (`dat1`), that every
   input buffer holds its block at every point whether or not it was fetched there (`before1_W`: the two constant-index
   rows are fetched at the first point only and never move), and the body obligation (`body_obligation1`). -/
import proofs.«418679_j86887188398769_3_alg».proof.Proof.Gen.KernelIdeal.Launch
import proofs.«418679_j86887188398769_3_alg».proof.Proof.Gen.KernelIdeal.Skeleton
import proofs.«418679_j86887188398769_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not, for ANY proof data whose
    array is `V`'s (`hA`) and whose body leaves the block in place (`hafter`): where the window is not fetched its
    block index has not moved, so the block of the point before is the block of this point. Every window here is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each one the whole of its buffer -/

abbrev r1_0 : Rect S1x3072 := Rect.unit (s := S1x3072) ![0, 0] S1x3072.size inb_S1x3072_S1x3072_0_0
abbrev r1_1 : Rect S256x3072 := Rect.unit (s := S256x3072) ![0, 0] S256x3072.size inb_S256x3072_S256x3072_0_0
abbrev r1_2 : Rect S1x256 := Rect.unit (s := S1x256) ![0, 0] S1x256.size inb_S1x256_S1x256_0_0
abbrev r1_3 : Rect S1x2048 := Rect.unit (s := S1x2048) ![0, 0] S1x2048.size inb_S1x2048_S1x2048_0_0
abbrev r1_4 : Rect S128x2048 := Rect.unit (s := S128x2048) ![0, 0] S128x2048.size inb_S128x2048_S128x2048_0_0
abbrev r1_5 : Rect S1x128 := Rect.unit (s := S1x128) ![0, 0] S1x128.size inb_S1x128_S1x128_0_0

/-! ## What the body leaves in each output window's buffer -/

/-- Window 6's buffer after the body, from the input windows' blocks: its one store, of the first payload over the
    whole loads of windows 0, 1, 2. -/
def out1_6 (x0 : Vec F S1x3072 .f32) (x1 : Vec F S256x3072 .f32) (x2 : Vec F S1x256 .f32) : Vec F S1x256 .f32 :=
  View.canon [⟨r1_2, k1_pay1 (View.ld x0 r1_0) (View.ld x1 r1_1) (View.ld x2 r1_2)⟩]

/-- Window 7's buffer after the body: its one store, of the second payload over the whole loads of windows 3, 4, 5. -/
def out1_7 (x3 : Vec F S1x2048 .f32) (x4 : Vec F S128x2048 .f32) (x5 : Vec F S1x128 .f32) : Vec F S1x128 .f32 :=
  View.canon [⟨r1_5, k1_pay2 (View.ld x3 r1_3) (View.ld x4 r1_4) (View.ld x5 r1_5)⟩]

/-- The one store of window 6 is the whole buffer, so it covers it. -/
theorem cover1_6 (p0 : Vec F S1x256 .f32) (y : S1x256.Idx) :
    ∃ pc ∈ ([⟨r1_2, p0⟩] : List (View.Piece (Elt F) S1x256 .f32)), y ∈ pc.1.set :=
  View.cover_of_tiled [⟨r1_2, p0⟩] S1x256.size (by rfl) y

/-- The one store of window 7 is the whole buffer, so it covers it. -/
theorem cover1_7 (p0 : Vec F S1x128 .f32) (y : S1x128.Idx) :
    ∃ pc ∈ ([⟨r1_5, p0⟩] : List (View.Piece (Elt F) S1x128 .f32)), y ∈ pc.1.set :=
  View.cover_of_tiled [⟨r1_5, p0⟩] S1x128.size (by rfl) y

/-- The whole-buffer rectangle reads and writes in place: what window 6 is left at IS the first payload of the blocks. -/
theorem out1_6_eq (x0 : Vec F S1x3072 .f32) (x1 : Vec F S256x3072 .f32) (x2 : Vec F S1x256 .f32) :
    out1_6 x0 x1 x2 = k1_pay1 x0 x1 x2 := by
  have hz : (![0, 0] : Fin 2 → Nat) = fun _ => 0 := funext fun a => by fin_cases a <;> rfl
  unfold out1_6
  rw [View.canon_unit_zero hz]
  simp only [View.ld_unit_zero (S := S1x3072) hz, View.ld_unit_zero (S := S256x3072) hz, View.ld_unit_zero (S := S1x256) hz]

/-- and what window 7 is left at IS the second payload of the blocks. -/
theorem out1_7_eq (x3 : Vec F S1x2048 .f32) (x4 : Vec F S128x2048 .f32) (x5 : Vec F S1x128 .f32) :
    out1_7 x3 x4 x5 = k1_pay2 x3 x4 x5 := by
  have hz : (![0, 0] : Fin 2 → Nat) = fun _ => 0 := funext fun a => by fin_cases a <;> rfl
  unfold out1_7
  rw [View.canon_unit_zero hz]
  simp only [View.ld_unit_zero (S := S1x2048) hz, View.ld_unit_zero (S := S128x2048) hz, View.ld_unit_zero (S := S1x128) hz]

/-! ## The body's triple -/

set_option maxHeartbeats 1000000 in
/-- The body on whole buffers, the six inputs' at read contents `x0..x5` and the two outputs' at anything, runs to the
    continuation holding the inputs' as they were and the outputs' at `out1_6` and `out1_7` of the inputs': it loads the
    six inputs whole, reads each output once without using what it read, and stores each payload over the whole of its
    output. -/
theorem sound_kernel1 (c : Dev nD) (E : Set ℕ) (i : grid1.Coords) (arg1 : Memref sig .tc .vmem S1x3072 .f32) (harg1 : arg1.IsWhole) (arg2 : Memref sig .tc .vmem S256x3072 .f32) (harg2 : arg2.IsWhole) (arg3 : Memref sig .tc .vmem S1x256 .f32) (harg3 : arg3.IsWhole) (arg4 : Memref sig .tc .vmem S1x2048 .f32) (harg4 : arg4.IsWhole) (arg5 : Memref sig .tc .vmem S128x2048 .f32) (harg5 : arg5.IsWhole) (arg6 : Memref sig .tc .vmem S1x128 .f32) (harg6 : arg6.IsWhole) (arg7 : Memref sig .tc .vmem S1x256 .f32) (harg7 : arg7.IsWhole) (arg8 : Memref sig .tc .vmem S1x128 .f32) (harg8 : arg8.IsWhole)
    (x0 : Vec F S1x3072 .f32) (x1 : Vec F S256x3072 .f32) (x2 : Vec F S1x256 .f32) (x3 : Vec F S1x2048 .f32) (x4 : Vec F S128x2048 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2) ∗ owns (c : Thread nD τ) arg8 fullShare (out1_7 x3 x4 x5)) -∗ K ⟨⟩))
      ⊢ wp frame (wpE (defs₀ (F := F)) Variants.none c none) E (cc1__comb_kernel i arg1 harg1 arg2 harg2 arg3 harg3 arg4 harg4 arg5 harg5 arg6 harg6 arg7 harg7 arg8 harg8) K := by
  simp only [cc1__comb_kernel_eq_skeleton]; unfold cc1__comb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and each output's at `out1_W` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t)
    | ⟨7, _⟩ => out1_7 (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) := by dsimp only [dat1]
theorem after1_7 (c : Dev nD) (t : Fin cfg1.N) : (dat1 V c).after 7 t = out1_7 (iblk1 V c 3 t) (iblk1 V c 4 t) (iblk1 V c 5 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/- REGION 2 of @main, at the TensorCore's buffer contents `V` when the region is entered: the two gate
   pre-activations of the GRU cell, block by block over a grid of 8 points.

   At point `k` the body reads the whole embedded-and-attended input row `x` (1x1024) and the whole hidden row
   `h` (1x2048), block `k` (768 rows) of the input-to-hidden and hidden-to-hidden weight matrices and block `k`
   (768 lanes) of the two bias rows, and writes block `k` of
     gi = bf16(x) · bf16(W_ih[k])ᵀ + b_ih[k]      and      gh = bf16(h) · bf16(W_hh[k])ᵀ + b_hh[k]
   (contraction over the long axis, f32 accumulation from zero). Every block tiles its array; the two rows `x`
   and `h` have a constant block index, so they are staged once and found in place at the later points.

   Stated here: each window's block at a point read off `V`; what the body leaves in the two output buffers as a
   function of the six input blocks (one whole-buffer store each, so the payload itself); the body's triple; the
   proof data of the pipeline and its body obligation at every point. -/
import proofs.«418679_j86887188398769_3_alg».proof.Proof.Gen.KernelIdeal.Launch
import proofs.«418679_j86887188398769_3_alg».proof.Proof.Gen.KernelIdeal.Skeleton
import proofs.«418679_j86887188398769_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block
    index has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_x : Rect S1x1024 := Rect.unit (s := S1x1024) ![0, 0] S1x1024.size inb_S1x1024_S1x1024_0_0
abbrev r2_wi : Rect S768x1024 := Rect.unit (s := S768x1024) ![0, 0] S768x1024.size inb_S768x1024_S768x1024_0_0
abbrev r2_b : Rect S1x768 := Rect.unit (s := S1x768) ![0, 0] S1x768.size inb_S1x768_S1x768_0_0
abbrev r2_h : Rect S1x2048 := Rect.unit (s := S1x2048) ![0, 0] S1x2048.size inb_S1x2048_S1x2048_0_0
abbrev r2_wh : Rect S768x2048 := Rect.unit (s := S768x2048) ![0, 0] S768x2048.size inb_S768x2048_S768x2048_0_0

/-- The zero offsets, however spelt. -/
theorem zero2 : (![0, 0] : Fin 2 → Nat) = fun _ => 0 := funext fun a => by fin_cases a <;> rfl

/-! ## What the body leaves in each output window's buffer -/

/-- Window 6's staging buffer after the body, from the input windows' blocks: its one store, of the whole buffer. -/
def out2_6 (x0 : Vec F S1x1024 .f32) (x1 : Vec F S768x1024 .f32) (x2 : Vec F S1x768 .f32) : Vec F S1x768 .f32 :=
  View.canon [⟨r2_b, k2_pay1 (View.ld x0 r2_x) (View.ld x1 r2_wi) (View.ld x2 r2_b)⟩]

/-- Its store covers the buffer. -/
theorem cover2_6 (p0 : Vec F S1x768 .f32) (y : S1x768.Idx) :
    ∃ pc ∈ ([⟨r2_b, p0⟩] : List (View.Piece (Elt F) S1x768 .f32)), y ∈ pc.1.set :=
  ⟨_, List.mem_singleton_self _, View.mem_set_unit_zero (S := S1x768) zero2 inb_S1x768_S1x768_0_0 y⟩

/-- Window 7's staging buffer after the body, from the input windows' blocks: its one store, of the whole buffer. -/
def out2_7 (x3 : Vec F S1x2048 .f32) (x4 : Vec F S768x2048 .f32) (x5 : Vec F S1x768 .f32) : Vec F S1x768 .f32 :=
  View.canon [⟨r2_b, k2_pay2 (View.ld x3 r2_h) (View.ld x4 r2_wh) (View.ld x5 r2_b)⟩]

/-- The one store is of the whole buffer and the loads are of whole buffers: the buffer is left at the payload of the
    blocks themselves. -/
theorem out2_6_eq (x0 : Vec F S1x1024 .f32) (x1 : Vec F S768x1024 .f32) (x2 : Vec F S1x768 .f32) :
    out2_6 x0 x1 x2 = k2_pay1 x0 x1 x2 := by
  unfold out2_6
  rw [View.canon_unit_zero (S := S1x768) zero2]
  simp only [View.ld_unit_zero (S := S1x1024) zero2, View.ld_unit_zero (S := S768x1024) zero2, View.ld_unit_zero (S := S1x768) zero2]

theorem out2_7_eq (x3 : Vec F S1x2048 .f32) (x4 : Vec F S768x2048 .f32) (x5 : Vec F S1x768 .f32) :
    out2_7 x3 x4 x5 = k2_pay2 x3 x4 x5 := by
  unfold out2_7
  rw [View.canon_unit_zero (S := S1x768) zero2]
  simp only [View.ld_unit_zero (S := S1x2048) zero2, View.ld_unit_zero (S := S768x2048) zero2, View.ld_unit_zero (S := S1x768) zero2]

/-! ## The body's triple -/

set_option maxHeartbeats 1000000 in
/-- The kernel body on whole staging memrefs, the inputs' at read contents `xW` and the outputs' at anything, runs to
    the continuation holding the inputs' as they were and each output's at `out2_W` of the inputs'. -/
theorem sound_kernel2 (c : Dev nD) (E : Set ℕ) (i : grid2.Coords) (arg0 : Memref sig .tc .vmem S1x1024 .f32) (harg0 : arg0.IsWhole) (arg1 : Memref sig .tc .vmem S768x1024 .f32) (harg1 : arg1.IsWhole) (arg2 : Memref sig .tc .vmem S1x768 .f32) (harg2 : arg2.IsWhole) (arg3 : Memref sig .tc .vmem S1x2048 .f32) (harg3 : arg3.IsWhole) (arg4 : Memref sig .tc .vmem S768x2048 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole)
    (x0 : Vec F S1x1024 .f32) (x1 : Vec F S768x1024 .f32) (x2 : Vec F S1x768 .f32) (x3 : Vec F S1x2048 .f32) (x4 : Vec F S768x2048 .f32) (x5 : Vec F S1x768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2) ∗ owns (c : Thread nD τ) arg7 fullShare (out2_7 x3 x4 x5)) -∗ K ⟨⟩))
      ⊢ wp frame (wpE (defs₀ (F := F)) Variants.none c none) E (cc2__gru_parts_kernel i arg0 harg0 arg1 harg1 arg2 harg2 arg3 harg3 arg4 harg4 arg5 harg5 arg6 harg6 arg7 harg7) K := by
  simp only [cc2__gru_parts_kernel_eq_skeleton]; unfold cc2__gru_parts_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_6 _)

/-! ## The pipeline's proof data -/

/-- The proof data of pipeline 2 on core `c`: the arrays as the region finds them (`V`); after the body at
    point `t` each input's buffer at its block and each output's at `out2_W` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t)
    | ⟨7, _⟩ => out2_7 (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) := by dsimp only [dat2]
theorem after2_7 (c : Dev nD) (t : Fin cfg2.N) : (dat2 V c).after 7 t = out2_7 (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
/-
  REGION 3 of @main, the output projection, at the contents V the region is entered with.

  The call is a pipeline over a grid of 25 points and four windows: window 0 is the row vector x (1 x 2048, one
  block, the whole array, brought in once and kept); window 1 is the matrix W (50257 x 2048) in blocks of 2048
  rows; window 2 is the bias b (1 x 50257) in blocks of 2048 lanes; window 3 is the result (1 x 50257) in
  blocks of 2048 lanes. At each point the body reads the three input blocks whole and stores
  x * (block of W)^T + (block of b) into the result's block.

  50257 = 24 * 2048 + 1105, so the last block of windows 1, 2 and 3 overhangs its array: the transfers are cut
  to the part inside the array, and the rows of W's staging block and the lanes of b's past the array's end hold
  words nothing names. The body computes from those words too. What it leaves in the result's block is
  therefore stated twice:

  * with the result's window FORGOTTEN (its buffer taken and handed back at any contents), for every float
    type;
  * EXACTLY on the lanes inside the array, as the payload of the blocks filled out with the zero word, under
    the hypothesis that the payload's lanes inside the array depend only on the rows of W and the lanes of b
    inside the array (RowLocal3).

  Both come from one triple for the body (sound_body3), which is closed at the two posts.
-/
import proofs.«418679_j86887188398769_3_alg».proof.Proof.Gen.KernelIdeal.Launch
import proofs.«418679_j86887188398769_3_alg».proof.Proof.Gen.KernelIdeal.Skeleton
import proofs.«418679_j86887188398769_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window w's block at point t, its part inside the array, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of W at point t filled out, past the array's end, with the zero word. -/
def zfill3_1 (c : Dev nD) (t : Fin cfg3.N) : Vec F S2048x2048 .f32 :=
  win3_1.fill (grid3.coords t) (fun _ => Scalar.ofBits .f32 0#32) (iblk3 V c 1 t)

/-- The block of b at point t filled out, past the array's end, with the zero word. -/
def zfill3_2 (c : Dev nD) (t : Fin cfg3.N) : Vec F S1x2048 .f32 :=
  win3_2.fill (grid3.coords t) (fun _ => Scalar.ofBits .f32 0#32) (iblk3 V c 2 t)

/-- x's window is never cut and its block index never moves: its staging buffer holds the whole of x at every
    point, fetched there or not, for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x2048 := Rect.unit (s := S1x2048) ![0, 0] S1x2048.size inb_S1x2048_S1x2048_0_0
abbrev r3_1 : Rect S2048x2048 := Rect.unit (s := S2048x2048) ![0, 0] S2048x2048.size inb_S2048x2048_S2048x2048_0_0

/-- The whole-buffer rectangles sit at offset zero. -/
theorem off3 : (![0, 0] : Fin 2 → ℕ) = fun _ => 0 := funext fun a => by fin_cases a <;> rfl

/-! ## What the body leaves in the result's buffer -/

/-- The result's staging buffer after the body, from what the three input buffers hold: its one store, through the
    whole buffer, of the payload of the three whole loads. -/
def out3_3 (x0 : Vec F S1x2048 .f32) (x1 : Vec F S2048x2048 .f32) (x2 : Vec F S1x2048 .f32) : Vec F S1x2048 .f32 :=
  View.canon [⟨r3_0, k3_pay1 (View.ld x0 r3_0) (View.ld x1 r3_1) (View.ld x2 r3_0)⟩]

/-- One store through the whole buffer leaves its payload, and a load through the whole buffer reads the
    contents: the buffer ends at x * W^T + b of what the input buffers hold. -/
theorem out3_3_eq (x0 : Vec F S1x2048 .f32) (x1 : Vec F S2048x2048 .f32) (x2 : Vec F S1x2048 .f32) :
    out3_3 x0 x1 x2 = k3_pay1 x0 x1 x2 := by
  unfold out3_3
  rw [View.canon_unit_zero off3, View.ld_unit_zero off3, View.ld_unit_zero off3, View.ld_unit_zero off3]

/-- The one store covers the buffer. -/
theorem cover3_3 (p0 : Vec F S1x2048 .f32) (y : S1x2048.Idx) :
    ∃ pc ∈ ([⟨r3_0, p0⟩] : List (View.Piece (Elt F) S1x2048 .f32)), y ∈ pc.1.set :=
  ⟨_, List.mem_singleton_self _, View.mem_set_unit_zero off3 inb_S1x2048_S1x2048_0_0 y⟩

/-! ## The body's triple -/

set_option maxHeartbeats 1000000 in
/-- The body on whole staging memrefs, the three inputs' at read contents x0, x1, x2 and the result's at anything, runs
    to the continuation holding the inputs' as they were and the result's at out3_3 of them: three whole loads, a load
    of the result's buffer nothing uses, one whole store. -/
theorem sound_kernel3 (c : Dev nD) (E : Set ℕ) (i : grid3.Coords)
    (arg1 : Memref sig .tc .vmem S1x2048 .f32) (harg1 : arg1.IsWhole) (arg2 : Memref sig .tc .vmem S2048x2048 .f32) (harg2 : arg2.IsWhole)
    (arg3 : Memref sig .tc .vmem S1x2048 .f32) (harg3 : arg3.IsWhole) (arg4 : Memref sig .tc .vmem S1x2048 .f32) (harg4 : arg4.IsWhole)
    (x0 : Vec F S1x2048 .f32) (x1 : Vec F S2048x2048 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out3_3 x0 x1 x2)) -∗ K ⟨⟩))
      ⊢ wp frame (wpE (defs₀ (F := F)) Variants.none c none) E (cc3__out_proj_kernel i arg1 harg1 arg2 harg2 arg3 harg3 arg4 harg4) K := by
  simp only [cc3__out_proj_kernel_eq_skeleton]; unfold cc3__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the pipeline on core c: the arrays as the region finds them; after the body at point t, x's
    buffer at x, W's and b's at their blocks filled out with the zero word, the result's at the payload of those; the
    invariant of a body that keeps nothing from point to point; nothing owed; full shares. Only the rows and lanes
    inside the arrays of the three cut windows' entries are ever asked for. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => zfill3_1 V c t
    | ⟨2, _⟩ => zfill3_2 V c t
    | ⟨3, _⟩ => out3_3 (iblk3 V c 0 t) (zfill3_1 V c t) (zfill3_2 V c t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = zfill3_1 V c t := by dsimp only [dat3]
theorem after3_2 (c : Dev nD) (t : Fin cfg3.N) : (dat3 V c).after 2 t = zfill3_2 V c t := by dsimp only [dat3]
theorem after3_3 (c : Dev nD) (t : Fin cfg3.N) :
    (dat3 V c).after 3 t = out3_3 (iblk3 V c 0 t) (zfill3_1 V c t) (zfill3_2 V c t) := by dsimp only [dat3]

/-- x's staging buffer holds x at every point. -/
theorem before3_0 (c : Dev nD) (t : Fin cfg3.N) (d) : (dat3 V c).before 0 t d = iblk3 V c 0 t :=
  before3_0_of V (dat3 V c) (A_eq3 V c 0) (after3_0 V c) t d

/-- W's and b's are fetched at every point: each buffer holds its block on the part inside the array and, past the
    array's end, whatever d the cut transfer left there. -/
theorem before3_1 (c : Dev nD) (t : Fin cfg3.N) (d) :
    (dat3 V c).before 1 t d = win3_1.fill (grid3.coords t) d (iblk3 V c 1 t) := by
  unfold Dat.before; rw [if_pos (fetch3_1 t)]; rfl
theorem before3_2 (c : Dev nD) (t : Fin cfg3.N) (d) :
    (dat3 V c).before 2 t d = win3_2.fill (grid3.coords t) d (iblk3 V c 2 t) := by
  unfold Dat.before; rw [if_pos (fetch3_2 t)]; rfl

/-- The zero-filled blocks, cut back to the array, are the blocks. -/
theorem cut_zfill3_1 (c : Dev nD) (t : Fin cfg3.N) : win3_1.cut (grid3.coords t) (zfill3_1 V c t) = iblk3 V c 1 t :=
  win3_1.cut_fill _ _ _
theorem cut_zfill3_2 (c : Dev nD) (t : Fin cfg3.N) : win3_2.cut (grid3.coords t) (zfill3_2 V c t) = iblk3 V c 2 t :=
  win3_2.cut_fill _ _ _

/-! ## The body at a generic point -/

/-- What the body stores in the result's buffer at point t when the cut fetches left d1 and d2 past the arrays' ends: the
    payload of x, of W's block filled out with d1 and of b's filled out with d2. -/
def stored3 (c : Dev nD) (t : Fin cfg3.N) (d1 : Vec F S2048x2048 .f32) (d2 : Vec F S1x2048 .f32) : Vec F S1x2048 .f32 :=
  out3_3 (iblk3 V c 0 t) (win3_1.fill (grid3.coords t) d1 (iblk3 V c 1 t)) (win3_2.fill (grid3.coords t) d2 (iblk3 V c 2 t))

set_option maxHeartbeats 1000000 in
/-- The body at any point, on the point's staging buffers: the inputs' arrive holding x and the two blocks filled out
    with d1, d2; they leave as they came, which on the rows and lanes inside the arrays is what the proof data name,
    and the result's buffer, taken at anything, leaves holding stored3. -/
theorem sound_body3 (c : Dev nD) (t : Fin cfg3.N) (d0 : Vec F S1x2048 .f32) (d1 : Vec F S2048x2048 .f32) (d2 : Vec F S1x2048 .f32)
    (K : PUnit → sProp 𝕄) :
    iprop(owns (c : Thread nD τ) (st3_0 t) fullShare ((dat3 V c).before 0 t d0)
        ∗ owns (c : Thread nD τ) (st3_1 t) fullShare ((dat3 V c).before 1 t d1)
        ∗ owns (c : Thread nD τ) (st3_2 t) fullShare ((dat3 V c).before 2 t d2)
        ∗ (∃ X, owns (c : Thread nD τ) (st3_3 t) fullShare X)
        ∗ (iprop(owns (c : Thread nD τ) (st3_0 t) fullShare ((dat3 V c).after 0 t)
              ∗ owns (c : Thread nD τ) (st3_1 t) fullShare (win3_1.fill (grid3.coords t) d1 (win3_1.cut (grid3.coords t) ((dat3 V c).after 1 t)))
              ∗ owns (c : Thread nD τ) (st3_2 t) fullShare (win3_2.fill (grid3.coords t) d2 (win3_2.cut (grid3.coords t) ((dat3 V c).after 2 t)))
              ∗ owns (c : Thread nD τ) (st3_3 t) fullShare (stored3 V c t d1 d2)) -∗ K ⟨⟩))
      ⊢ wp frame (wpE (defs₀ (F := F)) Variants.none c none) Set.univ (bodyAt3 t) K := by
  rw [before3_0, before3_1, before3_2, after3_0, after3_1, after3_2, cut_zfill3_1, cut_zfill3_2]
  unfold stored3 bodyAt3
  iintro ⟨H0, H1, H2, H3, Hk⟩
  iapply (sound_kernel3 c Set.univ _ _ _ _ _ _ _ _ _ (iblk3 V c 0 t) (win3_1.fill (grid3.coords t) d1 (iblk3 V c 1 t))
    (win3_2.fill (grid3.coords t) d2 (iblk3 V c 2 t)) _)
  isplitl [H0]; · iexact H0
  isplitl [H1]; · iexact H1
  isplitl [H2]; · iexact H2
  isplitl [H3]; · iexact H3
  iexact Hk

/-! ## The body obligation, the result's window forgotten -/

/-- The windows the first form forgets: the result's. -/
abbrev fgtOut3 : Fin cfg3.W → Bool := fun w => match w with | ⟨3, _⟩ => true | _ => false

theorem fgtOut3_0 : fgtOut3 0 = false := rfl
theorem fgtOut3_1 : fgtOut3 1 = false := rfl
theorem fgtOut3_2 : fgtOut3 2 = false := rfl
theorem fgtOut3_3 : fgtOut3 3 = true := rfl

set_option maxHeartbeats 1000000 in
/-- At every point and for every float type: the result's buffer is taken at any contents and handed back at any. -/
theorem body_obligation3_forget (c : Dev nD) :
    BodyObligationLoose (dat3 (F := F) V c) (defs₀ (F := F)) Variants.none () Set.univ fgtOut3 := fun t => by
  rw [bigSep_W3, bigSep_W3]
  simp only [fgtOut3_0, fgtOut3_1, fgtOut3_2, fgtOut3_3]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, H3⟩
  iapply (sound_body3 V c t d0 d1 d2 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

/-! ## The body obligation, exact on the lanes inside the array -/

/-- The lanes of the payload inside the array depend only on the rows of W and the lanes of b inside the array. -/
def RowLocal3 (F : FTy → Type) [FloatOps F] : Prop :=
  ∀ (t : Fin cfg3.N) (x0 : Vec F S1x2048 .f32) (W W' : Vec F S2048x2048 .f32) (b b' : Vec F S1x2048 .f32),
    win3_1.cut (grid3.coords t) W = win3_1.cut (grid3.coords t) W' →
    win3_2.cut (grid3.coords t) b = win3_2.cut (grid3.coords t) b' →
    win3_3.cut (grid3.coords t) (k3_pay1 x0 W b) = win3_3.cut (grid3.coords t) (k3_pay1 x0 W' b')

/-- Under that hypothesis what the body stored agrees, on the lanes inside the array, with the payload of the
    zero-filled blocks: filling the stored block with those lanes changes nothing. -/
theorem fill_stored3 (hloc : RowLocal3 F) (c : Dev nD) (t : Fin cfg3.N) (d1 : Vec F S2048x2048 .f32) (d2 : Vec F S1x2048 .f32) :
    win3_3.fill (grid3.coords t) (stored3 V c t d1 d2) (win3_3.cut (grid3.coords t) ((dat3 V c).after 3 t))
      = stored3 V c t d1 d2 := by
  rw [after3_3]
  apply win3_3.fill_congr_cut
  unfold stored3
  rw [out3_3_eq, out3_3_eq]
  exact hloc t _ _ _ _ _ ((win3_1.cut_fill _ _ _).trans (cut_zfill3_1 V c t).symm)
    ((win3_2.cut_fill _ _ _).trans (cut_zfill3_2 V c t).symm)

set_option maxHeartbeats 1000000 in
/-- At every point, nothing forgotten: the result's buffer is handed back holding, on the lanes inside the array, the
    payload of x and the zero-filled blocks of W and b, and past the array's end what the body stored there. -/
theorem body_obligation3_exact (hloc : RowLocal3 F) (c : Dev nD) :
    BodyObligationLoose (dat3 (F := F) V c) (defs₀ (F := F)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩⟩
  iapply (sound_body3 V c t d0 d1 d2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (stored3 V c t d1 d2)
  change _ ⊢ owns (c : Thread nD τ) (st3_3 t) fullShare
    (win3_3.fill (grid3.coords t) (stored3 V c t d1 d2) (win3_3.cut (grid3.coords t) ((dat3 V c).after 3 t)))
  rw [fill_stored3 V hloc c t d1 d2]; try iexact H3

end Cert.KernelIdeal.Fr
end
-- ==== Proof.KI.RunA.lean ====
/-
  The run of the four-region program as ONE statement, at any float instance: every weakly fair execution of @main
  terminates without a fault, and every final memory holds each unscoped buffer at the contents obtained by folding
  @main's items over the launch memory — a host stretch applies its operations (`StableHlo.after`), a region
  replaces its windows' arrays by what its write-backs leave. The last region's blocks overhang their arrays, and
  the lanes of its result that lie inside the array may or may not be determined by the rows inside the array
  (they are when the contraction is row-local; nothing says so for a matrix unit whose term is a function of the
  whole right operand). So the result array of that region is carried as an UNKNOWN `x` constrained by the relation
  the proof data allows (`ArrAt`): with the output window forgotten the relation says nothing and the statement is
  the frame's; with nothing forgotten it pins `x` to the exact fold of the write-backs.
-/
import proofs.«418679_j86887188398769_3_alg».proof.Proof.KI.Reg0
import proofs.«418679_j86887188398769_3_alg».proof.Proof.KI.Reg1
import proofs.«418679_j86887188398769_3_alg».proof.Proof.KI.Reg2
import proofs.«418679_j86887188398769_3_alg».proof.Proof.KI.Reg3
import proofs.«418679_j86887188398769_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- The type of the last region's result array on core `c`. -/
abbrev Res3 (c : Dev nD) : Type := Buf (Elt F) ((cfg3.win 3).arr.view.loc (c : Thread nD τ))

/-- The last region's arrays at its exit: the three inputs as entered, the result at `x`. -/
def arrs3 (c : Dev nD) (x : Res3 (F := F) c) : (w : Fin cfg3.W) → Buf (Elt F) ((cfg3.win w).arr.view.loc (c : Thread nD τ))
  | ⟨0, _⟩ => (dat3 (V7 m) c).A 0
  | ⟨1, _⟩ => (dat3 (V7 m) c).A 1
  | ⟨2, _⟩ => (dat3 (V7 m) c).A 2
  | ⟨3, _⟩ => x
/-- At region 3's exit, its result array at `x`. -/
def W8 (c : Dev nD) (x : Res3 (F := F) c) : Valuation τ sig (Elt F) :=
  Pipeline.withArrays spec3 c (W7 m c) (arrs3 m c x)
abbrev V8 (c : Dev nD) (x : Res3 (F := F) c) : (b : Ref sig .tc) → Buf (Elt F) ((c : Thread nD τ).loc b) := fun b => W8 m c x b
abbrev W9 (c : Dev nD) (x : Res3 (F := F) c) : Valuation τ sig (Elt F) := StableHlo.after hostOps4 (W8 m c x)
abbrev W10 (c : Dev nD) (x : Res3 (F := F) c) : Valuation τ sig (Elt F) := StableHlo.after hostOps4_1 (W9 m c x)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

theorem W8_arr (c : Dev nD) (x : Res3 (F := F) c) (w : Fin cfg3.W) :
    W8 m c x (Proc.devRef .tc (Pipeline.arrRef spec3 w)) = arrs3 m c x w := by
  unfold W8; exact Pipeline.withArrays_arr spec3 launch3.win.arr_inj c _ _ w
theorem W8_of_ne (c : Dev nD) (x : Res3 (F := F) c) (b : Ref sig .tc) (hb : ∀ w, Pipeline.arrRef spec3 w ≠ b) :
    W8 m c x (Proc.devRef .tc b) = W7 m c (Proc.devRef .tc b) := by
  unfold W8; exact Pipeline.withArrays_of_ne spec3 c _ _ b hb
theorem hF3 (c : Dev nD) (x : Res3 (F := F) c) (w : Fin cfg3.W) : arrs3 m c x w = V8 m c x (Pipeline.arrRef spec3 w) :=
  (W8_arr m c x w).symm
theorem hrest3 (c : Dev nD) (x : Res3 (F := F) c) : ∀ b, b ∉ Finset.univ.image (Pipeline.arrRef spec3) → V8 m c x b = V7 m c b :=
  fun b hb => W8_of_ne m c x b fun w e => hb (Finset.mem_image.mpr ⟨w, Finset.mem_univ _, e⟩)

/-! ## A buffer no item writes keeps its launch contents -/

/-- A region leaves a buffer that is none of its OUTPUT windows' arrays as it found it: an input window's array is
    only read (`Dat.arrAt_in`), any other buffer bypasses the region. -/
theorem W2_keep (c : Dev nD) (b : Ref sig .tc) (hb : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (V1 m) c).arrAt_in w (hb w rfl) _).trans (A_eq0 (V1 m) c w))
  · exact W2_of_ne m c b fun w e => h ⟨w, e⟩
theorem W4_keep (c : Dev nD) (b : Ref sig .tc) (hb : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((dat1 (V3 m) c).arrAt_in w (hb w rfl) _).trans (A_eq1 (V3 m) c w))
  · exact W4_of_ne m c b fun w e => h ⟨w, e⟩
theorem W6_keep (c : Dev nD) (b : Ref sig .tc) (hb : ∀ w, Pipeline.arrRef spec2 w = b → (cfg2.win w).isOut = false) :
    W6 m c (Proc.devRef .tc b) = W5 m c (Proc.devRef .tc b) := by
  by_cases h : ∃ w, Pipeline.arrRef spec2 w = b
  · obtain ⟨w, rfl⟩ := h
    exact (W6_arr m c w).trans (((dat2 (V5 m) c).arrAt_in w (hb w rfl) _).trans (A_eq2 (V5 m) c w))
  · exact W6_of_ne m c b fun w e => h ⟨w, e⟩
theorem W8_keep (c : Dev nD) (x : Res3 (F := F) c) (b : Ref sig .tc) (hb : ∀ w, Pipeline.arrRef spec3 w = b → w ≠ 3) :
    W8 m c x (Proc.devRef .tc b) = W7 m c (Proc.devRef .tc b) := by
  by_cases h : ∃ w, Pipeline.arrRef spec3 w = b
  · obtain ⟨w, rfl⟩ := h
    refine (W8_arr m c x w).trans ?_
    have hw := hb w rfl
    match w, hw with
    | ⟨0, _⟩, _ => exact A_eq3 (V7 m) c 0
    | ⟨1, _⟩, _ => exact A_eq3 (V7 m) c 1
    | ⟨2, _⟩, _ => exact A_eq3 (V7 m) c 2
    | ⟨3, _⟩, hw => exact absurd rfl hw
  · exact W8_of_ne m c x b fun w e => h ⟨w, e⟩

/-- A buffer that no host stretch writes and that is no region's output array ends as launched. -/
theorem W10_keep (c : Dev nD) (x : Res3 (F := F) c) (b : Ref sig .tc)
    (h0 : b ∉ hostOps0_W) (h1 : b ∉ hostOps1_W) (h2 : b ∉ hostOps2_W) (h3 : b ∉ hostOps3_W) (h4 : b ∉ hostOps4_W) (h5 : b ∉ hostOps4_1_W)
    (k0 : ∀ w, Pipeline.arrRef spec0 w = b → (cfg0.win w).isOut = false) (k1 : ∀ w, Pipeline.arrRef spec1 w = b → (cfg1.win w).isOut = false)
    (k2 : ∀ w, Pipeline.arrRef spec2 w = b → (cfg2.win w).isOut = false) (k3 : ∀ w, Pipeline.arrRef spec3 w = b → w ≠ 3) :
    W10 m c x (Proc.devRef .tc b) = m ((c : Thread nD τ).loc b) :=
  calc W10 m c x (Proc.devRef .tc b)
    _ = W9 m c x (Proc.devRef .tc b) := StableHlo.after_of_writes_sub hostOps4_1 _ hostOps4_1_writes h5
    _ = W8 m c x (Proc.devRef .tc b) := StableHlo.after_of_writes_sub hostOps4 _ hostOps4_writes h4
    _ = W7 m c (Proc.devRef .tc b) := W8_keep m c x b k3
    _ = W6 m c (Proc.devRef .tc b) := StableHlo.after_of_writes_sub hostOps3 _ hostOps3_writes h3
    _ = W5 m c (Proc.devRef .tc b) := W6_keep m c b k2
    _ = W4 m c (Proc.devRef .tc b) := StableHlo.after_of_writes_sub hostOps2 _ hostOps2_writes h2
    _ = W3 m c (Proc.devRef .tc b) := W4_keep m c b k1
    _ = W2 m c (Proc.devRef .tc b) := StableHlo.after_of_writes_sub hostOps1 _ hostOps1_writes h1
    _ = W1 m c (Proc.devRef .tc b) := W2_keep m c b k0
    _ = W0 m c (Proc.devRef .tc b) := StableHlo.after_of_writes_sub hostOps0 _ hostOps0_writes h0
    _ = m ((c : Thread nD τ).loc b) := rfl

end Cert.KernelIdeal.Fr

end
-- ==== Proof.KI.RunB.lean ====
/-
  The four regions as segments of @main and the launch: the proof data family (exact data, the last region's read as
  relational data with a mask of forgotten windows), each region entered from "every unscoped buffer at the boundary's
  contents, the generator register at some state, nothing owed" and left at the next boundary's; after the last region
  the result array is an unknown `x` the thread state quantifies, beside the relation the data allows of it.
-/
import proofs.«418679_j86887188398769_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

abbrev adm : (p : Fin 4) → (pcfgs (F := F) p).Adm := fun p => (cfgs p).toPCfg_adm

/-- Every pipeline's exact proof data, each at its region's entry contents (a literal match). -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c

variable (fgt3 : Fin cfg3.W → Bool)

/-- The same read as relational data; the last region's with the windows `fgt3` marks forgotten. -/
def rdats : (p : Fin 4) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toR
  | ⟨3, _⟩ => fun c => (dat3 (V7 m) c).toRForget fgt3

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- What is known of the last region's result array `x` on core `c`. -/
abbrev Known (c : Dev nD) (x : Res3 (F := F) c) : Prop := ((dat3 (V7 m) c).toRForget fgt3).ArrAt 3 cfg3.N x

/-- A host stretch after the last region: the same line of operations from the buffers at `W x`, for the unknown `x`. -/
def hsegX (ops : List (HloOp τ sig (Elt F))) (hsub : ops.Forall fun op => op.bufs ⊆ StableHlo.tcRefs τ sig)
    (hfresh : ops.Forall fun op => op.fresh = ∅) (W : (c : Dev nD) → Res3 (F := F) c → Valuation τ sig (Elt F)) :
    Pipeline.HostSeg (Name := ℕ) (U := UR sig nD τ) (pcfgs (F := F)) defs₀ 𝒱₀ L lv where
  prog := StableHlo.seq ops
  pre c := iprop(∃ x, ⌜Known m fgt3 c x⌝ ∗ StableHlo.held (c : Thread nD τ) (Pipeline.ucRefs τ sig) (W c x) ∗ R c)
  post c := iprop(∃ x, ⌜Known m fgt3 c x⌝ ∗ StableHlo.held (c : Thread nD τ) (Pipeline.ucRefs τ sig) (StableHlo.after ops (W c x)) ∗ R c)
  run c {β} k K := by
    iintro ⟨Hk, Hbd, ⟨%x, %hx, Hh, HR⟩, Hl⟩
    have hrun := (hseg ops hsub hfresh (fun _ => W c x)).run c k K
    dsimp only [hseg, Pipeline.HostSeg.ofOps] at hrun
    iapply hrun
    isplitl [Hk]
    · iintro ⟨Hbd, Hh, HR⟩
      iapply Hk
      isplitl [Hbd]; · iexact Hbd
      iexists x
      isplitr; · ipureintro; exact hx
      isplitl [Hh]; · iexact Hh
      iexact HR
    isplitl [Hbd]; · iexact Hbd
    isplitl [Hh HR]
    · isplitl [Hh]; · iexact Hh
      iexact HR
    iexact Hl

/-- An array of the last region held at contents `G`. -/
abbrev pt3 {c : Dev nD} (dat : Dat τ (Elt F) Unit ℕ (UR sig nD τ) ℕ cfg3 c) (w : Fin cfg3.W)
    (G : Buf (Elt F) ((cfg3.win w).arr.view.loc (c : Thread nD τ))) : sProp 𝕄 :=
  (cfg3.win w).arr.view.loc (c : Thread nD τ) ↦[(cfg3.win w).arr.view.set]{dat.share w} G

/-- The last region's arrays after every write-back, opened: the three inputs are as entered (an input array is only read),
    the result is SOME contents the relation allows. For any exact data of that pipeline read with a mask that forgets no input. -/
theorem arraysAt3_open {c : Dev nD} (dat : Dat τ (Elt F) Unit ℕ (UR sig nD τ) ℕ cfg3 c) (fgt : Fin cfg3.W → Bool)
    (hf : fgt 0 = false ∧ fgt 1 = false ∧ fgt 2 = false) (n : Nat) :
    ((dat.toRForget fgt).arraysAt n : sProp 𝕄)
      ⊢ iprop(∃ x, ⌜(dat.toRForget fgt).ArrAt 3 n x⌝ ∗ pt3 dat 0 (dat.A 0) ∗ pt3 dat 1 (dat.A 1) ∗ pt3 dat 2 (dat.A 2) ∗ pt3 dat 3 x) := by
  unfold Pipeline.RDat.arraysAt
  rw [bigSep_W3]
  iintro ⟨⟨%F0, %h0, H0⟩, ⟨%F1, %h1, H1⟩, ⟨%F2, %h2, H2⟩, ⟨%x, %hx, H3⟩⟩
  have e0 : F0 = dat.A 0 := ((dat.toRForget_arrAt_iff hf.1 _ _).mp h0).trans (dat.arrAt_in 0 rfl _)
  have e1 : F1 = dat.A 1 := ((dat.toRForget_arrAt_iff hf.2.1 _ _).mp h1).trans (dat.arrAt_in 1 rfl _)
  have e2 : F2 = dat.A 2 := ((dat.toRForget_arrAt_iff hf.2.2 _ _).mp h2).trans (dat.arrAt_in 2 rfl _)
  subst e0 e1 e2
  iexists x
  isplitr; · ipureintro; exact hx
  isplitl [H0]; · iexact H0
  isplitl [H1]; · iexact H1
  isplitl [H2]; · iexact H2
  iexact H3

/-- Four arrays held at the values a family `G` takes are the arrays at `G`. -/
theorem arrays3_close {c : Dev nD} (dat : Dat τ (Elt F) Unit ℕ (UR sig nD τ) ℕ cfg3 c)
    (G : (w : Fin cfg3.W) → Buf (Elt F) ((cfg3.win w).arr.view.loc (c : Thread nD τ)))
    (a0 : Buf (Elt F) ((cfg3.win 0).arr.view.loc (c : Thread nD τ))) (a1 : Buf (Elt F) ((cfg3.win 1).arr.view.loc (c : Thread nD τ)))
    (a2 : Buf (Elt F) ((cfg3.win 2).arr.view.loc (c : Thread nD τ))) (a3 : Buf (Elt F) ((cfg3.win 3).arr.view.loc (c : Thread nD τ)))
    (h0 : G 0 = a0) (h1 : G 1 = a1) (h2 : G 2 = a2) (h3 : G 3 = a3) :
    iprop(pt3 dat 0 a0 ∗ pt3 dat 1 a1 ∗ pt3 dat 2 a2 ∗ pt3 dat 3 a3) ⊢ (dat.arrays G : sProp 𝕄) := by
  subst h0 h1 h2 h3
  unfold Pipeline.Dat.arrays
  rw [bigSep_W3]

/-- At the last region's exit the inputs' arrays read back as entered and the result's as `x`. -/
theorem V8_in0 (c : Dev nD) (x : Res3 (F := F) c) : V8 m c x (Pipeline.arrRef spec3 0) = (dat3 (V7 m) c).A 0 := W8_arr m c x 0
theorem V8_in1 (c : Dev nD) (x : Res3 (F := F) c) : V8 m c x (Pipeline.arrRef spec3 1) = (dat3 (V7 m) c).A 1 := W8_arr m c x 1
theorem V8_in2 (c : Dev nD) (x : Res3 (F := F) c) : V8 m c x (Pipeline.arrRef spec3 2) = (dat3 (V7 m) c).A 2 := W8_arr m c x 2
theorem V8_out (c : Dev nD) (x : Res3 (F := F) c) : V8 m c x (Pipeline.arrRef spec3 3) = x := W8_arr m c x 3

/-! ## The regions as segments -/

set_option backward.isDefEq.respectTransparency.types false in
/-- Region 0 over the thread state: entered from every unscoped buffer at the contents before it, left at the contents
    after it. Its arrays split out of the unscoped buffers and put back at what the write-backs leave; the generator
    register into the region's invariant and out; nothing owed; no semaphore of the kernel's own. -/
def reg0 : Pipeline.RDat.RegionSeg (pcfgs (F := F)) adm (rdats m fgt3) () defs₀ 𝒱₀ L lv 0 where
  win := launch0.win.to₀
  block_pos := launch0.block_pos
  stage_whole := launch0.stage_whole
  K := PEmpty
  osem k := k.elim
  ho := Pipeline.OwnSemFacts.none _
  hbody c := ((body_obligation0 (V1 m) c).loose).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m fgt3) launch0.win launch0.arr_whole c
      ((rdats m fgt3 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    refine (sep_mono (Entails.of_eq ((dat0 (V1 m) c).toR_arraysAt_eq cfg0.N)) .rfl).trans ?_
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

set_option backward.isDefEq.respectTransparency.types false in
/-- Region 1 over the thread state: entered from every unscoped buffer at the contents before it, left at the contents
    after it. Its arrays split out of the unscoped buffers and put back at what the write-backs leave; the generator
    register into the region's invariant and out; nothing owed; no semaphore of the kernel's own. -/
def reg1 : Pipeline.RDat.RegionSeg (pcfgs (F := F)) adm (rdats m fgt3) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (V3 m) c).loose).toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m fgt3) launch1.win launch1.arr_whole c
      ((rdats m fgt3 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    refine (sep_mono (Entails.of_eq ((dat1 (V3 m) c).toR_arraysAt_eq cfg1.N)) .rfl).trans ?_
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

set_option backward.isDefEq.respectTransparency.types false in
/-- Region 2 over the thread state: entered from every unscoped buffer at the contents before it, left at the contents
    after it. Its arrays split out of the unscoped buffers and put back at what the write-backs leave; the generator
    register into the region's invariant and out; nothing owed; no semaphore of the kernel's own. -/
def reg2 : Pipeline.RDat.RegionSeg (pcfgs (F := F)) adm (rdats m fgt3) () defs₀ 𝒱₀ L lv 2 where
  win := launch2.win.to₀
  block_pos := launch2.block_pos
  stage_whole := launch2.stage_whole
  K := PEmpty
  osem k := k.elim
  ho := Pipeline.OwnSemFacts.none _
  hbody c := ((body_obligation2 (V5 m) c).loose).toR
  hwaits := Pipeline.RDat.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m fgt3) launch2.win launch2.arr_whole c
      ((rdats m fgt3 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m fgt3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    refine (sep_mono (Entails.of_eq ((dat2 (V5 m) c).toR_arraysAt_eq cfg2.N)) .rfl).trans ?_
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

variable (hf3 : fgt3 0 = false ∧ fgt3 1 = false ∧ fgt3 2 = false)
variable (hbody3 : ∀ c, BodyObligationLoose (dat3 (F := F) (V7 m) c) (defs₀ (F := F)) Variants.none () Set.univ fgt3)

set_option maxHeartbeats 8000000 in
set_option backward.isDefEq.respectTransparency.types false in
/-- The last region: entered from every unscoped buffer at the contents before it; left with its result array at SOME
    contents `x` the relational data allows (`Known`), every other buffer as entered. -/
def reg3 : Pipeline.RDat.RegionSeg (pcfgs (F := F)) adm (rdats m fgt3) () defs₀ 𝒱₀ L lv 3 where
  win := launch3.win.to₀
  block_pos := launch3.block_pos
  stage_whole := launch3.stage_whole
  K := PEmpty
  osem k := k.elim
  ho := Pipeline.OwnSemFacts.none _
  hbody c := (hbody3 c).toRForget
  hwaits := Pipeline.RDat.hwaits_of_owed_zero _ _ _ _ L lv 3 fun _ _ => rfl
  pre c := iprop(StableHlo.held (c : Thread nD τ) (Pipeline.ucRefs τ sig) (W7 m c) ∗ R c)
  post c := iprop(∃ x, ⌜Known m fgt3 c x⌝ ∗ StableHlo.held (c : Thread nD τ) (Pipeline.ucRefs τ sig) (W8 m c x) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.RDat.arrays_of_unscopedBufs (p := 3) (pcfgs (F := F)) adm (rdats m fgt3) launch3.win launch3.arr_whole c
      ((rdats m fgt3 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt3 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m fgt3 3 c).Φ (Fin.last _) = Pipeline.ΦA spec3 c from rfl]; unfold Pipeline.ΦA
    iintro ⟨Hr, Hp⟩
    isplitl [Hp]; · iexact Hp
    isplitr; · iempintro
    iexact Hr
  hexit c := by
    refine (sep_mono (arraysAt3_open (dat3 (V7 m) c) fgt3 hf3 cfg3.N) .rfl).trans ?_
    iintro ⟨⟨%x, %hx, Hpts⟩, HO, HY, Hrest⟩
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c x) (fun w => V8 m c x (Pipeline.arrRef _ w)) (fun _ => rfl) (hrest3 m c x)
    rw [Pipeline.unscopedBufs_held] at hjoin
    have hclose := arrays3_close (dat3 (V7 m) c) (fun w => V8 m c x (Pipeline.arrRef spec3 w)) _ _ _ _
      (V8_in0 m c x) (V8_in1 m c x) (V8_in2 m c x) (V8_out m c x)
    imodintro
    iexists x
    isplitr; · ipureintro; exact hx
    isplitl [Hpts Hrest]
    · iapply hjoin
      isplitl [Hpts]
      · iapply hclose; iexact Hpts
      iexact Hrest
    isplitl [HY]; · iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m fgt3) () defs₀ 𝒱₀ L lv) :=
  [ .host (hseg hostOps0 hostOps0_sub hostOps0_fresh (W0 m)),
    .region (reg0 m fgt3),
    .host (hseg hostOps1 hostOps1_sub hostOps1_fresh (W2 m)),
    .region (reg1 m fgt3),
    .host (hseg hostOps2 hostOps2_sub hostOps2_fresh (W4 m)),
    .region (reg2 m fgt3),
    .host (hseg hostOps3 hostOps3_sub hostOps3_fresh (W6 m)),
    .region (reg3 m fgt3 hf3 hbody3),
    .host (hsegX m fgt3 hostOps4 hostOps4_sub hostOps4_fresh (W8 m)),
    .host (hsegX m fgt3 hostOps4_1 hostOps4_1_sub hostOps4_1_fresh (W9 m)) ]

/-- The last thread state without the `owes`. -/
abbrev Tₙ (c : Dev nD) : sProp 𝕄 :=
  iprop(∃ x, ⌜Known m fgt3 c x⌝ ∗ StableHlo.held (c : Thread nD τ) (Pipeline.ucRefs τ sig) (W10 m c x) ∗ ∃ r, prngReg c r)

include hf3 hbody3 in
set_option maxHeartbeats 8000000 in
set_option backward.isDefEq.respectTransparency.types false in
/-- THE RUN. From any memory with zero counters every weakly fair execution of @main terminates, nothing faulting, and
    on every core there is a result array `x` of the last region that the proof data allows, with every unscoped
    buffer of the final memory at the fold `W10 … x`. -/
theorem run_all : θ_run defs (onTc (τ := τ) (main (F := F))) ⟨m, fun _ => 0, ρ⟩ (fun r => ∀ c : Dev nD,
      ∃ x : Res3 (F := F) c, Known m fgt3 c x ∧ ∀ b ∈ Pipeline.ucRefs τ sig, r.2.mem (((c : Thread nD τ)).1, b) = W10 m c x b) :=
  Pipeline.RDat.θ_run_regions_kit (pcfgs (F := F)) adm (rdats m fgt3) () cellOf_inj emb₁ defs₀ 𝒱₀ L lv m ρ main (segs m fgt3 hf3 hbody3)
    (fun c Q => by
      rewrite [main_chain c, Pipeline.RDat.Seg.run_eq_chain,
        show (segs m fgt3 hf3 hbody3).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m fgt3)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(∃ x, ⌜Known m fgt3 c x⌝ ∗ StableHlo.held (c : Thread nD τ) (Pipeline.ucRefs τ sig) (W10 m c x) ∗ R c)
          ⊢ iprop(Tₙ m fgt3 c ∗ ∃ W, owes (c : Thread nD τ) (0 : CellTallies nD τ sig Unit) W)
        iintro ⟨%x, %hx, Hh, ⟨Hp, HO⟩⟩
        isplitr [HO]
        · iexists x
          isplitr; · ipureintro; exact hx
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ x : Res3 (F := F) c, Known m fgt3 c x ∧ ∀ b ∈ Pipeline.ucRefs τ sig, s.mem (((c : Thread nD τ)).1, b) = W10 m c x b)
    (hfin := fun c s' => by
      iintro ⟨⟨%x, %hx, Hh, -⟩, HSI⟩
      unfold StableHlo.held
      ihave Hr := (pointsTo_read_all (Pipeline.ucRefs τ sig) (fun b => (((c : Thread nD τ)).1, b)) (W10 m c x) s') $$ [Hh HSI]
      · isplitl [Hh] <;> iassumption
      icases Hr with ⟨%h, HSI⟩
      imodintro
      isplitr
      · ipureintro; exact ⟨x, hx, h⟩
      iexact HSI)
    (hQ := fun s h c => h c)

end Cert.KernelIdeal.Fr

end
-- ==== Proof.KI.RunC.lean ====
/-
  The frame of the program from its run: every argument array is a buffer that no host stretch writes and that is no
  region's output, so the fold of @main's items leaves it at its launch contents, whatever the last region's result is.
-/
import proofs.«418679_j86887188398769_3_alg».proof.Proof.KI.RunB

set_option maxRecDepth 16384

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat RDat BodyObligationLoose)

variable {F : FTy → Type} [FloatOps F]
variable (m : (ℓ : Loc nD τ sig) → Buf (Elt F) ℓ) (ρ : Dev nD → PrngReg)

/-- An unscoped TensorCore reference is among those the final thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer of the final memory that no item writes holds its launch contents. -/
theorem arg_kept (c : Dev nD) (x : Res3 (F := F) c) (s : MemSt nD τ sig (Elt F))
    (hx : ∀ b ∈ Pipeline.ucRefs τ sig, s.mem (((c : Thread nD τ)).1, b) = W10 m c x b) (b : Ref sig .tc)
    (hu : ¬ (Proc.devRef .tc b : DevRef τ sig).isScoped)
    (h0 : b ∉ hostOps0_W) (h1 : b ∉ hostOps1_W) (h2 : b ∉ hostOps2_W) (h3 : b ∉ hostOps3_W) (h4 : b ∉ hostOps4_W) (h5 : b ∉ hostOps4_1_W)
    (k0 : ∀ w, Pipeline.arrRef spec0 w = b → (cfg0.win w).isOut = false) (k1 : ∀ w, Pipeline.arrRef spec1 w = b → (cfg1.win w).isOut = false)
    (k2 : ∀ w, Pipeline.arrRef spec2 w = b → (cfg2.win w).isOut = false) (k3 : ∀ w, Pipeline.arrRef spec3 w = b → w ≠ 3) :
    s.mem ((c.tc : Thread nD τ).loc b) = m ((c.tc : Thread nD τ).loc b) :=
  (hx (Proc.devRef .tc b) (mem_uc b hu)).trans (W10_keep m c x b h0 h1 h2 h3 h4 h5 k0 k1 k2 k3)

variable (fgt3 : Fin cfg3.W → Bool) (hf3 : fgt3 0 = false ∧ fgt3 1 = false ∧ fgt3 2 = false)
variable (hbody3 : ∀ c, BodyObligationLoose (dat3 (F := F) (V7 m) c) (defs₀ (F := F)) Variants.none () Set.univ fgt3)

include fgt3 hf3 hbody3 in
/-- THE FRAME, at any float instance: every weakly fair execution of @main terminates, nothing faulting, and every
    argument array ends as launched. -/
theorem frame_of_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    obtain ⟨x, -, hx⟩ := h c
    exact ⟨(arg_kept m c x r.2 hx main_arg0 (by decide) (by decide) (by decide) (by decide) (by decide) (by decide) (by decide) (by decide) (by decide) (by decide) (by decide)),
      (arg_kept m c x r.2 hx main_arg1 (by decide) (by decide) (by decide) (by decide) (by decide) (by decide) (by decide) (by decide) (by decide) (by decide) (by decide)),
      (arg_kept m c x r.2 hx main_arg2 (by decide) (by decide) (by decide) (by decide) (by decide) (by decide) (by decide) (by decide) (by decide) (by decide) (by decide)),
      (arg_kept m c x r.2 hx main_arg3 (by decide) (by decide) (by decide) (by decide) (by decide) (by decide) (by decide) (by decide) (by decide) (by decide) (by decide)),
      (arg_kept m c x r.2 hx main_arg4 (by decide) (by decide) (by decide) (by decide) (by decide) (by decide) (by decide) (by decide) (by decide) (by decide) (by decide)),
      (arg_kept m c x r.2 hx main_arg5 (by decide) (by decide) (by decide) (by decide) (by decide) (by decide) (by decide) (by decide) (by decide) (by decide) (by decide)),
      (arg_kept m c x r.2 hx main_arg6 (by decide) (by decide) (by decide) (by decide) (by decide) (by decide) (by decide) (by decide) (by decide) (by decide) (by decide)),
      (arg_kept m c x r.2 hx main_arg7 (by decide) (by decide) (by decide) (by decide) (by decide) (by decide) (by decide) (by decide) (by decide) (by decide) (by decide)),
      (arg_kept m c x r.2 hx main_arg8 (by decide) (by decide) (by decide) (by decide) (by decide) (by decide) (by decide) (by decide) (by decide) (by decide) (by decide)),
      (arg_kept m c x r.2 hx main_arg9 (by decide) (by decide) (by decide) (by decide) (by decide) (by decide) (by decide) (by decide) (by decide) (by decide) (by decide)),
      (arg_kept m c x r.2 hx main_arg10 (by decide) (by decide) (by decide) (by decide) (by decide) (by decide) (by decide) (by decide) (by decide) (by decide) (by decide)),
      (arg_kept m c x r.2 hx main_arg11 (by decide) (by decide) (by decide) (by decide) (by decide) (by decide) (by decide) (by decide) (by decide) (by decide) (by decide)),
      (arg_kept m c x r.2 hx main_arg12 (by decide) (by decide) (by decide) (by decide) (by decide) (by decide) (by decide) (by decide) (by decide) (by decide) (by decide)),
      (arg_kept m c x r.2 hx main_arg13 (by decide) (by decide) (by decide) (by decide) (by decide) (by decide) (by decide) (by decide) (by decide) (by decide) (by decide)),
      (arg_kept m c x r.2 hx main_arg14 (by decide) (by decide) (by decide) (by decide) (by decide) (by decide) (by decide) (by decide) (by decide) (by decide) (by decide)),
      (arg_kept m c x r.2 hx main_arg15 (by decide) (by decide) (by decide) (by decide) (by decide) (by decide) (by decide) (by decide) (by decide) (by decide) (by decide)),
      (arg_kept m c x r.2 hx main_arg16 (by decide) (by decide) (by decide) (by decide) (by decide) (by decide) (by decide) (by decide) (by decide) (by decide) (by decide)),
      (arg_kept m c x r.2 hx main_arg17 (by decide) (by decide) (by decide) (by decide) (by decide) (by decide) (by decide) (by decide) (by decide) (by decide) (by decide)),
      (arg_kept m c x r.2 hx main_arg18 (by decide) (by decide) (by decide) (by decide) (by decide) (by decide) (by decide) (by decide) (by decide) (by decide) (by decide))⟩)
    (run_all m ρ fgt3 hf3 hbody3)

end Cert.KernelIdeal.Fr

end
-- ==== Proof.Val.Spec.lean ====
/-
  The mathematics of one decoder step, stage by stage, on the extended reals: what each pallas_call of the kernel and
  the matching lines of the reference both compute. Row vectors are arrays [1, n]; a weight matrix W is [n, k] and is
  applied as x·Wᵀ (row j of W against x); `⊥` is the pattern of −∞ that a max-reduction starts from.
-/
import Idealize.ShloMosaic.PureOps.Ideal
import Idealize.ShloMosaic.Lib.ValueIdx

noncomputable section

namespace Cert.Spec

open Idealize.ShloMosaic Idealize.ShloMosaic.ValueIdx

/-- An array [a, b] of extended reals. -/
abbrev Arr (a b : Nat) : Type := (⟨2, ![a, b]⟩ : Shape).Idx → EReal

/-- The linear layer x·Wᵀ + b at output lane `j`: the sum over the contraction index of x's entry times row j of W's, plus b's lane. -/
def lin {K N : Nat} (x : Arr 1 K) (W : Arr N K) (b : Arr 1 N) (j : Fin N) : EReal :=
  (∑ k : Fin K, x (ix2 (0 : Fin 1) k) * W (ix2 j k)) + b (ix2 (0 : Fin 1) j)

/-- The row maximum a softmax subtracts: the maximum of −∞ and the fold of max from −∞ over the lanes. -/
def rowMax {N : Nat} (s : Fin N → EReal) : EReal :=
  max (⊥ : EReal) ((Finset.univ : Finset (Fin N)).fold max (⊥ : EReal) s)

/-- Softmax over the lanes of a row of scores, as both programs spell it: exp (s j − M) over the sum of exp (s k − M). -/
def softmax {N : Nat} (s : Fin N → EReal) (j : Fin N) : EReal :=
  Ideal.div (Ideal.exp (s j - rowMax s)) (∑ k : Fin N, Ideal.exp (s k - rowMax s))

/-- Attention weights applied to the rows of a table: a·E at lane `d`. -/
def mix {L D : Nat} (a : Fin L → EReal) (E : Arr L D) (d : Fin D) : EReal :=
  ∑ l : Fin L, a l * E (ix2 l d)

/-- relu, argument first. -/
def relu (v : EReal) : EReal := max v 0

end Cert.Spec

end
-- ==== Proof.Val.Reg3Val.lean ====
/-
  REGION 3, the output projection, on the extended reals.

  Lane q of the body's payload of a row x, a block W of 2048 rows and a block b of 2048 lanes is
  (sum over k of x[k] * W[q, k]) + b[q]: it reads row q of W and lane q of b only. Two consequences.

  * Two fillings of the staging blocks that agree on the rows and lanes inside the arrays give payloads that agree
    on the lanes inside the array (rowLocal3).
  * At point t the lanes inside the array of what the body leaves are lanes 2048 t + y of x * W^T + b over the
    whole arrays; the 25 blocks, the last cut at the array's end, cover the 50257 lanes, so the result array ends
    holding x * W^T + b (final3_3).
-/
import proofs.«418679_j86887188398769_3_alg».proof.Proof.KI.Reg3
import proofs.«418679_j86887188398769_3_alg».proof.Proof.Val.Spec
import Idealize.ShloMosaic.PureOps.Ideal.Laws
import Idealize.ShloMosaic.Lib.ValueIdx
import Idealize.ShloMosaic.Lib.Pipeline.Value
set_option maxRecDepth 16384
noncomputable section
namespace Cert.KernelIdeal.Val
open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat Cfg Window)

/-! ## A cut window, coordinate by coordinate -/

/-- Contents that agree on the part a cut transfer moves agree at every index all of whose coordinates are below the
    cut sizes. -/
theorem eq_of_cut_eq3 {G : Pipeline.Grid} (w : Window sig G) {α : Type} (i : G.Coords) {X Y : w.block.Idx → α}
    (h : w.cut i X = w.cut i Y) (y : w.block.Idx) (hy : ∀ a, (y a).val < w.xsize i a) : X y = Y y :=
  congrFun h (fun a => ⟨(y a).val, hy a⟩)

/-- A block filled out past the array's end, read at an index inside the moved part, is the block there. -/
theorem fill_apply_of_lt3 {G : Pipeline.Grid} (w : Window sig G) {α : Type} (i : G.Coords) (d : w.block.Idx → α)
    (g : (w.xblock i).Idx → α) (y : w.block.Idx) (hy : ∀ a, (y a).val < w.xsize i a) :
    w.fill i d g y = g (fun a => ⟨(y a).val, hy a⟩) :=
  w.fill_xinj i d g (fun a => ⟨(y a).val, hy a⟩)

/-! ## The payload at a lane -/

theorem lhs_k3_0 (i : S1x2048.Idx) (q : dot_S1x2048_S2048x2048_S1x2048_1_1_0_0_n_n.contr.Idx) :
    (dot_S1x2048_S2048x2048_S1x2048_1_1_0_0_n_n.lhsIdx i q 0).val = (i 0).val := by
  unfold DotDims.lhsIdx
  rw [dif_neg (show ¬(0 : Fin S1x2048.rank) ∈ dot_S1x2048_S2048x2048_S1x2048_1_1_0_0_n_n.lhsBatch by decide), dif_pos (show (0 : Fin S1x2048.rank) ∈ dot_S1x2048_S2048x2048_S1x2048_1_1_0_0_n_n.lhsNonContracting by decide)]
  rfl
theorem lhs_k3_1 (i : S1x2048.Idx) (q : dot_S1x2048_S2048x2048_S1x2048_1_1_0_0_n_n.contr.Idx) :
    (dot_S1x2048_S2048x2048_S1x2048_1_1_0_0_n_n.lhsIdx i q 1).val = (q ⟨0, by decide⟩).val :=
  dot_S1x2048_S2048x2048_S1x2048_1_1_0_0_n_n.lhsIdx_val_of_single rfl i q
theorem rhs_k3_0 (i : S1x2048.Idx) (q : dot_S1x2048_S2048x2048_S1x2048_1_1_0_0_n_n.contr.Idx) :
    (dot_S1x2048_S2048x2048_S1x2048_1_1_0_0_n_n.rhsIdx i q 0).val = (i 1).val := by
  unfold DotDims.rhsIdx
  rw [dif_neg (show ¬(0 : Fin S2048x2048.rank) ∈ dot_S1x2048_S2048x2048_S1x2048_1_1_0_0_n_n.rhsBatch by decide), dif_pos (show (0 : Fin S2048x2048.rank) ∈ dot_S1x2048_S2048x2048_S1x2048_1_1_0_0_n_n.rhsNonContracting by decide)]
  rfl
theorem rhs_k3_1 (i : S1x2048.Idx) (q : dot_S1x2048_S2048x2048_S1x2048_1_1_0_0_n_n.contr.Idx) :
    (dot_S1x2048_S2048x2048_S1x2048_1_1_0_0_n_n.rhsIdx i q 1).val = (q ⟨0, by decide⟩).val :=
  dot_S1x2048_S2048x2048_S1x2048_1_1_0_0_n_n.rhsIdx_val_of_single rfl i q

/-- Lane q of the payload: row x against row q of W, plus lane q of b. The conversions to the narrower format and the
    shape casts to the same shape are the identity here, and the product accumulates into zero. -/
theorem pay3_apply (x0 : Vec Ideal S1x2048 .f32) (W : Vec Ideal S2048x2048 .f32) (b : Vec Ideal S1x2048 .f32) (q : Fin 2048) :
    k3_pay1 (F := Ideal) x0 W b (ix2 (0 : Fin 1) q)
      = (∑ k : Fin 2048, x0 (ix2 (0 : Fin 1) k) * W (ix2 q k)) + b (ix2 (0 : Fin 1) q) := by
  unfold k3_pay1
  simp only [shapeCast_self]
  refine (addf_apply _ _ _).trans ?_
  refine congrArg (· + b (ix2 (0 : Fin 1) q)) ?_
  refine (Ideal.matmul_constant_zero_apply dot_S1x2048_S2048x2048_S1x2048_1_1_0_0_n_n none _ _ _).trans ?_
  rw [← Equiv.sum_comp (ValueIdx.contrEquiv1 dot_S1x2048_S2048x2048_S1x2048_1_1_0_0_n_n 2048 rfl rfl).symm]
  refine Finset.sum_congr rfl fun k _ => ?_
  have hk := ValueIdx.contrEquiv1_symm_val dot_S1x2048_S2048x2048_S1x2048_1_1_0_0_n_n 2048 rfl rfl k
  have el : dot_S1x2048_S2048x2048_S1x2048_1_1_0_0_n_n.lhsIdx (ix2 (0 : Fin 1) q) ((ValueIdx.contrEquiv1 dot_S1x2048_S2048x2048_S1x2048_1_1_0_0_n_n 2048 rfl rfl).symm k) = ix2 (0 : Fin 1) k := funext fun a => Fin.ext (by
    match a with
    | ⟨0, _⟩ => exact lhs_k3_0 _ _
    | ⟨1, _⟩ => exact (lhs_k3_1 _ _).trans hk)
  have er : dot_S1x2048_S2048x2048_S1x2048_1_1_0_0_n_n.rhsIdx (ix2 (0 : Fin 1) q) ((ValueIdx.contrEquiv1 dot_S1x2048_S2048x2048_S1x2048_1_1_0_0_n_n 2048 rfl rfl).symm k) = ix2 q k := funext fun a => Fin.ext (by
    match a with
    | ⟨0, _⟩ => exact rhs_k3_0 _ _
    | ⟨1, _⟩ => exact (rhs_k3_1 _ _).trans hk)
  rw [el, er]
  rfl

/-! ## The windows' block indices and cut sizes, decided over the 25 points -/

/-- W moves by blocks of rows, b and the result by blocks of lanes, x does not move; W's cut rows are the result's
    cut lanes, as are b's; the cut lanes end at the array's end or are a whole block inside it. -/
theorem geo3 : ∀ t : Fin cfg3.N,
    win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val
    ∧ win3_0.index t (0 : Fin 2) = 0 ∧ win3_0.index t (1 : Fin 2) = 0
    ∧ win3_1.xsize (grid3.coords t) (0 : Fin 2) = win3_3.xsize (grid3.coords t) (1 : Fin 2)
    ∧ win3_1.xsize (grid3.coords t) (1 : Fin 2) = 2048
    ∧ win3_2.xsize (grid3.coords t) (0 : Fin 2) = 1
    ∧ win3_2.xsize (grid3.coords t) (1 : Fin 2) = win3_3.xsize (grid3.coords t) (1 : Fin 2)
    ∧ win3_3.xsize (grid3.coords t) (0 : Fin 2) = 1
    ∧ (2048 * t.val + win3_3.xsize (grid3.coords t) (1 : Fin 2) = 50257
        ∨ (win3_3.xsize (grid3.coords t) (1 : Fin 2) = 2048 ∧ 2048 * t.val + 2048 ≤ 50257)) :=
  (by decide +kernel : ∀ t : Fin grid3.N, _)

/-! ## The payload's lanes inside the array read only the rows and lanes inside the arrays -/

theorem rowLocal3 : RowLocal3 Ideal := by
  intro t x0 W W' b b' hW hb
  obtain ⟨-, -, -, -, -, -, -, -, x10, x11, x20, x21, x30, -⟩ := geo3 t
  funext j
  have hj0 : (j 0).val < win3_3.xsize (grid3.coords t) (0 : Fin 2) := (j 0).isLt
  have hj1 : (j 1).val < win3_3.xsize (grid3.coords t) (1 : Fin 2) := (j 1).isLt
  have hq : (j 1).val < 2048 := lt_of_lt_of_le hj1 (win3_3.xsize_le (grid3.coords t) 1)
  have e : win3_3.xinj (grid3.coords t) j = ix2 (0 : Fin 1) (⟨(j 1).val, hq⟩ : Fin 2048) := by
    funext a
    match a with
    | ⟨0, _⟩ => exact Fin.ext (by show (j 0).val = 0; omega)
    | ⟨1, _⟩ => rfl
  show k3_pay1 (F := Ideal) x0 W b (win3_3.xinj (grid3.coords t) j) = k3_pay1 (F := Ideal) x0 W' b' (win3_3.xinj (grid3.coords t) j)
  rw [e, pay3_apply, pay3_apply]
  have h1 : ∀ k : Fin 2048, W (ix2 (⟨(j 1).val, hq⟩ : Fin 2048) k) = W' (ix2 (⟨(j 1).val, hq⟩ : Fin 2048) k) := fun k =>
    eq_of_cut_eq3 win3_1 (grid3.coords t) hW (ix2 (⟨(j 1).val, hq⟩ : Fin 2048) k) (fun a => match a with
      | ⟨0, _⟩ => by show (j 1).val < win3_1.xsize (grid3.coords t) (0 : Fin 2); rw [x10]; exact hj1
      | ⟨1, _⟩ => by show k.val < win3_1.xsize (grid3.coords t) (1 : Fin 2); rw [x11]; exact k.isLt)
  have h2 : b (ix2 (0 : Fin 1) (⟨(j 1).val, hq⟩ : Fin 2048)) = b' (ix2 (0 : Fin 1) (⟨(j 1).val, hq⟩ : Fin 2048)) :=
    eq_of_cut_eq3 win3_2 (grid3.coords t) hb (ix2 (0 : Fin 1) (⟨(j 1).val, hq⟩ : Fin 2048)) (fun a => match a with
      | ⟨0, _⟩ => by show (0 : Nat) < win3_2.xsize (grid3.coords t) (0 : Fin 2); rw [x20]; exact Nat.one_pos
      | ⟨1, _⟩ => by show (j 1).val < win3_2.xsize (grid3.coords t) (1 : Fin 2); rw [x21]; exact hj1)
  rw [h2]
  exact congrArg (· + b' (ix2 (0 : Fin 1) (⟨(j 1).val, hq⟩ : Fin 2048))) (Finset.sum_congr rfl fun k _ => by rw [h1 k])

/-! ## The result array after the run -/

variable (V : (c : Dev nD) → (b : Ref sig .tc) → Buf (Elt Ideal) ((c : Thread nD τ).loc b))

/-- x * W^T + b over the whole arrays as the region finds them, lane by lane. -/
def G3 (c : Dev nD) : S1x50257.Idx → EReal :=
  fun i => Spec.lin (V c main_v53) (V c main_arg17) (V c main_v54) (i 1)

/-- What point t writes back is block t, cut at the array's end, of x * W^T + b: lane y of the cut block is array lane
    2048 t + y, row 2048 t + y of W is inside the array, and there the zero-filled blocks are the arrays' entries. -/
theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3, out3_3_eq]
  obtain ⟨i10, i11, i20, i21, i30, i31, i00, i01, x10, x11, x20, x21, x30, hx⟩ := geo3 t
  funext y
  have hy0 : (y 0).val < win3_3.xsize (grid3.coords t) (0 : Fin 2) := (y 0).isLt
  have hy1 : (y 1).val < win3_3.xsize (grid3.coords t) (1 : Fin 2) := (y 1).isLt
  have hq : (y 1).val < 2048 := lt_of_lt_of_le hy1 (win3_3.xsize_le (grid3.coords t) 1)
  have hlane : 2048 * t.val + (y 1).val < 50257 := by omega
  have e : win3_3.xinj (grid3.coords t) y = ix2 (0 : Fin 1) (⟨(y 1).val, hq⟩ : Fin 2048) := by
    funext a
    match a with
    | ⟨0, _⟩ => exact Fin.ext (by show (y 0).val = 0; omega)
    | ⟨1, _⟩ => rfl
  have eo : ((cfg3.win 3).blk t).view.emb y = ix2 (0 : Fin 1) (⟨2048 * t.val + (y 1).val, hlane⟩ : Fin 50257) := by
    funext a; apply Fin.ext
    match a with
    | ⟨0, _⟩ => show win3_3.index t (0 : Fin 2) * 1 + 1 * (y 0).val = 0; omega
    | ⟨1, _⟩ => show win3_3.index t (1 : Fin 2) * 2048 + 1 * (y 1).val = 2048 * t.val + (y 1).val; omega
  show k3_pay1 (F := Ideal) (iblk3 V c 0 t) (zfill3_1 V c t) (zfill3_2 V c t) (win3_3.xinj (grid3.coords t) y)
    = G3 V c (((cfg3.win 3).blk t).view.emb y)
  rw [e, eo, pay3_apply]
  show _ = Spec.lin (V c main_v53) (V c main_arg17) (V c main_v54) (⟨2048 * t.val + (y 1).val, hlane⟩ : Fin 50257)
  unfold Spec.lin
  have hx0 : ∀ k : Fin 2048, iblk3 V c 0 t (ix2 (0 : Fin 1) k) = V c main_v53 (ix2 (0 : Fin 1) k) := fun k => by
    show V c main_v53 (((cfg3.win 0).blk t).view.emb (ix2 (0 : Fin 1) k)) = _
    refine congrArg (V c main_v53) (funext fun a => Fin.ext ?_)
    match a with
    | ⟨0, _⟩ => show win3_0.index t (0 : Fin 2) * 1 + 1 * 0 = 0; omega
    | ⟨1, _⟩ => show win3_0.index t (1 : Fin 2) * 2048 + 1 * k.val = k.val; omega
  have hW : ∀ k : Fin 2048, zfill3_1 V c t (ix2 (⟨(y 1).val, hq⟩ : Fin 2048) k)
      = V c main_arg17 (ix2 (⟨2048 * t.val + (y 1).val, hlane⟩ : Fin 50257) k) := fun k => by
    unfold zfill3_1
    rw [fill_apply_of_lt3 win3_1 (grid3.coords t) _ _ (ix2 (⟨(y 1).val, hq⟩ : Fin 2048) k) (fun a => match a with
      | ⟨0, _⟩ => by show (y 1).val < win3_1.xsize (grid3.coords t) (0 : Fin 2); rw [x10]; exact hy1
      | ⟨1, _⟩ => by show k.val < win3_1.xsize (grid3.coords t) (1 : Fin 2); rw [x11]; exact k.isLt)]
    show V c main_arg17 (((cfg3.win 1).blk t).view.emb _) = _
    refine congrArg (V c main_arg17) (funext fun a => Fin.ext ?_)
    match a with
    | ⟨0, _⟩ => show win3_1.index t (0 : Fin 2) * 2048 + 1 * (y 1).val = 2048 * t.val + (y 1).val; omega
    | ⟨1, _⟩ => show win3_1.index t (1 : Fin 2) * 2048 + 1 * k.val = k.val; omega
  have hb : zfill3_2 V c t (ix2 (0 : Fin 1) (⟨(y 1).val, hq⟩ : Fin 2048))
      = V c main_v54 (ix2 (0 : Fin 1) (⟨2048 * t.val + (y 1).val, hlane⟩ : Fin 50257)) := by
    unfold zfill3_2
    rw [fill_apply_of_lt3 win3_2 (grid3.coords t) _ _ (ix2 (0 : Fin 1) (⟨(y 1).val, hq⟩ : Fin 2048)) (fun a => match a with
      | ⟨0, _⟩ => by show (0 : Nat) < win3_2.xsize (grid3.coords t) (0 : Fin 2); rw [x20]; exact Nat.one_pos
      | ⟨1, _⟩ => by show (y 1).val < win3_2.xsize (grid3.coords t) (1 : Fin 2); rw [x21]; exact hy1)]
    show V c main_v54 (((cfg3.win 2).blk t).view.emb _) = _
    refine congrArg (V c main_v54) (funext fun a => Fin.ext ?_)
    match a with
    | ⟨0, _⟩ => show win3_2.index t (0 : Fin 2) * 1 + 1 * 0 = 0; omega
    | ⟨1, _⟩ => show win3_2.index t (1 : Fin 2) * 2048 + 1 * (y 1).val = 2048 * t.val + (y 1).val; omega
  rw [hb]
  exact congrArg (· + V c main_v54 (ix2 (0 : Fin 1) (⟨2048 * t.val + (y 1).val, hlane⟩ : Fin 50257)))
    (Finset.sum_congr rfl fun k _ => by rw [hx0 k, hW k])

/-- An index of the result array is in point t's block iff each coordinate is in the block's range, cut at the array's
    end, on its axis. -/
theorem mem_blk3 (t : Fin cfg3.N) (i : S1x50257.Idx) :
    i ∈ ((cfg3.win 3).blk t).view.set ↔ ∀ a : Fin 2, win3_3.index t a * S1x2048.size a ≤ (i a).val
      ∧ (i a).val < win3_3.index t a * S1x2048.size a + win3_3.xsize (grid3.coords t) a := by
  show i ∈ ((View.whole main_v55).slice (win3_3.rect t)).set ↔ _
  rw [View.set_slice_whole, Rect.mem_set_unit]
  exact Iff.rfl

/-- Lane j lies in the block of point j / 2048: the 25 blocks, the last cut at lane 50257, cover the array. -/
theorem cover3 (i : S1x50257.Idx) : ∃ t : Fin cfg3.N, (cfg3.win 3).flush t = true ∧ i ∈ ((cfg3.win 3).blk t).view.set := by
  have hi0 : (i 0).val < 1 := (i 0).isLt
  have hi1 : (i 1).val < 50257 := (i 1).isLt
  refine ⟨⟨(i 1).val / 2048, by show (i 1).val / 2048 < 25; omega⟩, flush3_3 _, ?_⟩
  obtain ⟨-, -, -, -, i30, i31, -, -, -, -, -, -, x30, hx⟩ := geo3 ⟨(i 1).val / 2048, by show (i 1).val / 2048 < 25; omega⟩
  rw [mem_blk3]
  intro a
  match a with
  | ⟨0, _⟩ =>
    show win3_3.index _ (0 : Fin 2) * 1 ≤ (i 0).val ∧ (i 0).val < win3_3.index _ (0 : Fin 2) * 1 + win3_3.xsize _ (0 : Fin 2)
    rw [i30, x30]; omega
  | ⟨1, _⟩ =>
    show win3_3.index _ (1 : Fin 2) * 2048 ≤ (i 1).val ∧ (i 1).val < win3_3.index _ (1 : Fin 2) * 2048 + win3_3.xsize _ (1 : Fin 2)
    rw [i31]
    have hv : (⟨(i 1).val / 2048, by show (i 1).val / 2048 < 25; omega⟩ : Fin cfg3.N).val = (i 1).val / 2048 := rfl
    rw [hv] at hx ⊢
    omega

/-- The result array after the run holds x * W^T + b of the arrays the region was entered with, at every lane. -/
theorem final3_3 (c : Dev nD) (j : Fin 50257) :
    (dat3 (F := Ideal) V c).arrAt 3 cfg3.N (ix2 (0 : Fin 1) j) = Spec.lin (V c main_v53) (V c main_arg17) (V c main_v54) j := by
  rw [(dat3 (F := Ideal) V c).arrAt_eq_of_cover 3 (G3 V c) (fun t _ => flushed3_eq V c t) cover3]
  rfl

end Cert.KernelIdeal.Val
end
-- ==== Proof.Val.Reg0Val.lean ====
/- REGION 0's output arrays, read at the exact (extended-real) values.

   The region's four results, lane by lane, from the arrays the region finds:
     result 0 = softmax (x·Wᵀ + b) over the 50 text positions,
     result 1 = that softmax times the 50×1024 table of text values,
     result 2 = softmax (x'·W'ᵀ + b') over the 36 image regions,
     result 3 = that softmax times the 36×2048 table of image values.
   First the body's arithmetic over variables: a product contracting one axis is the sum over that axis of the
   operands' products (the operand indices read axis by axis); the row maximum is the fold of max from −∞ (whose bit
   pattern is ⊥), maxed once more with −∞; a [1] vector cast to [1,1] and broadcast along a row reads its one entry at
   every lane; so the payloads are the softmax of the linear layer and the mix of a table's rows by it. Then the
   arrays: one grid point, whole-array blocks, so an input block is its array and the one write-back fills the
   output array with the payload. -/
import proofs.«418679_j86887188398769_3_alg».proof.Proof.KI.Reg0
import proofs.«418679_j86887188398769_3_alg».proof.Proof.Val.Spec
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat Cfg Window)

/-- −∞'s pattern is the bottom of the extended reals. -/
theorem ninf_f32 : Ideal.ofBits .f32 0xFF800000#32 = (⊥ : EReal) := by simp [Ideal.ofBits, Ideal.ieee]

/-! ## The four products -/

/-! The operand indices of `dot_S1x3072_S50x3072_S1x50_1_1_0_0_n_n`, axis by axis. -/
theorem lhs_T50_0 (i : S1x50.Idx) (q : dot_S1x3072_S50x3072_S1x50_1_1_0_0_n_n.contr.Idx) :
    (dot_S1x3072_S50x3072_S1x50_1_1_0_0_n_n.lhsIdx i q 0).val = (i 0).val := by
  unfold DotDims.lhsIdx
  rw [dif_neg (show ¬(0 : Fin S1x3072.rank) ∈ dot_S1x3072_S50x3072_S1x50_1_1_0_0_n_n.lhsBatch by decide), dif_pos (show (0 : Fin S1x3072.rank) ∈ dot_S1x3072_S50x3072_S1x50_1_1_0_0_n_n.lhsNonContracting by decide)]
  rfl
theorem lhs_T50_1 (i : S1x50.Idx) (q : dot_S1x3072_S50x3072_S1x50_1_1_0_0_n_n.contr.Idx) :
    (dot_S1x3072_S50x3072_S1x50_1_1_0_0_n_n.lhsIdx i q 1).val = (q ⟨0, by decide⟩).val :=
  dot_S1x3072_S50x3072_S1x50_1_1_0_0_n_n.lhsIdx_val_of_single rfl i q
theorem rhs_T50_0 (i : S1x50.Idx) (q : dot_S1x3072_S50x3072_S1x50_1_1_0_0_n_n.contr.Idx) :
    (dot_S1x3072_S50x3072_S1x50_1_1_0_0_n_n.rhsIdx i q 0).val = (i 1).val := by
  unfold DotDims.rhsIdx
  rw [dif_neg (show ¬(0 : Fin S50x3072.rank) ∈ dot_S1x3072_S50x3072_S1x50_1_1_0_0_n_n.rhsBatch by decide), dif_pos (show (0 : Fin S50x3072.rank) ∈ dot_S1x3072_S50x3072_S1x50_1_1_0_0_n_n.rhsNonContracting by decide)]
  rfl
theorem rhs_T50_1 (i : S1x50.Idx) (q : dot_S1x3072_S50x3072_S1x50_1_1_0_0_n_n.contr.Idx) :
    (dot_S1x3072_S50x3072_S1x50_1_1_0_0_n_n.rhsIdx i q 1).val = (q ⟨0, by decide⟩).val :=
  dot_S1x3072_S50x3072_S1x50_1_1_0_0_n_n.rhsIdx_val_of_single rfl i q

/-- The product into the zero accumulator, at lane `j`: the sum over the one contracted axis. -/
theorem dot_T50_apply {φ₁ φ₂ : FTy} (lhs : FVec Ideal S1x3072 φ₁) (rhs : FVec Ideal S50x3072 φ₂) (j : Fin 50) :
    matmul dot_S1x3072_S50x3072_S1x50_1_1_0_0_n_n none lhs rhs (constant S1x50 .f32 0x00000000#32) (ix2 (0 : Fin 1) j)
      = ∑ k : Fin 3072, (lhs (ix2 (0 : Fin 1) k) : EReal) * (rhs (ix2 j k) : EReal) := by
  refine (Ideal.matmul_constant_zero_apply dot_S1x3072_S50x3072_S1x50_1_1_0_0_n_n none lhs rhs _).trans ?_
  rw [← Equiv.sum_comp (contrEquiv1 dot_S1x3072_S50x3072_S1x50_1_1_0_0_n_n 3072 rfl rfl).symm]
  refine Finset.sum_congr rfl fun k _ => ?_
  have hk := contrEquiv1_symm_val dot_S1x3072_S50x3072_S1x50_1_1_0_0_n_n 3072 rfl rfl k
  have el : dot_S1x3072_S50x3072_S1x50_1_1_0_0_n_n.lhsIdx (ix2 (0 : Fin 1) j) ((contrEquiv1 dot_S1x3072_S50x3072_S1x50_1_1_0_0_n_n 3072 rfl rfl).symm k) = ix2 (0 : Fin 1) k := funext fun a => Fin.ext (by
    match a with
    | ⟨0, _⟩ => exact lhs_T50_0 _ _
    | ⟨1, _⟩ => exact (lhs_T50_1 _ _).trans hk)
  have er : dot_S1x3072_S50x3072_S1x50_1_1_0_0_n_n.rhsIdx (ix2 (0 : Fin 1) j) ((contrEquiv1 dot_S1x3072_S50x3072_S1x50_1_1_0_0_n_n 3072 rfl rfl).symm k) = ix2 j k := funext fun a => Fin.ext (by
    match a with
    | ⟨0, _⟩ => exact rhs_T50_0 _ _
    | ⟨1, _⟩ => exact (rhs_T50_1 _ _).trans hk)
  rw [el, er]

/-! The operand indices of `dot_S1x75776_S36x75776_S1x36_1_1_0_0_n_n`, axis by axis. -/
theorem lhs_T36_0 (i : S1x36.Idx) (q : dot_S1x75776_S36x75776_S1x36_1_1_0_0_n_n.contr.Idx) :
    (dot_S1x75776_S36x75776_S1x36_1_1_0_0_n_n.lhsIdx i q 0).val = (i 0).val := by
  unfold DotDims.lhsIdx
  rw [dif_neg (show ¬(0 : Fin S1x75776.rank) ∈ dot_S1x75776_S36x75776_S1x36_1_1_0_0_n_n.lhsBatch by decide), dif_pos (show (0 : Fin S1x75776.rank) ∈ dot_S1x75776_S36x75776_S1x36_1_1_0_0_n_n.lhsNonContracting by decide)]
  rfl
theorem lhs_T36_1 (i : S1x36.Idx) (q : dot_S1x75776_S36x75776_S1x36_1_1_0_0_n_n.contr.Idx) :
    (dot_S1x75776_S36x75776_S1x36_1_1_0_0_n_n.lhsIdx i q 1).val = (q ⟨0, by decide⟩).val :=
  dot_S1x75776_S36x75776_S1x36_1_1_0_0_n_n.lhsIdx_val_of_single rfl i q
theorem rhs_T36_0 (i : S1x36.Idx) (q : dot_S1x75776_S36x75776_S1x36_1_1_0_0_n_n.contr.Idx) :
    (dot_S1x75776_S36x75776_S1x36_1_1_0_0_n_n.rhsIdx i q 0).val = (i 1).val := by
  unfold DotDims.rhsIdx
  rw [dif_neg (show ¬(0 : Fin S36x75776.rank) ∈ dot_S1x75776_S36x75776_S1x36_1_1_0_0_n_n.rhsBatch by decide), dif_pos (show (0 : Fin S36x75776.rank) ∈ dot_S1x75776_S36x75776_S1x36_1_1_0_0_n_n.rhsNonContracting by decide)]
  rfl
theorem rhs_T36_1 (i : S1x36.Idx) (q : dot_S1x75776_S36x75776_S1x36_1_1_0_0_n_n.contr.Idx) :
    (dot_S1x75776_S36x75776_S1x36_1_1_0_0_n_n.rhsIdx i q 1).val = (q ⟨0, by decide⟩).val :=
  dot_S1x75776_S36x75776_S1x36_1_1_0_0_n_n.rhsIdx_val_of_single rfl i q

/-- The product into the zero accumulator, at lane `j`: the sum over the one contracted axis. -/
theorem dot_T36_apply {φ₁ φ₂ : FTy} (lhs : FVec Ideal S1x75776 φ₁) (rhs : FVec Ideal S36x75776 φ₂) (j : Fin 36) :
    matmul dot_S1x75776_S36x75776_S1x36_1_1_0_0_n_n none lhs rhs (constant S1x36 .f32 0x00000000#32) (ix2 (0 : Fin 1) j)
      = ∑ k : Fin 75776, (lhs (ix2 (0 : Fin 1) k) : EReal) * (rhs (ix2 j k) : EReal) := by
  refine (Ideal.matmul_constant_zero_apply dot_S1x75776_S36x75776_S1x36_1_1_0_0_n_n none lhs rhs _).trans ?_
  rw [← Equiv.sum_comp (contrEquiv1 dot_S1x75776_S36x75776_S1x36_1_1_0_0_n_n 75776 rfl rfl).symm]
  refine Finset.sum_congr rfl fun k _ => ?_
  have hk := contrEquiv1_symm_val dot_S1x75776_S36x75776_S1x36_1_1_0_0_n_n 75776 rfl rfl k
  have el : dot_S1x75776_S36x75776_S1x36_1_1_0_0_n_n.lhsIdx (ix2 (0 : Fin 1) j) ((contrEquiv1 dot_S1x75776_S36x75776_S1x36_1_1_0_0_n_n 75776 rfl rfl).symm k) = ix2 (0 : Fin 1) k := funext fun a => Fin.ext (by
    match a with
    | ⟨0, _⟩ => exact lhs_T36_0 _ _
    | ⟨1, _⟩ => exact (lhs_T36_1 _ _).trans hk)
  have er : dot_S1x75776_S36x75776_S1x36_1_1_0_0_n_n.rhsIdx (ix2 (0 : Fin 1) j) ((contrEquiv1 dot_S1x75776_S36x75776_S1x36_1_1_0_0_n_n 75776 rfl rfl).symm k) = ix2 j k := funext fun a => Fin.ext (by
    match a with
    | ⟨0, _⟩ => exact rhs_T36_0 _ _
    | ⟨1, _⟩ => exact (rhs_T36_1 _ _).trans hk)
  rw [el, er]

/-! The operand indices of `dot_S1x50_S50x1024_S1x1024_1_0_0_1_n_n`, axis by axis. -/
theorem lhs_M1024_0 (i : S1x1024.Idx) (q : dot_S1x50_S50x1024_S1x1024_1_0_0_1_n_n.contr.Idx) :
    (dot_S1x50_S50x1024_S1x1024_1_0_0_1_n_n.lhsIdx i q 0).val = (i 0).val := by
  unfold DotDims.lhsIdx
  rw [dif_neg (show ¬(0 : Fin S1x50.rank) ∈ dot_S1x50_S50x1024_S1x1024_1_0_0_1_n_n.lhsBatch by decide), dif_pos (show (0 : Fin S1x50.rank) ∈ dot_S1x50_S50x1024_S1x1024_1_0_0_1_n_n.lhsNonContracting by decide)]
  rfl
theorem lhs_M1024_1 (i : S1x1024.Idx) (q : dot_S1x50_S50x1024_S1x1024_1_0_0_1_n_n.contr.Idx) :
    (dot_S1x50_S50x1024_S1x1024_1_0_0_1_n_n.lhsIdx i q 1).val = (q ⟨0, by decide⟩).val :=
  dot_S1x50_S50x1024_S1x1024_1_0_0_1_n_n.lhsIdx_val_of_single rfl i q
theorem rhs_M1024_1 (i : S1x1024.Idx) (q : dot_S1x50_S50x1024_S1x1024_1_0_0_1_n_n.contr.Idx) :
    (dot_S1x50_S50x1024_S1x1024_1_0_0_1_n_n.rhsIdx i q 1).val = (i 1).val := by
  unfold DotDims.rhsIdx
  rw [dif_neg (show ¬(1 : Fin S50x1024.rank) ∈ dot_S1x50_S50x1024_S1x1024_1_0_0_1_n_n.rhsBatch by decide), dif_pos (show (1 : Fin S50x1024.rank) ∈ dot_S1x50_S50x1024_S1x1024_1_0_0_1_n_n.rhsNonContracting by decide)]
  rfl
theorem rhs_M1024_0 (i : S1x1024.Idx) (q : dot_S1x50_S50x1024_S1x1024_1_0_0_1_n_n.contr.Idx) :
    (dot_S1x50_S50x1024_S1x1024_1_0_0_1_n_n.rhsIdx i q 0).val = (q ⟨0, by decide⟩).val :=
  dot_S1x50_S50x1024_S1x1024_1_0_0_1_n_n.rhsIdx_val_of_single rfl i q

/-- The product into the zero accumulator, at lane `j`: the sum over the one contracted axis. -/
theorem dot_M1024_apply {φ₁ φ₂ : FTy} (lhs : FVec Ideal S1x50 φ₁) (rhs : FVec Ideal S50x1024 φ₂) (j : Fin 1024) :
    matmul dot_S1x50_S50x1024_S1x1024_1_0_0_1_n_n none lhs rhs (constant S1x1024 .f32 0x00000000#32) (ix2 (0 : Fin 1) j)
      = ∑ k : Fin 50, (lhs (ix2 (0 : Fin 1) k) : EReal) * (rhs (ix2 k j) : EReal) := by
  refine (Ideal.matmul_constant_zero_apply dot_S1x50_S50x1024_S1x1024_1_0_0_1_n_n none lhs rhs _).trans ?_
  rw [← Equiv.sum_comp (contrEquiv1 dot_S1x50_S50x1024_S1x1024_1_0_0_1_n_n 50 rfl rfl).symm]
  refine Finset.sum_congr rfl fun k _ => ?_
  have hk := contrEquiv1_symm_val dot_S1x50_S50x1024_S1x1024_1_0_0_1_n_n 50 rfl rfl k
  have el : dot_S1x50_S50x1024_S1x1024_1_0_0_1_n_n.lhsIdx (ix2 (0 : Fin 1) j) ((contrEquiv1 dot_S1x50_S50x1024_S1x1024_1_0_0_1_n_n 50 rfl rfl).symm k) = ix2 (0 : Fin 1) k := funext fun a => Fin.ext (by
    match a with
    | ⟨0, _⟩ => exact lhs_M1024_0 _ _
    | ⟨1, _⟩ => exact (lhs_M1024_1 _ _).trans hk)
  have er : dot_S1x50_S50x1024_S1x1024_1_0_0_1_n_n.rhsIdx (ix2 (0 : Fin 1) j) ((contrEquiv1 dot_S1x50_S50x1024_S1x1024_1_0_0_1_n_n 50 rfl rfl).symm k) = ix2 k j := funext fun a => Fin.ext (by
    match a with
    | ⟨1, _⟩ => exact rhs_M1024_1 _ _
    | ⟨0, _⟩ => exact (rhs_M1024_0 _ _).trans hk)
  rw [el, er]

/-! The operand indices of `dot_S1x36_S36x2048_S1x2048_1_0_0_1_n_n`, axis by axis. -/
theorem lhs_M2048_0 (i : S1x2048.Idx) (q : dot_S1x36_S36x2048_S1x2048_1_0_0_1_n_n.contr.Idx) :
    (dot_S1x36_S36x2048_S1x2048_1_0_0_1_n_n.lhsIdx i q 0).val = (i 0).val := by
  unfold DotDims.lhsIdx
  rw [dif_neg (show ¬(0 : Fin S1x36.rank) ∈ dot_S1x36_S36x2048_S1x2048_1_0_0_1_n_n.lhsBatch by decide), dif_pos (show (0 : Fin S1x36.rank) ∈ dot_S1x36_S36x2048_S1x2048_1_0_0_1_n_n.lhsNonContracting by decide)]
  rfl
theorem lhs_M2048_1 (i : S1x2048.Idx) (q : dot_S1x36_S36x2048_S1x2048_1_0_0_1_n_n.contr.Idx) :
    (dot_S1x36_S36x2048_S1x2048_1_0_0_1_n_n.lhsIdx i q 1).val = (q ⟨0, by decide⟩).val :=
  dot_S1x36_S36x2048_S1x2048_1_0_0_1_n_n.lhsIdx_val_of_single rfl i q
theorem rhs_M2048_1 (i : S1x2048.Idx) (q : dot_S1x36_S36x2048_S1x2048_1_0_0_1_n_n.contr.Idx) :
    (dot_S1x36_S36x2048_S1x2048_1_0_0_1_n_n.rhsIdx i q 1).val = (i 1).val := by
  unfold DotDims.rhsIdx
  rw [dif_neg (show ¬(1 : Fin S36x2048.rank) ∈ dot_S1x36_S36x2048_S1x2048_1_0_0_1_n_n.rhsBatch by decide), dif_pos (show (1 : Fin S36x2048.rank) ∈ dot_S1x36_S36x2048_S1x2048_1_0_0_1_n_n.rhsNonContracting by decide)]
  rfl
theorem rhs_M2048_0 (i : S1x2048.Idx) (q : dot_S1x36_S36x2048_S1x2048_1_0_0_1_n_n.contr.Idx) :
    (dot_S1x36_S36x2048_S1x2048_1_0_0_1_n_n.rhsIdx i q 0).val = (q ⟨0, by decide⟩).val :=
  dot_S1x36_S36x2048_S1x2048_1_0_0_1_n_n.rhsIdx_val_of_single rfl i q

/-- The product into the zero accumulator, at lane `j`: the sum over the one contracted axis. -/
theorem dot_M2048_apply {φ₁ φ₂ : FTy} (lhs : FVec Ideal S1x36 φ₁) (rhs : FVec Ideal S36x2048 φ₂) (j : Fin 2048) :
    matmul dot_S1x36_S36x2048_S1x2048_1_0_0_1_n_n none lhs rhs (constant S1x2048 .f32 0x00000000#32) (ix2 (0 : Fin 1) j)
      = ∑ k : Fin 36, (lhs (ix2 (0 : Fin 1) k) : EReal) * (rhs (ix2 k j) : EReal) := by
  refine (Ideal.matmul_constant_zero_apply dot_S1x36_S36x2048_S1x2048_1_0_0_1_n_n none lhs rhs _).trans ?_
  rw [← Equiv.sum_comp (contrEquiv1 dot_S1x36_S36x2048_S1x2048_1_0_0_1_n_n 36 rfl rfl).symm]
  refine Finset.sum_congr rfl fun k _ => ?_
  have hk := contrEquiv1_symm_val dot_S1x36_S36x2048_S1x2048_1_0_0_1_n_n 36 rfl rfl k
  have el : dot_S1x36_S36x2048_S1x2048_1_0_0_1_n_n.lhsIdx (ix2 (0 : Fin 1) j) ((contrEquiv1 dot_S1x36_S36x2048_S1x2048_1_0_0_1_n_n 36 rfl rfl).symm k) = ix2 (0 : Fin 1) k := funext fun a => Fin.ext (by
    match a with
    | ⟨0, _⟩ => exact lhs_M2048_0 _ _
    | ⟨1, _⟩ => exact (lhs_M2048_1 _ _).trans hk)
  have er : dot_S1x36_S36x2048_S1x2048_1_0_0_1_n_n.rhsIdx (ix2 (0 : Fin 1) j) ((contrEquiv1 dot_S1x36_S36x2048_S1x2048_1_0_0_1_n_n 36 rfl rfl).symm k) = ix2 k j := funext fun a => Fin.ext (by
    match a with
    | ⟨1, _⟩ => exact rhs_M2048_1 _ _
    | ⟨0, _⟩ => exact (rhs_M2048_0 _ _).trans hk)
  rw [el, er]

/-! ## Softmax along a row of 50 lanes, as the body spells it -/

/-- The row maximum, splat along the row: the max-reduction from −∞, maxed with the −∞ splat, cast [1]→[1,1], broadcast. -/
def rowMaxVec50 (s : FVec Ideal S1x50 .f32) : FVec Ideal S1x50 .f32 :=
  broadcastTo S1x50 (shapeCast S1x1 (maximumf (broadcast S1 (Scalar.ofBits .f32 0xFF800000#32))
    (multiReduction (F := Ideal) .maximumf [1] S1 s 0xFF800000#32 Facts₀.reduces_S1x50_S1 (.inl rfl) rfl)) Facts₀.shapeCasts_S1_S1x1) Facts₀.broadcasts_S1x1_S1x50

/-- exp of the row less its maximum. -/
def expRow50 (s : FVec Ideal S1x50 .f32) : FVec Ideal S1x50 .f32 := exp (subf s (rowMaxVec50 s))

/-- The row's softmax: the exponentials over their sum, splat along the row. -/
def softmaxVec50 (s : FVec Ideal S1x50 .f32) : FVec Ideal S1x50 .f32 :=
  divf (expRow50 s) (broadcastTo S1x50 (shapeCast S1x1
    (multiReduction (F := Ideal) .add [1] S1 (expRow50 s) 0x00000000#32 Facts₀.reduces_S1x50_S1 (.inl rfl) rfl) Facts₀.shapeCasts_S1_S1x1) Facts₀.broadcasts_S1x1_S1x50)

/-- The max-reduction along the row is the fold of max from −∞ over the lanes. -/
theorem redMax50 (s : FVec Ideal S1x50 .f32) :
    multiReduction (F := Ideal) .maximumf [1] S1 s 0xFF800000#32 Facts₀.reduces_S1x50_S1 (.inl rfl) rfl (ix1 (0 : Fin 1))
      = (Finset.univ : Finset (Fin 50)).fold max (⊥ : EReal) (fun k => s (ix2 (0 : Fin 1) k)) := by
  refine (Ideal.multiReduction_maximumf_single s _ Facts₀.reduces_S1x50_S1 _ _ _).trans ?_
  exact congrArg₂ (fun (b : EReal) (f : Fin 50 → EReal) => Finset.fold max b f Finset.univ) ninf_f32
    (funext fun k => congrArg s (funext fun a => Fin.ext (by match a with | ⟨0, _⟩ => rfl | ⟨1, _⟩ => rfl)))

/-- The add-reduction along the row is the sum over the lanes. -/
theorem redAdd50 (s : FVec Ideal S1x50 .f32) :
    multiReduction (F := Ideal) .add [1] S1 s 0x00000000#32 Facts₀.reduces_S1x50_S1 (.inl rfl) rfl (ix1 (0 : Fin 1))
      = ∑ k : Fin 50, s (ix2 (0 : Fin 1) k) := by
  refine (Ideal.multiReduction_add_single s _ Facts₀.reduces_S1x50_S1 _ _ _).trans ?_
  exact Finset.sum_congr rfl fun k _ => congrArg s (funext fun a => Fin.ext (by match a with | ⟨0, _⟩ => rfl | ⟨1, _⟩ => rfl))

/-- A [1] vector cast to [1,1] and broadcast along the row reads its one entry at every lane. -/
theorem splat50 (v : FVec Ideal S1 .f32) (i : S1x50.Idx) :
    broadcastTo S1x50 (shapeCast S1x1 v Facts₀.shapeCasts_S1_S1x1) Facts₀.broadcasts_S1x1_S1x50 i = v (ix1 (0 : Fin 1)) := by
  refine (broadcastTo_apply _ Facts₀.broadcasts_S1x1_S1x50 i (ix2 (0 : Fin 1) (0 : Fin 1)) (fun a => by
    match a with
    | ⟨0, _⟩ => rfl
    | ⟨1, _⟩ => rfl)).trans ?_
  exact shapeCast_apply v Facts₀.shapeCasts_S1_S1x1 _ (ix1 (0 : Fin 1)) rfl

theorem rowMaxVec50_apply (s : FVec Ideal S1x50 .f32) (i : S1x50.Idx) :
    rowMaxVec50 s i = Spec.rowMax (fun k => s (ix2 (0 : Fin 1) k)) := by
  unfold rowMaxVec50
  refine (splat50 _ i).trans ?_
  show max (Ideal.ofBits .f32 0xFF800000#32) _ = _
  rw [redMax50, ninf_f32]
  rfl

theorem expRow50_apply (s : FVec Ideal S1x50 .f32) (i : S1x50.Idx) :
    expRow50 s i = Ideal.exp (s i - Spec.rowMax (fun k => s (ix2 (0 : Fin 1) k))) := by
  show Ideal.exp (s i - rowMaxVec50 s i) = _
  rw [rowMaxVec50_apply]

theorem softmaxVec50_apply (s : FVec Ideal S1x50 .f32) (j : Fin 50) :
    softmaxVec50 s (ix2 (0 : Fin 1) j) = Spec.softmax (fun k => s (ix2 (0 : Fin 1) k)) j := by
  unfold softmaxVec50
  show Ideal.div (expRow50 s (ix2 (0 : Fin 1) j)) _ = _
  rw [splat50, redAdd50, expRow50_apply]
  unfold Spec.softmax
  exact congrArg _ (Finset.sum_congr rfl fun k _ => expRow50_apply s _)

/-! ## Softmax along a row of 36 lanes, as the body spells it -/

/-- The row maximum, splat along the row: the max-reduction from −∞, maxed with the −∞ splat, cast [1]→[1,1], broadcast. -/
def rowMaxVec36 (s : FVec Ideal S1x36 .f32) : FVec Ideal S1x36 .f32 :=
  broadcastTo S1x36 (shapeCast S1x1 (maximumf (broadcast S1 (Scalar.ofBits .f32 0xFF800000#32))
    (multiReduction (F := Ideal) .maximumf [1] S1 s 0xFF800000#32 Facts₀.reduces_S1x36_S1 (.inl rfl) rfl)) Facts₀.shapeCasts_S1_S1x1) Facts₀.broadcasts_S1x1_S1x36

/-- exp of the row less its maximum. -/
def expRow36 (s : FVec Ideal S1x36 .f32) : FVec Ideal S1x36 .f32 := exp (subf s (rowMaxVec36 s))

/-- The row's softmax: the exponentials over their sum, splat along the row. -/
def softmaxVec36 (s : FVec Ideal S1x36 .f32) : FVec Ideal S1x36 .f32 :=
  divf (expRow36 s) (broadcastTo S1x36 (shapeCast S1x1
    (multiReduction (F := Ideal) .add [1] S1 (expRow36 s) 0x00000000#32 Facts₀.reduces_S1x36_S1 (.inl rfl) rfl) Facts₀.shapeCasts_S1_S1x1) Facts₀.broadcasts_S1x1_S1x36)

/-- The max-reduction along the row is the fold of max from −∞ over the lanes. -/
theorem redMax36 (s : FVec Ideal S1x36 .f32) :
    multiReduction (F := Ideal) .maximumf [1] S1 s 0xFF800000#32 Facts₀.reduces_S1x36_S1 (.inl rfl) rfl (ix1 (0 : Fin 1))
      = (Finset.univ : Finset (Fin 36)).fold max (⊥ : EReal) (fun k => s (ix2 (0 : Fin 1) k)) := by
  refine (Ideal.multiReduction_maximumf_single s _ Facts₀.reduces_S1x36_S1 _ _ _).trans ?_
  exact congrArg₂ (fun (b : EReal) (f : Fin 36 → EReal) => Finset.fold max b f Finset.univ) ninf_f32
    (funext fun k => congrArg s (funext fun a => Fin.ext (by match a with | ⟨0, _⟩ => rfl | ⟨1, _⟩ => rfl)))

/-- The add-reduction along the row is the sum over the lanes. -/
theorem redAdd36 (s : FVec Ideal S1x36 .f32) :
    multiReduction (F := Ideal) .add [1] S1 s 0x00000000#32 Facts₀.reduces_S1x36_S1 (.inl rfl) rfl (ix1 (0 : Fin 1))
      = ∑ k : Fin 36, s (ix2 (0 : Fin 1) k) := by
  refine (Ideal.multiReduction_add_single s _ Facts₀.reduces_S1x36_S1 _ _ _).trans ?_
  exact Finset.sum_congr rfl fun k _ => congrArg s (funext fun a => Fin.ext (by match a with | ⟨0, _⟩ => rfl | ⟨1, _⟩ => rfl))

/-- A [1] vector cast to [1,1] and broadcast along the row reads its one entry at every lane. -/
theorem splat36 (v : FVec Ideal S1 .f32) (i : S1x36.Idx) :
    broadcastTo S1x36 (shapeCast S1x1 v Facts₀.shapeCasts_S1_S1x1) Facts₀.broadcasts_S1x1_S1x36 i = v (ix1 (0 : Fin 1)) := by
  refine (broadcastTo_apply _ Facts₀.broadcasts_S1x1_S1x36 i (ix2 (0 : Fin 1) (0 : Fin 1)) (fun a => by
    match a with
    | ⟨0, _⟩ => rfl
    | ⟨1, _⟩ => rfl)).trans ?_
  exact shapeCast_apply v Facts₀.shapeCasts_S1_S1x1 _ (ix1 (0 : Fin 1)) rfl

theorem rowMaxVec36_apply (s : FVec Ideal S1x36 .f32) (i : S1x36.Idx) :
    rowMaxVec36 s i = Spec.rowMax (fun k => s (ix2 (0 : Fin 1) k)) := by
  unfold rowMaxVec36
  refine (splat36 _ i).trans ?_
  show max (Ideal.ofBits .f32 0xFF800000#32) _ = _
  rw [redMax36, ninf_f32]
  rfl

theorem expRow36_apply (s : FVec Ideal S1x36 .f32) (i : S1x36.Idx) :
    expRow36 s i = Ideal.exp (s i - Spec.rowMax (fun k => s (ix2 (0 : Fin 1) k))) := by
  show Ideal.exp (s i - rowMaxVec36 s i) = _
  rw [rowMaxVec36_apply]

theorem softmaxVec36_apply (s : FVec Ideal S1x36 .f32) (j : Fin 36) :
    softmaxVec36 s (ix2 (0 : Fin 1) j) = Spec.softmax (fun k => s (ix2 (0 : Fin 1) k)) j := by
  unfold softmaxVec36
  show Ideal.div (expRow36 s (ix2 (0 : Fin 1) j)) _ = _
  rw [splat36, redAdd36, expRow36_apply]
  unfold Spec.softmax
  exact congrArg _ (Finset.sum_congr rfl fun k _ => expRow36_apply s _)

/-! ## The payloads at a lane -/

/-- The text scores' softmax. -/
theorem k0_pay3_apply (x0 : Vec Ideal S1x3072 .f32) (x1 : Vec Ideal S50x3072 .f32) (x2 : Vec Ideal S1x50 .f32) (j : Fin 50) :
    k0_pay3 (F := Ideal) x0 x1 x2 (ix2 (0 : Fin 1) j) = Spec.softmax (Spec.lin x0 x1 x2) j := by
  unfold k0_pay3
  simp only [shapeCast_self]
  refine (softmaxVec50_apply _ j).trans ?_
  refine congrArg (fun s => Spec.softmax s j) (funext fun k => ?_)
  refine (congrArg (· + x2 (ix2 (0 : Fin 1) k)) (dot_T50_apply _ _ k)).trans ?_
  rfl

/-- The text context row. -/
theorem k0_pay4_apply (x0 : Vec Ideal S1x3072 .f32) (x1 : Vec Ideal S50x3072 .f32) (x2 : Vec Ideal S1x50 .f32) (x3 : Vec Ideal S50x1024 .f32) (d : Fin 1024) :
    k0_pay4 (F := Ideal) x0 x1 x2 x3 (ix2 (0 : Fin 1) d) = Spec.mix (Spec.softmax (Spec.lin x0 x1 x2)) x3 d := by
  unfold k0_pay4
  refine (dot_M1024_apply _ _ d).trans ?_
  unfold Spec.mix
  refine Finset.sum_congr rfl fun l _ => ?_
  refine congrArg (· * x3 (ix2 l d)) ?_
  exact k0_pay3_apply x0 x1 x2 l

/-- The image scores' product. -/
theorem k0_pay5_apply (x4 : Vec Ideal S1x75776 .f32) (x5 : Vec Ideal S36x75776 .f32) (j : Fin 36) :
    k0_pay5 (F := Ideal) x4 x5 (ix2 (0 : Fin 1) j) = ∑ k : Fin 75776, x4 (ix2 (0 : Fin 1) k) * x5 (ix2 j k) := by
  unfold k0_pay5
  simp only [shapeCast_self]
  exact dot_T36_apply _ _ j

/-- The image scores' softmax. -/
theorem k0_pay1_apply (x4 : Vec Ideal S1x75776 .f32) (x5 : Vec Ideal S36x75776 .f32) (x6 : Vec Ideal S1x36 .f32) (j : Fin 36) :
    k0_pay1 (F := Ideal) (k0_pay5 x4 x5) x6 (ix2 (0 : Fin 1) j) = Spec.softmax (Spec.lin x4 x5 x6) j := by
  unfold k0_pay1
  simp only [shapeCast_self]
  refine (softmaxVec36_apply _ j).trans ?_
  refine congrArg (fun s => Spec.softmax s j) (funext fun k => ?_)
  refine (congrArg (· + x6 (ix2 (0 : Fin 1) k)) (k0_pay5_apply x4 x5 k)).trans ?_
  rfl

/-- The image context row. -/
theorem k0_pay2_apply (x4 : Vec Ideal S1x75776 .f32) (x5 : Vec Ideal S36x75776 .f32) (x6 : Vec Ideal S1x36 .f32) (x7 : Vec Ideal S36x2048 .f32) (d : Fin 2048) :
    k0_pay2 (F := Ideal) (k0_pay5 x4 x5) x6 x7 (ix2 (0 : Fin 1) d) = Spec.mix (Spec.softmax (Spec.lin x4 x5 x6)) x7 d := by
  unfold k0_pay2
  refine (dot_M2048_apply _ _ d).trans ?_
  unfold Spec.mix
  refine Finset.sum_congr rfl fun l _ => ?_
  refine congrArg (· * x7 (ix2 l d)) ?_
  exact k0_pay1_apply x4 x5 x6 l

/-! ## The arrays after the region

    The grid has one point and every window's block is its whole array (block index zero on both axes): a block read
    off an array is the array, the one write-back covers the array, so each output array ends at the body's payload of
    the whole input arrays. -/

variable (V : (c : Dev nD) → (b : Ref sig .tc) → Buf (Elt Ideal) ((c : Thread nD τ).loc b))

theorem index0_0 (t : Fin cfg0.N) : win0_0.index t 0 = 0 ∧ win0_0.index t 1 = 0 :=
  (by decide +kernel : ∀ t : Fin grid0.N, win0_0.index t 0 = 0 ∧ win0_0.index t 1 = 0) t

theorem read_blk0_0 (t : Fin cfg0.N) (X : S1x3072.Idx → Elt Ideal .f32) :
    ((cfg0.win 0).blk t).view.read (Elt Ideal) X = X := by
  have hi := index0_0 t
  funext j
  rw [View.read_apply]
  refine congrArg X (funext fun a => Fin.ext ?_)
  match a with
  | ⟨0, _⟩ => show win0_0.index t 0 * 1 + 1 * (j 0).val = (j 0).val; rw [hi.1]; omega
  | ⟨1, _⟩ => show win0_0.index t 1 * 3072 + 1 * (j 1).val = (j 1).val; rw [hi.2]; omega

theorem index0_1 (t : Fin cfg0.N) : win0_1.index t 0 = 0 ∧ win0_1.index t 1 = 0 :=
  (by decide +kernel : ∀ t : Fin grid0.N, win0_1.index t 0 = 0 ∧ win0_1.index t 1 = 0) t

theorem read_blk0_1 (t : Fin cfg0.N) (X : S50x3072.Idx → Elt Ideal .f32) :
    ((cfg0.win 1).blk t).view.read (Elt Ideal) X = X := by
  have hi := index0_1 t
  funext j
  rw [View.read_apply]
  refine congrArg X (funext fun a => Fin.ext ?_)
  match a with
  | ⟨0, _⟩ => show win0_1.index t 0 * 50 + 1 * (j 0).val = (j 0).val; rw [hi.1]; omega
  | ⟨1, _⟩ => show win0_1.index t 1 * 3072 + 1 * (j 1).val = (j 1).val; rw [hi.2]; omega

theorem index0_2 (t : Fin cfg0.N) : win0_2.index t 0 = 0 ∧ win0_2.index t 1 = 0 :=
  (by decide +kernel : ∀ t : Fin grid0.N, win0_2.index t 0 = 0 ∧ win0_2.index t 1 = 0) t

theorem read_blk0_2 (t : Fin cfg0.N) (X : S1x50.Idx → Elt Ideal .f32) :
    ((cfg0.win 2).blk t).view.read (Elt Ideal) X = X := by
  have hi := index0_2 t
  funext j
  rw [View.read_apply]
  refine congrArg X (funext fun a => Fin.ext ?_)
  match a with
  | ⟨0, _⟩ => show win0_2.index t 0 * 1 + 1 * (j 0).val = (j 0).val; rw [hi.1]; omega
  | ⟨1, _⟩ => show win0_2.index t 1 * 50 + 1 * (j 1).val = (j 1).val; rw [hi.2]; omega

theorem index0_3 (t : Fin cfg0.N) : win0_3.index t 0 = 0 ∧ win0_3.index t 1 = 0 :=
  (by decide +kernel : ∀ t : Fin grid0.N, win0_3.index t 0 = 0 ∧ win0_3.index t 1 = 0) t

theorem read_blk0_3 (t : Fin cfg0.N) (X : S50x1024.Idx → Elt Ideal .f32) :
    ((cfg0.win 3).blk t).view.read (Elt Ideal) X = X := by
  have hi := index0_3 t
  funext j
  rw [View.read_apply]
  refine congrArg X (funext fun a => Fin.ext ?_)
  match a with
  | ⟨0, _⟩ => show win0_3.index t 0 * 50 + 1 * (j 0).val = (j 0).val; rw [hi.1]; omega
  | ⟨1, _⟩ => show win0_3.index t 1 * 1024 + 1 * (j 1).val = (j 1).val; rw [hi.2]; omega

theorem index0_4 (t : Fin cfg0.N) : win0_4.index t 0 = 0 ∧ win0_4.index t 1 = 0 :=
  (by decide +kernel : ∀ t : Fin grid0.N, win0_4.index t 0 = 0 ∧ win0_4.index t 1 = 0) t

theorem read_blk0_4 (t : Fin cfg0.N) (X : S1x75776.Idx → Elt Ideal .f32) :
    ((cfg0.win 4).blk t).view.read (Elt Ideal) X = X := by
  have hi := index0_4 t
  funext j
  rw [View.read_apply]
  refine congrArg X (funext fun a => Fin.ext ?_)
  match a with
  | ⟨0, _⟩ => show win0_4.index t 0 * 1 + 1 * (j 0).val = (j 0).val; rw [hi.1]; omega
  | ⟨1, _⟩ => show win0_4.index t 1 * 75776 + 1 * (j 1).val = (j 1).val; rw [hi.2]; omega

theorem index0_5 (t : Fin cfg0.N) : win0_5.index t 0 = 0 ∧ win0_5.index t 1 = 0 :=
  (by decide +kernel : ∀ t : Fin grid0.N, win0_5.index t 0 = 0 ∧ win0_5.index t 1 = 0) t

theorem read_blk0_5 (t : Fin cfg0.N) (X : S36x75776.Idx → Elt Ideal .f32) :
    ((cfg0.win 5).blk t).view.read (Elt Ideal) X = X := by
  have hi := index0_5 t
  funext j
  rw [View.read_apply]
  refine congrArg X (funext fun a => Fin.ext ?_)
  match a with
  | ⟨0, _⟩ => show win0_5.index t 0 * 36 + 1 * (j 0).val = (j 0).val; rw [hi.1]; omega
  | ⟨1, _⟩ => show win0_5.index t 1 * 75776 + 1 * (j 1).val = (j 1).val; rw [hi.2]; omega

theorem index0_6 (t : Fin cfg0.N) : win0_6.index t 0 = 0 ∧ win0_6.index t 1 = 0 :=
  (by decide +kernel : ∀ t : Fin grid0.N, win0_6.index t 0 = 0 ∧ win0_6.index t 1 = 0) t

theorem read_blk0_6 (t : Fin cfg0.N) (X : S1x36.Idx → Elt Ideal .f32) :
    ((cfg0.win 6).blk t).view.read (Elt Ideal) X = X := by
  have hi := index0_6 t
  funext j
  rw [View.read_apply]
  refine congrArg X (funext fun a => Fin.ext ?_)
  match a with
  | ⟨0, _⟩ => show win0_6.index t 0 * 1 + 1 * (j 0).val = (j 0).val; rw [hi.1]; omega
  | ⟨1, _⟩ => show win0_6.index t 1 * 36 + 1 * (j 1).val = (j 1).val; rw [hi.2]; omega

theorem index0_7 (t : Fin cfg0.N) : win0_7.index t 0 = 0 ∧ win0_7.index t 1 = 0 :=
  (by decide +kernel : ∀ t : Fin grid0.N, win0_7.index t 0 = 0 ∧ win0_7.index t 1 = 0) t

theorem read_blk0_7 (t : Fin cfg0.N) (X : S36x2048.Idx → Elt Ideal .f32) :
    ((cfg0.win 7).blk t).view.read (Elt Ideal) X = X := by
  have hi := index0_7 t
  funext j
  rw [View.read_apply]
  refine congrArg X (funext fun a => Fin.ext ?_)
  match a with
  | ⟨0, _⟩ => show win0_7.index t 0 * 36 + 1 * (j 0).val = (j 0).val; rw [hi.1]; omega
  | ⟨1, _⟩ => show win0_7.index t 1 * 2048 + 1 * (j 1).val = (j 1).val; rw [hi.2]; omega

theorem index0_8 (t : Fin cfg0.N) : win0_8.index t 0 = 0 ∧ win0_8.index t 1 = 0 :=
  (by decide +kernel : ∀ t : Fin grid0.N, win0_8.index t 0 = 0 ∧ win0_8.index t 1 = 0) t

theorem read_blk0_8 (t : Fin cfg0.N) (X : S1x50.Idx → Elt Ideal .f32) :
    ((cfg0.win 8).blk t).view.read (Elt Ideal) X = X := by
  have hi := index0_8 t
  funext j
  rw [View.read_apply]
  refine congrArg X (funext fun a => Fin.ext ?_)
  match a with
  | ⟨0, _⟩ => show win0_8.index t 0 * 1 + 1 * (j 0).val = (j 0).val; rw [hi.1]; omega
  | ⟨1, _⟩ => show win0_8.index t 1 * 50 + 1 * (j 1).val = (j 1).val; rw [hi.2]; omega

theorem index0_9 (t : Fin cfg0.N) : win0_9.index t 0 = 0 ∧ win0_9.index t 1 = 0 :=
  (by decide +kernel : ∀ t : Fin grid0.N, win0_9.index t 0 = 0 ∧ win0_9.index t 1 = 0) t

theorem read_blk0_9 (t : Fin cfg0.N) (X : S1x1024.Idx → Elt Ideal .f32) :
    ((cfg0.win 9).blk t).view.read (Elt Ideal) X = X := by
  have hi := index0_9 t
  funext j
  rw [View.read_apply]
  refine congrArg X (funext fun a => Fin.ext ?_)
  match a with
  | ⟨0, _⟩ => show win0_9.index t 0 * 1 + 1 * (j 0).val = (j 0).val; rw [hi.1]; omega
  | ⟨1, _⟩ => show win0_9.index t 1 * 1024 + 1 * (j 1).val = (j 1).val; rw [hi.2]; omega

theorem index0_10 (t : Fin cfg0.N) : win0_10.index t 0 = 0 ∧ win0_10.index t 1 = 0 :=
  (by decide +kernel : ∀ t : Fin grid0.N, win0_10.index t 0 = 0 ∧ win0_10.index t 1 = 0) t

theorem read_blk0_10 (t : Fin cfg0.N) (X : S1x36.Idx → Elt Ideal .f32) :
    ((cfg0.win 10).blk t).view.read (Elt Ideal) X = X := by
  have hi := index0_10 t
  funext j
  rw [View.read_apply]
  refine congrArg X (funext fun a => Fin.ext ?_)
  match a with
  | ⟨0, _⟩ => show win0_10.index t 0 * 1 + 1 * (j 0).val = (j 0).val; rw [hi.1]; omega
  | ⟨1, _⟩ => show win0_10.index t 1 * 36 + 1 * (j 1).val = (j 1).val; rw [hi.2]; omega

theorem index0_11 (t : Fin cfg0.N) : win0_11.index t 0 = 0 ∧ win0_11.index t 1 = 0 :=
  (by decide +kernel : ∀ t : Fin grid0.N, win0_11.index t 0 = 0 ∧ win0_11.index t 1 = 0) t

theorem read_blk0_11 (t : Fin cfg0.N) (X : S1x2048.Idx → Elt Ideal .f32) :
    ((cfg0.win 11).blk t).view.read (Elt Ideal) X = X := by
  have hi := index0_11 t
  funext j
  rw [View.read_apply]
  refine congrArg X (funext fun a => Fin.ext ?_)
  match a with
  | ⟨0, _⟩ => show win0_11.index t 0 * 1 + 1 * (j 0).val = (j 0).val; rw [hi.1]; omega
  | ⟨1, _⟩ => show win0_11.index t 1 * 2048 + 1 * (j 1).val = (j 1).val; rw [hi.2]; omega

/-! An input window's block is its array. -/

theorem iblk0_0_eq (c : Dev nD) (t : Fin cfg0.N) : iblk0 V c 0 t = V c main_v8 := by
  unfold iblk0; exact read_blk0_0 t _

theorem iblk0_1_eq (c : Dev nD) (t : Fin cfg0.N) : iblk0 V c 1 t = V c main_arg5 := by
  unfold iblk0; exact read_blk0_1 t _

theorem iblk0_2_eq (c : Dev nD) (t : Fin cfg0.N) : iblk0 V c 2 t = V c main_v11 := by
  unfold iblk0; exact read_blk0_2 t _

theorem iblk0_3_eq (c : Dev nD) (t : Fin cfg0.N) : iblk0 V c 3 t = V c main_arg2 := by
  unfold iblk0; exact read_blk0_3 t _

theorem iblk0_4_eq (c : Dev nD) (t : Fin cfg0.N) : iblk0 V c 4 t = V c main_v10 := by
  unfold iblk0; exact read_blk0_4 t _

theorem iblk0_5_eq (c : Dev nD) (t : Fin cfg0.N) : iblk0 V c 5 t = V c main_arg7 := by
  unfold iblk0; exact read_blk0_5 t _

theorem iblk0_6_eq (c : Dev nD) (t : Fin cfg0.N) : iblk0 V c 6 t = V c main_v12 := by
  unfold iblk0; exact read_blk0_6 t _

theorem iblk0_7_eq (c : Dev nD) (t : Fin cfg0.N) : iblk0 V c 7 t = V c main_arg3 := by
  unfold iblk0; exact read_blk0_7 t _

/-- What the one point writes back to output window 8 is the block of the payload of the whole inputs; -/
theorem flushed0_8 (c : Dev nD) (t : Fin cfg0.N) :
    (dat0 V c).flushed 8 t = ((cfg0.win 8).blk t).view.read (Elt Ideal) (out0_8 (V c main_v8) (V c main_arg5) (V c main_v11)) := by
  show (cfg0.win 8).cut (grid0.coords t) ((dat0 V c).after 8 t) = _
  rw [after0_8, read_blk0_8, iblk0_0_eq, iblk0_1_eq, iblk0_2_eq]
  rfl

/-- its block covers the array; -/
theorem covered0_8 (i : S1x50.Idx) : ∃ t : Fin cfg0.N, (cfg0.win 8).flush t = true ∧ i ∈ ((cfg0.win 8).blk t).view.set := by
  refine ⟨t0_0, flush0_8 _, ?_⟩
  show i ∈ ((View.whole main_v13_0).slice (win0_8.rect t0_0)).set
  rw [View.set_slice_whole, Rect.mem_set_unit]
  have hi := index0_8 t0_0
  have h0 : (i 0).val < 1 := (i 0).isLt
  have h1 : (i 1).val < 50 := (i 1).isLt
  intro a
  match a with
  | ⟨0, _⟩ => show win0_8.index t0_0 0 * 1 ≤ (i 0).val ∧ (i 0).val < win0_8.index t0_0 0 * 1 + 1; rw [hi.1]; omega
  | ⟨1, _⟩ => show win0_8.index t0_0 1 * 50 ≤ (i 1).val ∧ (i 1).val < win0_8.index t0_0 1 * 50 + 50; rw [hi.2]; omega

/-- so the array ends at that payload. -/
theorem arr0_8 (c : Dev nD) : (dat0 V c).arrAt 8 cfg0.N = out0_8 (V c main_v8) (V c main_arg5) (V c main_v11) :=
  (dat0 V c).arrAt_eq_of_cover 8 _ (fun t _ => flushed0_8 V c t) covered0_8

/-- What the one point writes back to output window 9 is the block of the payload of the whole inputs; -/
theorem flushed0_9 (c : Dev nD) (t : Fin cfg0.N) :
    (dat0 V c).flushed 9 t = ((cfg0.win 9).blk t).view.read (Elt Ideal) (out0_9 (V c main_v8) (V c main_arg5) (V c main_v11) (V c main_arg2)) := by
  show (cfg0.win 9).cut (grid0.coords t) ((dat0 V c).after 9 t) = _
  rw [after0_9, read_blk0_9, iblk0_0_eq, iblk0_1_eq, iblk0_2_eq, iblk0_3_eq]
  rfl

/-- its block covers the array; -/
theorem covered0_9 (i : S1x1024.Idx) : ∃ t : Fin cfg0.N, (cfg0.win 9).flush t = true ∧ i ∈ ((cfg0.win 9).blk t).view.set := by
  refine ⟨t0_0, flush0_9 _, ?_⟩
  show i ∈ ((View.whole main_v13_1).slice (win0_9.rect t0_0)).set
  rw [View.set_slice_whole, Rect.mem_set_unit]
  have hi := index0_9 t0_0
  have h0 : (i 0).val < 1 := (i 0).isLt
  have h1 : (i 1).val < 1024 := (i 1).isLt
  intro a
  match a with
  | ⟨0, _⟩ => show win0_9.index t0_0 0 * 1 ≤ (i 0).val ∧ (i 0).val < win0_9.index t0_0 0 * 1 + 1; rw [hi.1]; omega
  | ⟨1, _⟩ => show win0_9.index t0_0 1 * 1024 ≤ (i 1).val ∧ (i 1).val < win0_9.index t0_0 1 * 1024 + 1024; rw [hi.2]; omega

/-- so the array ends at that payload. -/
theorem arr0_9 (c : Dev nD) : (dat0 V c).arrAt 9 cfg0.N = out0_9 (V c main_v8) (V c main_arg5) (V c main_v11) (V c main_arg2) :=
  (dat0 V c).arrAt_eq_of_cover 9 _ (fun t _ => flushed0_9 V c t) covered0_9

/-- What the one point writes back to output window 10 is the block of the payload of the whole inputs; -/
theorem flushed0_10 (c : Dev nD) (t : Fin cfg0.N) :
    (dat0 V c).flushed 10 t = ((cfg0.win 10).blk t).view.read (Elt Ideal) (out0_10 (V c main_v10) (V c main_arg7) (V c main_v12)) := by
  show (cfg0.win 10).cut (grid0.coords t) ((dat0 V c).after 10 t) = _
  rw [after0_10, read_blk0_10, iblk0_4_eq, iblk0_5_eq, iblk0_6_eq]
  rfl

/-- its block covers the array; -/
theorem covered0_10 (i : S1x36.Idx) : ∃ t : Fin cfg0.N, (cfg0.win 10).flush t = true ∧ i ∈ ((cfg0.win 10).blk t).view.set := by
  refine ⟨t0_0, flush0_10 _, ?_⟩
  show i ∈ ((View.whole main_v13_2).slice (win0_10.rect t0_0)).set
  rw [View.set_slice_whole, Rect.mem_set_unit]
  have hi := index0_10 t0_0
  have h0 : (i 0).val < 1 := (i 0).isLt
  have h1 : (i 1).val < 36 := (i 1).isLt
  intro a
  match a with
  | ⟨0, _⟩ => show win0_10.index t0_0 0 * 1 ≤ (i 0).val ∧ (i 0).val < win0_10.index t0_0 0 * 1 + 1; rw [hi.1]; omega
  | ⟨1, _⟩ => show win0_10.index t0_0 1 * 36 ≤ (i 1).val ∧ (i 1).val < win0_10.index t0_0 1 * 36 + 36; rw [hi.2]; omega

/-- so the array ends at that payload. -/
theorem arr0_10 (c : Dev nD) : (dat0 V c).arrAt 10 cfg0.N = out0_10 (V c main_v10) (V c main_arg7) (V c main_v12) :=
  (dat0 V c).arrAt_eq_of_cover 10 _ (fun t _ => flushed0_10 V c t) covered0_10

/-- What the one point writes back to output window 11 is the block of the payload of the whole inputs; -/
theorem flushed0_11 (c : Dev nD) (t : Fin cfg0.N) :
    (dat0 V c).flushed 11 t = ((cfg0.win 11).blk t).view.read (Elt Ideal) (out0_11 (V c main_v10) (V c main_arg7) (V c main_v12) (V c main_arg3)) := by
  show (cfg0.win 11).cut (grid0.coords t) ((dat0 V c).after 11 t) = _
  rw [after0_11, read_blk0_11, iblk0_4_eq, iblk0_5_eq, iblk0_6_eq, iblk0_7_eq]
  rfl

/-- its block covers the array; -/
theorem covered0_11 (i : S1x2048.Idx) : ∃ t : Fin cfg0.N, (cfg0.win 11).flush t = true ∧ i ∈ ((cfg0.win 11).blk t).view.set := by
  refine ⟨t0_0, flush0_11 _, ?_⟩
  show i ∈ ((View.whole main_v13_3).slice (win0_11.rect t0_0)).set
  rw [View.set_slice_whole, Rect.mem_set_unit]
  have hi := index0_11 t0_0
  have h0 : (i 0).val < 1 := (i 0).isLt
  have h1 : (i 1).val < 2048 := (i 1).isLt
  intro a
  match a with
  | ⟨0, _⟩ => show win0_11.index t0_0 0 * 1 ≤ (i 0).val ∧ (i 0).val < win0_11.index t0_0 0 * 1 + 1; rw [hi.1]; omega
  | ⟨1, _⟩ => show win0_11.index t0_0 1 * 2048 ≤ (i 1).val ∧ (i 1).val < win0_11.index t0_0 1 * 2048 + 2048; rw [hi.2]; omega

/-- so the array ends at that payload. -/
theorem arr0_11 (c : Dev nD) : (dat0 V c).arrAt 11 cfg0.N = out0_11 (V c main_v10) (V c main_arg7) (V c main_v12) (V c main_arg3) :=
  (dat0 V c).arrAt_eq_of_cover 11 _ (fun t _ => flushed0_11 V c t) covered0_11

/-! ## The four output arrays, lane by lane -/

theorem final0_8 (c : Dev nD) (j : Fin 50) :
    (dat0 (F := Ideal) V c).arrAt 8 cfg0.N (ix2 (0 : Fin 1) j)
      = Spec.softmax (Spec.lin (V c main_v8) (V c main_arg5) (V c main_v11)) j := by
  rw [arr0_8, out0_8_eq]
  exact k0_pay3_apply _ _ _ j

theorem final0_9 (c : Dev nD) (d : Fin 1024) :
    (dat0 (F := Ideal) V c).arrAt 9 cfg0.N (ix2 (0 : Fin 1) d)
      = Spec.mix (Spec.softmax (Spec.lin (V c main_v8) (V c main_arg5) (V c main_v11))) (V c main_arg2) d := by
  rw [arr0_9, out0_9_eq]
  exact k0_pay4_apply _ _ _ _ d

theorem final0_10 (c : Dev nD) (j : Fin 36) :
    (dat0 (F := Ideal) V c).arrAt 10 cfg0.N (ix2 (0 : Fin 1) j)
      = Spec.softmax (Spec.lin (V c main_v10) (V c main_arg7) (V c main_v12)) j := by
  rw [arr0_10, out0_10_eq]
  exact k0_pay1_apply _ _ _ j

theorem final0_11 (c : Dev nD) (d : Fin 2048) :
    (dat0 (F := Ideal) V c).arrAt 11 cfg0.N (ix2 (0 : Fin 1) d)
      = Spec.mix (Spec.softmax (Spec.lin (V c main_v10) (V c main_arg7) (V c main_v12))) (V c main_arg3) d := by
  rw [arr0_11, out0_11_eq]
  exact k0_pay2_apply _ _ _ _ d

end Cert.KernelIdeal.Val

end
-- ==== Proof.Val.Reg1Val.lean ====
/- The VALUES region 1 leaves, over the extended reals (every float an extended real, every operation exact, the
   roundings to bf16 the identity). Region 1 is the "combine" call: from the row vector cat1 [1, 3072], the weight matrix
   W1 [2048, 3072] and the bias b1 [1, 2048] it leaves  relu (cat1 · W1ᵀ + b1)  [1, 2048], computed in 8 blocks of 256
   lanes (point `t` reads rows 256·t .. of W1 and lanes 256·t .. of b1); and from cat2 [1, 2048], W2 [1024, 2048] and b2
   [1, 1024] it leaves  relu (cat2 · W2ᵀ + b2)  [1, 1024], in 8 blocks of 128 lanes.

   Per result: the payload read at a lane of the block (`payN_apply`: the matrix product into the zero accumulator is the
   sum over the contraction index, re-indexed by its one coordinate); the whole-array function `G`; each input block
   read where the array holds it (`iblk1_W_apply`: a block's coordinate is block index × block size + the coordinate
   inside, the block indices decided once over the grid); what each point writes back is its block of `G`
   (`flushed1_W_eq`); the blocks cover the array (`coverW`: lane `j` is written at point `j / 256`, resp. `j / 128`); so
   the array ends at `G` (`final1_6`, `final1_7`). -/
import proofs.«418679_j86887188398769_3_alg».proof.Proof.KI.Reg1
import proofs.«418679_j86887188398769_3_alg».proof.Proof.Val.Spec
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- An index of a one-row array is (0, its lane). -/
theorem eq_ix2_row {n : Nat} (y : (⟨2, ![1, n]⟩ : Shape).Idx) : y = ix2 (0 : Fin 1) (y 1) := by
  funext a
  match a with
  | ⟨0, _⟩ => exact Fin.ext (by have := idx2_lt0 y; show (y 0).val = 0; omega)
  | ⟨1, _⟩ => rfl

/-! ## The first result (window 6): relu (cat1 · W1ᵀ + b1), 8 blocks of 256 lanes -/

/-- The matrix product's operand coordinates at output index `i` and contraction index `q`: the row vector is read at
    (`i 0`, `q`), the weight block at (`i 1`, `q`) — row `i 1` of the block against the row vector. -/
theorem lhsA_0 (i : S1x256.Idx) (q : dot_S1x3072_S256x3072_S1x256_1_1_0_0_n_n.contr.Idx) :
    (dot_S1x3072_S256x3072_S1x256_1_1_0_0_n_n.lhsIdx i q 0).val = (i 0).val := by
  unfold DotDims.lhsIdx
  rw [dif_neg (show ¬(0 : Fin S1x3072.rank) ∈ dot_S1x3072_S256x3072_S1x256_1_1_0_0_n_n.lhsBatch by decide), dif_pos (show (0 : Fin S1x3072.rank) ∈ dot_S1x3072_S256x3072_S1x256_1_1_0_0_n_n.lhsNonContracting by decide)]
  rfl
theorem lhsA_1 (i : S1x256.Idx) (q : dot_S1x3072_S256x3072_S1x256_1_1_0_0_n_n.contr.Idx) :
    (dot_S1x3072_S256x3072_S1x256_1_1_0_0_n_n.lhsIdx i q 1).val = (q ⟨0, by decide⟩).val :=
  dot_S1x3072_S256x3072_S1x256_1_1_0_0_n_n.lhsIdx_val_of_single rfl i q
theorem rhsA_0 (i : S1x256.Idx) (q : dot_S1x3072_S256x3072_S1x256_1_1_0_0_n_n.contr.Idx) :
    (dot_S1x3072_S256x3072_S1x256_1_1_0_0_n_n.rhsIdx i q 0).val = (i 1).val := by
  unfold DotDims.rhsIdx
  rw [dif_neg (show ¬(0 : Fin S256x3072.rank) ∈ dot_S1x3072_S256x3072_S1x256_1_1_0_0_n_n.rhsBatch by decide), dif_pos (show (0 : Fin S256x3072.rank) ∈ dot_S1x3072_S256x3072_S1x256_1_1_0_0_n_n.rhsNonContracting by decide)]
  rfl
theorem rhsA_1 (i : S1x256.Idx) (q : dot_S1x3072_S256x3072_S1x256_1_1_0_0_n_n.contr.Idx) :
    (dot_S1x3072_S256x3072_S1x256_1_1_0_0_n_n.rhsIdx i q 1).val = (q ⟨0, by decide⟩).val :=
  dot_S1x3072_S256x3072_S1x256_1_1_0_0_n_n.rhsIdx_val_of_single rfl i q

/-- The payload at lane `q` of the block, over the extended reals: relu of the row vector against row `q` of the
    weight block, plus the bias lane (the roundings to bf16 are the identity, the accumulator starts at zero). -/
theorem pay1_apply (x0 : Vec Ideal S1x3072 .f32) (W : Vec Ideal S256x3072 .f32) (b : Vec Ideal S1x256 .f32) (q : Fin 256) :
    k1_pay1 (F := Ideal) x0 W b (ix2 (0 : Fin 1) q)
      = Spec.relu ((∑ k : Fin 3072, x0 (ix2 (0 : Fin 1) k) * W (ix2 q k)) + b (ix2 (0 : Fin 1) q)) := by
  unfold k1_pay1
  simp only [shapeCast_self]
  rw [maximumf_apply, addf_apply, broadcast_apply]
  rw [show (FloatOps.ofBits FTy.f32 0#32 : Ideal .f32) = 0 from Ideal.ofBits_zero_f32]
  unfold Spec.relu
  congr 2
  refine (Ideal.matmul_constant_zero_apply dot_S1x3072_S256x3072_S1x256_1_1_0_0_n_n none _ _ _).trans ?_
  rw [← Equiv.sum_comp (contrEquiv1 dot_S1x3072_S256x3072_S1x256_1_1_0_0_n_n 3072 rfl rfl).symm]
  refine Finset.sum_congr rfl fun k _ => ?_
  have hk := contrEquiv1_symm_val dot_S1x3072_S256x3072_S1x256_1_1_0_0_n_n 3072 rfl rfl k
  rw [truncf_apply, truncf_apply]
  have el : dot_S1x3072_S256x3072_S1x256_1_1_0_0_n_n.lhsIdx (ix2 (0 : Fin 1) q) ((contrEquiv1 dot_S1x3072_S256x3072_S1x256_1_1_0_0_n_n 3072 rfl rfl).symm k) = ix2 (0 : Fin 1) k := funext fun a => Fin.ext (by
    match a with
    | ⟨0, _⟩ => exact lhsA_0 _ _
    | ⟨1, _⟩ => exact (lhsA_1 _ _).trans hk)
  have er : dot_S1x3072_S256x3072_S1x256_1_1_0_0_n_n.rhsIdx (ix2 (0 : Fin 1) q) ((contrEquiv1 dot_S1x3072_S256x3072_S1x256_1_1_0_0_n_n 3072 rfl rfl).symm k) = ix2 q k := funext fun a => Fin.ext (by
    match a with
    | ⟨0, _⟩ => exact rhsA_0 _ _
    | ⟨1, _⟩ => exact (rhsA_1 _ _).trans hk)
  rw [el, er]

/-- What the result array ends holding, as one function of the three whole arrays: at lane `j`, relu of the linear layer. -/
def G6 (x : Spec.Arr 1 3072) (W : Spec.Arr 2048 3072) (b : Spec.Arr 1 2048) : S1x2048.Idx → EReal :=
  fun i => Spec.relu (Spec.lin x W b (i 1))

/-- The block index maps, decided once over the grid: the row vector's block never moves; at point `t` the weight
    matrix is at row block `t`, the bias and the result at lane block `t`. -/
theorem idx_facts6 : ∀ t : Fin cfg1.N, win1_0.index t 0 = 0 ∧ win1_0.index t 1 = 0
    ∧ win1_1.index t 0 = t.val ∧ win1_1.index t 1 = 0
    ∧ win1_2.index t 0 = 0 ∧ win1_2.index t 1 = t.val
    ∧ win1_6.index t 0 = 0 ∧ win1_6.index t 1 = t.val :=
  (by decide +kernel : ∀ t : Fin grid1.N, _)

/-- Lane `q` of block `t` is lane `256·t + q` of the array. -/
def lane6 (t : Fin cfg1.N) (q : Fin 256) : Fin 2048 :=
  ⟨t.val * 256 + q.val, by have h : t.val < grid1.N := t.isLt; rw [N_1] at h; have := q.isLt; omega⟩

/-- The row vector's block at any point is the whole array. -/
theorem iblk1_0_apply (c : Dev nD) (t : Fin cfg1.N) (k : Fin 3072) :
    iblk1 (F := Ideal) V c 0 t (ix2 (0 : Fin 1) k) = V c main_v18 (ix2 (0 : Fin 1) k) := by
  obtain ⟨e0, e1, -⟩ := idx_facts6 t
  unfold iblk1
  rw [View.read_apply]
  show V c main_v18 _ = V c main_v18 _
  congr 1
  funext a; apply Fin.ext
  match a with
  | ⟨0, _⟩ => show win1_0.index t 0 * 1 + 1 * 0 = 0; rw [e0]
  | ⟨1, _⟩ => show win1_0.index t 1 * 3072 + 1 * k.val = k.val; rw [e1]; omega

/-- The weight matrix's block at point `t` is its rows `256·t ..`. -/
theorem iblk1_1_apply (c : Dev nD) (t : Fin cfg1.N) (q : Fin 256) (k : Fin 3072) :
    iblk1 (F := Ideal) V c 1 t (ix2 q k) = V c main_arg9 (ix2 (lane6 t q) k) := by
  obtain ⟨-, -, e0, e1, -⟩ := idx_facts6 t
  unfold iblk1
  rw [View.read_apply]
  show V c main_arg9 _ = V c main_arg9 _
  congr 1
  funext a; apply Fin.ext
  match a with
  | ⟨0, _⟩ => show win1_1.index t 0 * 256 + 1 * q.val = t.val * 256 + q.val; rw [e0]; omega
  | ⟨1, _⟩ => show win1_1.index t 1 * 3072 + 1 * k.val = k.val; rw [e1]; omega

/-- The bias's block at point `t` is its lanes `256·t ..`. -/
theorem iblk1_2_apply (c : Dev nD) (t : Fin cfg1.N) (q : Fin 256) :
    iblk1 (F := Ideal) V c 2 t (ix2 (0 : Fin 1) q) = V c main_v20 (ix2 (0 : Fin 1) (lane6 t q)) := by
  obtain ⟨-, -, -, -, e0, e1, -⟩ := idx_facts6 t
  unfold iblk1
  rw [View.read_apply]
  show V c main_v20 _ = V c main_v20 _
  congr 1
  funext a; apply Fin.ext
  match a with
  | ⟨0, _⟩ => show win1_2.index t 0 * 1 + 1 * 0 = 0; rw [e0]
  | ⟨1, _⟩ => show win1_2.index t 1 * 256 + 1 * q.val = t.val * 256 + q.val; rw [e1]; omega

/-- The payload of the blocks at point `t`, at lane `q`, is the whole-array function at lane `256·t + q`. -/
theorem blk6_apply (c : Dev nD) (t : Fin cfg1.N) (q : Fin 256) :
    k1_pay1 (F := Ideal) (iblk1 V c 0 t) (iblk1 V c 1 t) (iblk1 V c 2 t) (ix2 (0 : Fin 1) q)
      = G6 (V c main_v18) (V c main_arg9) (V c main_v20) (ix2 (0 : Fin 1) (lane6 t q)) := by
  refine (pay1_apply _ _ _ q).trans ?_
  simp only [iblk1_0_apply, iblk1_1_apply, iblk1_2_apply]
  rfl

/-- WHAT POINT `t` WRITES BACK is block `t` of that function of the arrays as the region finds them. -/
theorem flushed1_6_eq (c : Dev nD) (t : Fin cfg1.N) :
    (dat1 (F := Ideal) V c).flushed 6 t
      = ((cfg1.win 6).blk t).view.read (Elt Ideal) (G6 (V c main_v18) (V c main_arg9) (V c main_v20)) := by
  show (cfg1.win 6).cut (grid1.coords t) ((dat1 V c).after 6 t) = _
  rw [after1_6, out1_6_eq]
  obtain ⟨-, -, -, -, -, -, e0, e1⟩ := idx_facts6 t
  funext y
  obtain ⟨q, rfl⟩ : ∃ q : Fin 256, y = ix2 (0 : Fin 1) q := ⟨y 1, eq_ix2_row y⟩
  rw [View.read_apply]
  refine (blk6_apply V c t q).trans ?_
  show G6 (V c main_v18) (V c main_arg9) (V c main_v20) _ = G6 (V c main_v18) (V c main_arg9) (V c main_v20) _
  congr 1
  funext a; apply Fin.ext
  match a with
  | ⟨0, _⟩ => show 0 = win1_6.index t 0 * 1 + 1 * 0; rw [e0]
  | ⟨1, _⟩ => show t.val * 256 + q.val = win1_6.index t 1 * 256 + 1 * q.val; rw [e1]; omega

/-- An index of the result array is in point `t`'s block iff each coordinate is in the block's range on its axis. -/
theorem mem_blk6 (t : Fin cfg1.N) (i : S1x2048.Idx) :
    i ∈ ((cfg1.win 6).blk t).view.set ↔ ∀ a : Fin 2, win1_6.index t a * S1x256.size a ≤ (i a).val ∧ (i a).val < win1_6.index t a * S1x256.size a + S1x256.size a := by
  show i ∈ ((View.whole main_v22_0).slice (win1_6.rect t)).set ↔ _
  rw [View.set_slice_whole, Rect.mem_set_unit]
  exact Iff.rfl

/-- The blocks tile the array: lane `j` is in the block of point `j / 256`. -/
theorem cover6 (i : S1x2048.Idx) :
    ∃ t : Fin cfg1.N, (cfg1.win 6).flush t = true ∧ i ∈ ((cfg1.win 6).blk t).view.set := by
  have h0 : (i 0).val < 1 := idx2_lt0 i
  have h1 : (i 1).val < 2048 := idx2_lt1 i
  obtain ⟨t, ht⟩ : ∃ t : Fin cfg1.N, t.val = (i 1).val / 256 :=
    ⟨⟨(i 1).val / 256, by show _ < grid1.N; rw [N_1]; omega⟩, rfl⟩
  obtain ⟨-, -, -, -, -, -, e0, e1⟩ := idx_facts6 t
  refine ⟨t, flush1_6 t, (mem_blk6 t i).mpr fun a => ?_⟩
  match a with
  | ⟨0, _⟩ => show win1_6.index t 0 * 1 ≤ (i 0).val ∧ (i 0).val < win1_6.index t 0 * 1 + 1; rw [e0]; omega
  | ⟨1, _⟩ => show win1_6.index t 1 * 256 ≤ (i 1).val ∧ (i 1).val < win1_6.index t 1 * 256 + 256; rw [e1]; omega

/-- THE RESULT ARRAY after the region, lane by lane: relu of the linear layer of the three arrays as the region found them. -/
theorem final1_6 (c : Dev nD) (j : Fin 2048) :
    (dat1 (F := Ideal) V c).arrAt 6 cfg1.N (ix2 (0 : Fin 1) j)
      = Spec.relu (Spec.lin (V c main_v18) (V c main_arg9) (V c main_v20) j) := by
  rw [(dat1 (F := Ideal) V c).arrAt_eq_of_cover 6 (G6 (V c main_v18) (V c main_arg9) (V c main_v20))
    (fun t _ => flushed1_6_eq V c t) cover6]
  rfl

/-! ## The second result (window 7): relu (cat2 · W2ᵀ + b2), 8 blocks of 128 lanes -/

/-- The matrix product's operand coordinates at output index `i` and contraction index `q`: the row vector is read at
    (`i 0`, `q`), the weight block at (`i 1`, `q`) — row `i 1` of the block against the row vector. -/
theorem lhsB_0 (i : S1x128.Idx) (q : dot_S1x2048_S128x2048_S1x128_1_1_0_0_n_n.contr.Idx) :
    (dot_S1x2048_S128x2048_S1x128_1_1_0_0_n_n.lhsIdx i q 0).val = (i 0).val := by
  unfold DotDims.lhsIdx
  rw [dif_neg (show ¬(0 : Fin S1x2048.rank) ∈ dot_S1x2048_S128x2048_S1x128_1_1_0_0_n_n.lhsBatch by decide), dif_pos (show (0 : Fin S1x2048.rank) ∈ dot_S1x2048_S128x2048_S1x128_1_1_0_0_n_n.lhsNonContracting by decide)]
  rfl
theorem lhsB_1 (i : S1x128.Idx) (q : dot_S1x2048_S128x2048_S1x128_1_1_0_0_n_n.contr.Idx) :
    (dot_S1x2048_S128x2048_S1x128_1_1_0_0_n_n.lhsIdx i q 1).val = (q ⟨0, by decide⟩).val :=
  dot_S1x2048_S128x2048_S1x128_1_1_0_0_n_n.lhsIdx_val_of_single rfl i q
theorem rhsB_0 (i : S1x128.Idx) (q : dot_S1x2048_S128x2048_S1x128_1_1_0_0_n_n.contr.Idx) :
    (dot_S1x2048_S128x2048_S1x128_1_1_0_0_n_n.rhsIdx i q 0).val = (i 1).val := by
  unfold DotDims.rhsIdx
  rw [dif_neg (show ¬(0 : Fin S128x2048.rank) ∈ dot_S1x2048_S128x2048_S1x128_1_1_0_0_n_n.rhsBatch by decide), dif_pos (show (0 : Fin S128x2048.rank) ∈ dot_S1x2048_S128x2048_S1x128_1_1_0_0_n_n.rhsNonContracting by decide)]
  rfl
theorem rhsB_1 (i : S1x128.Idx) (q : dot_S1x2048_S128x2048_S1x128_1_1_0_0_n_n.contr.Idx) :
    (dot_S1x2048_S128x2048_S1x128_1_1_0_0_n_n.rhsIdx i q 1).val = (q ⟨0, by decide⟩).val :=
  dot_S1x2048_S128x2048_S1x128_1_1_0_0_n_n.rhsIdx_val_of_single rfl i q

/-- The payload at lane `q` of the block, over the extended reals: relu of the row vector against row `q` of the
    weight block, plus the bias lane (the roundings to bf16 are the identity, the accumulator starts at zero). -/
theorem pay2_apply (x0 : Vec Ideal S1x2048 .f32) (W : Vec Ideal S128x2048 .f32) (b : Vec Ideal S1x128 .f32) (q : Fin 128) :
    k1_pay2 (F := Ideal) x0 W b (ix2 (0 : Fin 1) q)
      = Spec.relu ((∑ k : Fin 2048, x0 (ix2 (0 : Fin 1) k) * W (ix2 q k)) + b (ix2 (0 : Fin 1) q)) := by
  unfold k1_pay2
  simp only [shapeCast_self]
  rw [maximumf_apply, addf_apply, broadcast_apply]
  rw [show (FloatOps.ofBits FTy.f32 0#32 : Ideal .f32) = 0 from Ideal.ofBits_zero_f32]
  unfold Spec.relu
  congr 2
  refine (Ideal.matmul_constant_zero_apply dot_S1x2048_S128x2048_S1x128_1_1_0_0_n_n none _ _ _).trans ?_
  rw [← Equiv.sum_comp (contrEquiv1 dot_S1x2048_S128x2048_S1x128_1_1_0_0_n_n 2048 rfl rfl).symm]
  refine Finset.sum_congr rfl fun k _ => ?_
  have hk := contrEquiv1_symm_val dot_S1x2048_S128x2048_S1x128_1_1_0_0_n_n 2048 rfl rfl k
  rw [truncf_apply, truncf_apply]
  have el : dot_S1x2048_S128x2048_S1x128_1_1_0_0_n_n.lhsIdx (ix2 (0 : Fin 1) q) ((contrEquiv1 dot_S1x2048_S128x2048_S1x128_1_1_0_0_n_n 2048 rfl rfl).symm k) = ix2 (0 : Fin 1) k := funext fun a => Fin.ext (by
    match a with
    | ⟨0, _⟩ => exact lhsB_0 _ _
    | ⟨1, _⟩ => exact (lhsB_1 _ _).trans hk)
  have er : dot_S1x2048_S128x2048_S1x128_1_1_0_0_n_n.rhsIdx (ix2 (0 : Fin 1) q) ((contrEquiv1 dot_S1x2048_S128x2048_S1x128_1_1_0_0_n_n 2048 rfl rfl).symm k) = ix2 q k := funext fun a => Fin.ext (by
    match a with
    | ⟨0, _⟩ => exact rhsB_0 _ _
    | ⟨1, _⟩ => exact (rhsB_1 _ _).trans hk)
  rw [el, er]

/-- What the result array ends holding, as one function of the three whole arrays: at lane `j`, relu of the linear layer. -/
def G7 (x : Spec.Arr 1 2048) (W : Spec.Arr 1024 2048) (b : Spec.Arr 1 1024) : S1x1024.Idx → EReal :=
  fun i => Spec.relu (Spec.lin x W b (i 1))

/-- The block index maps, decided once over the grid: the row vector's block never moves; at point `t` the weight
    matrix is at row block `t`, the bias and the result at lane block `t`. -/
theorem idx_facts7 : ∀ t : Fin cfg1.N, win1_3.index t 0 = 0 ∧ win1_3.index t 1 = 0
    ∧ win1_4.index t 0 = t.val ∧ win1_4.index t 1 = 0
    ∧ win1_5.index t 0 = 0 ∧ win1_5.index t 1 = t.val
    ∧ win1_7.index t 0 = 0 ∧ win1_7.index t 1 = t.val :=
  (by decide +kernel : ∀ t : Fin grid1.N, _)

/-- Lane `q` of block `t` is lane `128·t + q` of the array. -/
def lane7 (t : Fin cfg1.N) (q : Fin 128) : Fin 1024 :=
  ⟨t.val * 128 + q.val, by have h : t.val < grid1.N := t.isLt; rw [N_1] at h; have := q.isLt; omega⟩

/-- The row vector's block at any point is the whole array. -/
theorem iblk1_3_apply (c : Dev nD) (t : Fin cfg1.N) (k : Fin 2048) :
    iblk1 (F := Ideal) V c 3 t (ix2 (0 : Fin 1) k) = V c main_v19 (ix2 (0 : Fin 1) k) := by
  obtain ⟨e0, e1, -⟩ := idx_facts7 t
  unfold iblk1
  rw [View.read_apply]
  show V c main_v19 _ = V c main_v19 _
  congr 1
  funext a; apply Fin.ext
  match a with
  | ⟨0, _⟩ => show win1_3.index t 0 * 1 + 1 * 0 = 0; rw [e0]
  | ⟨1, _⟩ => show win1_3.index t 1 * 2048 + 1 * k.val = k.val; rw [e1]; omega

/-- The weight matrix's block at point `t` is its rows `128·t ..`. -/
theorem iblk1_4_apply (c : Dev nD) (t : Fin cfg1.N) (q : Fin 128) (k : Fin 2048) :
    iblk1 (F := Ideal) V c 4 t (ix2 q k) = V c main_arg11 (ix2 (lane7 t q) k) := by
  obtain ⟨-, -, e0, e1, -⟩ := idx_facts7 t
  unfold iblk1
  rw [View.read_apply]
  show V c main_arg11 _ = V c main_arg11 _
  congr 1
  funext a; apply Fin.ext
  match a with
  | ⟨0, _⟩ => show win1_4.index t 0 * 128 + 1 * q.val = t.val * 128 + q.val; rw [e0]; omega
  | ⟨1, _⟩ => show win1_4.index t 1 * 2048 + 1 * k.val = k.val; rw [e1]; omega

/-- The bias's block at point `t` is its lanes `128·t ..`. -/
theorem iblk1_5_apply (c : Dev nD) (t : Fin cfg1.N) (q : Fin 128) :
    iblk1 (F := Ideal) V c 5 t (ix2 (0 : Fin 1) q) = V c main_v21 (ix2 (0 : Fin 1) (lane7 t q)) := by
  obtain ⟨-, -, -, -, e0, e1, -⟩ := idx_facts7 t
  unfold iblk1
  rw [View.read_apply]
  show V c main_v21 _ = V c main_v21 _
  congr 1
  funext a; apply Fin.ext
  match a with
  | ⟨0, _⟩ => show win1_5.index t 0 * 1 + 1 * 0 = 0; rw [e0]
  | ⟨1, _⟩ => show win1_5.index t 1 * 128 + 1 * q.val = t.val * 128 + q.val; rw [e1]; omega

/-- The payload of the blocks at point `t`, at lane `q`, is the whole-array function at lane `128·t + q`. -/
theorem blk7_apply (c : Dev nD) (t : Fin cfg1.N) (q : Fin 128) :
    k1_pay2 (F := Ideal) (iblk1 V c 3 t) (iblk1 V c 4 t) (iblk1 V c 5 t) (ix2 (0 : Fin 1) q)
      = G7 (V c main_v19) (V c main_arg11) (V c main_v21) (ix2 (0 : Fin 1) (lane7 t q)) := by
  refine (pay2_apply _ _ _ q).trans ?_
  simp only [iblk1_3_apply, iblk1_4_apply, iblk1_5_apply]
  rfl

/-- WHAT POINT `t` WRITES BACK is block `t` of that function of the arrays as the region finds them. -/
theorem flushed1_7_eq (c : Dev nD) (t : Fin cfg1.N) :
    (dat1 (F := Ideal) V c).flushed 7 t
      = ((cfg1.win 7).blk t).view.read (Elt Ideal) (G7 (V c main_v19) (V c main_arg11) (V c main_v21)) := by
  show (cfg1.win 7).cut (grid1.coords t) ((dat1 V c).after 7 t) = _
  rw [after1_7, out1_7_eq]
  obtain ⟨-, -, -, -, -, -, e0, e1⟩ := idx_facts7 t
  funext y
  obtain ⟨q, rfl⟩ : ∃ q : Fin 128, y = ix2 (0 : Fin 1) q := ⟨y 1, eq_ix2_row y⟩
  rw [View.read_apply]
  refine (blk7_apply V c t q).trans ?_
  show G7 (V c main_v19) (V c main_arg11) (V c main_v21) _ = G7 (V c main_v19) (V c main_arg11) (V c main_v21) _
  congr 1
  funext a; apply Fin.ext
  match a with
  | ⟨0, _⟩ => show 0 = win1_7.index t 0 * 1 + 1 * 0; rw [e0]
  | ⟨1, _⟩ => show t.val * 128 + q.val = win1_7.index t 1 * 128 + 1 * q.val; rw [e1]; omega

/-- An index of the result array is in point `t`'s block iff each coordinate is in the block's range on its axis. -/
theorem mem_blk7 (t : Fin cfg1.N) (i : S1x1024.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v22_1).slice (win1_7.rect t)).set ↔ _
  rw [View.set_slice_whole, Rect.mem_set_unit]
  exact Iff.rfl

/-- The blocks tile the array: lane `j` is in the block of point `j / 128`. -/
theorem cover7 (i : S1x1024.Idx) :
    ∃ t : Fin cfg1.N, (cfg1.win 7).flush t = true ∧ i ∈ ((cfg1.win 7).blk t).view.set := by
  have h0 : (i 0).val < 1 := idx2_lt0 i
  have h1 : (i 1).val < 1024 := idx2_lt1 i
  obtain ⟨t, ht⟩ : ∃ t : Fin cfg1.N, t.val = (i 1).val / 128 :=
    ⟨⟨(i 1).val / 128, by show _ < grid1.N; rw [N_1]; omega⟩, rfl⟩
  obtain ⟨-, -, -, -, -, -, e0, e1⟩ := idx_facts7 t
  refine ⟨t, flush1_7 t, (mem_blk7 t i).mpr fun a => ?_⟩
  match a with
  | ⟨0, _⟩ => show win1_7.index t 0 * 1 ≤ (i 0).val ∧ (i 0).val < win1_7.index t 0 * 1 + 1; rw [e0]; omega
  | ⟨1, _⟩ => show win1_7.index t 1 * 128 ≤ (i 1).val ∧ (i 1).val < win1_7.index t 1 * 128 + 128; rw [e1]; omega

/-- THE RESULT ARRAY after the region, lane by lane: relu of the linear layer of the three arrays as the region found them. -/
theorem final1_7 (c : Dev nD) (j : Fin 1024) :
    (dat1 (F := Ideal) V c).arrAt 7 cfg1.N (ix2 (0 : Fin 1) j)
      = Spec.relu (Spec.lin (V c main_v19) (V c main_arg11) (V c main_v21) j) := by
  rw [(dat1 (F := Ideal) V c).arrAt_eq_of_cover 7 (G7 (V c main_v19) (V c main_arg11) (V c main_v21))
    (fun t _ => flushed1_7_eq V c t) cover7]
  rfl

end Cert.KernelIdeal.Val

end
-- ==== Proof.Val.RefVal.lean ====
/-
  The reference program's two attentions, stage by stage, are the mathematics of one decoder step: an attention's scores
  are the linear layer of its joined row against the rows of its weight, its weights are the softmax of the scores over
  the lanes, and its output is the weights applied to the rows of its table — each read at a lane.
-/
import proofs.«418679_j86887188398769_3_alg».proof.Proof.Val.ReadP
import proofs.«418679_j86887188398769_3_alg».proof.Proof.Val.Spec
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefVal

open Cert.ReferenceIdeal Cert.ReferenceIdeal.Gen Cert.ReferenceIdeal.Read Cert.Spec Idealize.ShloMosaic Idealize.ShloMosaic.TcCoe Idealize.ShloMosaic.ValueIdx Idealize.SL.Sem

/-- The pattern a max-reduction starts from is −∞. -/
theorem negInf_f32 : Ideal.ofBits .f32 0xFF800000#32 = (⊥ : EReal) := by simp [Ideal.ofBits, Ideal.ieee]

/-- A reduce with a maximum body over the lanes of a row [1, N], from −∞: the fold of max from −∞ over the lanes. -/
theorem hostReduce_max_row {N : Nat} (y : (⟨2, ![1, N]⟩ : Shape).Idx → Ideal .f32) (init : (⟨0, ![]⟩ : Shape).Idx → Ideal .f32)
    (h' : (⟨2, ![1, N]⟩ : Shape).ReducesTo [1] (⟨1, ![1]⟩ : Shape)) (h : (⟨2, ![1, N]⟩ : Shape).Reduces [1] (⟨1, ![1]⟩ : Shape))
    (hu : 0 < (⟨0, ![]⟩ : Shape).numel) (hinit : ∀ u, init u = (⊥ : EReal)) (i : (⟨1, ![1]⟩ : Shape).Idx) :
    Host.reduce FloatOps.maximumf y init h' hu i
      = (Finset.univ : Finset (Fin N)).fold max (⊥ : EReal) (fun k => y (ix2 (0 : Fin 1) k)) := by
  rw [Host.reduce_eq_fold_single FloatOps.maximumf y init h' h hu, hinit]
  have hf : (y ∘ h.lift i) = fun k : Fin N => y (ix2 (0 : Fin 1) k) := funext fun k => congrArg y (funext fun c => Fin.ext (by
    match c with
    | ⟨0, _⟩ =>
      have h0 : (i 0).val < 1 := (i 0).isLt
      show (i 0).val = 0
      omega
    | ⟨1, _⟩ => rfl))
  rw [hf]
  rfl

/-- The text attention's scores: the linear layer of the joined row against the rows of the weight. -/
theorem ref_att_scores (x0 : (⟨S1, .i32⟩ : BufTy).Contents (Elt Ideal)) (x1 : (⟨S1x1x2048, .f32⟩ : BufTy).Contents (Elt Ideal)) (x4 : (⟨S50257x1024, .f32⟩ : BufTy).Contents (Elt Ideal)) (x5 : (⟨S50x3072, .f32⟩ : BufTy).Contents (Elt Ideal)) (x6 : (⟨S50, .f32⟩ : BufTy).Contents (Elt Ideal)) (j : Fin 50) :
    val_main_v12 (F := Ideal) x0 x1 x4 x5 x6 (ix2 (0 : Fin 1) j)
      = Spec.lin (val_main_v8 (F := Ideal) x0 x1 x4) x5 (val_main_v11 (F := Ideal) x6) j := by
  have hsum : (∑ k : Fin 3072, val_main_v8 (F := Ideal) x0 x1 x4 (lidx_main_v10 (ix2 (0 : Fin 1) j) k) * val_main_v9 (F := Ideal) x5 (ridx_main_v10 (ix2 (0 : Fin 1) j) k))
      = ∑ k : Fin 3072, val_main_v8 (F := Ideal) x0 x1 x4 (ix2 (0 : Fin 1) k) * x5 (ix2 j k) :=
    Finset.sum_congr rfl fun k _ => by
      rw [val_main_v9_apply]
      have e1 : lidx_main_v10 (ix2 (0 : Fin 1) j) k = ix2 (0 : Fin 1) k := funext fun a => by match a with | ⟨0, _⟩ => rfl | ⟨1, _⟩ => rfl
      have e2 : idx_main_v9 (ridx_main_v10 (ix2 (0 : Fin 1) j) k) = ix2 j k := funext fun a => by match a with | ⟨0, _⟩ => rfl | ⟨1, _⟩ => rfl
      rw [e1, e2]
  rw [val_main_v12_apply, val_main_v10_apply, hsum, Ideal.addf_def]
  unfold Spec.lin
  rfl

/-- The text attention's row maximum, as the program takes it: the maximum of −∞ and the reduce from −∞ over the lanes. -/
theorem ref_att_max (x0 : (⟨S1, .i32⟩ : BufTy).Contents (Elt Ideal)) (x1 : (⟨S1x1x2048, .f32⟩ : BufTy).Contents (Elt Ideal)) (x4 : (⟨S50257x1024, .f32⟩ : BufTy).Contents (Elt Ideal)) (x5 : (⟨S50x3072, .f32⟩ : BufTy).Contents (Elt Ideal)) (x6 : (⟨S50, .f32⟩ : BufTy).Contents (Elt Ideal)) (i : S1.Idx) :
    val_main_v15 (F := Ideal) x0 x1 x4 x5 x6 i
      = Spec.rowMax (Spec.lin (val_main_v8 (F := Ideal) x0 x1 x4) x5 (val_main_v11 (F := Ideal) x6)) := by
  have hs : (fun k : Fin 50 => val_main_v12 (F := Ideal) x0 x1 x4 x5 x6 (ix2 (0 : Fin 1) k))
      = Spec.lin (val_main_v8 (F := Ideal) x0 x1 x4) x5 (val_main_v11 (F := Ideal) x6) := funext fun k => ref_att_scores x0 x1 x4 x5 x6 k
  rw [val_main_v15_apply, val_main_v14_apply, val_main_cst_1_apply]
  unfold val_main_v13
  rw [hostReduce_max_row (val_main_v12 (F := Ideal) x0 x1 x4 x5 x6) (val_main_cst (F := Ideal)) reducesTo_S1x50_S1_d1 (by decide) h_S_ (fun _ => negInf_f32) i, hs, Ideal.maximumf_def, Ideal.ofBits_def, negInf_f32]
  rfl

/-- The text attention's weights are the softmax of its scores. -/
theorem ref_attw (x0 : (⟨S1, .i32⟩ : BufTy).Contents (Elt Ideal)) (x1 : (⟨S1x1x2048, .f32⟩ : BufTy).Contents (Elt Ideal)) (x4 : (⟨S50257x1024, .f32⟩ : BufTy).Contents (Elt Ideal)) (x5 : (⟨S50x3072, .f32⟩ : BufTy).Contents (Elt Ideal)) (x6 : (⟨S50, .f32⟩ : BufTy).Contents (Elt Ideal)) (j : Fin 50) :
    val_main_v23 (F := Ideal) x0 x1 x4 x5 x6 (ix2 (0 : Fin 1) j)
      = Spec.softmax (Spec.lin (val_main_v8 (F := Ideal) x0 x1 x4) x5 (val_main_v11 (F := Ideal) x6)) j := by
  have hexp : ∀ l : Fin 50, val_main_v19 (F := Ideal) x0 x1 x4 x5 x6 (ix2 (0 : Fin 1) l)
      = Ideal.exp (Spec.lin (val_main_v8 (F := Ideal) x0 x1 x4) x5 (val_main_v11 (F := Ideal) x6) l - Spec.rowMax (Spec.lin (val_main_v8 (F := Ideal) x0 x1 x4) x5 (val_main_v11 (F := Ideal) x6))) := by
    intro l
    rw [val_main_v19_apply, val_main_v18_apply, val_main_v17_apply, val_main_v16_apply, ref_att_max, ref_att_scores,
      Ideal.hostUnary_exp_def, Ideal.subf_def]
  rw [val_main_v23_apply, val_main_v22_apply, val_main_v21_apply, val_main_v20_apply, val_main_cst_2_apply,
    Ideal.hostDivf_def, Ideal.ofBits_def, Ideal.ofBits_zero_f32, zero_add, hexp]
  unfold Spec.softmax
  refine congrArg (Ideal.div _) (Finset.sum_congr rfl fun k _ => ?_)
  have e : idx_main_v20 (idx_main_v21 (idx_main_v22 (ix2 (0 : Fin 1) j))) k = ix2 (0 : Fin 1) k := funext fun a => by match a with | ⟨0, _⟩ => rfl | ⟨1, _⟩ => rfl
  rw [e, hexp]

/-- The text attention's weights applied to the encoder's rows. -/
theorem ref_atta (x0 : (⟨S1, .i32⟩ : BufTy).Contents (Elt Ideal)) (x1 : (⟨S1x1x2048, .f32⟩ : BufTy).Contents (Elt Ideal)) (x2 : (⟨S50x1024, .f32⟩ : BufTy).Contents (Elt Ideal)) (x4 : (⟨S50257x1024, .f32⟩ : BufTy).Contents (Elt Ideal)) (x5 : (⟨S50x3072, .f32⟩ : BufTy).Contents (Elt Ideal)) (x6 : (⟨S50, .f32⟩ : BufTy).Contents (Elt Ideal)) (d : Fin 1024) :
    val_main_v24 (F := Ideal) x0 x1 x2 x4 x5 x6 (ix2 (0 : Fin 1) d)
      = Spec.mix (fun l : Fin 50 => val_main_v23 (F := Ideal) x0 x1 x4 x5 x6 (ix2 (0 : Fin 1) l)) x2 d := by
  rw [val_main_v24_apply]
  unfold Spec.mix
  refine Finset.sum_congr rfl fun k _ => ?_
  have e1 : lidx_main_v24 (ix2 (0 : Fin 1) d) k = ix2 (0 : Fin 1) k := funext fun a => by match a with | ⟨0, _⟩ => rfl | ⟨1, _⟩ => rfl
  have e2 : ridx_main_v24 (ix2 (0 : Fin 1) d) k = ix2 k d := funext fun a => by match a with | ⟨0, _⟩ => rfl | ⟨1, _⟩ => rfl
  rw [e1, e2]

/-- The visual attention's scores: the linear layer of the joined row against the rows of the weight. -/
theorem ref_vis_scores (x1 : (⟨S1x1x2048, .f32⟩ : BufTy).Contents (Elt Ideal)) (x3 : (⟨S36x2048, .f32⟩ : BufTy).Contents (Elt Ideal)) (x7 : (⟨S36x75776, .f32⟩ : BufTy).Contents (Elt Ideal)) (x8 : (⟨S36, .f32⟩ : BufTy).Contents (Elt Ideal)) (j : Fin 36) :
    val_main_v30 (F := Ideal) x1 x3 x7 x8 (ix2 (0 : Fin 1) j)
      = Spec.lin (val_main_v26 (F := Ideal) x1 x3) x7 (val_main_v29 (F := Ideal) x8) j := by
  have hsum : (∑ k : Fin 75776, val_main_v26 (F := Ideal) x1 x3 (lidx_main_v28 (ix2 (0 : Fin 1) j) k) * val_main_v27 (F := Ideal) x7 (ridx_main_v28 (ix2 (0 : Fin 1) j) k))
      = ∑ k : Fin 75776, val_main_v26 (F := Ideal) x1 x3 (ix2 (0 : Fin 1) k) * x7 (ix2 j k) :=
    Finset.sum_congr rfl fun k _ => by
      rw [val_main_v27_apply]
      have e1 : lidx_main_v28 (ix2 (0 : Fin 1) j) k = ix2 (0 : Fin 1) k := funext fun a => by match a with | ⟨0, _⟩ => rfl | ⟨1, _⟩ => rfl
      have e2 : idx_main_v27 (ridx_main_v28 (ix2 (0 : Fin 1) j) k) = ix2 j k := funext fun a => by match a with | ⟨0, _⟩ => rfl | ⟨1, _⟩ => rfl
      rw [e1, e2]
  rw [val_main_v30_apply, val_main_v28_apply, hsum, Ideal.addf_def]
  unfold Spec.lin
  rfl

/-- The visual attention's row maximum, as the program takes it: the maximum of −∞ and the reduce from −∞ over the lanes. -/
theorem ref_vis_max (x1 : (⟨S1x1x2048, .f32⟩ : BufTy).Contents (Elt Ideal)) (x3 : (⟨S36x2048, .f32⟩ : BufTy).Contents (Elt Ideal)) (x7 : (⟨S36x75776, .f32⟩ : BufTy).Contents (Elt Ideal)) (x8 : (⟨S36, .f32⟩ : BufTy).Contents (Elt Ideal)) (i : S1.Idx) :
    val_main_v33 (F := Ideal) x1 x3 x7 x8 i
      = Spec.rowMax (Spec.lin (val_main_v26 (F := Ideal) x1 x3) x7 (val_main_v29 (F := Ideal) x8)) := by
  have hs : (fun k : Fin 36 => val_main_v30 (F := Ideal) x1 x3 x7 x8 (ix2 (0 : Fin 1) k))
      = Spec.lin (val_main_v26 (F := Ideal) x1 x3) x7 (val_main_v29 (F := Ideal) x8) := funext fun k => ref_vis_scores x1 x3 x7 x8 k
  rw [val_main_v33_apply, val_main_v32_apply, val_main_cst_4_apply]
  unfold val_main_v31
  rw [hostReduce_max_row (val_main_v30 (F := Ideal) x1 x3 x7 x8) (val_main_cst_3 (F := Ideal)) reducesTo_S1x36_S1_d1 (by decide) h_S_ (fun _ => negInf_f32) i, hs, Ideal.maximumf_def, Ideal.ofBits_def, negInf_f32]
  rfl

/-- The visual attention's weights are the softmax of its scores. -/
theorem ref_visw (x1 : (⟨S1x1x2048, .f32⟩ : BufTy).Contents (Elt Ideal)) (x3 : (⟨S36x2048, .f32⟩ : BufTy).Contents (Elt Ideal)) (x7 : (⟨S36x75776, .f32⟩ : BufTy).Contents (Elt Ideal)) (x8 : (⟨S36, .f32⟩ : BufTy).Contents (Elt Ideal)) (j : Fin 36) :
    val_main_v41 (F := Ideal) x1 x3 x7 x8 (ix2 (0 : Fin 1) j)
      = Spec.softmax (Spec.lin (val_main_v26 (F := Ideal) x1 x3) x7 (val_main_v29 (F := Ideal) x8)) j := by
  have hexp : ∀ l : Fin 36, val_main_v37 (F := Ideal) x1 x3 x7 x8 (ix2 (0 : Fin 1) l)
      = Ideal.exp (Spec.lin (val_main_v26 (F := Ideal) x1 x3) x7 (val_main_v29 (F := Ideal) x8) l - Spec.rowMax (Spec.lin (val_main_v26 (F := Ideal) x1 x3) x7 (val_main_v29 (F := Ideal) x8))) := by
    intro l
    rw [val_main_v37_apply, val_main_v36_apply, val_main_v35_apply, val_main_v34_apply, ref_vis_max, ref_vis_scores,
      Ideal.hostUnary_exp_def, Ideal.subf_def]
  rw [val_main_v41_apply, val_main_v40_apply, val_main_v39_apply, val_main_v38_apply, val_main_cst_5_apply,
    Ideal.hostDivf_def, Ideal.ofBits_def, Ideal.ofBits_zero_f32, zero_add, hexp]
  unfold Spec.softmax
  refine congrArg (Ideal.div _) (Finset.sum_congr rfl fun k _ => ?_)
  have e : idx_main_v38 (idx_main_v39 (idx_main_v40 (ix2 (0 : Fin 1) j))) k = ix2 (0 : Fin 1) k := funext fun a => by match a with | ⟨0, _⟩ => rfl | ⟨1, _⟩ => rfl
  rw [e, hexp]

/-- The visual attention's weights applied to the visual features' rows. -/
theorem ref_visa (x1 : (⟨S1x1x2048, .f32⟩ : BufTy).Contents (Elt Ideal)) (x3 : (⟨S36x2048, .f32⟩ : BufTy).Contents (Elt Ideal)) (x7 : (⟨S36x75776, .f32⟩ : BufTy).Contents (Elt Ideal)) (x8 : (⟨S36, .f32⟩ : BufTy).Contents (Elt Ideal)) (d : Fin 2048) :
    val_main_v42 (F := Ideal) x1 x3 x7 x8 (ix2 (0 : Fin 1) d)
      = Spec.mix (fun l : Fin 36 => val_main_v41 (F := Ideal) x1 x3 x7 x8 (ix2 (0 : Fin 1) l)) x3 d := by
  rw [val_main_v42_apply]
  unfold Spec.mix
  refine Finset.sum_congr rfl fun k _ => ?_
  have e1 : lidx_main_v42 (ix2 (0 : Fin 1) d) k = ix2 (0 : Fin 1) k := funext fun a => by match a with | ⟨0, _⟩ => rfl | ⟨1, _⟩ => rfl
  have e2 : ridx_main_v42 (ix2 (0 : Fin 1) d) k = ix2 k d := funext fun a => by match a with | ⟨0, _⟩ => rfl | ⟨1, _⟩ => rfl
  rw [e1, e2]

end Cert.ReferenceIdeal.RefVal

end
-- ==== Proof.Val.RefLin.lean ====
/- The LINEAR layers of the reference program, read at a lane over the extended reals. Each is a product of a row
   vector [1, K] with the transpose of a weight matrix [N, K], plus a bias [N] broadcast along the lanes — at lane `j`
   the sum over `k` of the row's entry `k` times the weight's entry (`j`, `k`), plus the bias's lane `j` — and, for the two
   "combine" layers, the maximum of that with zero. Five of them: the two combines (%52, %58), the input and hidden
   gates of the recurrent cell (%62, %66), and the logits (%98). The transpose read at (`k`, `j`) is the weight at
   (`j`, `k`); the product's operand indices at output (0, `j`) and contraction index `k` are (0, `k`) and (`k`, `j`). -/
import proofs.«418679_j86887188398769_3_alg».proof.Proof.Val.ReadP
import proofs.«418679_j86887188398769_3_alg».proof.Proof.Val.Spec
import Idealize.ShloMosaic.PureOps.Ideal.Laws
import Idealize.ShloMosaic.Lib.ValueIdx
import Idealize.ShloMosaic.Lib.Pipeline.Value

noncomputable section

namespace Cert.ReferenceIdeal.RefVal

open Cert.ReferenceIdeal Cert.ReferenceIdeal.Read Cert.Spec Idealize.ShloMosaic Idealize.ShloMosaic.ValueIdx

/-- The reference's first combine: relu of the linear layer of the concatenated row (%47) by the first weight matrix (%arg9, transposed into the product) and its bias (%arg10 broadcast along the lanes). -/
theorem ref_hid (x1 : (⟨S1x1x2048, .f32⟩ : BufTy).Contents (Elt Ideal)) (x3 : (⟨S36x2048, .f32⟩ : BufTy).Contents (Elt Ideal)) (x7 : (⟨S36x75776, .f32⟩ : BufTy).Contents (Elt Ideal)) (x8 : (⟨S36, .f32⟩ : BufTy).Contents (Elt Ideal)) (x9 : (⟨S2048x3072, .f32⟩ : BufTy).Contents (Elt Ideal)) (x10 : (⟨S2048, .f32⟩ : BufTy).Contents (Elt Ideal)) (j : Fin 2048) :
    val_main_v52 (F := Ideal) x1 x3 x7 x8 x9 x10 (ix2 (0 : Fin 1) j) = Spec.relu (Spec.lin (val_main_v47 (F := Ideal) x1 x3 x7 x8) x9 (val_main_v50 (F := Ideal) x10) j) := by
  rw [val_main_v52_apply, val_main_call0_v0_apply, val_main_call0_cst_apply, val_main_v51_apply, val_main_v49_apply]
  rw [Ideal.maximumf_def, Ideal.addf_def, Ideal.ofBits_def, Ideal.ofBits_zero_f32]
  unfold Spec.relu Spec.lin
  refine congrArg (fun v => max (v + _) 0) (Finset.sum_congr rfl fun k _ => ?_)
  rw [val_main_v48_apply]
  have e1 : lidx_main_v49 (ix2 (0 : Fin 1) j) k = ix2 (0 : Fin 1) k := funext fun a => Fin.ext (by
    match a with
    | ⟨0, _⟩ => rfl
    | ⟨1, _⟩ => rfl)
  have e2 : idx_main_v48 (ridx_main_v49 (ix2 (0 : Fin 1) j) k) = ix2 j k := funext fun a => Fin.ext (by
    match a with
    | ⟨0, _⟩ => rfl
    | ⟨1, _⟩ => rfl)
  rw [e1, e2]

/-- The reference's second combine: relu of the linear layer of the concatenated row (%53) by the second weight matrix (%arg11) and its bias (%arg12). -/
theorem ref_x (x0 : (⟨S1, .i32⟩ : BufTy).Contents (Elt Ideal)) (x1 : (⟨S1x1x2048, .f32⟩ : BufTy).Contents (Elt Ideal)) (x2 : (⟨S50x1024, .f32⟩ : BufTy).Contents (Elt Ideal)) (x4 : (⟨S50257x1024, .f32⟩ : BufTy).Contents (Elt Ideal)) (x5 : (⟨S50x3072, .f32⟩ : BufTy).Contents (Elt Ideal)) (x6 : (⟨S50, .f32⟩ : BufTy).Contents (Elt Ideal)) (x11 : (⟨S1024x2048, .f32⟩ : BufTy).Contents (Elt Ideal)) (x12 : (⟨S1024, .f32⟩ : BufTy).Contents (Elt Ideal)) (j : Fin 1024) :
    val_main_v58 (F := Ideal) x0 x1 x2 x4 x5 x6 x11 x12 (ix2 (0 : Fin 1) j) = Spec.relu (Spec.lin (val_main_v53 (F := Ideal) x0 x1 x2 x4 x5 x6) x11 (val_main_v56 (F := Ideal) x12) j) := by
  rw [val_main_v58_apply, val_main_call1_v0_apply, val_main_call1_cst_apply, val_main_v57_apply, val_main_v55_apply]
  rw [Ideal.maximumf_def, Ideal.addf_def, Ideal.ofBits_def, Ideal.ofBits_zero_f32]
  unfold Spec.relu Spec.lin
  refine congrArg (fun v => max (v + _) 0) (Finset.sum_congr rfl fun k _ => ?_)
  rw [val_main_v54_apply]
  have e1 : lidx_main_v55 (ix2 (0 : Fin 1) j) k = ix2 (0 : Fin 1) k := funext fun a => Fin.ext (by
    match a with
    | ⟨0, _⟩ => rfl
    | ⟨1, _⟩ => rfl)
  have e2 : idx_main_v54 (ridx_main_v55 (ix2 (0 : Fin 1) j) k) = ix2 j k := funext fun a => Fin.ext (by
    match a with
    | ⟨0, _⟩ => rfl
    | ⟨1, _⟩ => rfl)
  rw [e1, e2]

/-- The reference's input gates: the linear layer of the second combine's result (%58) by the input-gate weights (%arg13) and bias (%arg15). -/
theorem ref_gi (x0 : (⟨S1, .i32⟩ : BufTy).Contents (Elt Ideal)) (x1 : (⟨S1x1x2048, .f32⟩ : BufTy).Contents (Elt Ideal)) (x2 : (⟨S50x1024, .f32⟩ : BufTy).Contents (Elt Ideal)) (x4 : (⟨S50257x1024, .f32⟩ : BufTy).Contents (Elt Ideal)) (x5 : (⟨S50x3072, .f32⟩ : BufTy).Contents (Elt Ideal)) (x6 : (⟨S50, .f32⟩ : BufTy).Contents (Elt Ideal)) (x11 : (⟨S1024x2048, .f32⟩ : BufTy).Contents (Elt Ideal)) (x12 : (⟨S1024, .f32⟩ : BufTy).Contents (Elt Ideal)) (x13 : (⟨S6144x1024, .f32⟩ : BufTy).Contents (Elt Ideal)) (x15 : (⟨S6144, .f32⟩ : BufTy).Contents (Elt Ideal)) (j : Fin 6144) :
    val_main_v62 (F := Ideal) x0 x1 x2 x4 x5 x6 x11 x12 x13 x15 (ix2 (0 : Fin 1) j) = Spec.lin (val_main_v58 (F := Ideal) x0 x1 x2 x4 x5 x6 x11 x12) x13 (val_main_v61 (F := Ideal) x15) j := by
  rw [val_main_v62_apply, val_main_v60_apply]
  rw [Ideal.addf_def]
  unfold Spec.lin
  refine congrArg (fun v => v + _) (Finset.sum_congr rfl fun k _ => ?_)
  rw [val_main_v59_apply]
  have e1 : lidx_main_v60 (ix2 (0 : Fin 1) j) k = ix2 (0 : Fin 1) k := funext fun a => Fin.ext (by
    match a with
    | ⟨0, _⟩ => rfl
    | ⟨1, _⟩ => rfl)
  have e2 : idx_main_v59 (ridx_main_v60 (ix2 (0 : Fin 1) j) k) = ix2 j k := funext fun a => Fin.ext (by
    match a with
    | ⟨0, _⟩ => rfl
    | ⟨1, _⟩ => rfl)
  rw [e1, e2]

/-- The reference's hidden gates: the linear layer of the first combine's result (%52) by the hidden-gate weights (%arg14) and bias (%arg16). -/
theorem ref_gh (x1 : (⟨S1x1x2048, .f32⟩ : BufTy).Contents (Elt Ideal)) (x3 : (⟨S36x2048, .f32⟩ : BufTy).Contents (Elt Ideal)) (x7 : (⟨S36x75776, .f32⟩ : BufTy).Contents (Elt Ideal)) (x8 : (⟨S36, .f32⟩ : BufTy).Contents (Elt Ideal)) (x9 : (⟨S2048x3072, .f32⟩ : BufTy).Contents (Elt Ideal)) (x10 : (⟨S2048, .f32⟩ : BufTy).Contents (Elt Ideal)) (x14 : (⟨S6144x2048, .f32⟩ : BufTy).Contents (Elt Ideal)) (x16 : (⟨S6144, .f32⟩ : BufTy).Contents (Elt Ideal)) (j : Fin 6144) :
    val_main_v66 (F := Ideal) x1 x3 x7 x8 x9 x10 x14 x16 (ix2 (0 : Fin 1) j) = Spec.lin (val_main_v52 (F := Ideal) x1 x3 x7 x8 x9 x10) x14 (val_main_v65 (F := Ideal) x16) j := by
  rw [val_main_v66_apply, val_main_v64_apply]
  rw [Ideal.addf_def]
  unfold Spec.lin
  refine congrArg (fun v => v + _) (Finset.sum_congr rfl fun k _ => ?_)
  rw [val_main_v63_apply]
  have e1 : lidx_main_v64 (ix2 (0 : Fin 1) j) k = ix2 (0 : Fin 1) k := funext fun a => Fin.ext (by
    match a with
    | ⟨0, _⟩ => rfl
    | ⟨1, _⟩ => rfl)
  have e2 : idx_main_v63 (ridx_main_v64 (ix2 (0 : Fin 1) j) k) = ix2 j k := funext fun a => Fin.ext (by
    match a with
    | ⟨0, _⟩ => rfl
    | ⟨1, _⟩ => rfl)
  rw [e1, e2]

/-- The reference's logits: the linear layer of the new hidden state (%94) by the output weights (%arg17) and bias (%arg18). -/
theorem ref_logits (x0 : (⟨S1, .i32⟩ : BufTy).Contents (Elt Ideal)) (x1 : (⟨S1x1x2048, .f32⟩ : BufTy).Contents (Elt Ideal)) (x2 : (⟨S50x1024, .f32⟩ : BufTy).Contents (Elt Ideal)) (x3 : (⟨S36x2048, .f32⟩ : BufTy).Contents (Elt Ideal)) (x4 : (⟨S50257x1024, .f32⟩ : BufTy).Contents (Elt Ideal)) (x5 : (⟨S50x3072, .f32⟩ : BufTy).Contents (Elt Ideal)) (x6 : (⟨S50, .f32⟩ : BufTy).Contents (Elt Ideal)) (x7 : (⟨S36x75776, .f32⟩ : BufTy).Contents (Elt Ideal)) (x8 : (⟨S36, .f32⟩ : BufTy).Contents (Elt Ideal)) (x9 : (⟨S2048x3072, .f32⟩ : BufTy).Contents (Elt Ideal)) (x10 : (⟨S2048, .f32⟩ : BufTy).Contents (Elt Ideal)) (x11 : (⟨S1024x2048, .f32⟩ : BufTy).Contents (Elt Ideal)) (x12 : (⟨S1024, .f32⟩ : BufTy).Contents (Elt Ideal)) (x13 : (⟨S6144x1024, .f32⟩ : BufTy).Contents (Elt Ideal)) (x14 : (⟨S6144x2048, .f32⟩ : BufTy).Contents (Elt Ideal)) (x15 : (⟨S6144, .f32⟩ : BufTy).Contents (Elt Ideal)) (x16 : (⟨S6144, .f32⟩ : BufTy).Contents (Elt Ideal)) (x17 : (⟨S50257x2048, .f32⟩ : BufTy).Contents (Elt Ideal)) (x18 : (⟨S50257, .f32⟩ : BufTy).Contents (Elt Ideal)) (j : Fin 50257) :
    val_main_v98 (F := Ideal) x0 x1 x2 x3 x4 x5 x6 x7 x8 x9 x10 x11 x12 x13 x14 x15 x16 x17 x18 (ix2 (0 : Fin 1) j) = Spec.lin (val_main_v94 (F := Ideal) x0 x1 x2 x3 x4 x5 x6 x7 x8 x9 x10 x11 x12 x13 x14 x15 x16) x17 (val_main_v97 (F := Ideal) x18) j := by
  rw [val_main_v98_apply, val_main_v96_apply]
  rw [Ideal.addf_def]
  unfold Spec.lin
  refine congrArg (fun v => v + _) (Finset.sum_congr rfl fun k _ => ?_)
  rw [val_main_v95_apply]
  have e1 : lidx_main_v96 (ix2 (0 : Fin 1) j) k = ix2 (0 : Fin 1) k := funext fun a => Fin.ext (by
    match a with
    | ⟨0, _⟩ => rfl
    | ⟨1, _⟩ => rfl)
  have e2 : idx_main_v95 (ridx_main_v96 (ix2 (0 : Fin 1) j) k) = ix2 j k := funext fun a => Fin.ext (by
    match a with
    | ⟨0, _⟩ => rfl
    | ⟨1, _⟩ => rfl)
  rw [e1, e2]

end Cert.ReferenceIdeal.RefVal

end
-- ==== Proof.Val.Bridge.lean ====
/-
  The two programs compute the same arrays, stage by stage, at the ideal instance: the first half of the chain.
  Before region 0 the kernel program's host operations are the reference's own first lines (index normalisation,
  gather, reshape, concatenate), so the region's operands are the reference's values; a bias vector [n] reaches the
  region reshaped to a row [1, n] where the reference broadcasts it along the lanes, the same row. Region 0 leaves the
  two softmax rows and the two attended rows (each lane by the shared mathematics of `Spec`, read on both sides);
  the host operations before region 1 (reshape, sum over the pairs, halve, concatenate) are again the reference's,
  applied to equal operands; region 1 leaves the two relu-linear rows. The text attention weights are a result of
  @main and nothing after region 0 writes them.
-/
import proofs.«418679_j86887188398769_3_alg».proof.Proof.KI.RunA
import proofs.«418679_j86887188398769_3_alg».proof.Proof.Val.Spec
import proofs.«418679_j86887188398769_3_alg».proof.Proof.Val.Reg0Val
import proofs.«418679_j86887188398769_3_alg».proof.Proof.Val.Reg1Val
import proofs.«418679_j86887188398769_3_alg».proof.Proof.Val.ReadP
import proofs.«418679_j86887188398769_3_alg».proof.Proof.Val.RefVal
import proofs.«418679_j86887188398769_3_alg».proof.Proof.Val.RefLin
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Bridge

open Cert.KernelIdeal Cert.KernelIdeal.Gen Cert.KernelIdeal.Fr Cert.KernelIdeal.Val
open Cert.ReferenceIdeal.Read Cert.ReferenceIdeal.RefVal
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- Core `c`'s launch contents of @main's argument `r`. -/
abbrev arg (r : Ref sig .tc) : Buf (Elt Ideal) ((c : Thread nD τ).loc r) := m ((c : Thread nD τ).loc r)

/-- A vector [n] reshaped to a row [1, n] is the vector broadcast along the lanes. -/
theorem row_of_vec {α : Type} {n : Nat} (x : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) (hn : n ≠ 1) :
    shapeCast ⟨2, ![1, n]⟩ x h = broadcastInDim ⟨2, ![1, n]⟩ ![1] h' x := by
  funext i
  rw [shapeCast_apply x h i (ix1 (i 1)) (by
        rw [Shape.rowMajor_val_one, Shape.rowMajor_val_two]
        have h0 : (i 0).val = 0 := by have h : (i 0).val < 1 := (i 0).isLt; omega
        show (i 1).val = (i 0).val * n + (i 1).val
        rw [h0]; omega),
      broadcastInDim_apply _ h' x i (ix1 (i 1)) (fun a => match a with
        | ⟨0, _⟩ => by show (i 1).val = if n = 1 then 0 else (i 1).val; rw [if_neg hn])]

theorem E1_v8 : Fr.V1 m c main_v8 = Cert.ReferenceIdeal.Read.val_main_v8 (F := Ideal) (arg m c main_arg0) (arg m c main_arg1) (arg m c main_arg4) := by
  show StableHlo.after hostOps0 (W0 m c) (Proc.devRef .tc main_v8) = _
  after_results
  rfl

theorem E1_v10 : Fr.V1 m c main_v10 = Cert.ReferenceIdeal.Read.val_main_v26 (F := Ideal) (arg m c main_arg1) (arg m c main_arg3) := by
  show StableHlo.after hostOps0 (W0 m c) (Proc.devRef .tc main_v10) = _
  after_results
  rfl

theorem E1_v11 : Fr.V1 m c main_v11 = Cert.ReferenceIdeal.Read.val_main_v11 (F := Ideal) (arg m c main_arg6) := by
  show StableHlo.after hostOps0 (W0 m c) (Proc.devRef .tc main_v11) = _
  after_results
  show shapeCast S1x50 (arg m c main_arg6) shapeCasts_S50_S1x50 = broadcastInDim _ ![1] Cert.ReferenceIdeal.Gen.bcast_S50_S1x50_1 (arg m c main_arg6)
  exact row_of_vec _ _ _ (by decide)

theorem E1_v12 : Fr.V1 m c main_v12 = Cert.ReferenceIdeal.Read.val_main_v29 (F := Ideal) (arg m c main_arg8) := by
  show StableHlo.after hostOps0 (W0 m c) (Proc.devRef .tc main_v12) = _
  after_results
  show shapeCast S1x36 (arg m c main_arg8) shapeCasts_S36_S1x36 = broadcastInDim _ ![1] Cert.ReferenceIdeal.Gen.bcast_S36_S1x36_1 (arg m c main_arg8)
  exact row_of_vec _ _ _ (by decide)

/-- No host operation before region 0 writes an argument. -/
theorem V1_arg (r : Ref sig .tc) (h : r ∉ hostOps0_W) : Fr.V1 m c r = arg m c r :=
  StableHlo.after_of_writes_sub hostOps0 _ hostOps0_writes h

/-- The text attention weights. -/
theorem E2_0 : W2 m c (Proc.devRef .tc main_v13_0)
    = val_main_v23 (F := Ideal) (arg m c main_arg0) (arg m c main_arg1) (arg m c main_arg4) (arg m c main_arg5) (arg m c main_arg6) := by
  refine (W2_arr m c 8).trans ?_
  funext i
  obtain ⟨a, j, rfl⟩ : ∃ a j, i = ix2 a j := ⟨_, _, eq_ix2 i⟩
  obtain rfl : a = 0 := Fin.fin_one_eq_zero a
  rw [final0_8 (Fr.V1 m) c j, ref_attw, E1_v8 m c, E1_v11 m c, V1_arg m c main_arg5 (by decide)]

/-- The attended text row. -/
theorem E2_1 : W2 m c (Proc.devRef .tc main_v13_1)
    = val_main_v24 (F := Ideal) (arg m c main_arg0) (arg m c main_arg1) (arg m c main_arg2) (arg m c main_arg4) (arg m c main_arg5) (arg m c main_arg6) := by
  refine (W2_arr m c 9).trans ?_
  funext i
  obtain ⟨a, d, rfl⟩ : ∃ a d, i = ix2 a d := ⟨_, _, eq_ix2 i⟩
  obtain rfl : a = 0 := Fin.fin_one_eq_zero a
  have hw : (fun l : Fin 50 => val_main_v23 (F := Ideal) (arg m c main_arg0) (arg m c main_arg1) (arg m c main_arg4) (arg m c main_arg5) (arg m c main_arg6) (ix2 (0 : Fin 1) l))
      = Spec.softmax (Spec.lin (val_main_v8 (F := Ideal) (arg m c main_arg0) (arg m c main_arg1) (arg m c main_arg4)) (arg m c main_arg5) (val_main_v11 (F := Ideal) (arg m c main_arg6))) :=
    funext fun l => ref_attw _ _ _ _ _ l
  rw [final0_9 (Fr.V1 m) c d, ref_atta, hw, E1_v8 m c, E1_v11 m c, V1_arg m c main_arg5 (by decide), V1_arg m c main_arg2 (by decide)]

/-- The visual attention weights. -/
theorem E2_2 : W2 m c (Proc.devRef .tc main_v13_2)
    = val_main_v41 (F := Ideal) (arg m c main_arg1) (arg m c main_arg3) (arg m c main_arg7) (arg m c main_arg8) := by
  refine (W2_arr m c 10).trans ?_
  funext i
  obtain ⟨a, j, rfl⟩ : ∃ a j, i = ix2 a j := ⟨_, _, eq_ix2 i⟩
  obtain rfl : a = 0 := Fin.fin_one_eq_zero a
  rw [final0_10 (Fr.V1 m) c j, ref_visw, E1_v10 m c, E1_v12 m c, V1_arg m c main_arg7 (by decide)]

/-- The attended visual row. -/
theorem E2_3 : W2 m c (Proc.devRef .tc main_v13_3)
    = val_main_v42 (F := Ideal) (arg m c main_arg1) (arg m c main_arg3) (arg m c main_arg7) (arg m c main_arg8) := by
  refine (W2_arr m c 11).trans ?_
  funext i
  obtain ⟨a, d, rfl⟩ : ∃ a d, i = ix2 a d := ⟨_, _, eq_ix2 i⟩
  obtain rfl : a = 0 := Fin.fin_one_eq_zero a
  have hw : (fun l : Fin 36 => val_main_v41 (F := Ideal) (arg m c main_arg1) (arg m c main_arg3) (arg m c main_arg7) (arg m c main_arg8) (ix2 (0 : Fin 1) l))
      = Spec.softmax (Spec.lin (val_main_v26 (F := Ideal) (arg m c main_arg1) (arg m c main_arg3)) (arg m c main_arg7) (val_main_v29 (F := Ideal) (arg m c main_arg8))) :=
    funext fun l => ref_visw _ _ _ _ l
  rw [final0_11 (Fr.V1 m) c d, ref_visa, hw, E1_v10 m c, E1_v12 m c, V1_arg m c main_arg7 (by decide), V1_arg m c main_arg3 (by decide)]

theorem E1_v6 : W1 m c (Proc.devRef .tc main_v6) = val_main_v6 (F := Ideal) (arg m c main_arg0) (arg m c main_arg4) := by
  show StableHlo.after hostOps0 (W0 m c) (Proc.devRef .tc main_v6) = _
  after_results
  rfl

theorem E1_v7 : W1 m c (Proc.devRef .tc main_v7) = val_main_v7 (F := Ideal) (arg m c main_arg1) := by
  show StableHlo.after hostOps0 (W0 m c) (Proc.devRef .tc main_v7) = _
  after_results
  rfl

/-- Region 0 leaves a buffer that is none of its arrays as it found it. -/
theorem W2_v6 : W2 m c (Proc.devRef .tc main_v6) = val_main_v6 (F := Ideal) (arg m c main_arg0) (arg m c main_arg4) :=
  (W2_of_ne m c main_v6 (by decide)).trans (E1_v6 m c)
theorem W2_v7 : W2 m c (Proc.devRef .tc main_v7) = val_main_v7 (F := Ideal) (arg m c main_arg1) :=
  (W2_of_ne m c main_v7 (by decide)).trans (E1_v7 m c)

theorem E3_v18 : Fr.V3 m c main_v18 = val_main_v47 (F := Ideal) (arg m c main_arg1) (arg m c main_arg3) (arg m c main_arg7) (arg m c main_arg8) := by
  show StableHlo.after hostOps1 (W2 m c) (Proc.devRef .tc main_v18) = _
  after_results
  rw [W2_v7 m c, E2_3 m c]
  rfl

/-- Region 0 only reads an argument, and no host operation before it writes one. -/
theorem W2_arg (r : Ref sig .tc) (h0 : r ∉ hostOps0_W) (k0 : ∀ w, Pipeline.arrRef spec0 w = r → (cfg0.win w).isOut = false) :
    W2 m c (Proc.devRef .tc r) = arg m c r :=
  (W2_keep m c r k0).trans (V1_arg m c r h0)

theorem V3_arg (r : Ref sig .tc) (h0 : r ∉ hostOps0_W) (h1 : r ∉ hostOps1_W)
    (k0 : ∀ w, Pipeline.arrRef spec0 w = r → (cfg0.win w).isOut = false) : Fr.V3 m c r = arg m c r :=
  (StableHlo.after_of_writes_sub hostOps1 _ hostOps1_writes h1).trans (W2_arg m c r h0 k0)

theorem E3_v19 : Fr.V3 m c main_v19 = val_main_v53 (F := Ideal) (arg m c main_arg0) (arg m c main_arg1) (arg m c main_arg2) (arg m c main_arg4) (arg m c main_arg5) (arg m c main_arg6) := by
  show StableHlo.after hostOps1 (W2 m c) (Proc.devRef .tc main_v19) = _
  after_results
  rw [W2_v6 m c, E2_1 m c]
  rfl

theorem E3_v20 : Fr.V3 m c main_v20 = val_main_v50 (F := Ideal) (arg m c main_arg10) := by
  show StableHlo.after hostOps1 (W2 m c) (Proc.devRef .tc main_v20) = _
  after_results
  rw [W2_arg m c main_arg10 (by decide) (by decide)]
  show shapeCast S1x2048 (arg m c main_arg10) shapeCasts_S2048_S1x2048 = broadcastInDim _ ![1] Cert.ReferenceIdeal.Gen.bcast_S2048_S1x2048_1 (arg m c main_arg10)
  exact row_of_vec _ _ _ (by decide)

theorem E3_v21 : Fr.V3 m c main_v21 = val_main_v56 (F := Ideal) (arg m c main_arg12) := by
  show StableHlo.after hostOps1 (W2 m c) (Proc.devRef .tc main_v21) = _
  after_results
  rw [W2_arg m c main_arg12 (by decide) (by decide)]
  show shapeCast S1x1024 (arg m c main_arg12) shapeCasts_S1024_S1x1024 = broadcastInDim _ ![1] Cert.ReferenceIdeal.Gen.bcast_S1024_S1x1024_1 (arg m c main_arg12)
  exact row_of_vec _ _ _ (by decide)

/-- The new hidden row, before the gates. -/
theorem h_hid : W4 m c (Proc.devRef .tc main_v22_0)
    = Cert.ReferenceIdeal.Read.val_main_v52 (F := Ideal) (arg m c main_arg1) (arg m c main_arg3) (arg m c main_arg7) (arg m c main_arg8) (arg m c main_arg9) (arg m c main_arg10) := by
  refine (W4_arr m c 6).trans ?_
  funext i
  obtain ⟨a, j, rfl⟩ : ∃ a j, i = ix2 a j := ⟨_, _, eq_ix2 i⟩
  obtain rfl : a = 0 := Fin.fin_one_eq_zero a
  rw [final1_6 (Fr.V3 m) c j, ref_hid, E3_v18 m c, E3_v20 m c, V3_arg m c main_arg9 (by decide) (by decide) (by decide)]

/-- The GRU's input row. -/
theorem h_x : W4 m c (Proc.devRef .tc main_v22_1)
    = Cert.ReferenceIdeal.Read.val_main_v58 (F := Ideal) (arg m c main_arg0) (arg m c main_arg1) (arg m c main_arg2) (arg m c main_arg4) (arg m c main_arg5) (arg m c main_arg6) (arg m c main_arg11) (arg m c main_arg12) := by
  refine (W4_arr m c 7).trans ?_
  funext i
  obtain ⟨a, j, rfl⟩ : ∃ a j, i = ix2 a j := ⟨_, _, eq_ix2 i⟩
  obtain rfl : a = 0 := Fin.fin_one_eq_zero a
  rw [final1_7 (Fr.V3 m) c j, ref_x, E3_v19 m c, E3_v21 m c, V3_arg m c main_arg11 (by decide) (by decide) (by decide)]

/-- The text attention weights are a result of @main: nothing after region 0 writes them. -/
theorem out2_eq (x : Res3 (F := Ideal) c) : W10 m c x (Proc.devRef .tc main_v13_0)
    = Cert.ReferenceIdeal.Read.val_main_v23 (F := Ideal) (arg m c main_arg0) (arg m c main_arg1) (arg m c main_arg4) (arg m c main_arg5) (arg m c main_arg6) :=
  calc W10 m c x (Proc.devRef .tc main_v13_0)
    _ = W9 m c x (Proc.devRef .tc main_v13_0) := StableHlo.after_of_writes_sub hostOps4_1 _ hostOps4_1_writes (by decide)
    _ = W8 m c x (Proc.devRef .tc main_v13_0) := StableHlo.after_of_writes_sub hostOps4 _ hostOps4_writes (by decide)
    _ = W7 m c (Proc.devRef .tc main_v13_0) := W8_keep m c x main_v13_0 (by decide)
    _ = W6 m c (Proc.devRef .tc main_v13_0) := StableHlo.after_of_writes_sub hostOps3 _ hostOps3_writes (by decide)
    _ = W5 m c (Proc.devRef .tc main_v13_0) := W6_keep m c main_v13_0 (by decide)
    _ = W4 m c (Proc.devRef .tc main_v13_0) := StableHlo.after_of_writes_sub hostOps2 _ hostOps2_writes (by decide)
    _ = W3 m c (Proc.devRef .tc main_v13_0) := W4_keep m c main_v13_0 (by decide)
    _ = W2 m c (Proc.devRef .tc main_v13_0) := StableHlo.after_of_writes_sub hostOps1 _ hostOps1_writes (by decide)
    _ = _ := E2_0 m c

end Cert.KernelIdeal.Bridge

end
-- ==== Proof.Val.Reg2Val.lean ====
/- REGION 2 at the ideal values: the two arrays the region writes, lane by lane.

   Both output arrays [1, 6144] are written in eight blocks of 768 lanes, block `t` at point `t`. On the extended reals the
   casts to the narrow format are the identity and the contraction is an exact sum from zero, so lane `q` of what point `t`
   writes is  ∑ₖ x[0,k] · W[768 t + q, k] + b[0, 768 t + q]  — lane `768 t + q` of the linear layer of the whole arrays. The
   eight blocks cover the array (lane `j` lies in block `j / 768`), so after the region
     gi[0, j] = lin x W_ih b_ih j      and      gh[0, j] = lin h W_hh b_hh j      for every lane j < 6144. -/
import proofs.«418679_j86887188398769_3_alg».proof.Proof.KI.Reg2
import proofs.«418679_j86887188398769_3_alg».proof.Proof.Val.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Fr Cert.Spec Idealize.ShloMosaic Idealize.ShloMosaic.TcCoe Idealize.ShloMosaic.ValueIdx Idealize.SL.Sem
open Idealize.ShloMosaic.Pipeline (Dat)

/-! The operand indices of the contraction `dot_S1x1024_S768x1024_S1x768_1_1_0_0_n_n`, axis by axis: the row operand is read at (the output's row, the
    contraction position), the matrix operand at (the output's lane, the contraction position). -/
theorem lhs_gi_0 (i : S1x768.Idx) (q : dot_S1x1024_S768x1024_S1x768_1_1_0_0_n_n.contr.Idx) :
    (dot_S1x1024_S768x1024_S1x768_1_1_0_0_n_n.lhsIdx i q 0).val = (i 0).val := by
  unfold DotDims.lhsIdx
  rw [dif_neg (show ¬(0 : Fin S1x1024.rank) ∈ dot_S1x1024_S768x1024_S1x768_1_1_0_0_n_n.lhsBatch by decide), dif_pos (show (0 : Fin S1x1024.rank) ∈ dot_S1x1024_S768x1024_S1x768_1_1_0_0_n_n.lhsNonContracting by decide)]
  rfl
theorem lhs_gi_1 (i : S1x768.Idx) (q : dot_S1x1024_S768x1024_S1x768_1_1_0_0_n_n.contr.Idx) :
    (dot_S1x1024_S768x1024_S1x768_1_1_0_0_n_n.lhsIdx i q 1).val = (q ⟨0, by decide⟩).val :=
  dot_S1x1024_S768x1024_S1x768_1_1_0_0_n_n.lhsIdx_val_of_single rfl i q
theorem rhs_gi_0 (i : S1x768.Idx) (q : dot_S1x1024_S768x1024_S1x768_1_1_0_0_n_n.contr.Idx) :
    (dot_S1x1024_S768x1024_S1x768_1_1_0_0_n_n.rhsIdx i q 0).val = (i 1).val := by
  unfold DotDims.rhsIdx
  rw [dif_neg (show ¬(0 : Fin S768x1024.rank) ∈ dot_S1x1024_S768x1024_S1x768_1_1_0_0_n_n.rhsBatch by decide), dif_pos (show (0 : Fin S768x1024.rank) ∈ dot_S1x1024_S768x1024_S1x768_1_1_0_0_n_n.rhsNonContracting by decide)]
  rfl
theorem rhs_gi_1 (i : S1x768.Idx) (q : dot_S1x1024_S768x1024_S1x768_1_1_0_0_n_n.contr.Idx) :
    (dot_S1x1024_S768x1024_S1x768_1_1_0_0_n_n.rhsIdx i q 1).val = (q ⟨0, by decide⟩).val :=
  dot_S1x1024_S768x1024_S1x768_1_1_0_0_n_n.rhsIdx_val_of_single rfl i q

/-- The payload at lane `q`: the row against row `q` of the matrix block, summed over the long axis, plus the bias lane
    (the casts to the narrow format and back are the identity on the extended reals; the accumulator starts at zero). -/
theorem k2_pay1_apply (x : Vec Ideal S1x1024 .f32) (W : Vec Ideal S768x1024 .f32) (b : Vec Ideal S1x768 .f32) (q : Fin 768) :
    k2_pay1 (F := Ideal) x W b (ix2 (0 : Fin 1) q) = (∑ k : Fin 1024, x (ix2 (0 : Fin 1) k) * W (ix2 q k)) + b (ix2 (0 : Fin 1) q) := by
  unfold k2_pay1
  simp only [shapeCast_self, addf_apply, Ideal.matmul_constant_zero_apply, truncf_apply]
  congr 1
  rw [← Equiv.sum_comp (ValueIdx.contrEquiv1 dot_S1x1024_S768x1024_S1x768_1_1_0_0_n_n 1024 rfl rfl).symm]
  refine Finset.sum_congr rfl fun k _ => ?_
  have hk := ValueIdx.contrEquiv1_symm_val dot_S1x1024_S768x1024_S1x768_1_1_0_0_n_n 1024 rfl rfl k
  have el : dot_S1x1024_S768x1024_S1x768_1_1_0_0_n_n.lhsIdx (ix2 (0 : Fin 1) q) ((ValueIdx.contrEquiv1 dot_S1x1024_S768x1024_S1x768_1_1_0_0_n_n 1024 rfl rfl).symm k) = ix2 (0 : Fin 1) k := funext fun a => Fin.ext (by
    match a with
    | ⟨0, _⟩ => exact lhs_gi_0 _ _
    | ⟨1, _⟩ => exact (lhs_gi_1 _ _).trans hk)
  have er : dot_S1x1024_S768x1024_S1x768_1_1_0_0_n_n.rhsIdx (ix2 (0 : Fin 1) q) ((ValueIdx.contrEquiv1 dot_S1x1024_S768x1024_S1x768_1_1_0_0_n_n 1024 rfl rfl).symm k) = ix2 q k := funext fun a => Fin.ext (by
    match a with
    | ⟨0, _⟩ => exact rhs_gi_0 _ _
    | ⟨1, _⟩ => exact (rhs_gi_1 _ _).trans hk)
  rw [el, er]

/-! The operand indices of the contraction `dot_S1x2048_S768x2048_S1x768_1_1_0_0_n_n`, axis by axis: the row operand is read at (the output's row, the
    contraction position), the matrix operand at (the output's lane, the contraction position). -/
theorem lhs_gh_0 (i : S1x768.Idx) (q : dot_S1x2048_S768x2048_S1x768_1_1_0_0_n_n.contr.Idx) :
    (dot_S1x2048_S768x2048_S1x768_1_1_0_0_n_n.lhsIdx i q 0).val = (i 0).val := by
  unfold DotDims.lhsIdx
  rw [dif_neg (show ¬(0 : Fin S1x2048.rank) ∈ dot_S1x2048_S768x2048_S1x768_1_1_0_0_n_n.lhsBatch by decide), dif_pos (show (0 : Fin S1x2048.rank) ∈ dot_S1x2048_S768x2048_S1x768_1_1_0_0_n_n.lhsNonContracting by decide)]
  rfl
theorem lhs_gh_1 (i : S1x768.Idx) (q : dot_S1x2048_S768x2048_S1x768_1_1_0_0_n_n.contr.Idx) :
    (dot_S1x2048_S768x2048_S1x768_1_1_0_0_n_n.lhsIdx i q 1).val = (q ⟨0, by decide⟩).val :=
  dot_S1x2048_S768x2048_S1x768_1_1_0_0_n_n.lhsIdx_val_of_single rfl i q
theorem rhs_gh_0 (i : S1x768.Idx) (q : dot_S1x2048_S768x2048_S1x768_1_1_0_0_n_n.contr.Idx) :
    (dot_S1x2048_S768x2048_S1x768_1_1_0_0_n_n.rhsIdx i q 0).val = (i 1).val := by
  unfold DotDims.rhsIdx
  rw [dif_neg (show ¬(0 : Fin S768x2048.rank) ∈ dot_S1x2048_S768x2048_S1x768_1_1_0_0_n_n.rhsBatch by decide), dif_pos (show (0 : Fin S768x2048.rank) ∈ dot_S1x2048_S768x2048_S1x768_1_1_0_0_n_n.rhsNonContracting by decide)]
  rfl
theorem rhs_gh_1 (i : S1x768.Idx) (q : dot_S1x2048_S768x2048_S1x768_1_1_0_0_n_n.contr.Idx) :
    (dot_S1x2048_S768x2048_S1x768_1_1_0_0_n_n.rhsIdx i q 1).val = (q ⟨0, by decide⟩).val :=
  dot_S1x2048_S768x2048_S1x768_1_1_0_0_n_n.rhsIdx_val_of_single rfl i q

/-- The payload at lane `q`: the row against row `q` of the matrix block, summed over the long axis, plus the bias lane
    (the casts to the narrow format and back are the identity on the extended reals; the accumulator starts at zero). -/
theorem k2_pay2_apply (x : Vec Ideal S1x2048 .f32) (W : Vec Ideal S768x2048 .f32) (b : Vec Ideal S1x768 .f32) (q : Fin 768) :
    k2_pay2 (F := Ideal) x W b (ix2 (0 : Fin 1) q) = (∑ k : Fin 2048, x (ix2 (0 : Fin 1) k) * W (ix2 q k)) + b (ix2 (0 : Fin 1) q) := by
  unfold k2_pay2
  simp only [shapeCast_self, addf_apply, Ideal.matmul_constant_zero_apply, truncf_apply]
  congr 1
  rw [← Equiv.sum_comp (ValueIdx.contrEquiv1 dot_S1x2048_S768x2048_S1x768_1_1_0_0_n_n 2048 rfl rfl).symm]
  refine Finset.sum_congr rfl fun k _ => ?_
  have hk := ValueIdx.contrEquiv1_symm_val dot_S1x2048_S768x2048_S1x768_1_1_0_0_n_n 2048 rfl rfl k
  have el : dot_S1x2048_S768x2048_S1x768_1_1_0_0_n_n.lhsIdx (ix2 (0 : Fin 1) q) ((ValueIdx.contrEquiv1 dot_S1x2048_S768x2048_S1x768_1_1_0_0_n_n 2048 rfl rfl).symm k) = ix2 (0 : Fin 1) k := funext fun a => Fin.ext (by
    match a with
    | ⟨0, _⟩ => exact lhs_gh_0 _ _
    | ⟨1, _⟩ => exact (lhs_gh_1 _ _).trans hk)
  have er : dot_S1x2048_S768x2048_S1x768_1_1_0_0_n_n.rhsIdx (ix2 (0 : Fin 1) q) ((ValueIdx.contrEquiv1 dot_S1x2048_S768x2048_S1x768_1_1_0_0_n_n 2048 rfl rfl).symm k) = ix2 q k := funext fun a => Fin.ext (by
    match a with
    | ⟨0, _⟩ => exact rhs_gh_0 _ _
    | ⟨1, _⟩ => exact (rhs_gh_1 _ _).trans hk)
  rw [el, er]

variable (V : (c : Dev nD) → (b : Ref sig .tc) → Buf (Elt Ideal) ((c : Thread nD τ).loc b))

/-! ## The index maps, decided over the grid -/

/-- The two rows have block index (0, 0) at every point; the weight blocks move down the rows with the point, the bias
    and output blocks along the lanes. -/
theorem idx_facts2 : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = t.val
    ∧ win2_6.index t (0 : Fin 2) = 0 ∧ win2_6.index t (1 : Fin 2) = t.val
    ∧ win2_7.index t (0 : Fin 2) = 0 ∧ win2_7.index t (1 : Fin 2) = t.val :=
  (by decide +kernel : ∀ t : Fin grid2.N, _)

/-! ## Each input block read off its array: a block's coordinate is index × size + the coordinate inside the block -/

theorem iblk2_0_apply (c : Dev nD) (t : Fin cfg2.N) (k : Fin 1024)   :
    (iblk2 (F := Ideal) V c 0 t : Vec Ideal S1x1024 .f32) (ix2 (0 : Fin 1) k) = (V c main_v22_1 : S1x1024.Idx → EReal) (ix2 (0 : Fin 1) k) := by
  obtain ⟨e00, e01, e10, e11, e20, e21, e30, e31, e40, e41, e50, e51, e60, e61, e70, e71⟩ := idx_facts2 t
  unfold iblk2
  rw [View.read_apply]
  show V c main_v22_1 _ = V c main_v22_1 _
  congr 1
  funext a
  apply Fin.ext
  match a with
  | ⟨0, _⟩ => show win2_0.index t (0 : Fin 2) * 1 + 1 * 0 = 0; omega
  | ⟨1, _⟩ => show win2_0.index t (1 : Fin 2) * 1024 + 1 * k.val = k.val; omega

theorem iblk2_1_apply (c : Dev nD) (t : Fin cfg2.N) (r : Fin 768) (k : Fin 1024) (j : Fin 6144) (hj : j.val = t.val * 768 + r.val) :
    (iblk2 (F := Ideal) V c 1 t : Vec Ideal S768x1024 .f32) (ix2 r k) = (V c main_arg13 : S6144x1024.Idx → EReal) (ix2 j k) := by
  obtain ⟨e00, e01, e10, e11, e20, e21, e30, e31, e40, e41, e50, e51, e60, e61, e70, e71⟩ := idx_facts2 t
  unfold iblk2
  rw [View.read_apply]
  show V c main_arg13 _ = V c main_arg13 _
  congr 1
  funext a
  apply Fin.ext
  match a with
  | ⟨0, _⟩ => show win2_1.index t (0 : Fin 2) * 768 + 1 * r.val = j.val; omega
  | ⟨1, _⟩ => show win2_1.index t (1 : Fin 2) * 1024 + 1 * k.val = k.val; omega

theorem iblk2_2_apply (c : Dev nD) (t : Fin cfg2.N) (r : Fin 768) (j : Fin 6144) (hj : j.val = t.val * 768 + r.val) :
    (iblk2 (F := Ideal) V c 2 t : Vec Ideal S1x768 .f32) (ix2 (0 : Fin 1) r) = (V c main_v23 : S1x6144.Idx → EReal) (ix2 (0 : Fin 1) j) := by
  obtain ⟨e00, e01, e10, e11, e20, e21, e30, e31, e40, e41, e50, e51, e60, e61, e70, e71⟩ := idx_facts2 t
  unfold iblk2
  rw [View.read_apply]
  show V c main_v23 _ = V c main_v23 _
  congr 1
  funext a
  apply Fin.ext
  match a with
  | ⟨0, _⟩ => show win2_2.index t (0 : Fin 2) * 1 + 1 * 0 = 0; omega
  | ⟨1, _⟩ => show win2_2.index t (1 : Fin 2) * 768 + 1 * r.val = j.val; omega

theorem iblk2_3_apply (c : Dev nD) (t : Fin cfg2.N) (k : Fin 2048)   :
    (iblk2 (F := Ideal) V c 3 t : Vec Ideal S1x2048 .f32) (ix2 (0 : Fin 1) k) = (V c main_v22_0 : S1x2048.Idx → EReal) (ix2 (0 : Fin 1) k) := by
  obtain ⟨e00, e01, e10, e11, e20, e21, e30, e31, e40, e41, e50, e51, e60, e61, e70, e71⟩ := idx_facts2 t
  unfold iblk2
  rw [View.read_apply]
  show V c main_v22_0 _ = V c main_v22_0 _
  congr 1
  funext a
  apply Fin.ext
  match a with
  | ⟨0, _⟩ => show win2_3.index t (0 : Fin 2) * 1 + 1 * 0 = 0; omega
  | ⟨1, _⟩ => show win2_3.index t (1 : Fin 2) * 2048 + 1 * k.val = k.val; omega

theorem iblk2_4_apply (c : Dev nD) (t : Fin cfg2.N) (r : Fin 768) (k : Fin 2048) (j : Fin 6144) (hj : j.val = t.val * 768 + r.val) :
    (iblk2 (F := Ideal) V c 4 t : Vec Ideal S768x2048 .f32) (ix2 r k) = (V c main_arg14 : S6144x2048.Idx → EReal) (ix2 j k) := by
  obtain ⟨e00, e01, e10, e11, e20, e21, e30, e31, e40, e41, e50, e51, e60, e61, e70, e71⟩ := idx_facts2 t
  unfold iblk2
  rw [View.read_apply]
  show V c main_arg14 _ = V c main_arg14 _
  congr 1
  funext a
  apply Fin.ext
  match a with
  | ⟨0, _⟩ => show win2_4.index t (0 : Fin 2) * 768 + 1 * r.val = j.val; omega
  | ⟨1, _⟩ => show win2_4.index t (1 : Fin 2) * 2048 + 1 * k.val = k.val; omega

theorem iblk2_5_apply (c : Dev nD) (t : Fin cfg2.N) (r : Fin 768) (j : Fin 6144) (hj : j.val = t.val * 768 + r.val) :
    (iblk2 (F := Ideal) V c 5 t : Vec Ideal S1x768 .f32) (ix2 (0 : Fin 1) r) = (V c main_v24 : S1x6144.Idx → EReal) (ix2 (0 : Fin 1) j) := by
  obtain ⟨e00, e01, e10, e11, e20, e21, e30, e31, e40, e41, e50, e51, e60, e61, e70, e71⟩ := idx_facts2 t
  unfold iblk2
  rw [View.read_apply]
  show V c main_v24 _ = V c main_v24 _
  congr 1
  funext a
  apply Fin.ext
  match a with
  | ⟨0, _⟩ => show win2_5.index t (0 : Fin 2) * 1 + 1 * 0 = 0; omega
  | ⟨1, _⟩ => show win2_5.index t (1 : Fin 2) * 768 + 1 * r.val = j.val; omega

/-! ## Output window 6 -/

/-- What the window's array ends holding: at lane `j` the linear layer of the whole row, row `j` of the whole weight
    matrix and lane `j` of the whole bias. -/
abbrev k2_G6 (x : Arr 1 1024) (W : Arr 6144 1024) (b : Arr 1 6144) : S1x6144.Idx → EReal :=
  fun i => Spec.lin x W b (i 1)

/-- WHAT POINT `t` WRITES BACK is block `t` of `k2_G6` of the arrays as the region finds them: lane `q` of the block is
    lane `768 t + q` of the array, and the blocks the payload reads are the row, rows `768 t …` of the matrix, lanes
    `768 t …` of the bias. -/
theorem flushed2_6_eq (c : Dev nD) (t : Fin cfg2.N) :
    (dat2 (F := Ideal) V c).flushed 6 t = ((cfg2.win 6).blk t).view.read (Elt Ideal) (k2_G6 (V c main_v22_1) (V c main_arg13) (V c main_v23)) := by
  show (cfg2.win 6).cut (grid2.coords t) ((dat2 V c).after 6 t) = _
  rw [after2_6, out2_6_eq]
  obtain ⟨e00, e01, e10, e11, e20, e21, e30, e31, e40, e41, e50, e51, e60, e61, e70, e71⟩ := idx_facts2 t
  refine funext fun (y : S1x768.Idx) => ?_
  have h0 : y 0 = (0 : Fin 1) := Fin.ext (by have h : (y 0).val < 1 := (y 0).isLt; show (y 0).val = 0; omega)
  obtain ⟨q, rfl⟩ : ∃ q : Fin 768, y = ix2 (0 : Fin 1) q := ⟨y 1, (eq_ix2 y).trans (congrArg (fun a : Fin 1 => ix2 a (y 1)) h0)⟩
  rw [View.read_apply]
  show k2_pay1 (F := Ideal) (iblk2 V c 0 t) (iblk2 V c 1 t) (iblk2 V c 2 t) (ix2 (0 : Fin 1) q) = Spec.lin (V c main_v22_1) (V c main_arg13) (V c main_v23) ((((cfg2.win 6).blk t).view.emb (ix2 (0 : Fin 1) q)) 1)
  have hj : ((((cfg2.win 6).blk t).view.emb (ix2 (0 : Fin 1) q)) 1 : Fin 6144).val = t.val * 768 + q.val := by
    show win2_6.index t (1 : Fin 2) * 768 + 1 * q.val = t.val * 768 + q.val
    omega
  refine (k2_pay1_apply _ _ _ q).trans ?_
  unfold Spec.lin
  rw [iblk2_2_apply V c t q _ hj]
  congr 1
  refine Finset.sum_congr rfl fun k _ => ?_
  rw [iblk2_0_apply V c t k, iblk2_1_apply V c t q k _ hj]

/-- An index of the array is in point `t`'s block iff each coordinate is in the block's range on its axis. -/
theorem mem_blk2_6 (t : Fin cfg2.N) (i : S1x6144.Idx) :
    i ∈ ((cfg2.win 6).blk t).view.set ↔ ∀ a : Fin 2, win2_6.index t a * S1x768.size a ≤ (i a).val ∧ (i a).val < win2_6.index t a * S1x768.size a + S1x768.size a := by
  show i ∈ ((View.whole main_v25_0).slice (win2_6.rect t)).set ↔ _
  rw [View.set_slice_whole, Rect.mem_set_unit]
  exact Iff.rfl

/-- Lane `j` is in the block of point `j / 768`: the eight blocks cover the array. -/
theorem cover2_6_arr (i : S1x6144.Idx) : ∃ t : Fin cfg2.N, (cfg2.win 6).flush t = true ∧ i ∈ ((cfg2.win 6).blk t).view.set := by
  have hi0 : (i 0).val < 1 := (i 0).isLt
  have hi1 : (i 1).val < 6144 := (i 1).isLt
  have hN : cfg2.N = 8 := N_2
  let t : Fin cfg2.N := ⟨(i 1).val / 768, by rw [hN]; omega⟩
  have ht : t.val = (i 1).val / 768 := rfl
  obtain ⟨e00, e01, e10, e11, e20, e21, e30, e31, e40, e41, e50, e51, e60, e61, e70, e71⟩ := idx_facts2 t
  refine ⟨t, flush2_6 t, ?_⟩
  rw [mem_blk2_6]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 768 ≤ (i 1).val ∧ (i 1).val < win2_6.index t (1 : Fin 2) * 768 + 768; omega

/-- THE ARRAY after the region, lane by lane. -/
theorem final2_6 (c : Dev nD) (j : Fin 6144) :
    (dat2 (F := Ideal) V c).arrAt 6 cfg2.N (ix2 (0 : Fin 1) j) = Spec.lin (V c main_v22_1) (V c main_arg13) (V c main_v23) j := by
  rw [(dat2 V c).arrAt_eq_of_cover 6 (k2_G6 (V c main_v22_1) (V c main_arg13) (V c main_v23)) (fun t _ => flushed2_6_eq V c t) (cover2_6_arr)]

/-! ## Output window 7 -/

/-- What the window's array ends holding: at lane `j` the linear layer of the whole row, row `j` of the whole weight
    matrix and lane `j` of the whole bias. -/
abbrev k2_G7 (x : Arr 1 2048) (W : Arr 6144 2048) (b : Arr 1 6144) : S1x6144.Idx → EReal :=
  fun i => Spec.lin x W b (i 1)

/-- WHAT POINT `t` WRITES BACK is block `t` of `k2_G7` of the arrays as the region finds them: lane `q` of the block is
    lane `768 t + q` of the array, and the blocks the payload reads are the row, rows `768 t …` of the matrix, lanes
    `768 t …` of the bias. -/
theorem flushed2_7_eq (c : Dev nD) (t : Fin cfg2.N) :
    (dat2 (F := Ideal) V c).flushed 7 t = ((cfg2.win 7).blk t).view.read (Elt Ideal) (k2_G7 (V c main_v22_0) (V c main_arg14) (V c main_v24)) := by
  show (cfg2.win 7).cut (grid2.coords t) ((dat2 V c).after 7 t) = _
  rw [after2_7, out2_7_eq]
  obtain ⟨e00, e01, e10, e11, e20, e21, e30, e31, e40, e41, e50, e51, e60, e61, e70, e71⟩ := idx_facts2 t
  refine funext fun (y : S1x768.Idx) => ?_
  have h0 : y 0 = (0 : Fin 1) := Fin.ext (by have h : (y 0).val < 1 := (y 0).isLt; show (y 0).val = 0; omega)
  obtain ⟨q, rfl⟩ : ∃ q : Fin 768, y = ix2 (0 : Fin 1) q := ⟨y 1, (eq_ix2 y).trans (congrArg (fun a : Fin 1 => ix2 a (y 1)) h0)⟩
  rw [View.read_apply]
  show k2_pay2 (F := Ideal) (iblk2 V c 3 t) (iblk2 V c 4 t) (iblk2 V c 5 t) (ix2 (0 : Fin 1) q) = Spec.lin (V c main_v22_0) (V c main_arg14) (V c main_v24) ((((cfg2.win 7).blk t).view.emb (ix2 (0 : Fin 1) q)) 1)
  have hj : ((((cfg2.win 7).blk t).view.emb (ix2 (0 : Fin 1) q)) 1 : Fin 6144).val = t.val * 768 + q.val := by
    show win2_7.index t (1 : Fin 2) * 768 + 1 * q.val = t.val * 768 + q.val
    omega
  refine (k2_pay2_apply _ _ _ q).trans ?_
  unfold Spec.lin
  rw [iblk2_5_apply V c t q _ hj]
  congr 1
  refine Finset.sum_congr rfl fun k _ => ?_
  rw [iblk2_3_apply V c t k, iblk2_4_apply V c t q k _ hj]

/-- An index of the array is in point `t`'s block iff each coordinate is in the block's range on its axis. -/
theorem mem_blk2_7 (t : Fin cfg2.N) (i : S1x6144.Idx) :
    i ∈ ((cfg2.win 7).blk t).view.set ↔ ∀ a : Fin 2, win2_7.index t a * S1x768.size a ≤ (i a).val ∧ (i a).val < win2_7.index t a * S1x768.size a + S1x768.size a := by
  show i ∈ ((View.whole main_v25_1).slice (win2_7.rect t)).set ↔ _
  rw [View.set_slice_whole, Rect.mem_set_unit]
  exact Iff.rfl

/-- Lane `j` is in the block of point `j / 768`: the eight blocks cover the array. -/
theorem cover2_7_arr (i : S1x6144.Idx) : ∃ t : Fin cfg2.N, (cfg2.win 7).flush t = true ∧ i ∈ ((cfg2.win 7).blk t).view.set := by
  have hi0 : (i 0).val < 1 := (i 0).isLt
  have hi1 : (i 1).val < 6144 := (i 1).isLt
  have hN : cfg2.N = 8 := N_2
  let t : Fin cfg2.N := ⟨(i 1).val / 768, by rw [hN]; omega⟩
  have ht : t.val = (i 1).val / 768 := rfl
  obtain ⟨e00, e01, e10, e11, e20, e21, e30, e31, e40, e41, e50, e51, e60, e61, e70, e71⟩ := idx_facts2 t
  refine ⟨t, flush2_7 t, ?_⟩
  rw [mem_blk2_7]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 768 ≤ (i 1).val ∧ (i 1).val < win2_7.index t (1 : Fin 2) * 768 + 768; omega

/-- THE ARRAY after the region, lane by lane. -/
theorem final2_7 (c : Dev nD) (j : Fin 6144) :
    (dat2 (F := Ideal) V c).arrAt 7 cfg2.N (ix2 (0 : Fin 1) j) = Spec.lin (V c main_v22_0) (V c main_arg14) (V c main_v24) j := by
  rw [(dat2 V c).arrAt_eq_of_cover 7 (k2_G7 (V c main_v22_0) (V c main_arg14) (V c main_v24)) (fun t _ => flushed2_7_eq V c t) (cover2_7_arr)]

end Cert.KernelIdeal.Val

end
-- ==== Proof.Val.Bridge2.lean ====
/- The second half of the bridge between the four-region program and the reference, on the extended reals: from the
   two results of region 1 (the new hidden pre-state `hid` [1, 2048] and the embedded-and-attended row `x` [1, 1024],
   taken here as hypotheses: they are the reference's stages %52 and %58) to the two results of @main.

   * What region 2 reads: the two weight matrices are @main's arguments untouched; the two bias rows are the biases
     [6144] reshaped to [1, 6144] in the program and broadcast along the lanes in the reference — the same array.
   * Region 2's two results are the reference's gate pre-activations %62 and %66: both sides are the linear layer
     `lin` of equal rows, matrices and biases, lane by lane.
   * The recurrent cell (three lane slices of each pre-activation, the two logistic gates, the candidate through tanh,
     the convex mix with the old state) is the same chain of elementwise operations in both programs, over equal
     leaves: the new hidden state is the reference's %94.
   * Region 3's result is the reference's logits %98 (the linear layer of the new state), and the log-softmax over it
     is the same chain again: the first result is %99; the second result is the new state with a unit axis in front,
     the reference's %100. -/
import proofs.«418679_j86887188398769_3_alg».proof.Proof.KI.RunA
import proofs.«418679_j86887188398769_3_alg».proof.Proof.Val.Reg2Val
import proofs.«418679_j86887188398769_3_alg».proof.Proof.Val.Reg3Val
import proofs.«418679_j86887188398769_3_alg».proof.Proof.Val.Spec
import proofs.«418679_j86887188398769_3_alg».proof.Proof.Val.ReadP
import proofs.«418679_j86887188398769_3_alg».proof.Proof.Val.RefLin
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen Cert.KernelIdeal.Fr Cert.KernelIdeal.Val Cert.Spec Idealize.ShloMosaic Idealize.ShloMosaic.TcCoe Idealize.ShloMosaic.ValueIdx Idealize.SL.Sem
open Idealize.ShloMosaic.StableHlo (after_of_writes_sub)

variable (m : (ℓ : Loc nD τ sig) → Buf (Elt Ideal) ℓ) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)
local notation "a18" => m ((c : Thread nD τ).loc main_arg18)
set_option quotPrecheck true

/-! ## A buffer no host operation writes and no region has as an output holds its launch contents -/

/-- Up to region 1's exit. -/
theorem W4_launch (b : Ref sig .tc) (h0 : b ∉ hostOps0_W) (h1 : b ∉ hostOps1_W)
    (k0 : ∀ w, Pipeline.arrRef spec0 w = b → (cfg0.win w).isOut = false) (k1 : ∀ w, Pipeline.arrRef spec1 w = b → (cfg1.win w).isOut = false) :
    W4 m c (Proc.devRef .tc b) = m ((c : Thread nD τ).loc b) :=
  calc W4 m c (Proc.devRef .tc b)
    _ = W3 m c (Proc.devRef .tc b) := W4_keep m c b k1
    _ = W2 m c (Proc.devRef .tc b) := StableHlo.after_of_writes_sub hostOps1 _ hostOps1_writes h1
    _ = W1 m c (Proc.devRef .tc b) := W2_keep m c b k0
    _ = W0 m c (Proc.devRef .tc b) := StableHlo.after_of_writes_sub hostOps0 _ hostOps0_writes h0
    _ = m ((c : Thread nD τ).loc b) := rfl

/-- Up to region 2's entry. -/
theorem W5_launch (b : Ref sig .tc) (h0 : b ∉ hostOps0_W) (h1 : b ∉ hostOps1_W) (h2 : b ∉ hostOps2_W)
    (k0 : ∀ w, Pipeline.arrRef spec0 w = b → (cfg0.win w).isOut = false) (k1 : ∀ w, Pipeline.arrRef spec1 w = b → (cfg1.win w).isOut = false) :
    W5 m c (Proc.devRef .tc b) = m ((c : Thread nD τ).loc b) :=
  (StableHlo.after_of_writes_sub hostOps2 _ hostOps2_writes h2).trans (W4_launch m c b h0 h1 k0 k1)

/-- Up to region 3's entry. -/
theorem W7_launch (b : Ref sig .tc) (h0 : b ∉ hostOps0_W) (h1 : b ∉ hostOps1_W) (h2 : b ∉ hostOps2_W) (h3 : b ∉ hostOps3_W)
    (k0 : ∀ w, Pipeline.arrRef spec0 w = b → (cfg0.win w).isOut = false) (k1 : ∀ w, Pipeline.arrRef spec1 w = b → (cfg1.win w).isOut = false)
    (k2 : ∀ w, Pipeline.arrRef spec2 w = b → (cfg2.win w).isOut = false) :
    W7 m c (Proc.devRef .tc b) = m ((c : Thread nD τ).loc b) :=
  (StableHlo.after_of_writes_sub hostOps3 _ hostOps3_writes h3).trans ((W6_keep m c b k2).trans (W5_launch m c b h0 h1 h2 k0 k1))

/-! ## What region 2 reads -/

/-- The two weight matrices of the recurrent cell are @main's arguments. -/
theorem V5_arg13 : Fr.V5 m c main_arg13 = a13 :=
  W5_launch m c main_arg13 (by decide) (by decide) (by decide) (by decide) (by decide)
theorem V5_arg14 : Fr.V5 m c main_arg14 = a14 :=
  W5_launch m c main_arg14 (by decide) (by decide) (by decide) (by decide) (by decide)

/-- The bias [6144] reshaped to [1, 6144] is the bias broadcast along the lanes: both read lane `j` of the bias at (0, `j`). -/
theorem reshape_eq_bcast_6144 (x : S6144.Idx → EReal) : (fun i => shapeCast S1x6144 x shapeCasts_S6144_S1x6144 i) = Cert.ReferenceIdeal.Read.val_main_v61 (F := Ideal) x := by
  refine funext fun (i : S1x6144.Idx) => ?_
  rw [Cert.ReferenceIdeal.Read.val_main_v61_apply]
  refine shapeCast_apply x shapeCasts_S6144_S1x6144 i (Cert.ReferenceIdeal.Read.idx_main_v61 i) ?_
  rw [Shape.rowMajor_val_one, Shape.rowMajor_val_two]
  have h0 : (i 0).val < 1 := (i 0).isLt
  show (i 1).val = (i 0).val * 6144 + (i 1).val
  omega

/-- The same for the hidden-side bias. -/
theorem reshape_eq_bcast_6144' (x : S6144.Idx → EReal) : (fun i => shapeCast S1x6144 x shapeCasts_S6144_S1x6144 i) = Cert.ReferenceIdeal.Read.val_main_v65 (F := Ideal) x := by
  refine funext fun (i : S1x6144.Idx) => ?_
  rw [Cert.ReferenceIdeal.Read.val_main_v65_apply]
  refine shapeCast_apply x shapeCasts_S6144_S1x6144 i (Cert.ReferenceIdeal.Read.idx_main_v65 i) ?_
  rw [Shape.rowMajor_val_one, Shape.rowMajor_val_two]
  have h0 : (i 0).val < 1 := (i 0).isLt
  show (i 1).val = (i 0).val * 6144 + (i 1).val
  omega

/-- The input-side bias row region 2 reads is the reference's broadcast bias. -/
theorem V5_v23 : Fr.V5 m c main_v23 = Cert.ReferenceIdeal.Read.val_main_v61 a15 := by
  show StableHlo.after hostOps2 (W4 m c) (Proc.devRef .tc main_v23) = _
  after_results
  rw [W4_launch m c main_arg15 (by decide) (by decide) (by decide) (by decide)]
  exact reshape_eq_bcast_6144 a15

/-- The hidden-side bias row region 2 reads is the reference's broadcast bias. -/
theorem V5_v24 : Fr.V5 m c main_v24 = Cert.ReferenceIdeal.Read.val_main_v65 a16 := by
  show StableHlo.after hostOps2 (W4 m c) (Proc.devRef .tc main_v24) = _
  after_results
  rw [W4_launch m c main_arg16 (by decide) (by decide) (by decide) (by decide)]
  exact reshape_eq_bcast_6144' a16

/-! ## Region 2's two results are the reference's gate pre-activations -/

/-- An index of a one-row array is (0, its lane). -/
theorem ix2_of_row (N : Nat) (i : (⟨2, ![1, N]⟩ : Shape).Idx) : ∃ j : Fin N, i = ix2 (0 : Fin 1) j :=
  have h0 : i 0 = (0 : Fin 1) := Fin.ext (by have h : (i 0).val < 1 := (i 0).isLt; show (i 0).val = 0; omega)
  ⟨i 1, (eq_ix2 i).trans (congrArg (fun a : Fin 1 => ix2 a (i 1)) h0)⟩

/-- Region 1's two results pass the reshapes of the biases unchanged. -/
theorem V5_v22_1 (h_x : W4 m c (Proc.devRef .tc main_v22_1) = Cert.ReferenceIdeal.Read.val_main_v58 a0 a1 a2 a4 a5 a6 a11 a12) :
    Fr.V5 m c main_v22_1 = Cert.ReferenceIdeal.Read.val_main_v58 a0 a1 a2 a4 a5 a6 a11 a12 :=
  (StableHlo.after_of_writes_sub hostOps2 _ hostOps2_writes (by decide)).trans h_x
theorem V5_v22_0 (h_hid : W4 m c (Proc.devRef .tc main_v22_0) = Cert.ReferenceIdeal.Read.val_main_v52 a1 a3 a7 a8 a9 a10) :
    Fr.V5 m c main_v22_0 = Cert.ReferenceIdeal.Read.val_main_v52 a1 a3 a7 a8 a9 a10 :=
  (StableHlo.after_of_writes_sub hostOps2 _ hostOps2_writes (by decide)).trans h_hid

/-- The input-side pre-activation: `lin x W_ih b_ih` on both sides. -/
theorem W6_v25_0 (h_x : W4 m c (Proc.devRef .tc main_v22_1) = Cert.ReferenceIdeal.Read.val_main_v58 a0 a1 a2 a4 a5 a6 a11 a12) :
    W6 m c (Proc.devRef .tc main_v25_0) = Cert.ReferenceIdeal.Read.val_main_v62 a0 a1 a2 a4 a5 a6 a11 a12 a13 a15 := by
  refine (W6_arr m c 6).trans ?_
  refine funext fun (i : S1x6144.Idx) => ?_
  obtain ⟨j, rfl⟩ := ix2_of_row 6144 i
  rw [final2_6 (Fr.V5 m) c j, V5_v22_1 m c h_x, V5_arg13, V5_v23, Cert.ReferenceIdeal.RefVal.ref_gi]

/-- The hidden-side pre-activation: `lin hid W_hh b_hh` on both sides. -/
theorem W6_v25_1 (h_hid : W4 m c (Proc.devRef .tc main_v22_0) = Cert.ReferenceIdeal.Read.val_main_v52 a1 a3 a7 a8 a9 a10) :
    W6 m c (Proc.devRef .tc main_v25_1) = Cert.ReferenceIdeal.Read.val_main_v66 a1 a3 a7 a8 a9 a10 a14 a16 := by
  refine (W6_arr m c 7).trans ?_
  refine funext fun (i : S1x6144.Idx) => ?_
  obtain ⟨j, rfl⟩ := ix2_of_row 6144 i
  rw [final2_7 (Fr.V5 m) c j, V5_v22_0 m c h_hid, V5_arg14, V5_v24, Cert.ReferenceIdeal.RefVal.ref_gh]

/-! ## The recurrent cell: the new hidden state -/

/-- Region 2 only reads the old state. -/
theorem W6_v22_0 (h_hid : W4 m c (Proc.devRef .tc main_v22_0) = Cert.ReferenceIdeal.Read.val_main_v52 a1 a3 a7 a8 a9 a10) :
    W6 m c (Proc.devRef .tc main_v22_0) = Cert.ReferenceIdeal.Read.val_main_v52 a1 a3 a7 a8 a9 a10 :=
  (W6_keep m c main_v22_0 (by decide)).trans (V5_v22_0 m c h_hid)

set_option maxHeartbeats 2000000 in
/-- The new hidden state: the same chain of slices, sums, logistic gates, tanh and mix in both programs, over the two
    pre-activations and the old state, which are equal. -/
theorem V7_v53 (h_hid : W4 m c (Proc.devRef .tc main_v22_0) = Cert.ReferenceIdeal.Read.val_main_v52 a1 a3 a7 a8 a9 a10)
    (h_x : W4 m c (Proc.devRef .tc main_v22_1) = Cert.ReferenceIdeal.Read.val_main_v58 a0 a1 a2 a4 a5 a6 a11 a12) :
    Fr.V7 m c main_v53 = Cert.ReferenceIdeal.Read.val_main_v94 a0 a1 a2 a3 a4 a5 a6 a7 a8 a9 a10 a11 a12 a13 a14 a15 a16 := by
  show StableHlo.after hostOps3 (W6 m c) (Proc.devRef .tc main_v53) = _
  after_results_simp
  rw [W6_v25_0 m c h_x, W6_v25_1 m c h_hid, W6_v22_0 m c h_hid]
  simp only [Cert.ReferenceIdeal.Read.val_main_v94, Cert.ReferenceIdeal.Read.val_main_v93, Cert.ReferenceIdeal.Read.val_main_v92, Cert.ReferenceIdeal.Read.val_main_v91, Cert.ReferenceIdeal.Read.val_main_v90, Cert.ReferenceIdeal.Read.val_main_v89, Cert.ReferenceIdeal.Read.val_main_v88, Cert.ReferenceIdeal.Read.val_main_v87, Cert.ReferenceIdeal.Read.val_main_v86, Cert.ReferenceIdeal.Read.val_main_v85, Cert.ReferenceIdeal.Read.val_main_v84, Cert.ReferenceIdeal.Read.val_main_v83, Cert.ReferenceIdeal.Read.val_main_v82, Cert.ReferenceIdeal.Read.val_main_v81, Cert.ReferenceIdeal.Read.val_main_v80, Cert.ReferenceIdeal.Read.val_main_v79, Cert.ReferenceIdeal.Read.val_main_v78, Cert.ReferenceIdeal.Read.val_main_v77, Cert.ReferenceIdeal.Read.val_main_v76, Cert.ReferenceIdeal.Read.val_main_v75, Cert.ReferenceIdeal.Read.val_main_v74, Cert.ReferenceIdeal.Read.val_main_v73, Cert.ReferenceIdeal.Read.val_main_v72, Cert.ReferenceIdeal.Read.val_main_v71, Cert.ReferenceIdeal.Read.val_main_v70, Cert.ReferenceIdeal.Read.val_main_v69, Cert.ReferenceIdeal.Read.val_main_v68, Cert.ReferenceIdeal.Read.val_main_v67, Cert.ReferenceIdeal.Read.val_main_cst_8, Cert.ReferenceIdeal.Read.val_main_cst_9, Cert.ReferenceIdeal.Read.val_main_cst_10, Cert.ReferenceIdeal.Read.val_main_cst_11, Cert.ReferenceIdeal.Read.val_main_cst_12]

/-- The output projection's weight matrix is @main's argument. -/
theorem V7_arg17 : Fr.V7 m c main_arg17 = a17 :=
  W7_launch m c main_arg17 (by decide) (by decide) (by decide) (by decide) (by decide) (by decide) (by decide)

/-- The bias [50257] reshaped to [1, 50257] is the bias broadcast along the lanes. -/
theorem reshape_eq_bcast_50257 (x : S50257.Idx → EReal) : (fun i => shapeCast S1x50257 x shapeCasts_S50257_S1x50257 i) = Cert.ReferenceIdeal.Read.val_main_v97 (F := Ideal) x := by
  refine funext fun (i : S1x50257.Idx) => ?_
  rw [Cert.ReferenceIdeal.Read.val_main_v97_apply]
  refine shapeCast_apply x shapeCasts_S50257_S1x50257 i (Cert.ReferenceIdeal.Read.idx_main_v97 i) ?_
  rw [Shape.rowMajor_val_one, Shape.rowMajor_val_two]
  have h0 : (i 0).val < 1 := (i 0).isLt
  show (i 1).val = (i 0).val * 50257 + (i 1).val
  omega

set_option maxHeartbeats 2000000 in
/-- The output projection's bias row is the reference's broadcast bias. -/
theorem V7_v54 : Fr.V7 m c main_v54 = Cert.ReferenceIdeal.Read.val_main_v97 a18 := by
  show StableHlo.after hostOps3 (W6 m c) (Proc.devRef .tc main_v54) = _
  after_results_simp
  rw [(W6_keep m c main_arg18 (by decide)).trans (W5_launch m c main_arg18 (by decide) (by decide) (by decide) (by decide) (by decide))]
  exact reshape_eq_bcast_50257 a18

/-! ## Region 3's result is the reference's logits -/

/-- The logits: `lin` of the new state, the output weights and bias on both sides. -/
theorem logits_eq (h_hid : W4 m c (Proc.devRef .tc main_v22_0) = Cert.ReferenceIdeal.Read.val_main_v52 a1 a3 a7 a8 a9 a10)
    (h_x : W4 m c (Proc.devRef .tc main_v22_1) = Cert.ReferenceIdeal.Read.val_main_v58 a0 a1 a2 a4 a5 a6 a11 a12) :
    (dat3 (F := Ideal) (Fr.V7 m) c).arrAt 3 cfg3.N = Cert.ReferenceIdeal.Read.val_main_v98 a0 a1 a2 a3 a4 a5 a6 a7 a8 a9 a10 a11 a12 a13 a14 a15 a16 a17 a18 := by
  refine funext fun (i : S1x50257.Idx) => ?_
  obtain ⟨j, rfl⟩ := ix2_of_row 50257 i
  rw [final3_3 (Fr.V7 m) c j, V7_v53 m c h_hid h_x, V7_arg17, V7_v54, Cert.ReferenceIdeal.RefVal.ref_logits]

/-! ## The two results of @main -/

/-- Contents carried to a typed reference's buffer and back are the contents. -/
theorem ofBuf_toBuf {T : BufTy} (x : StableHlo.TRef sig T) (v : T.Contents (Elt Ideal)) : x.ofBuf (x.toBuf v) = v := by
  obtain ⟨r, h, _, _⟩ := x
  subst h
  rfl

set_option maxRecDepth 65536 in
set_option maxHeartbeats 2000000 in
/-- The log-softmax of the logits: the same fifteen operations in both programs, over the same logits. -/
theorem out0_eq (h_hid : W4 m c (Proc.devRef .tc main_v22_0) = Cert.ReferenceIdeal.Read.val_main_v52 a1 a3 a7 a8 a9 a10)
    (h_x : W4 m c (Proc.devRef .tc main_v22_1) = Cert.ReferenceIdeal.Read.val_main_v58 a0 a1 a2 a4 a5 a6 a11 a12) :
    W10 m c ((dat3 (F := Ideal) (Fr.V7 m) c).arrAt 3 cfg3.N) (Proc.devRef .tc main_v56) = Cert.ReferenceIdeal.Read.val_main_v99 a0 a1 a2 a3 a4 a5 a6 a7 a8 a9 a10 a11 a12 a13 a14 a15 a16 a17 a18 := by
  refine (StableHlo.after_of_writes_sub hostOps4_1 _ hostOps4_1_writes (by decide)).trans ?_
  show StableHlo.after hostOps4 (W8 m c ((dat3 (F := Ideal) (Fr.V7 m) c).arrAt 3 cfg3.N)) (Proc.devRef .tc main_v56) = _
  after_results_simp
  rw [show W8 m c ((dat3 (F := Ideal) (Fr.V7 m) c).arrAt 3 cfg3.N) (Proc.devRef .tc main_v55) = (dat3 (F := Ideal) (Fr.V7 m) c).arrAt 3 cfg3.N from W8_arr m c _ 3,
    logits_eq m c h_hid h_x]
  simp only [ofBuf_toBuf, Cert.ReferenceIdeal.Read.val_main_v99, Cert.ReferenceIdeal.Read.val_main_call2_v10, Cert.ReferenceIdeal.Read.val_main_call2_v9, Cert.ReferenceIdeal.Read.val_main_call2_v8, Cert.ReferenceIdeal.Read.val_main_call2_v7, Cert.ReferenceIdeal.Read.val_main_call2_cst_1, Cert.ReferenceIdeal.Read.val_main_call2_v6, Cert.ReferenceIdeal.Read.val_main_call2_v5, Cert.ReferenceIdeal.Read.val_main_call2_v4, Cert.ReferenceIdeal.Read.val_main_call2_v3, Cert.ReferenceIdeal.Read.val_main_call2_v2, Cert.ReferenceIdeal.Read.val_main_call2_v1, Cert.ReferenceIdeal.Read.val_main_call2_cst_0, Cert.ReferenceIdeal.Read.val_main_call2_v0, Cert.ReferenceIdeal.Read.val_main_call2_cst]
  rfl

set_option maxHeartbeats 2000000 in
/-- The new hidden state, with a unit axis put in front. -/
theorem out1_eq (h_hid : W4 m c (Proc.devRef .tc main_v22_0) = Cert.ReferenceIdeal.Read.val_main_v52 a1 a3 a7 a8 a9 a10)
    (h_x : W4 m c (Proc.devRef .tc main_v22_1) = Cert.ReferenceIdeal.Read.val_main_v58 a0 a1 a2 a4 a5 a6 a11 a12) (x : Res3 (F := Ideal) c) :
    W10 m c x (Proc.devRef .tc main_v57) = Cert.ReferenceIdeal.Read.val_main_v100 a0 a1 a2 a3 a4 a5 a6 a7 a8 a9 a10 a11 a12 a13 a14 a15 a16 := by
  show StableHlo.after hostOps4_1 (W9 m c x) (Proc.devRef .tc main_v57) = _
  after_results_simp
  rw [show W8 m c x (Proc.devRef .tc main_v53) = Fr.V7 m c main_v53 from W8_keep m c x main_v53 (by decide),
    V7_v53 m c h_hid h_x]
  simp only [Cert.ReferenceIdeal.Read.val_main_v100]

end Cert.KernelIdeal.Bridge

end
-- ==== Proof.Claims.lean ====
/-
  The certificate's five claims. The word-level program and its idealization run, every argument array unchanged: the
  run of @main as a fold of its items, read with the last region's result array forgotten (its blocks overhang the
  array, and at an arbitrary float type nothing says the lanes inside depend only on the rows inside). The reference
  runs, arguments unchanged. The idealization pass rewrote no operation. At the ideal instance the contraction is
  row-local, so the last region's result array is the exact fold of its write-backs, and the three results of the
  kernel program — the log-softmax row, the new hidden row, the text attention weights — are, stage by stage, the
  reference's values of the same arguments.
-/
import proofs.«418679_j86887188398769_3_alg».proof.Defs
import proofs.«418679_j86887188398769_3_alg».proof.Proof.Gen.Kernel
import proofs.«418679_j86887188398769_3_alg».proof.Proof.Gen.KernelIdeal
import proofs.«418679_j86887188398769_3_alg».proof.Proof.Gen.ReferenceIdeal
import proofs.«418679_j86887188398769_3_alg».proof.Proof.Gen.Pre_finite_inputs
import proofs.«418679_j86887188398769_3_alg».proof.Proof.K.RunC
import proofs.«418679_j86887188398769_3_alg».proof.Proof.KI.RunC
import proofs.«418679_j86887188398769_3_alg».proof.Proof.Val.Reg3Val
import proofs.«418679_j86887188398769_3_alg».proof.Proof.Val.Bridge
import proofs.«418679_j86887188398769_3_alg».proof.Proof.Val.Bridge2
import proofs.«418679_j86887188398769_3_alg».proof.Proof.Val.ReadP
import proofs.«418679_j86887188398769_3_alg».proof.Proof.Val.RefRun
import Idealize.ShloMosaic.Lib.Pipeline.Cells
import Idealize.ShloMosaic.Adequacy
import Idealize.ShloMosaic.Init

set_option maxRecDepth 16384

noncomputable section

namespace Cert.Proof.Claims

open Idealize.ShloMosaic Idealize.ShloMosaic.TcCoe Idealize.SL.Sem
open Idealize.ShloMosaic.Pipeline (Dat)

theorem frame_k : Cert.frame_Kernel := fun m ρ _ =>
  Cert.Kernel.Fr.frame_of_run (F := Bits) m ρ Cert.Kernel.Fr.fgtOut3 ⟨rfl, rfl, rfl⟩
    fun c => Cert.Kernel.Fr.body_obligation3_forget (Cert.Kernel.Fr.V7 m) c

theorem frame_ki : Cert.frame_KernelIdeal := fun m ρ _ =>
  Cert.KernelIdeal.Fr.frame_of_run (F := Ideal) m ρ Cert.KernelIdeal.Fr.fgtOut3 ⟨rfl, rfl, rfl⟩
    fun c => Cert.KernelIdeal.Fr.body_obligation3_forget (Cert.KernelIdeal.Fr.V7 m) c

theorem frame_ri : Cert.frame_ReferenceIdeal := fun m ρ _ =>
  (θ_run Cert.ReferenceIdeal.defs _ _).mono (fun _ h c => (h c).2.2.2) (Cert.ReferenceIdeal.HandRun.run m ρ)

theorem preserves : Cert.preserves_Kernel_KernelIdeal := trivial

section Algebraic

open Cert.KernelIdeal Cert.KernelIdeal.Gen Cert.KernelIdeal.Fr Cert.KernelIdeal.Bridge

/-- The last region's result array when nothing is forgotten: the exact fold of its write-backs. -/
abbrev res3 (m : (ℓ : Loc nD τ sig) → Buf (Elt Ideal) ℓ) (c : Dev nD) : Res3 (F := Ideal) c :=
  (dat3 (F := Ideal) (Fr.V7 m) c).arrAt 3 cfg3.N

theorem algebraic : Cert.algebraic_KernelIdeal_ReferenceIdeal := by
  intro m ρ m' ρ' _ hagree
  refine ⟨fun c => W10 m c (res3 m c) (Proc.devRef .tc main_v56), fun c => W10 m c (res3 m c) (Proc.devRef .tc main_v57),
    fun c => W10 m c (res3 m c) (Proc.devRef .tc main_v13_0), ?_, ?_⟩
  · refine (θ_run defs _ _).mono (fun r h c => ?_)
      (run_all (F := Ideal) m ρ (fun _ => false) ⟨rfl, rfl, rfl⟩ (fun c => body_obligation3_exact (Fr.V7 m) Cert.KernelIdeal.Val.rowLocal3 c))
    obtain ⟨x, hK, hx⟩ := h c
    obtain rfl : x = res3 m c :=
      (Dat.toRForget_arrAt_iff (dat := dat3 (F := Ideal) (Fr.V7 m) c) (fgt := fun _ => false) (w := 3) rfl cfg3.N x).mp hK
    exact ⟨hx _ (mem_uc main_v56 (by decide)), hx _ (mem_uc main_v57 (by decide)), hx _ (mem_uc main_v13_0 (by decide)),
      (arg_kept m c _ r.2 hx main_arg0 (by decide) (by decide) (by decide) (by decide) (by decide) (by decide) (by decide) (by decide) (by decide) (by decide) (by decide)),
      (arg_kept m c _ r.2 hx main_arg1 (by decide) (by decide) (by decide) (by decide) (by decide) (by decide) (by decide) (by decide) (by decide) (by decide) (by decide)),
      (arg_kept m c _ r.2 hx main_arg2 (by decide) (by decide) (by decide) (by decide) (by decide) (by decide) (by decide) (by decide) (by decide) (by decide) (by decide)),
      (arg_kept m c _ r.2 hx main_arg3 (by decide) (by decide) (by decide) (by decide) (by decide) (by decide) (by decide) (by decide) (by decide) (by decide) (by decide)),
      (arg_kept m c _ r.2 hx main_arg4 (by decide) (by decide) (by decide) (by decide) (by decide) (by decide) (by decide) (by decide) (by decide) (by decide) (by decide)),
      (arg_kept m c _ r.2 hx main_arg5 (by decide) (by decide) (by decide) (by decide) (by decide) (by decide) (by decide) (by decide) (by decide) (by decide) (by decide)),
      (arg_kept m c _ r.2 hx main_arg6 (by decide) (by decide) (by decide) (by decide) (by decide) (by decide) (by decide) (by decide) (by decide) (by decide) (by decide)),
      (arg_kept m c _ r.2 hx main_arg7 (by decide) (by decide) (by decide) (by decide) (by decide) (by decide) (by decide) (by decide) (by decide) (by decide) (by decide)),
      (arg_kept m c _ r.2 hx main_arg8 (by decide) (by decide) (by decide) (by decide) (by decide) (by decide) (by decide) (by decide) (by decide) (by decide) (by decide)),
      (arg_kept m c _ r.2 hx main_arg9 (by decide) (by decide) (by decide) (by decide) (by decide) (by decide) (by decide) (by decide) (by decide) (by decide) (by decide)),
      (arg_kept m c _ r.2 hx main_arg10 (by decide) (by decide) (by decide) (by decide) (by decide) (by decide) (by decide) (by decide) (by decide) (by decide) (by decide)),
      (arg_kept m c _ r.2 hx main_arg11 (by decide) (by decide) (by decide) (by decide) (by decide) (by decide) (by decide) (by decide) (by decide) (by decide) (by decide)),
      (arg_kept m c _ r.2 hx main_arg12 (by decide) (by decide) (by decide) (by decide) (by decide) (by decide) (by decide) (by decide) (by decide) (by decide) (by decide)),
      (arg_kept m c _ r.2 hx main_arg13 (by decide) (by decide) (by decide) (by decide) (by decide) (by decide) (by decide) (by decide) (by decide) (by decide) (by decide)),
      (arg_kept m c _ r.2 hx main_arg14 (by decide) (by decide) (by decide) (by decide) (by decide) (by decide) (by decide) (by decide) (by decide) (by decide) (by decide)),
      (arg_kept m c _ r.2 hx main_arg15 (by decide) (by decide) (by decide) (by decide) (by decide) (by decide) (by decide) (by decide) (by decide) (by decide) (by decide)),
      (arg_kept m c _ r.2 hx main_arg16 (by decide) (by decide) (by decide) (by decide) (by decide) (by decide) (by decide) (by decide) (by decide) (by decide) (by decide)),
      (arg_kept m c _ r.2 hx main_arg17 (by decide) (by decide) (by decide) (by decide) (by decide) (by decide) (by decide) (by decide) (by decide) (by decide) (by decide)),
      (arg_kept m c _ r.2 hx main_arg18 (by decide) (by decide) (by decide) (by decide) (by decide) (by decide) (by decide) (by decide) (by decide) (by decide) (by decide))⟩
  · refine (θ_run Cert.ReferenceIdeal.defs _ _).mono (fun r h c => ?_) (Cert.ReferenceIdeal.HandRun.run m' ρ')
    obtain ⟨h99, h100, h23, hargs⟩ := h c
    obtain ⟨e0, e1, e2, e3, e4, e5, e6, e7, e8, e9, e10, e11, e12, e13, e14, e15, e16, e17, e18⟩ := hagree c
    refine ⟨h99.trans ?_, h100.trans ?_, h23.trans ?_, hargs⟩
    · rw [e0, e1, e2, e3, e4, e5, e6, e7, e8, e9, e10, e11, e12, e13, e14, e15, e16, e17, e18]
      exact (out0_eq m c (h_hid m c) (h_x m c)).symm
    · rw [e0, e1, e2, e3, e4, e5, e6, e7, e8, e9, e10, e11, e12, e13, e14, e15, e16]
      exact (out1_eq m c (h_hid m c) (h_x m c) (res3 m c)).symm
    · rw [e0, e1, e4, e5, e6]
      exact (out2_eq m c (res3 m c)).symm

end Algebraic

end Cert.Proof.Claims

end
-- ==== Proof.lean ====
/-
  One decoder step of an attention GRU decoder, as four pallas_calls among host operations, against the plain jnp
  reference, at the ideal instance (floats are extended reals, every operation exact, a change of float format the
  identity).

  The mathematics. With e the embedding row w2v[id] and h the hidden row: the text attention is
  softmax([e, h]·attn_Wᵀ + attn_b) (the third result) applied to the encoder outputs; the visual attention is
  softmax([h, vis]·vis_attn_Wᵀ + vis_attn_b) applied to the box features, its lanes then averaged in pairs;
  hid = relu([h, pooled]·vis_comb_Wᵀ + b) and x = relu([e, applied]·attn_comb_Wᵀ + b); the GRU's two affine maps
  gi = x·Wihᵀ + bih and gh = hid·Whhᵀ + bhh feed the gates r, z, n and the new hidden row (the second result); the
  logits new·out_Wᵀ + out_b go through log_softmax (the first result). The kernel computes each affine map block by
  block over a grid — rows of the weight in blocks, each output lane from its own row — and the reference as one
  dot_general over the transposed weight: both are, lane by lane, the same sum over the contraction index plus the
  bias lane (Val/Spec.lean states the stages; Val/Reg0Val … Reg3Val prove them of the kernel's regions, Val/RefVal and
  Val/RefLin of the reference's lines); the host operations between the regions are the reference's own lines, up to
  the spelling of a bias as a reshape or as a broadcast (Val/Bridge, Val/Bridge2). No law of the extended reals beyond
  re-indexing a finite sum is used, so finiteness of the inputs is never opened.

  The last pallas_call's blocks overhang their arrays (50257 = 24·2048 + 1105): its edge fetches are cut, the staging
  rows past the array's end hold unnamed words, and its edge write-back is cut. Lane q of x·Wᵀ + b reads row q of W and
  lane q of b only, so at the ideal instance the lanes inside the array are determined (Val/Reg3Val, rowLocal3); of the
  word-level matrix unit no such row-locality is stated, and the word-level frame is proved with that output window
  forgotten (KI/RunB carries the result array as an unknown the relational proof data constrains).

  The frames: @main as segments (host stretches and regions) over the buffer contents folded through its items
  (KI/RunA, RunB, RunC; K/… the same text for the word-level program); the reference's run window by window over the
  read-at-an-index stages (Val/ReadP, Val/RefRun). The ideal pass rewrote nothing, so `preserves` is trivial.
-/
import proofs.«418679_j86887188398769_3_alg».proof.Defs
import proofs.«418679_j86887188398769_3_alg».proof.Proof.Gen.Kernel
import proofs.«418679_j86887188398769_3_alg».proof.Proof.Gen.KernelIdeal
import proofs.«418679_j86887188398769_3_alg».proof.Proof.Gen.ReferenceIdeal
import proofs.«418679_j86887188398769_3_alg».proof.Proof.Gen.Pre_finite_inputs
import proofs.«418679_j86887188398769_3_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
